-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S2048x32768 : Shape := ⟨2, ![2048, 32768]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel

variable [Facts]

def fn {F : FTy → Type} [FloatOps F] (main_arg0 : FVec F S2048x32768 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  main_v3
-- ==== Kernel.lean ====
abbrev S2048x1024 : Shape := ⟨2, ![2048, 1024]⟩
abbrev S32x4096 : Shape := ⟨2, ![32, 4096]⟩
abbrev S31 : Shape := ⟨1, ![31]⟩
abbrev S_ : Shape := ⟨0, ![]⟩
abbrev S2048x256 : Shape := ⟨2, ![2048, 256]⟩
abbrev S2048 : Shape := ⟨1, ![2048]⟩
abbrev S2048x1 : Shape := ⟨2, ![2048, 1]⟩
abbrev S1x2048 : Shape := ⟨2, ![1, 2048]⟩
abbrev S1 : Shape := ⟨1, ![1]⟩
abbrev S1x4096 : Shape := ⟨2, ![1, 4096]⟩
abbrev S4096 : Shape := ⟨1, ![4096]⟩
abbrev S32x2048 : Shape := ⟨2, ![32, 2048]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S32x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v453 : Index := Scalar.indexCast v2
  let c0_287 : Index := 0#32
  ![v453.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v457 : Index := Scalar.indexCast v2
  let c2048 : Index := 2048#32
  ![v457.toNat, 2048]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_300 : BitVec 32 := 0#32
  ![v2.toNat, 0]
def k0_dev32 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_289 : BitVec 32 := 1#32
  let v461 : BitVec 32 := Scalar.addi v2 c1_i32_289
  let c32_i32_290 : BitVec 32 := 32#32
  let c0_i32_291 : BitVec 32 := 0#32
  let v462 : BitVec 1 := Scalar.cmpi .eq c32_i32_290 c0_i32_291
  let c1_i32_292 : BitVec 32 := 1#32
  let v463 : BitVec 32 := Scalar.select v462 c1_i32_292 c32_i32_290
  let v464 : BitVec 32 := Scalar.remsi v461 v463
  let c0_i32_294 : BitVec 32 := 0#32
  let v466 : BitVec 1 := Scalar.cmpi .slt v464 c0_i32_294
  let c0_i32_295 : BitVec 32 := 0#32
  let v467 : BitVec 1 := Scalar.cmpi .slt v463 c0_i32_295
  let v468 : BitVec 1 := Scalar.xori v466 v467
  let c0_i32_293 : BitVec 32 := 0#32
  let v465 : BitVec 1 := Scalar.cmpi .ne v464 c0_i32_293
  let v469 : BitVec 1 := Scalar.andi v468 v465
  let v470 : BitVec 32 := Scalar.addi v464 v463
  let v471 : BitVec 32 := Scalar.select v469 v470 v464
  let c1_i32_298 : BitVec 32 := 1#32
  let v472 : BitVec 32 := Scalar.muli v471 c1_i32_298
  let v473 : BitVec 32 := Scalar.addi c0_i32_299 v472
  v473.toNat
def k0_dev33 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_302 : BitVec 32 := 2#32
  let v482 : BitVec 32 := Scalar.addi v2 c2_i32_302
  let c32_i32_303 : BitVec 32 := 32#32
  let c0_i32_304 : BitVec 32 := 0#32
  let v483 : BitVec 1 := Scalar.cmpi .eq c32_i32_303 c0_i32_304
  let c1_i32_305 : BitVec 32 := 1#32
  let v484 : BitVec 32 := Scalar.select v483 c1_i32_305 c32_i32_303
  let v485 : BitVec 32 := Scalar.remsi v482 v484
  let c0_i32_307 : BitVec 32 := 0#32
  let v487 : BitVec 1 := Scalar.cmpi .slt v485 c0_i32_307
  let c0_i32_308 : BitVec 32 := 0#32
  let v488 : BitVec 1 := Scalar.cmpi .slt v484 c0_i32_308
  let v489 : BitVec 1 := Scalar.xori v487 v488
  let c0_i32_306 : BitVec 32 := 0#32
  let v486 : BitVec 1 := Scalar.cmpi .ne v485 c0_i32_306
  let v490 : BitVec 1 := Scalar.andi v489 v486
  let v491 : BitVec 32 := Scalar.addi v485 v484
  let v492 : BitVec 32 := Scalar.select v490 v491 v485
  let c1_i32_311 : BitVec 32 := 1#32
  let v493 : BitVec 32 := Scalar.muli v492 c1_i32_311
  let v494 : BitVec 32 := Scalar.addi c0_i32_312 v493
  v494.toNat
def k0_dev34 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_315 : BitVec 32 := 3#32
  let v503 : BitVec 32 := Scalar.addi v2 c3_i32_315
  let c32_i32_316 : BitVec 32 := 32#32
  let c0_i32_317 : BitVec 32 := 0#32
  let v504 : BitVec 1 := Scalar.cmpi .eq c32_i32_316 c0_i32_317
  let c1_i32_318 : BitVec 32 := 1#32
  let v505 : BitVec 32 := Scalar.select v504 c1_i32_318 c32_i32_316
  let v506 : BitVec 32 := Scalar.remsi v503 v505
  let c0_i32_320 : BitVec 32 := 0#32
  let v508 : BitVec 1 := Scalar.cmpi .slt v506 c0_i32_320
  let c0_i32_321 : BitVec 32 := 0#32
  let v509 : BitVec 1 := Scalar.cmpi .slt v505 c0_i32_321
  let v510 : BitVec 1 := Scalar.xori v508 v509
  let c0_i32_319 : BitVec 32 := 0#32
  let v507 : BitVec 1 := Scalar.cmpi .ne v506 c0_i32_319
  let v511 : BitVec 1 := Scalar.andi v510 v507
  let v512 : BitVec 32 := Scalar.addi v506 v505
  let v513 : BitVec 32 := Scalar.select v511 v512 v506
  let c1_i32_324 : BitVec 32 := 1#32
  let v514 : BitVec 32 := Scalar.muli v513 c1_i32_324
  let v515 : BitVec 32 := Scalar.addi c0_i32_325 v514
  v515.toNat
def k0_dev35 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v524 : BitVec 32 := Scalar.addi v2 c4_i32_328
  let c32_i32_329 : BitVec 32 := 32#32
  let c0_i32_330 : BitVec 32 := 0#32
  let v525 : BitVec 1 := Scalar.cmpi .eq c32_i32_329 c0_i32_330
  let c1_i32_331 : BitVec 32 := 1#32
  let v526 : BitVec 32 := Scalar.select v525 c1_i32_331 c32_i32_329
  let v527 : BitVec 32 := Scalar.remsi v524 v526
  let c0_i32_333 : BitVec 32 := 0#32
  let v529 : BitVec 1 := Scalar.cmpi .slt v527 c0_i32_333
  let c0_i32_334 : BitVec 32 := 0#32
  let v530 : BitVec 1 := Scalar.cmpi .slt v526 c0_i32_334
  let v531 : BitVec 1 := Scalar.xori v529 v530
  let c0_i32_332 : BitVec 32 := 0#32
  let v528 : BitVec 1 := Scalar.cmpi .ne v527 c0_i32_332
  let v532 : BitVec 1 := Scalar.andi v531 v528
  let v533 : BitVec 32 := Scalar.addi v527 v526
  let v534 : BitVec 32 := Scalar.select v532 v533 v527
  let c1_i32_337 : BitVec 32 := 1#32
  let v535 : BitVec 32 := Scalar.muli v534 c1_i32_337
  let v536 : BitVec 32 := Scalar.addi c0_i32_338 v535
  v536.toNat
def k0_dev36 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_341 : BitVec 32 := 5#32
  let v545 : BitVec 32 := Scalar.addi v2 c5_i32_341
  let c32_i32_342 : BitVec 32 := 32#32
  let c0_i32_343 : BitVec 32 := 0#32
  let v546 : BitVec 1 := Scalar.cmpi .eq c32_i32_342 c0_i32_343
  let c1_i32_344 : BitVec 32 := 1#32
  let v547 : BitVec 32 := Scalar.select v546 c1_i32_344 c32_i32_342
  let v548 : BitVec 32 := Scalar.remsi v545 v547
  let c0_i32_346 : BitVec 32 := 0#32
  let v550 : BitVec 1 := Scalar.cmpi .slt v548 c0_i32_346
  let c0_i32_347 : BitVec 32 := 0#32
  let v551 : BitVec 1 := Scalar.cmpi .slt v547 c0_i32_347
  let v552 : BitVec 1 := Scalar.xori v550 v551
  let c0_i32_345 : BitVec 32 := 0#32
  let v549 : BitVec 1 := Scalar.cmpi .ne v548 c0_i32_345
  let v553 : BitVec 1 := Scalar.andi v552 v549
  let v554 : BitVec 32 := Scalar.addi v548 v547
  let v555 : BitVec 32 := Scalar.select v553 v554 v548
  let c1_i32_350 : BitVec 32 := 1#32
  let v556 : BitVec 32 := Scalar.muli v555 c1_i32_350
  let v557 : BitVec 32 := Scalar.addi c0_i32_351 v556
  v557.toNat
def k0_dev37 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_354 : BitVec 32 := 6#32
  let v566 : BitVec 32 := Scalar.addi v2 c6_i32_354
  let c32_i32_355 : BitVec 32 := 32#32
  let c0_i32_356 : BitVec 32 := 0#32
  let v567 : BitVec 1 := Scalar.cmpi .eq c32_i32_355 c0_i32_356
  let c1_i32_357 : BitVec 32 := 1#32
  let v568 : BitVec 32 := Scalar.select v567 c1_i32_357 c32_i32_355
  let v569 : BitVec 32 := Scalar.remsi v566 v568
  let c0_i32_359 : BitVec 32 := 0#32
  let v571 : BitVec 1 := Scalar.cmpi .slt v569 c0_i32_359
  let c0_i32_360 : BitVec 32 := 0#32
  let v572 : BitVec 1 := Scalar.cmpi .slt v568 c0_i32_360
  let v573 : BitVec 1 := Scalar.xori v571 v572
  let c0_i32_358 : BitVec 32 := 0#32
  let v570 : BitVec 1 := Scalar.cmpi .ne v569 c0_i32_358
  let v574 : BitVec 1 := Scalar.andi v573 v570
  let v575 : BitVec 32 := Scalar.addi v569 v568
  let v576 : BitVec 32 := Scalar.select v574 v575 v569
  let c1_i32_363 : BitVec 32 := 1#32
  let v577 : BitVec 32 := Scalar.muli v576 c1_i32_363
  let v578 : BitVec 32 := Scalar.addi c0_i32_364 v577
  v578.toNat
def k0_dev38 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_367 : BitVec 32 := 7#32
  let v587 : BitVec 32 := Scalar.addi v2 c7_i32_367
  let c32_i32_368 : BitVec 32 := 32#32
  let c0_i32_369 : BitVec 32 := 0#32
  let v588 : BitVec 1 := Scalar.cmpi .eq c32_i32_368 c0_i32_369
  let c1_i32_370 : BitVec 32 := 1#32
  let v589 : BitVec 32 := Scalar.select v588 c1_i32_370 c32_i32_368
  let v590 : BitVec 32 := Scalar.remsi v587 v589
  let c0_i32_372 : BitVec 32 := 0#32
  let v592 : BitVec 1 := Scalar.cmpi .slt v590 c0_i32_372
  let c0_i32_373 : BitVec 32 := 0#32
  let v593 : BitVec 1 := Scalar.cmpi .slt v589 c0_i32_373
  let v594 : BitVec 1 := Scalar.xori v592 v593
  let c0_i32_371 : BitVec 32 := 0#32
  let v591 : BitVec 1 := Scalar.cmpi .ne v590 c0_i32_371
  let v595 : BitVec 1 := Scalar.andi v594 v591
  let v596 : BitVec 32 := Scalar.addi v590 v589
  let v597 : BitVec 32 := Scalar.select v595 v596 v590
  let c1_i32_376 : BitVec 32 := 1#32
  let v598 : BitVec 32 := Scalar.muli v597 c1_i32_376
  let v599 : BitVec 32 := Scalar.addi c0_i32_377 v598
  v599.toNat
def k0_dev39 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_380 : BitVec 32 := 8#32
  let v608 : BitVec 32 := Scalar.addi v2 c8_i32_380
  let c32_i32_381 : BitVec 32 := 32#32
  let c0_i32_382 : BitVec 32 := 0#32
  let v609 : BitVec 1 := Scalar.cmpi .eq c32_i32_381 c0_i32_382
  let c1_i32_383 : BitVec 32 := 1#32
  let v610 : BitVec 32 := Scalar.select v609 c1_i32_383 c32_i32_381
  let v611 : BitVec 32 := Scalar.remsi v608 v610
  let c0_i32_385 : BitVec 32 := 0#32
  let v613 : BitVec 1 := Scalar.cmpi .slt v611 c0_i32_385
  let c0_i32_386 : BitVec 32 := 0#32
  let v614 : BitVec 1 := Scalar.cmpi .slt v610 c0_i32_386
  let v615 : BitVec 1 := Scalar.xori v613 v614
  let c0_i32_384 : BitVec 32 := 0#32
  let v612 : BitVec 1 := Scalar.cmpi .ne v611 c0_i32_384
  let v616 : BitVec 1 := Scalar.andi v615 v612
  let v617 : BitVec 32 := Scalar.addi v611 v610
  let v618 : BitVec 32 := Scalar.select v616 v617 v611
  let c1_i32_389 : BitVec 32 := 1#32
  let v619 : BitVec 32 := Scalar.muli v618 c1_i32_389
  let v620 : BitVec 32 := Scalar.addi c0_i32_390 v619
  v620.toNat
def k0_dev40 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_393 : BitVec 32 := 9#32
  let v629 : BitVec 32 := Scalar.addi v2 c9_i32_393
  let c32_i32_394 : BitVec 32 := 32#32
  let c0_i32_395 : BitVec 32 := 0#32
  let v630 : BitVec 1 := Scalar.cmpi .eq c32_i32_394 c0_i32_395
  let c1_i32_396 : BitVec 32 := 1#32
  let v631 : BitVec 32 := Scalar.select v630 c1_i32_396 c32_i32_394
  let v632 : BitVec 32 := Scalar.remsi v629 v631
  let c0_i32_398 : BitVec 32 := 0#32
  let v634 : BitVec 1 := Scalar.cmpi .slt v632 c0_i32_398
  let c0_i32_399 : BitVec 32 := 0#32
  let v635 : BitVec 1 := Scalar.cmpi .slt v631 c0_i32_399
  let v636 : BitVec 1 := Scalar.xori v634 v635
  let c0_i32_397 : BitVec 32 := 0#32
  let v633 : BitVec 1 := Scalar.cmpi .ne v632 c0_i32_397
  let v637 : BitVec 1 := Scalar.andi v636 v633
  let v638 : BitVec 32 := Scalar.addi v632 v631
  let v639 : BitVec 32 := Scalar.select v637 v638 v632
  let c1_i32_402 : BitVec 32 := 1#32
  let v640 : BitVec 32 := Scalar.muli v639 c1_i32_402
  let v641 : BitVec 32 := Scalar.addi c0_i32_403 v640
  v641.toNat
def k0_dev41 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_406 : BitVec 32 := 10#32
  let v650 : BitVec 32 := Scalar.addi v2 c10_i32_406
  let c32_i32_407 : BitVec 32 := 32#32
  let c0_i32_408 : BitVec 32 := 0#32
  let v651 : BitVec 1 := Scalar.cmpi .eq c32_i32_407 c0_i32_408
  let c1_i32_409 : BitVec 32 := 1#32
  let v652 : BitVec 32 := Scalar.select v651 c1_i32_409 c32_i32_407
  let v653 : BitVec 32 := Scalar.remsi v650 v652
  let c0_i32_411 : BitVec 32 := 0#32
  let v655 : BitVec 1 := Scalar.cmpi .slt v653 c0_i32_411
  let c0_i32_412 : BitVec 32 := 0#32
  let v656 : BitVec 1 := Scalar.cmpi .slt v652 c0_i32_412
  let v657 : BitVec 1 := Scalar.xori v655 v656
  let c0_i32_410 : BitVec 32 := 0#32
  let v654 : BitVec 1 := Scalar.cmpi .ne v653 c0_i32_410
  let v658 : BitVec 1 := Scalar.andi v657 v654
  let v659 : BitVec 32 := Scalar.addi v653 v652
  let v660 : BitVec 32 := Scalar.select v658 v659 v653
  let c1_i32_415 : BitVec 32 := 1#32
  let v661 : BitVec 32 := Scalar.muli v660 c1_i32_415
  let v662 : BitVec 32 := Scalar.addi c0_i32_416 v661
  v662.toNat
def k0_dev42 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_419 : BitVec 32 := 11#32
  let v671 : BitVec 32 := Scalar.addi v2 c11_i32_419
  let c32_i32_420 : BitVec 32 := 32#32
  let c0_i32_421 : BitVec 32 := 0#32
  let v672 : BitVec 1 := Scalar.cmpi .eq c32_i32_420 c0_i32_421
  let c1_i32_422 : BitVec 32 := 1#32
  let v673 : BitVec 32 := Scalar.select v672 c1_i32_422 c32_i32_420
  let v674 : BitVec 32 := Scalar.remsi v671 v673
  let c0_i32_424 : BitVec 32 := 0#32
  let v676 : BitVec 1 := Scalar.cmpi .slt v674 c0_i32_424
  let c0_i32_425 : BitVec 32 := 0#32
  let v677 : BitVec 1 := Scalar.cmpi .slt v673 c0_i32_425
  let v678 : BitVec 1 := Scalar.xori v676 v677
  let c0_i32_423 : BitVec 32 := 0#32
  let v675 : BitVec 1 := Scalar.cmpi .ne v674 c0_i32_423
  let v679 : BitVec 1 := Scalar.andi v678 v675
  let v680 : BitVec 32 := Scalar.addi v674 v673
  let v681 : BitVec 32 := Scalar.select v679 v680 v674
  let c1_i32_428 : BitVec 32 := 1#32
  let v682 : BitVec 32 := Scalar.muli v681 c1_i32_428
  let v683 : BitVec 32 := Scalar.addi c0_i32_429 v682
  v683.toNat
def k0_dev43 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_432 : BitVec 32 := 12#32
  let v692 : BitVec 32 := Scalar.addi v2 c12_i32_432
  let c32_i32_433 : BitVec 32 := 32#32
  let c0_i32_434 : BitVec 32 := 0#32
  let v693 : BitVec 1 := Scalar.cmpi .eq c32_i32_433 c0_i32_434
  let c1_i32_435 : BitVec 32 := 1#32
  let v694 : BitVec 32 := Scalar.select v693 c1_i32_435 c32_i32_433
  let v695 : BitVec 32 := Scalar.remsi v692 v694
  let c0_i32_437 : BitVec 32 := 0#32
  let v697 : BitVec 1 := Scalar.cmpi .slt v695 c0_i32_437
  let c0_i32_438 : BitVec 32 := 0#32
  let v698 : BitVec 1 := Scalar.cmpi .slt v694 c0_i32_438
  let v699 : BitVec 1 := Scalar.xori v697 v698
  let c0_i32_436 : BitVec 32 := 0#32
  let v696 : BitVec 1 := Scalar.cmpi .ne v695 c0_i32_436
  let v700 : BitVec 1 := Scalar.andi v699 v696
  let v701 : BitVec 32 := Scalar.addi v695 v694
  let v702 : BitVec 32 := Scalar.select v700 v701 v695
  let c1_i32_441 : BitVec 32 := 1#32
  let v703 : BitVec 32 := Scalar.muli v702 c1_i32_441
  let v704 : BitVec 32 := Scalar.addi c0_i32_442 v703
  v704.toNat
def k0_dev44 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_445 : BitVec 32 := 13#32
  let v713 : BitVec 32 := Scalar.addi v2 c13_i32_445
  let c32_i32_446 : BitVec 32 := 32#32
  let c0_i32_447 : BitVec 32 := 0#32
  let v714 : BitVec 1 := Scalar.cmpi .eq c32_i32_446 c0_i32_447
  let c1_i32_448 : BitVec 32 := 1#32
  let v715 : BitVec 32 := Scalar.select v714 c1_i32_448 c32_i32_446
  let v716 : BitVec 32 := Scalar.remsi v713 v715
  let c0_i32_450 : BitVec 32 := 0#32
  let v718 : BitVec 1 := Scalar.cmpi .slt v716 c0_i32_450
  let c0_i32_451 : BitVec 32 := 0#32
  let v719 : BitVec 1 := Scalar.cmpi .slt v715 c0_i32_451
  let v720 : BitVec 1 := Scalar.xori v718 v719
  let c0_i32_449 : BitVec 32 := 0#32
  let v717 : BitVec 1 := Scalar.cmpi .ne v716 c0_i32_449
  let v721 : BitVec 1 := Scalar.andi v720 v717
  let v722 : BitVec 32 := Scalar.addi v716 v715
  let v723 : BitVec 32 := Scalar.select v721 v722 v716
  let c1_i32_454 : BitVec 32 := 1#32
  let v724 : BitVec 32 := Scalar.muli v723 c1_i32_454
  let v725 : BitVec 32 := Scalar.addi c0_i32_455 v724
  v725.toNat
def k0_dev45 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_458 : BitVec 32 := 14#32
  let v734 : BitVec 32 := Scalar.addi v2 c14_i32_458
  let c32_i32_459 : BitVec 32 := 32#32
  let c0_i32_460 : BitVec 32 := 0#32
  let v735 : BitVec 1 := Scalar.cmpi .eq c32_i32_459 c0_i32_460
  let c1_i32_461 : BitVec 32 := 1#32
  let v736 : BitVec 32 := Scalar.select v735 c1_i32_461 c32_i32_459
  let v737 : BitVec 32 := Scalar.remsi v734 v736
  let c0_i32_463 : BitVec 32 := 0#32
  let v739 : BitVec 1 := Scalar.cmpi .slt v737 c0_i32_463
  let c0_i32_464 : BitVec 32 := 0#32
  let v740 : BitVec 1 := Scalar.cmpi .slt v736 c0_i32_464
  let v741 : BitVec 1 := Scalar.xori v739 v740
  let c0_i32_462 : BitVec 32 := 0#32
  let v738 : BitVec 1 := Scalar.cmpi .ne v737 c0_i32_462
  let v742 : BitVec 1 := Scalar.andi v741 v738
  let v743 : BitVec 32 := Scalar.addi v737 v736
  let v744 : BitVec 32 := Scalar.select v742 v743 v737
  let c1_i32_467 : BitVec 32 := 1#32
  let v745 : BitVec 32 := Scalar.muli v744 c1_i32_467
  let v746 : BitVec 32 := Scalar.addi c0_i32_468 v745
  v746.toNat
def k0_dev46 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_471 : BitVec 32 := 15#32
  let v755 : BitVec 32 := Scalar.addi v2 c15_i32_471
  let c32_i32_472 : BitVec 32 := 32#32
  let c0_i32_473 : BitVec 32 := 0#32
  let v756 : BitVec 1 := Scalar.cmpi .eq c32_i32_472 c0_i32_473
  let c1_i32_474 : BitVec 32 := 1#32
  let v757 : BitVec 32 := Scalar.select v756 c1_i32_474 c32_i32_472
  let v758 : BitVec 32 := Scalar.remsi v755 v757
  let c0_i32_476 : BitVec 32 := 0#32
  let v760 : BitVec 1 := Scalar.cmpi .slt v758 c0_i32_476
  let c0_i32_477 : BitVec 32 := 0#32
  let v761 : BitVec 1 := Scalar.cmpi .slt v757 c0_i32_477
  let v762 : BitVec 1 := Scalar.xori v760 v761
  let c0_i32_475 : BitVec 32 := 0#32
  let v759 : BitVec 1 := Scalar.cmpi .ne v758 c0_i32_475
  let v763 : BitVec 1 := Scalar.andi v762 v759
  let v764 : BitVec 32 := Scalar.addi v758 v757
  let v765 : BitVec 32 := Scalar.select v763 v764 v758
  let c1_i32_480 : BitVec 32 := 1#32
  let v766 : BitVec 32 := Scalar.muli v765 c1_i32_480
  let v767 : BitVec 32 := Scalar.addi c0_i32_481 v766
  v767.toNat
def k0_dev47 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_484 : BitVec 32 := 16#32
  let v776 : BitVec 32 := Scalar.addi v2 c16_i32_484
  let c32_i32_485 : BitVec 32 := 32#32
  let c0_i32_486 : BitVec 32 := 0#32
  let v777 : BitVec 1 := Scalar.cmpi .eq c32_i32_485 c0_i32_486
  let c1_i32_487 : BitVec 32 := 1#32
  let v778 : BitVec 32 := Scalar.select v777 c1_i32_487 c32_i32_485
  let v779 : BitVec 32 := Scalar.remsi v776 v778
  let c0_i32_489 : BitVec 32 := 0#32
  let v781 : BitVec 1 := Scalar.cmpi .slt v779 c0_i32_489
  let c0_i32_490 : BitVec 32 := 0#32
  let v782 : BitVec 1 := Scalar.cmpi .slt v778 c0_i32_490
  let v783 : BitVec 1 := Scalar.xori v781 v782
  let c0_i32_488 : BitVec 32 := 0#32
  let v780 : BitVec 1 := Scalar.cmpi .ne v779 c0_i32_488
  let v784 : BitVec 1 := Scalar.andi v783 v780
  let v785 : BitVec 32 := Scalar.addi v779 v778
  let v786 : BitVec 32 := Scalar.select v784 v785 v779
  let c1_i32_493 : BitVec 32 := 1#32
  let v787 : BitVec 32 := Scalar.muli v786 c1_i32_493
  let v788 : BitVec 32 := Scalar.addi c0_i32_494 v787
  v788.toNat
def k0_dev48 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_497 : BitVec 32 := 17#32
  let v797 : BitVec 32 := Scalar.addi v2 c17_i32_497
  let c32_i32_498 : BitVec 32 := 32#32
  let c0_i32_499 : BitVec 32 := 0#32
  let v798 : BitVec 1 := Scalar.cmpi .eq c32_i32_498 c0_i32_499
  let c1_i32_500 : BitVec 32 := 1#32
  let v799 : BitVec 32 := Scalar.select v798 c1_i32_500 c32_i32_498
  let v800 : BitVec 32 := Scalar.remsi v797 v799
  let c0_i32_502 : BitVec 32 := 0#32
  let v802 : BitVec 1 := Scalar.cmpi .slt v800 c0_i32_502
  let c0_i32_503 : BitVec 32 := 0#32
  let v803 : BitVec 1 := Scalar.cmpi .slt v799 c0_i32_503
  let v804 : BitVec 1 := Scalar.xori v802 v803
  let c0_i32_501 : BitVec 32 := 0#32
  let v801 : BitVec 1 := Scalar.cmpi .ne v800 c0_i32_501
  let v805 : BitVec 1 := Scalar.andi v804 v801
  let v806 : BitVec 32 := Scalar.addi v800 v799
  let v807 : BitVec 32 := Scalar.select v805 v806 v800
  let c1_i32_506 : BitVec 32 := 1#32
  let v808 : BitVec 32 := Scalar.muli v807 c1_i32_506
  let v809 : BitVec 32 := Scalar.addi c0_i32_507 v808
  v809.toNat
def k0_dev49 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_510 : BitVec 32 := 18#32
  let v818 : BitVec 32 := Scalar.addi v2 c18_i32_510
  let c32_i32_511 : BitVec 32 := 32#32
  let c0_i32_512 : BitVec 32 := 0#32
  let v819 : BitVec 1 := Scalar.cmpi .eq c32_i32_511 c0_i32_512
  let c1_i32_513 : BitVec 32 := 1#32
  let v820 : BitVec 32 := Scalar.select v819 c1_i32_513 c32_i32_511
  let v821 : BitVec 32 := Scalar.remsi v818 v820
  let c0_i32_515 : BitVec 32 := 0#32
  let v823 : BitVec 1 := Scalar.cmpi .slt v821 c0_i32_515
  let c0_i32_516 : BitVec 32 := 0#32
  let v824 : BitVec 1 := Scalar.cmpi .slt v820 c0_i32_516
  let v825 : BitVec 1 := Scalar.xori v823 v824
  let c0_i32_514 : BitVec 32 := 0#32
  let v822 : BitVec 1 := Scalar.cmpi .ne v821 c0_i32_514
  let v826 : BitVec 1 := Scalar.andi v825 v822
  let v827 : BitVec 32 := Scalar.addi v821 v820
  let v828 : BitVec 32 := Scalar.select v826 v827 v821
  let c1_i32_519 : BitVec 32 := 1#32
  let v829 : BitVec 32 := Scalar.muli v828 c1_i32_519
  let v830 : BitVec 32 := Scalar.addi c0_i32_520 v829
  v830.toNat
def k0_dev50 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_523 : BitVec 32 := 19#32
  let v839 : BitVec 32 := Scalar.addi v2 c19_i32_523
  let c32_i32_524 : BitVec 32 := 32#32
  let c0_i32_525 : BitVec 32 := 0#32
  let v840 : BitVec 1 := Scalar.cmpi .eq c32_i32_524 c0_i32_525
  let c1_i32_526 : BitVec 32 := 1#32
  let v841 : BitVec 32 := Scalar.select v840 c1_i32_526 c32_i32_524
  let v842 : BitVec 32 := Scalar.remsi v839 v841
  let c0_i32_528 : BitVec 32 := 0#32
  let v844 : BitVec 1 := Scalar.cmpi .slt v842 c0_i32_528
  let c0_i32_529 : BitVec 32 := 0#32
  let v845 : BitVec 1 := Scalar.cmpi .slt v841 c0_i32_529
  let v846 : BitVec 1 := Scalar.xori v844 v845
  let c0_i32_527 : BitVec 32 := 0#32
  let v843 : BitVec 1 := Scalar.cmpi .ne v842 c0_i32_527
  let v847 : BitVec 1 := Scalar.andi v846 v843
  let v848 : BitVec 32 := Scalar.addi v842 v841
  let v849 : BitVec 32 := Scalar.select v847 v848 v842
  let c1_i32_532 : BitVec 32 := 1#32
  let v850 : BitVec 32 := Scalar.muli v849 c1_i32_532
  let v851 : BitVec 32 := Scalar.addi c0_i32_533 v850
  v851.toNat
def k0_dev51 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_536 : BitVec 32 := 20#32
  let v860 : BitVec 32 := Scalar.addi v2 c20_i32_536
  let c32_i32_537 : BitVec 32 := 32#32
  let c0_i32_538 : BitVec 32 := 0#32
  let v861 : BitVec 1 := Scalar.cmpi .eq c32_i32_537 c0_i32_538
  let c1_i32_539 : BitVec 32 := 1#32
  let v862 : BitVec 32 := Scalar.select v861 c1_i32_539 c32_i32_537
  let v863 : BitVec 32 := Scalar.remsi v860 v862
  let c0_i32_541 : BitVec 32 := 0#32
  let v865 : BitVec 1 := Scalar.cmpi .slt v863 c0_i32_541
  let c0_i32_542 : BitVec 32 := 0#32
  let v866 : BitVec 1 := Scalar.cmpi .slt v862 c0_i32_542
  let v867 : BitVec 1 := Scalar.xori v865 v866
  let c0_i32_540 : BitVec 32 := 0#32
  let v864 : BitVec 1 := Scalar.cmpi .ne v863 c0_i32_540
  let v868 : BitVec 1 := Scalar.andi v867 v864
  let v869 : BitVec 32 := Scalar.addi v863 v862
  let v870 : BitVec 32 := Scalar.select v868 v869 v863
  let c1_i32_545 : BitVec 32 := 1#32
  let v871 : BitVec 32 := Scalar.muli v870 c1_i32_545
  let v872 : BitVec 32 := Scalar.addi c0_i32_546 v871
  v872.toNat
def k0_dev52 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_549 : BitVec 32 := 21#32
  let v881 : BitVec 32 := Scalar.addi v2 c21_i32_549
  let c32_i32_550 : BitVec 32 := 32#32
  let c0_i32_551 : BitVec 32 := 0#32
  let v882 : BitVec 1 := Scalar.cmpi .eq c32_i32_550 c0_i32_551
  let c1_i32_552 : BitVec 32 := 1#32
  let v883 : BitVec 32 := Scalar.select v882 c1_i32_552 c32_i32_550
  let v884 : BitVec 32 := Scalar.remsi v881 v883
  let c0_i32_554 : BitVec 32 := 0#32
  let v886 : BitVec 1 := Scalar.cmpi .slt v884 c0_i32_554
  let c0_i32_555 : BitVec 32 := 0#32
  let v887 : BitVec 1 := Scalar.cmpi .slt v883 c0_i32_555
  let v888 : BitVec 1 := Scalar.xori v886 v887
  let c0_i32_553 : BitVec 32 := 0#32
  let v885 : BitVec 1 := Scalar.cmpi .ne v884 c0_i32_553
  let v889 : BitVec 1 := Scalar.andi v888 v885
  let v890 : BitVec 32 := Scalar.addi v884 v883
  let v891 : BitVec 32 := Scalar.select v889 v890 v884
  let c1_i32_558 : BitVec 32 := 1#32
  let v892 : BitVec 32 := Scalar.muli v891 c1_i32_558
  let v893 : BitVec 32 := Scalar.addi c0_i32_559 v892
  v893.toNat
def k0_dev53 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_562 : BitVec 32 := 22#32
  let v902 : BitVec 32 := Scalar.addi v2 c22_i32_562
  let c32_i32_563 : BitVec 32 := 32#32
  let c0_i32_564 : BitVec 32 := 0#32
  let v903 : BitVec 1 := Scalar.cmpi .eq c32_i32_563 c0_i32_564
  let c1_i32_565 : BitVec 32 := 1#32
  let v904 : BitVec 32 := Scalar.select v903 c1_i32_565 c32_i32_563
  let v905 : BitVec 32 := Scalar.remsi v902 v904
  let c0_i32_567 : BitVec 32 := 0#32
  let v907 : BitVec 1 := Scalar.cmpi .slt v905 c0_i32_567
  let c0_i32_568 : BitVec 32 := 0#32
  let v908 : BitVec 1 := Scalar.cmpi .slt v904 c0_i32_568
  let v909 : BitVec 1 := Scalar.xori v907 v908
  let c0_i32_566 : BitVec 32 := 0#32
  let v906 : BitVec 1 := Scalar.cmpi .ne v905 c0_i32_566
  let v910 : BitVec 1 := Scalar.andi v909 v906
  let v911 : BitVec 32 := Scalar.addi v905 v904
  let v912 : BitVec 32 := Scalar.select v910 v911 v905
  let c1_i32_571 : BitVec 32 := 1#32
  let v913 : BitVec 32 := Scalar.muli v912 c1_i32_571
  let v914 : BitVec 32 := Scalar.addi c0_i32_572 v913
  v914.toNat
def k0_dev54 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_575 : BitVec 32 := 23#32
  let v923 : BitVec 32 := Scalar.addi v2 c23_i32_575
  let c32_i32_576 : BitVec 32 := 32#32
  let c0_i32_577 : BitVec 32 := 0#32
  let v924 : BitVec 1 := Scalar.cmpi .eq c32_i32_576 c0_i32_577
  let c1_i32_578 : BitVec 32 := 1#32
  let v925 : BitVec 32 := Scalar.select v924 c1_i32_578 c32_i32_576
  let v926 : BitVec 32 := Scalar.remsi v923 v925
  let c0_i32_580 : BitVec 32 := 0#32
  let v928 : BitVec 1 := Scalar.cmpi .slt v926 c0_i32_580
  let c0_i32_581 : BitVec 32 := 0#32
  let v929 : BitVec 1 := Scalar.cmpi .slt v925 c0_i32_581
  let v930 : BitVec 1 := Scalar.xori v928 v929
  let c0_i32_579 : BitVec 32 := 0#32
  let v927 : BitVec 1 := Scalar.cmpi .ne v926 c0_i32_579
  let v931 : BitVec 1 := Scalar.andi v930 v927
  let v932 : BitVec 32 := Scalar.addi v926 v925
  let v933 : BitVec 32 := Scalar.select v931 v932 v926
  let c1_i32_584 : BitVec 32 := 1#32
  let v934 : BitVec 32 := Scalar.muli v933 c1_i32_584
  let v935 : BitVec 32 := Scalar.addi c0_i32_585 v934
  v935.toNat
def k0_dev55 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_588 : BitVec 32 := 24#32
  let v944 : BitVec 32 := Scalar.addi v2 c24_i32_588
  let c32_i32_589 : BitVec 32 := 32#32
  let c0_i32_590 : BitVec 32 := 0#32
  let v945 : BitVec 1 := Scalar.cmpi .eq c32_i32_589 c0_i32_590
  let c1_i32_591 : BitVec 32 := 1#32
  let v946 : BitVec 32 := Scalar.select v945 c1_i32_591 c32_i32_589
  let v947 : BitVec 32 := Scalar.remsi v944 v946
  let c0_i32_593 : BitVec 32 := 0#32
  let v949 : BitVec 1 := Scalar.cmpi .slt v947 c0_i32_593
  let c0_i32_594 : BitVec 32 := 0#32
  let v950 : BitVec 1 := Scalar.cmpi .slt v946 c0_i32_594
  let v951 : BitVec 1 := Scalar.xori v949 v950
  let c0_i32_592 : BitVec 32 := 0#32
  let v948 : BitVec 1 := Scalar.cmpi .ne v947 c0_i32_592
  let v952 : BitVec 1 := Scalar.andi v951 v948
  let v953 : BitVec 32 := Scalar.addi v947 v946
  let v954 : BitVec 32 := Scalar.select v952 v953 v947
  let c1_i32_597 : BitVec 32 := 1#32
  let v955 : BitVec 32 := Scalar.muli v954 c1_i32_597
  let v956 : BitVec 32 := Scalar.addi c0_i32_598 v955
  v956.toNat
def k0_dev56 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_601 : BitVec 32 := 25#32
  let v965 : BitVec 32 := Scalar.addi v2 c25_i32_601
  let c32_i32_602 : BitVec 32 := 32#32
  let c0_i32_603 : BitVec 32 := 0#32
  let v966 : BitVec 1 := Scalar.cmpi .eq c32_i32_602 c0_i32_603
  let c1_i32_604 : BitVec 32 := 1#32
  let v967 : BitVec 32 := Scalar.select v966 c1_i32_604 c32_i32_602
  let v968 : BitVec 32 := Scalar.remsi v965 v967
  let c0_i32_606 : BitVec 32 := 0#32
  let v970 : BitVec 1 := Scalar.cmpi .slt v968 c0_i32_606
  let c0_i32_607 : BitVec 32 := 0#32
  let v971 : BitVec 1 := Scalar.cmpi .slt v967 c0_i32_607
  let v972 : BitVec 1 := Scalar.xori v970 v971
  let c0_i32_605 : BitVec 32 := 0#32
  let v969 : BitVec 1 := Scalar.cmpi .ne v968 c0_i32_605
  let v973 : BitVec 1 := Scalar.andi v972 v969
  let v974 : BitVec 32 := Scalar.addi v968 v967
  let v975 : BitVec 32 := Scalar.select v973 v974 v968
  let c1_i32_610 : BitVec 32 := 1#32
  let v976 : BitVec 32 := Scalar.muli v975 c1_i32_610
  let v977 : BitVec 32 := Scalar.addi c0_i32_611 v976
  v977.toNat
def k0_dev57 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_614 : BitVec 32 := 26#32
  let v986 : BitVec 32 := Scalar.addi v2 c26_i32_614
  let c32_i32_615 : BitVec 32 := 32#32
  let c0_i32_616 : BitVec 32 := 0#32
  let v987 : BitVec 1 := Scalar.cmpi .eq c32_i32_615 c0_i32_616
  let c1_i32_617 : BitVec 32 := 1#32
  let v988 : BitVec 32 := Scalar.select v987 c1_i32_617 c32_i32_615
  let v989 : BitVec 32 := Scalar.remsi v986 v988
  let c0_i32_619 : BitVec 32 := 0#32
  let v991 : BitVec 1 := Scalar.cmpi .slt v989 c0_i32_619
  let c0_i32_620 : BitVec 32 := 0#32
  let v992 : BitVec 1 := Scalar.cmpi .slt v988 c0_i32_620
  let v993 : BitVec 1 := Scalar.xori v991 v992
  let c0_i32_618 : BitVec 32 := 0#32
  let v990 : BitVec 1 := Scalar.cmpi .ne v989 c0_i32_618
  let v994 : BitVec 1 := Scalar.andi v993 v990
  let v995 : BitVec 32 := Scalar.addi v989 v988
  let v996 : BitVec 32 := Scalar.select v994 v995 v989
  let c1_i32_623 : BitVec 32 := 1#32
  let v997 : BitVec 32 := Scalar.muli v996 c1_i32_623
  let v998 : BitVec 32 := Scalar.addi c0_i32_624 v997
  v998.toNat
def k0_dev58 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_627 : BitVec 32 := 27#32
  let v1007 : BitVec 32 := Scalar.addi v2 c27_i32_627
  let c32_i32_628 : BitVec 32 := 32#32
  let c0_i32_629 : BitVec 32 := 0#32
  let v1008 : BitVec 1 := Scalar.cmpi .eq c32_i32_628 c0_i32_629
  let c1_i32_630 : BitVec 32 := 1#32
  let v1009 : BitVec 32 := Scalar.select v1008 c1_i32_630 c32_i32_628
  let v1010 : BitVec 32 := Scalar.remsi v1007 v1009
  let c0_i32_632 : BitVec 32 := 0#32
  let v1012 : BitVec 1 := Scalar.cmpi .slt v1010 c0_i32_632
  let c0_i32_633 : BitVec 32 := 0#32
  let v1013 : BitVec 1 := Scalar.cmpi .slt v1009 c0_i32_633
  let v1014 : BitVec 1 := Scalar.xori v1012 v1013
  let c0_i32_631 : BitVec 32 := 0#32
  let v1011 : BitVec 1 := Scalar.cmpi .ne v1010 c0_i32_631
  let v1015 : BitVec 1 := Scalar.andi v1014 v1011
  let v1016 : BitVec 32 := Scalar.addi v1010 v1009
  let v1017 : BitVec 32 := Scalar.select v1015 v1016 v1010
  let c1_i32_636 : BitVec 32 := 1#32
  let v1018 : BitVec 32 := Scalar.muli v1017 c1_i32_636
  let v1019 : BitVec 32 := Scalar.addi c0_i32_637 v1018
  v1019.toNat
def k0_dev59 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_640 : BitVec 32 := 28#32
  let v1028 : BitVec 32 := Scalar.addi v2 c28_i32_640
  let c32_i32_641 : BitVec 32 := 32#32
  let c0_i32_642 : BitVec 32 := 0#32
  let v1029 : BitVec 1 := Scalar.cmpi .eq c32_i32_641 c0_i32_642
  let c1_i32_643 : BitVec 32 := 1#32
  let v1030 : BitVec 32 := Scalar.select v1029 c1_i32_643 c32_i32_641
  let v1031 : BitVec 32 := Scalar.remsi v1028 v1030
  let c0_i32_645 : BitVec 32 := 0#32
  let v1033 : BitVec 1 := Scalar.cmpi .slt v1031 c0_i32_645
  let c0_i32_646 : BitVec 32 := 0#32
  let v1034 : BitVec 1 := Scalar.cmpi .slt v1030 c0_i32_646
  let v1035 : BitVec 1 := Scalar.xori v1033 v1034
  let c0_i32_644 : BitVec 32 := 0#32
  let v1032 : BitVec 1 := Scalar.cmpi .ne v1031 c0_i32_644
  let v1036 : BitVec 1 := Scalar.andi v1035 v1032
  let v1037 : BitVec 32 := Scalar.addi v1031 v1030
  let v1038 : BitVec 32 := Scalar.select v1036 v1037 v1031
  let c1_i32_649 : BitVec 32 := 1#32
  let v1039 : BitVec 32 := Scalar.muli v1038 c1_i32_649
  let v1040 : BitVec 32 := Scalar.addi c0_i32_650 v1039
  v1040.toNat
def k0_dev60 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_653 : BitVec 32 := 29#32
  let v1049 : BitVec 32 := Scalar.addi v2 c29_i32_653
  let c32_i32_654 : BitVec 32 := 32#32
  let c0_i32_655 : BitVec 32 := 0#32
  let v1050 : BitVec 1 := Scalar.cmpi .eq c32_i32_654 c0_i32_655
  let c1_i32_656 : BitVec 32 := 1#32
  let v1051 : BitVec 32 := Scalar.select v1050 c1_i32_656 c32_i32_654
  let v1052 : BitVec 32 := Scalar.remsi v1049 v1051
  let c0_i32_658 : BitVec 32 := 0#32
  let v1054 : BitVec 1 := Scalar.cmpi .slt v1052 c0_i32_658
  let c0_i32_659 : BitVec 32 := 0#32
  let v1055 : BitVec 1 := Scalar.cmpi .slt v1051 c0_i32_659
  let v1056 : BitVec 1 := Scalar.xori v1054 v1055
  let c0_i32_657 : BitVec 32 := 0#32
  let v1053 : BitVec 1 := Scalar.cmpi .ne v1052 c0_i32_657
  let v1057 : BitVec 1 := Scalar.andi v1056 v1053
  let v1058 : BitVec 32 := Scalar.addi v1052 v1051
  let v1059 : BitVec 32 := Scalar.select v1057 v1058 v1052
  let c1_i32_662 : BitVec 32 := 1#32
  let v1060 : BitVec 32 := Scalar.muli v1059 c1_i32_662
  let v1061 : BitVec 32 := Scalar.addi c0_i32_663 v1060
  v1061.toNat
def k0_dev61 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_666 : BitVec 32 := 30#32
  let v1070 : BitVec 32 := Scalar.addi v2 c30_i32_666
  let c32_i32_667 : BitVec 32 := 32#32
  let c0_i32_668 : BitVec 32 := 0#32
  let v1071 : BitVec 1 := Scalar.cmpi .eq c32_i32_667 c0_i32_668
  let c1_i32_669 : BitVec 32 := 1#32
  let v1072 : BitVec 32 := Scalar.select v1071 c1_i32_669 c32_i32_667
  let v1073 : BitVec 32 := Scalar.remsi v1070 v1072
  let c0_i32_671 : BitVec 32 := 0#32
  let v1075 : BitVec 1 := Scalar.cmpi .slt v1073 c0_i32_671
  let c0_i32_672 : BitVec 32 := 0#32
  let v1076 : BitVec 1 := Scalar.cmpi .slt v1072 c0_i32_672
  let v1077 : BitVec 1 := Scalar.xori v1075 v1076
  let c0_i32_670 : BitVec 32 := 0#32
  let v1074 : BitVec 1 := Scalar.cmpi .ne v1073 c0_i32_670
  let v1078 : BitVec 1 := Scalar.andi v1077 v1074
  let v1079 : BitVec 32 := Scalar.addi v1073 v1072
  let v1080 : BitVec 32 := Scalar.select v1078 v1079 v1073
  let c1_i32_675 : BitVec 32 := 1#32
  let v1081 : BitVec 32 := Scalar.muli v1080 c1_i32_675
  let v1082 : BitVec 32 := Scalar.addi c0_i32_676 v1081
  v1082.toNat
def k0_dev62 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_679 : BitVec 32 := 31#32
  let v1091 : BitVec 32 := Scalar.addi v2 c31_i32_679
  let c32_i32_680 : BitVec 32 := 32#32
  let c0_i32_681 : BitVec 32 := 0#32
  let v1092 : BitVec 1 := Scalar.cmpi .eq c32_i32_680 c0_i32_681
  let c1_i32_682 : BitVec 32 := 1#32
  let v1093 : BitVec 32 := Scalar.select v1092 c1_i32_682 c32_i32_680
  let v1094 : BitVec 32 := Scalar.remsi v1091 v1093
  let c0_i32_684 : BitVec 32 := 0#32
  let v1096 : BitVec 1 := Scalar.cmpi .slt v1094 c0_i32_684
  let c0_i32_685 : BitVec 32 := 0#32
  let v1097 : BitVec 1 := Scalar.cmpi .slt v1093 c0_i32_685
  let v1098 : BitVec 1 := Scalar.xori v1096 v1097
  let c0_i32_683 : BitVec 32 := 0#32
  let v1095 : BitVec 1 := Scalar.cmpi .ne v1094 c0_i32_683
  let v1099 : BitVec 1 := Scalar.andi v1098 v1095
  let v1100 : BitVec 32 := Scalar.addi v1094 v1093
  let v1101 : BitVec 32 := Scalar.select v1099 v1100 v1094
  let c1_i32_688 : BitVec 32 := 1#32
  let v1102 : BitVec 32 := Scalar.muli v1101 c1_i32_688
  let v1103 : BitVec 32 := Scalar.addi c0_i32_689 v1102
  v1103.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S2048x1024_o0_0_S2048x256 : S2048x1024.Slices ![0, 0] S2048x256
  reduces_S2048x256_S2048 : S2048x256.Reduces [1] S2048
  shapeCasts_S2048_S2048x1 : S2048.ShapeCasts S2048x1
  broadcasts_S2048x1_S2048x256 : S2048x1.Broadcasts S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  h_S1x2048 : 0 < S1x2048.numel
  shapeCasts_S1x2048_S2048 : S1x2048.ShapeCasts S2048
  shapeCasts_S2048_S1x2048 : S2048.ShapeCasts S1x2048
  hamt_31 : (31#32 : BitVec 32).msb = false
  inb_S31_S1_0 : ∀ a, (![0] : Fin 1 → Nat) a + S1.size a ≤ S31.size a
  squeezes_S1_S_ : S1.Squeezes S_
  squeezes_S1x4096_S4096 : S1x4096.Squeezes S4096
  inb_S31_S1_1 : ∀ a, (![1] : Fin 1 → Nat) a + S1.size a ≤ S31.size a
  inb_S31_S1_2 : ∀ a, (![2] : Fin 1 → Nat) a + S1.size a ≤ S31.size a
  inb_S31_S1_3 : ∀ a, (![3] : Fin 1 → Nat) a + S1.size a ≤ S31.size a
  inb_S31_S1_4 : ∀ a, (![4] : Fin 1 → Nat) a + S1.size a ≤ S31.size a
  inb_S31_S1_5 : ∀ a, (![5] : Fin 1 → Nat) a + S1.size a ≤ S31.size a
  inb_S31_S1_6 : ∀ a, (![6] : Fin 1 → Nat) a + S1.size a ≤ S31.size a
  inb_S31_S1_7 : ∀ a, (![7] : Fin 1 → Nat) a + S1.size a ≤ S31.size a
  inb_S31_S1_8 : ∀ a, (![8] : Fin 1 → Nat) a + S1.size a ≤ S31.size a
  inb_S31_S1_9 : ∀ a, (![9] : Fin 1 → Nat) a + S1.size a ≤ S31.size a
  inb_S31_S1_10 : ∀ a, (![10] : Fin 1 → Nat) a + S1.size a ≤ S31.size a
  inb_S31_S1_11 : ∀ a, (![11] : Fin 1 → Nat) a + S1.size a ≤ S31.size a
  inb_S31_S1_12 : ∀ a, (![12] : Fin 1 → Nat) a + S1.size a ≤ S31.size a
  inb_S31_S1_13 : ∀ a, (![13] : Fin 1 → Nat) a + S1.size a ≤ S31.size a
  inb_S31_S1_14 : ∀ a, (![14] : Fin 1 → Nat) a + S1.size a ≤ S31.size a
  inb_S31_S1_15 : ∀ a, (![15] : Fin 1 → Nat) a + S1.size a ≤ S31.size a
  inb_S31_S1_16 : ∀ a, (![16] : Fin 1 → Nat) a + S1.size a ≤ S31.size a
  inb_S31_S1_17 : ∀ a, (![17] : Fin 1 → Nat) a + S1.size a ≤ S31.size a
  inb_S31_S1_18 : ∀ a, (![18] : Fin 1 → Nat) a + S1.size a ≤ S31.size a
  inb_S31_S1_19 : ∀ a, (![19] : Fin 1 → Nat) a + S1.size a ≤ S31.size a
  inb_S31_S1_20 : ∀ a, (![20] : Fin 1 → Nat) a + S1.size a ≤ S31.size a
  inb_S31_S1_21 : ∀ a, (![21] : Fin 1 → Nat) a + S1.size a ≤ S31.size a
  inb_S31_S1_22 : ∀ a, (![22] : Fin 1 → Nat) a + S1.size a ≤ S31.size a
  inb_S31_S1_23 : ∀ a, (![23] : Fin 1 → Nat) a + S1.size a ≤ S31.size a
  inb_S31_S1_24 : ∀ a, (![24] : Fin 1 → Nat) a + S1.size a ≤ S31.size a
  inb_S31_S1_25 : ∀ a, (![25] : Fin 1 → Nat) a + S1.size a ≤ S31.size a
  inb_S31_S1_26 : ∀ a, (![26] : Fin 1 → Nat) a + S1.size a ≤ S31.size a
  inb_S31_S1_27 : ∀ a, (![27] : Fin 1 → Nat) a + S1.size a ≤ S31.size a
  inb_S31_S1_28 : ∀ a, (![28] : Fin 1 → Nat) a + S1.size a ≤ S31.size a
  inb_S31_S1_29 : ∀ a, (![29] : Fin 1 → Nat) a + S1.size a ≤ S31.size a
  inb_S31_S1_30 : ∀ a, (![30] : Fin 1 → Nat) a + S1.size a ≤ S31.size a
  inb_S32x4096_S32x2048_0_0 : ∀ a, (![0, 0] : Fin 2 → Nat) a + S32x2048.size a ≤ S32x4096.size a
  h_S32x2048 : 0 < S32x2048.numel
  inb_S32x4096_S32x2048_0_2048 : ∀ a, (![0, 2048] : Fin 2 → Nat) a + S32x2048.size a ≤ S32x4096.size a
  reduces_S32x2048_S2048 : S32x2048.Reduces [0] S2048
  broadcasts_S1x2048_S32x2048 : S1x2048.Broadcasts S32x2048
  broadcasts_S2048x1_S2048x1024 : S2048x1.Broadcasts S2048x1024
  hcc0_scratch1 : 2 + S31.numel ≤ 64
  hcc0_scratch2 : 33 + S31.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x2048.size a ≤ S32x4096.size a
  k0_off2_inb : ∀ d0 : Dev nD, ∀ a, (k0_off2 d0) a + S1x2048.size a ≤ S32x4096.size a
  k0_off3_inb : ∀ d0 : Dev nD, ∀ a, (k0_off3 d0) a + S1x4096.size a ≤ S32x4096.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch1 : DmaSems sig S31 := SemArray.consecutive 2 S31 hcc0_scratch1
abbrev cc0_scratch2 : DmaSems sig S31 := SemArray.consecutive 33 S31 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x32768 : Shape := ⟨2, ![2048, 32768]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x32768, .f32⟩
  | .hbm, ⟨5, _⟩ => ⟨S2048x32768, .f32⟩
  | .hbm, ⟨6, _⟩ => ⟨S2048x32768, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x32768, .f32⟩
  | .hbm, ⟨11, _⟩ => ⟨S2048x32768, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S2048x32768_S2048_d1 : S2048x32768.ReducesTo [1] S2048
  h_S_ : 0 < S_.numel
  bcast_S2048_S2048x1_0 : S2048.BroadcastsInDim S2048x1 (![0] : Fin 1 → Fin S2048x1.rank)
  bcast_S2048x1_S2048x32768_0_1 : S2048x1.BroadcastsInDim S2048x32768 (![0, 1] : Fin 2 → Fin S2048x32768.rank)

variable [Facts₀]

class Facts : Prop extends Facts₀ where

variable [Facts]
-- ==== Proof.KernelIdeal.Spec.lean ====
/-
  The kernel's result as ONE pure term of the devices' input blocks, at any float instance.

  Device d holds the block X d of 2048 rows by 1024 columns. It reduces each row to a pair: the row's maximum
  (localMax) and the row's sum of exp (entry - maximum) (localSum), both computed tile by tile over four tiles of
  256 columns with the running rescaling exp (old maximum - new maximum). After the exchange every device holds
  all 32 pairs per row (allM, allS), takes the maximum M of the 32 maxima, the sum S of the 32 sums each rescaled
  by exp (its maximum - M), and writes exp (entry - M) * (1 / S).
-/
import proofs.«901062_g7700000000001063_dist_softmax_colshard_i_m2048_n1024_v7x_i32_f32_1_alg».proof.Proof.Gen.KernelIdeal.Skeleton
import Idealize.ShloMosaic.Lib.ValueIdx

noncomputable section

namespace Cert.KernelIdeal.Softmax

open Cert.KernelIdeal Cert.KernelIdeal.Gen Idealize.ShloMosaic

variable {F : FTy → Type} [FloatOps F]

/-- A row's maximum over the device's 1024 columns, as the one-row vector the device stores. -/
def localMax (xb : Vec F S2048x1024 .f32) : FVec F S1x2048 .f32 :=
  k0_pay10 (k0_pay1 xb) (k0_pay4 xb) (k0_pay6 xb)

/-- A row's sum of exp (entry - the row's local maximum) over the device's 1024 columns, as the one-row vector the device stores. -/
def localSum (xb : Vec F S2048x1024 .f32) : FVec F S1x2048 .f32 :=
  k0_pay11 (k0_pay1 xb) (k0_pay4 xb) (k0_pay5 xb) (k0_pay6 xb)

/-- The 32 devices' local maxima, one row per device. -/
def allM (X : Dev nD → Vec F S2048x1024 .f32) : Vec F S32x2048 .f32 :=
  fun i => localMax (X ⟨(i 0).val, (i 0).isLt⟩) (ValueIdx.ix2 (0 : Fin 1) (⟨(i 1).val, (i 1).isLt⟩ : Fin 2048))

/-- The 32 devices' local sums, one row per device. -/
def allS (X : Dev nD → Vec F S2048x1024 .f32) : Vec F S32x2048 .f32 :=
  fun i => localSum (X ⟨(i 0).val, (i 0).isLt⟩) (ValueIdx.ix2 (0 : Fin 1) (⟨(i 1).val, (i 1).isLt⟩ : Fin 2048))

/-- Device c's result block. -/
def outAt (X : Dev nD → Vec F S2048x1024 .f32) (c : Dev nD) : FVec F S2048x1024 .f32 :=
  k0_pay12 (k0_pay1 (X c)) (allM X) (allS X)

end Cert.KernelIdeal.Softmax

end
-- ==== Proof.KernelIdeal.Ring.lean ====
/-
  The mesh as a ring of 32 devices: device c's k-th peer forwards is c + k + 1 (mod 32), k = 0 .. 30, and backwards
  c - k - 1 (mod 32). Every device signals and copies to each of its 31 forward peers, so it is signalled and copied
  to by each of its 31 backward peers. The printed device-id chains (a remainder, a sign fix-up) are these peers.
-/
import proofs.«901062_g7700000000001063_dist_softmax_colshard_i_m2048_n1024_v7x_i32_f32_1_alg».proof.Proof.Gen.KernelIdeal

noncomputable section

namespace Cert.KernelIdeal.Coll

open Cert.KernelIdeal Cert.KernelIdeal.Gen Idealize.ShloMosaic

/-- Device c's k-th peer forwards. -/
def fwd (c : Dev nD) (k : Fin 31) : Dev nD := ⟨(c.val + k.val + 1) % 32, Nat.mod_lt _ (by decide)⟩
/-- Device c's k-th peer backwards: the device whose k-th forward peer is c. -/
def bwd (c : Dev nD) (k : Fin 31) : Dev nD := ⟨(c.val + 31 - k.val) % 32, Nat.mod_lt _ (by decide)⟩

theorem bwd_fwd (c : Dev nD) (k : Fin 31) : bwd (fwd c k) k = c := by
  have hc : c.val < 32 := c.isLt
  have hk : k.val < 31 := k.isLt
  refine Fin.ext ?_
  show ((c.val + k.val + 1) % 32 + 31 - k.val) % 32 = c.val
  omega
theorem fwd_bwd (c : Dev nD) (k : Fin 31) : fwd (bwd c k) k = c := by
  have hc : c.val < 32 := c.isLt
  have hk : k.val < 31 := k.isLt
  refine Fin.ext ?_
  show ((c.val + 31 - k.val) % 32 + k.val + 1) % 32 = c.val
  omega
theorem fwd_ne (c : Dev nD) (k : Fin 31) : fwd c k ≠ c := by
  have hc : c.val < 32 := c.isLt
  have hk : k.val < 31 := k.isLt
  intro h
  have hv : (c.val + k.val + 1) % 32 = c.val := congrArg Fin.val h
  omega
theorem bwd_ne (c : Dev nD) (k : Fin 31) : bwd c k ≠ c := by
  have hc : c.val < 32 := c.isLt
  have hk : k.val < 31 := k.isLt
  intro h
  have hv : (c.val + 31 - k.val) % 32 = c.val := congrArg Fin.val h
  omega
theorem fwd_injective (c : Dev nD) : Function.Injective (fwd c) := by
  intro k k' h
  have hc : c.val < 32 := c.isLt
  have hk : k.val < 31 := k.isLt
  have hk' : k'.val < 31 := k'.isLt
  have hv : (c.val + k.val + 1) % 32 = (c.val + k'.val + 1) % 32 := congrArg Fin.val h
  exact Fin.ext (by omega)
theorem bwd_injective (c : Dev nD) : Function.Injective (bwd c) := by
  intro k k' h
  have hc : c.val < 32 := c.isLt
  have hk : k.val < 31 := k.isLt
  have hk' : k'.val < 31 := k'.isLt
  have hv : (c.val + 31 - k.val) % 32 = (c.val + 31 - k'.val) % 32 := congrArg Fin.val h
  exact Fin.ext (by omega)
/-- For a fixed k, c ↦ its k-th forward peer is a permutation of the devices (inverse: the k-th backward peer). -/
theorem fwd_left_injective (k : Fin 31) : Function.Injective (fun c : Dev nD => fwd c k) := by
  intro a b h
  have e : bwd (fwd a k) k = bwd (fwd b k) k := congrArg (fun x => bwd x k) h
  rwa [bwd_fwd, bwd_fwd] at e
theorem exists_fwd (c d : Dev nD) (h : d ≠ c) : ∃ k, fwd c k = d := by
  have hc : c.val < 32 := c.isLt
  have hd : d.val < 32 := d.isLt
  have hne : d.val ≠ c.val := fun e => h (Fin.ext e)
  refine ⟨⟨(d.val + 31 - c.val) % 32, by omega⟩, Fin.ext ?_⟩
  show (c.val + (d.val + 31 - c.val) % 32 + 1) % 32 = d.val
  omega
theorem exists_bwd (c d : Dev nD) (h : d ≠ c) : ∃ k, bwd c k = d := by
  have hc : c.val < 32 := c.isLt
  have hd : d.val < 32 := d.isLt
  have hne : d.val ≠ c.val := fun e => h (Fin.ext e)
  refine ⟨⟨(c.val + 31 - d.val) % 32, by omega⟩, Fin.ext ?_⟩
  show (c.val + 31 - (c.val + 31 - d.val) % 32) % 32 = d.val
  omega
/-- The k-th forward peer is the (30 - k)-th backward peer. -/
theorem fwd_eq_bwd_rev (c : Dev nD) (k : Fin 31) : fwd c k = bwd c (Fin.rev k) := by
  have hc : c.val < 32 := c.isLt
  have hk : k.val < 31 := k.isLt
  refine Fin.ext ?_
  show (c.val + k.val + 1) % 32 = (c.val + 31 - (Fin.rev k).val) % 32
  rw [Fin.val_rev]
  omega

/-! ## The printed device chains: signals 1..31 and copies 32..62 name the forward peers 0..30 -/

theorem dev1_eq (c : Dev nD) : (⟨k0_dev1 c, k0_dev1_lt c⟩ : Dev nD) = fwd c 0 := by
  refine Fin.ext ?_
  revert c
  decide +kernel
theorem dev2_eq (c : Dev nD) : (⟨k0_dev2 c, k0_dev2_lt c⟩ : Dev nD) = fwd c 1 := by
  refine Fin.ext ?_
  revert c
  decide +kernel
theorem dev3_eq (c : Dev nD) : (⟨k0_dev3 c, k0_dev3_lt c⟩ : Dev nD) = fwd c 2 := by
  refine Fin.ext ?_
  revert c
  decide +kernel
theorem dev4_eq (c : Dev nD) : (⟨k0_dev4 c, k0_dev4_lt c⟩ : Dev nD) = fwd c 3 := by
  refine Fin.ext ?_
  revert c
  decide +kernel
theorem dev5_eq (c : Dev nD) : (⟨k0_dev5 c, k0_dev5_lt c⟩ : Dev nD) = fwd c 4 := by
  refine Fin.ext ?_
  revert c
  decide +kernel
theorem dev6_eq (c : Dev nD) : (⟨k0_dev6 c, k0_dev6_lt c⟩ : Dev nD) = fwd c 5 := by
  refine Fin.ext ?_
  revert c
  decide +kernel
theorem dev7_eq (c : Dev nD) : (⟨k0_dev7 c, k0_dev7_lt c⟩ : Dev nD) = fwd c 6 := by
  refine Fin.ext ?_
  revert c
  decide +kernel
theorem dev8_eq (c : Dev nD) : (⟨k0_dev8 c, k0_dev8_lt c⟩ : Dev nD) = fwd c 7 := by
  refine Fin.ext ?_
  revert c
  decide +kernel
theorem dev9_eq (c : Dev nD) : (⟨k0_dev9 c, k0_dev9_lt c⟩ : Dev nD) = fwd c 8 := by
  refine Fin.ext ?_
  revert c
  decide +kernel
theorem dev10_eq (c : Dev nD) : (⟨k0_dev10 c, k0_dev10_lt c⟩ : Dev nD) = fwd c 9 := by
  refine Fin.ext ?_
  revert c
  decide +kernel
theorem dev11_eq (c : Dev nD) : (⟨k0_dev11 c, k0_dev11_lt c⟩ : Dev nD) = fwd c 10 := by
  refine Fin.ext ?_
  revert c
  decide +kernel
theorem dev12_eq (c : Dev nD) : (⟨k0_dev12 c, k0_dev12_lt c⟩ : Dev nD) = fwd c 11 := by
  refine Fin.ext ?_
  revert c
  decide +kernel
theorem dev13_eq (c : Dev nD) : (⟨k0_dev13 c, k0_dev13_lt c⟩ : Dev nD) = fwd c 12 := by
  refine Fin.ext ?_
  revert c
  decide +kernel
theorem dev14_eq (c : Dev nD) : (⟨k0_dev14 c, k0_dev14_lt c⟩ : Dev nD) = fwd c 13 := by
  refine Fin.ext ?_
  revert c
  decide +kernel
theorem dev15_eq (c : Dev nD) : (⟨k0_dev15 c, k0_dev15_lt c⟩ : Dev nD) = fwd c 14 := by
  refine Fin.ext ?_
  revert c
  decide +kernel
theorem dev16_eq (c : Dev nD) : (⟨k0_dev16 c, k0_dev16_lt c⟩ : Dev nD) = fwd c 15 := by
  refine Fin.ext ?_
  revert c
  decide +kernel
theorem dev17_eq (c : Dev nD) : (⟨k0_dev17 c, k0_dev17_lt c⟩ : Dev nD) = fwd c 16 := by
  refine Fin.ext ?_
  revert c
  decide +kernel
theorem dev18_eq (c : Dev nD) : (⟨k0_dev18 c, k0_dev18_lt c⟩ : Dev nD) = fwd c 17 := by
  refine Fin.ext ?_
  revert c
  decide +kernel
theorem dev19_eq (c : Dev nD) : (⟨k0_dev19 c, k0_dev19_lt c⟩ : Dev nD) = fwd c 18 := by
  refine Fin.ext ?_
  revert c
  decide +kernel
theorem dev20_eq (c : Dev nD) : (⟨k0_dev20 c, k0_dev20_lt c⟩ : Dev nD) = fwd c 19 := by
  refine Fin.ext ?_
  revert c
  decide +kernel
theorem dev21_eq (c : Dev nD) : (⟨k0_dev21 c, k0_dev21_lt c⟩ : Dev nD) = fwd c 20 := by
  refine Fin.ext ?_
  revert c
  decide +kernel
theorem dev22_eq (c : Dev nD) : (⟨k0_dev22 c, k0_dev22_lt c⟩ : Dev nD) = fwd c 21 := by
  refine Fin.ext ?_
  revert c
  decide +kernel
theorem dev23_eq (c : Dev nD) : (⟨k0_dev23 c, k0_dev23_lt c⟩ : Dev nD) = fwd c 22 := by
  refine Fin.ext ?_
  revert c
  decide +kernel
theorem dev24_eq (c : Dev nD) : (⟨k0_dev24 c, k0_dev24_lt c⟩ : Dev nD) = fwd c 23 := by
  refine Fin.ext ?_
  revert c
  decide +kernel
theorem dev25_eq (c : Dev nD) : (⟨k0_dev25 c, k0_dev25_lt c⟩ : Dev nD) = fwd c 24 := by
  refine Fin.ext ?_
  revert c
  decide +kernel
theorem dev26_eq (c : Dev nD) : (⟨k0_dev26 c, k0_dev26_lt c⟩ : Dev nD) = fwd c 25 := by
  refine Fin.ext ?_
  revert c
  decide +kernel
theorem dev27_eq (c : Dev nD) : (⟨k0_dev27 c, k0_dev27_lt c⟩ : Dev nD) = fwd c 26 := by
  refine Fin.ext ?_
  revert c
  decide +kernel
theorem dev28_eq (c : Dev nD) : (⟨k0_dev28 c, k0_dev28_lt c⟩ : Dev nD) = fwd c 27 := by
  refine Fin.ext ?_
  revert c
  decide +kernel
theorem dev29_eq (c : Dev nD) : (⟨k0_dev29 c, k0_dev29_lt c⟩ : Dev nD) = fwd c 28 := by
  refine Fin.ext ?_
  revert c
  decide +kernel
theorem dev30_eq (c : Dev nD) : (⟨k0_dev30 c, k0_dev30_lt c⟩ : Dev nD) = fwd c 29 := by
  refine Fin.ext ?_
  revert c
  decide +kernel
theorem dev31_eq (c : Dev nD) : (⟨k0_dev31 c, k0_dev31_lt c⟩ : Dev nD) = fwd c 30 := by
  refine Fin.ext ?_
  revert c
  decide +kernel
theorem dev32_eq (c : Dev nD) : (⟨k0_dev32 c, k0_dev32_lt c⟩ : Dev nD) = fwd c 0 := by
  refine Fin.ext ?_
  revert c
  decide +kernel
theorem dev33_eq (c : Dev nD) : (⟨k0_dev33 c, k0_dev33_lt c⟩ : Dev nD) = fwd c 1 := by
  refine Fin.ext ?_
  revert c
  decide +kernel
theorem dev34_eq (c : Dev nD) : (⟨k0_dev34 c, k0_dev34_lt c⟩ : Dev nD) = fwd c 2 := by
  refine Fin.ext ?_
  revert c
  decide +kernel
theorem dev35_eq (c : Dev nD) : (⟨k0_dev35 c, k0_dev35_lt c⟩ : Dev nD) = fwd c 3 := by
  refine Fin.ext ?_
  revert c
  decide +kernel
theorem dev36_eq (c : Dev nD) : (⟨k0_dev36 c, k0_dev36_lt c⟩ : Dev nD) = fwd c 4 := by
  refine Fin.ext ?_
  revert c
  decide +kernel
theorem dev37_eq (c : Dev nD) : (⟨k0_dev37 c, k0_dev37_lt c⟩ : Dev nD) = fwd c 5 := by
  refine Fin.ext ?_
  revert c
  decide +kernel
theorem dev38_eq (c : Dev nD) : (⟨k0_dev38 c, k0_dev38_lt c⟩ : Dev nD) = fwd c 6 := by
  refine Fin.ext ?_
  revert c
  decide +kernel
theorem dev39_eq (c : Dev nD) : (⟨k0_dev39 c, k0_dev39_lt c⟩ : Dev nD) = fwd c 7 := by
  refine Fin.ext ?_
  revert c
  decide +kernel
theorem dev40_eq (c : Dev nD) : (⟨k0_dev40 c, k0_dev40_lt c⟩ : Dev nD) = fwd c 8 := by
  refine Fin.ext ?_
  revert c
  decide +kernel
theorem dev41_eq (c : Dev nD) : (⟨k0_dev41 c, k0_dev41_lt c⟩ : Dev nD) = fwd c 9 := by
  refine Fin.ext ?_
  revert c
  decide +kernel
theorem dev42_eq (c : Dev nD) : (⟨k0_dev42 c, k0_dev42_lt c⟩ : Dev nD) = fwd c 10 := by
  refine Fin.ext ?_
  revert c
  decide +kernel
theorem dev43_eq (c : Dev nD) : (⟨k0_dev43 c, k0_dev43_lt c⟩ : Dev nD) = fwd c 11 := by
  refine Fin.ext ?_
  revert c
  decide +kernel
theorem dev44_eq (c : Dev nD) : (⟨k0_dev44 c, k0_dev44_lt c⟩ : Dev nD) = fwd c 12 := by
  refine Fin.ext ?_
  revert c
  decide +kernel
theorem dev45_eq (c : Dev nD) : (⟨k0_dev45 c, k0_dev45_lt c⟩ : Dev nD) = fwd c 13 := by
  refine Fin.ext ?_
  revert c
  decide +kernel
theorem dev46_eq (c : Dev nD) : (⟨k0_dev46 c, k0_dev46_lt c⟩ : Dev nD) = fwd c 14 := by
  refine Fin.ext ?_
  revert c
  decide +kernel
theorem dev47_eq (c : Dev nD) : (⟨k0_dev47 c, k0_dev47_lt c⟩ : Dev nD) = fwd c 15 := by
  refine Fin.ext ?_
  revert c
  decide +kernel
theorem dev48_eq (c : Dev nD) : (⟨k0_dev48 c, k0_dev48_lt c⟩ : Dev nD) = fwd c 16 := by
  refine Fin.ext ?_
  revert c
  decide +kernel
theorem dev49_eq (c : Dev nD) : (⟨k0_dev49 c, k0_dev49_lt c⟩ : Dev nD) = fwd c 17 := by
  refine Fin.ext ?_
  revert c
  decide +kernel
theorem dev50_eq (c : Dev nD) : (⟨k0_dev50 c, k0_dev50_lt c⟩ : Dev nD) = fwd c 18 := by
  refine Fin.ext ?_
  revert c
  decide +kernel
theorem dev51_eq (c : Dev nD) : (⟨k0_dev51 c, k0_dev51_lt c⟩ : Dev nD) = fwd c 19 := by
  refine Fin.ext ?_
  revert c
  decide +kernel
theorem dev52_eq (c : Dev nD) : (⟨k0_dev52 c, k0_dev52_lt c⟩ : Dev nD) = fwd c 20 := by
  refine Fin.ext ?_
  revert c
  decide +kernel
theorem dev53_eq (c : Dev nD) : (⟨k0_dev53 c, k0_dev53_lt c⟩ : Dev nD) = fwd c 21 := by
  refine Fin.ext ?_
  revert c
  decide +kernel
theorem dev54_eq (c : Dev nD) : (⟨k0_dev54 c, k0_dev54_lt c⟩ : Dev nD) = fwd c 22 := by
  refine Fin.ext ?_
  revert c
  decide +kernel
theorem dev55_eq (c : Dev nD) : (⟨k0_dev55 c, k0_dev55_lt c⟩ : Dev nD) = fwd c 23 := by
  refine Fin.ext ?_
  revert c
  decide +kernel
theorem dev56_eq (c : Dev nD) : (⟨k0_dev56 c, k0_dev56_lt c⟩ : Dev nD) = fwd c 24 := by
  refine Fin.ext ?_
  revert c
  decide +kernel
theorem dev57_eq (c : Dev nD) : (⟨k0_dev57 c, k0_dev57_lt c⟩ : Dev nD) = fwd c 25 := by
  refine Fin.ext ?_
  revert c
  decide +kernel
theorem dev58_eq (c : Dev nD) : (⟨k0_dev58 c, k0_dev58_lt c⟩ : Dev nD) = fwd c 26 := by
  refine Fin.ext ?_
  revert c
  decide +kernel
theorem dev59_eq (c : Dev nD) : (⟨k0_dev59 c, k0_dev59_lt c⟩ : Dev nD) = fwd c 27 := by
  refine Fin.ext ?_
  revert c
  decide +kernel
theorem dev60_eq (c : Dev nD) : (⟨k0_dev60 c, k0_dev60_lt c⟩ : Dev nD) = fwd c 28 := by
  refine Fin.ext ?_
  revert c
  decide +kernel
theorem dev61_eq (c : Dev nD) : (⟨k0_dev61 c, k0_dev61_lt c⟩ : Dev nD) = fwd c 29 := by
  refine Fin.ext ?_
  revert c
  decide +kernel
theorem dev62_eq (c : Dev nD) : (⟨k0_dev62 c, k0_dev62_lt c⟩ : Dev nD) = fwd c 30 := by
  refine Fin.ext ?_
  revert c
  decide +kernel

end Cert.KernelIdeal.Coll

end
-- ==== Proof.KernelIdeal.Proto.lean ====
/-
  The exchange of row statistics among 32 devices, as a schedule of rounds.

  Device c signals the barrier semaphore of each of its 31 forward peers, computes the statistics of its own rows into
  row c of its scratch, waits for 31 units on its own barrier semaphore, copies row c into row c of each forward peer's
  scratch, waits for the 31 copies its backward peers make into its own scratch, reads all 32 rows, and at the end waits
  for its own 31 copies to have been read out.

  Cells and duties (one round each): a device's barrier cell has 31 unit duties, duty k paid by its k-th backward peer,
  which hands over the row of ITS scratch that this device will write (so a copy lands only in a scratch whose owner
  is inside the kernel); send cell k of a device has one duty, returning the share of the source row lent to copy k;
  receive cell k of a device has one duty, paid by its k-th backward peer's copy, handing over that peer's row of this
  device's scratch holding that peer's statistics.
-/
import proofs.«901062_g7700000000001063_dist_softmax_colshard_i_m2048_n1024_v7x_i32_f32_1_alg».proof.Proof.KernelIdeal.Spec
import proofs.«901062_g7700000000001063_dist_softmax_colshard_i_m2048_n1024_v7x_i32_f32_1_alg».proof.Proof.KernelIdeal.Ring
import proofs.«901062_g7700000000001063_dist_softmax_colshard_i_m2048_n1024_v7x_i32_f32_1_alg».proof.Proof.Gen.KernelIdeal
import proofs.«901062_g7700000000001063_dist_softmax_colshard_i_m2048_n1024_v7x_i32_f32_1_alg».proof.Proof.Gen.KernelIdeal.Skeleton
import proofs.«901062_g7700000000001063_dist_softmax_colshard_i_m2048_n1024_v7x_i32_f32_1_alg».proof.Proof.Gen.KernelIdeal.Launch
import proofs.«901062_g7700000000001063_dist_softmax_colshard_i_m2048_n1024_v7x_i32_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by Fin 31) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Memrefs and cells -/

abbrev xM : Memref sig .tc .vmem S2048x1024 .f32 := Memref.whole cc0_stg0_0
abbrev oM : Memref sig .tc .vmem S2048x1024 .f32 := Memref.whole cc0_stg1_0
abbrev sM : Memref sig .tc .vmem S32x4096 .f32 := Memref.whole cc0_scratch0

/-- Row r of the statistics scratch, as the kernel slices it. -/
abbrev rowM (r : Dev nD) : Memref sig .tc .vmem S4096 .f32 :=
  ((sM : Memref sig .tc .vmem S32x4096 .f32).slice (Rect.unit (s := S32x4096) (k0_off3 r) S1x4096.size (k0_off3_inb r)) (fun _ => rfl)).squeeze S4096 squeezes_S1x4096_S4096

abbrev barS : Sem sig := (SemArray.scalar (sig.barrier 0 rfl) : Sems sig S_).sem
/-- The k-th send semaphore and the k-th receive semaphore of the two scratch arrays of 31. -/
def sendS (k : Fin 31) : DmaSem sig := ⟨2 + k.val, by have := k.isLt; show 2 + k.val < 64; omega⟩
def recvS (k : Fin 31) : DmaSem sig := ⟨33 + k.val, by have := k.isLt; show 33 + k.val < 64; omega⟩

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-- The units one row's copy credits. -/
abbrev N : ℕ := (rowM (0 : Dev nD)).view.dmaCredit
theorem N_pos : 0 < N := View.dmaCredit_pos _ (by decide)
theorem row_credit (r : Dev nD) (s : DmaSem sig) : (rowM r).view.amount (.dma s) = N := rfl

/-! ## Contents -/

/-- Device c's block of the input, as staged. -/
def xstg (c : Dev nD) : (cc0_stg0_0 : Ref sig .tc).ty.Contents (Elt F) :=
  (win0_0.blk (0 : Fin 1)).view.read (Elt F) (m ((c : Thread nD τ).loc main_arg0))

/-- What every device's statistics scratch holds once all rows have landed: row d is device d's pair of rows,
    its 2048 local maxima then its 2048 local sums. -/
def statsOf (X : Dev nD → Vec F S2048x1024 .f32) : (cc0_scratch0 : Ref sig .tc).ty.Contents (Elt F) := fun i =>
  if h : (i 1).val < 2048 then Softmax.localMax (X ⟨(i 0).val, (i 0).isLt⟩) (ValueIdx.ix2 (0 : Fin 1) (⟨(i 1).val, h⟩ : Fin 2048))
  else Softmax.localSum (X ⟨(i 0).val, (i 0).isLt⟩)
    (ValueIdx.ix2 (0 : Fin 1) (⟨(i 1).val - 2048, by have h2 : (i 1).val < 4096 := (i 1).isLt; omega⟩ : Fin 2048))

/-- The device's result block. -/
def outAt (c : Dev nD) : (cc0_stg1_0 : Ref sig .tc).ty.Contents (Elt F) := Softmax.outAt (xstg m) c

/-- Row r of device dev's scratch, held at share q with contents f. -/
def rowPts (dev r : Dev nD) (q : PosShare TreeShare) (f : Buf (Elt F) ((rowM r).view.loc (dev : Thread nD τ))) : sProp 𝕄 :=
  (rowM r).view.loc (dev : Thread nD τ) ↦[(rowM r).view.set]{q} f

/-! ## Shares of the source row: copy k borrows shK k; after j copies the device keeps shRest j -/

def shRest : ℕ → PosShare TreeShare
  | 0 => fullShare
  | n + 1 => (shRest n).right
def shK (k : ℕ) : PosShare TreeShare := (shRest k).left

/-! ## The schedule -/

/-- Which copy a DMA semaphore serves: send k or receive k. -/
def sendIdx (s : SemLoc sig) : Option (Fin 31) := match s with
  | .dma d => if h : 2 ≤ d.val ∧ d.val < 33 then some ⟨d.val - 2, by omega⟩ else none
  | .reg _ => none
def recvIdx (s : SemLoc sig) : Option (Fin 31) := match s with
  | .dma d => if h : 33 ≤ d.val then some ⟨d.val - 33, by have h2 : d.val < 64 := d.isLt; omega⟩ else none
  | .reg _ => none

/-- Duty k of device c's barrier cell, paid by its k-th backward peer p: row c of p's scratch, at any contents. -/
def barPay (c : Dev nD) (k : Fin 31) : sProp 𝕄 := iprop(∃ f, rowPts (bwd c k) c fullShare f)
/-- The duty of device c's k-th receive cell: row (its k-th backward peer) of c's scratch, holding the statistics. -/
def recvPay (c : Dev nD) (k : Fin 31) : sProp 𝕄 := rowPts c (bwd c k) fullShare (statsOf (xstg m))
/-- The duty of device c's k-th send cell: the lent share of its own row back. -/
def sendPay (c : Dev nD) (k : Fin 31) : sProp 𝕄 := rowPts c c (shK k.val) (statsOf (xstg m))

def Rd : Rounds.Schedule (GSem nD τ sig) (Fin 31) 𝕄 where
  duties g r := if r = 0 ∧ g.1.2 = .tc then
      (if g.2 = .reg barS then Finset.univ else if (sendIdx g.2).isSome ∨ (recvIdx g.2).isSome then {0} else ∅) else ∅
  unitless _ := False
  amount g _ _ := if g.2 = .reg barS then 1 else N
  payload g _ d :=
    if g.2 = .reg barS then barPay g.1.1 d
    else match recvIdx g.2 with
      | some k => recvPay m g.1.1 k
      | none => match sendIdx g.2 with
        | some k => sendPay m g.1.1 k
        | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 31) :
    BI.Storable (upEmb : UEmb _ 𝕄) ((Rd (F := F) m).payload g r d) := by
  show BI.Storable upEmb (if g.2 = .reg barS then barPay g.1.1 d
    else match recvIdx g.2 with
      | some k => recvPay m g.1.1 k
      | none => match sendIdx g.2 with
        | some k => sendPay m g.1.1 k
        | none => iprop(emp))
  unfold barPay recvPay sendPay rowPts
  (repeat' split) <;> infer_instance

/-! ### The schedule's tables -/

/-! ## What each device owes at launch, and the levels -/

/-- The indices j, j+1, ..., 30. -/
abbrev ge (j : ℕ) : Finset (Fin 31) := Finset.univ.filter (fun k : Fin 31 => j ≤ k.val)
/-- The indices 0, ..., j-1. -/
abbrev lt (j : ℕ) : Finset (Fin 31) := Finset.univ.filter (fun k : Fin 31 => k.val < j)

/-- What device c still owes when signals js, js+1, ... are yet to be sent and copies jt, jt+1, ... yet to start:
    a unit to each of those peers' barrier cells and the copy's credit to each of those peers' receive cells. -/
def Oat (c : Dev nD) (js jt : ℕ) : CellTallies nD τ sig Unit :=
  (∑ k ∈ ge jt, tallyAt (recvCell (fwd c k) k) () N) + ∑ k ∈ ge js, tallyAt (barCell (fwd c k)) () 1
def O₀ (c : Dev nD) : CellTallies nD τ sig Unit := Oat c 0 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device runs with -/

/-- The 63 semaphores of the exchange on one device: the barrier, the 31 send, the 31 receive. -/
abbrev csem : Fin 63 → SemLoc sig := fun j =>
  if h : j.val = 0 then .reg barS
  else if h2 : j.val < 32 then .dma (sendS ⟨j.val - 1, by omega⟩)
  else .dma (recvS ⟨j.val - 32, by have := j.isLt; omega⟩)
abbrev kcell (ck : Dev nD × Fin 63) : GSem nD τ sig := ((ck.1 : Thread nD τ), csem ck.2)
def barJ : Fin 63 := ⟨0, by decide⟩
def sendJ (k : Fin 31) : Fin 63 := ⟨k.val + 1, by have := k.isLt; omega⟩
def recvJ (k : Fin 31) : Fin 63 := ⟨k.val + 32, by have := k.isLt; omega⟩

/-- Every cell's invariant, at the names K, and that round 0 of every cell is reached: persistent, the same for
    every device. -/
def records (K : Dev nD × Fin 63 → ℕ) : sProp 𝕄 :=
  iprop((bigSep Finset.univ fun ck : Dev nD × Fin 63 => cellInv ER (Rd m) (K ck) (kcell ck))
    ∗ bigSep Finset.univ fun ck : Dev nD × Fin 63 => reached ER (kcell ck) 0)

instance records_persistent (K : Dev nD × Fin 63 → ℕ) : BI.Persistent (records m K) := by unfold records; infer_instance

/-- The tokens of the duties device c pays: its forward peers' barrier duties and receive duties, its own send duties. -/
def payToks (c : Dev nD) : sProp 𝕄 :=
  iprop((bigSep Finset.univ fun k : Fin 31 => dutyTok ER (barCell (fwd c k)) 0 k)
    ∗ (bigSep Finset.univ fun k : Fin 31 => dutyTok ER (recvCell (fwd c k) k) 0 (0 : Fin 31))
    ∗ (bigSep Finset.univ fun k : Fin 31 => dutyTok ER (sendCell c k) 0 (0 : Fin 31)))

/-- Device c's positions: round 0 of its barrier, send and receive cells, nothing taken. -/
def positions (c : Dev nD) : sProp 𝕄 :=
  iprop(atPos ER (barCell c) 0 ∅ 0
    ∗ (bigSep Finset.univ fun k : Fin 31 => atPos ER (sendCell c k) 0 ∅ 0)
    ∗ (bigSep Finset.univ fun k : Fin 31 => atPos ER (recvCell c k) 0 ∅ 0))

def ghost (K : Dev nD × Fin 63 → ℕ) (c : Dev nD) : sProp 𝕄 := iprop(records m K ∗ positions c ∗ payToks c)

/-- The credit device c is dealt at launch: its barrier's 31 units and each receive cell's copy. -/
def creds (c : Dev nD) : sProp 𝕄 :=
  iprop(cred (tallyAt (barCell c) () 31) ∗ bigSep Finset.univ fun k : Fin 31 => cred (tallyAt (recvCell c k) () N))

/-- What device c's body starts from, besides the pipeline's: the ghost state at some names, the credit, the levels. -/
def start (c : Dev nD) : sProp 𝕄 := iprop((∃ K, ghost m K c) ∗ creds c ∗ levAts L lv)

/-- The whole scratch at some contents. -/
def scrAny (c : Dev nD) : sProp 𝕄 := iprop(∃ f : Buf (Elt F) ((c : Thread nD τ).loc cc0_scratch0), ((c : Thread nD τ).loc cc0_scratch0) ↦{fullShare} f)

/-- The device's own 62 scoped semaphores at zero. -/
def ownZero (c : Dev nD) : sProp 𝕄 :=
  iprop((bigSep Finset.univ fun k : Fin 31 => semVal (sendCell c k) 0) ∗ bigSep Finset.univ fun k : Fin 31 => semVal (recvCell c k) 0)

def Φ₀ (c : Dev nD) : sProp 𝕄 := iprop(start m c ∗ scrAny c)
def Φ₁ (c : Dev nD) : sProp 𝕄 := iprop(scrAny c ∗ ownZero c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Coll

end
-- ==== Proof.KernelIdeal.Tables.lean ====
/-
  The exchange's schedule read entry by entry: each cell's duties, amounts, expected units and payloads; what a
  device still owes after j signals or j copies; the levels that order the waits; each cell's invariant and reached
  round out of the shared records.
-/
import proofs.«901062_g7700000000001063_dist_softmax_colshard_i_m2048_n1024_v7x_i32_f32_1_alg».proof.Proof.KernelIdeal.Proto

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

/-! ### Which copy a semaphore serves, at the named semaphores -/

theorem dma_ne_bar (q : DmaSem sig) : (SemLoc.dma q : SemLoc sig) ≠ .reg barS := fun h => by cases h

theorem sendIdx_sendS (k : Fin 31) : sendIdx (.dma (sendS k)) = some k := by
  have hk := k.isLt
  unfold sendIdx sendS
  dsimp only
  rw [dif_pos (by omega)]
  exact congrArg some (Fin.ext (by show 2 + k.val - 2 = k.val; omega))

theorem recvIdx_sendS (k : Fin 31) : recvIdx (.dma (sendS k)) = none := by
  have hk := k.isLt
  unfold recvIdx sendS
  dsimp only
  rw [dif_neg (by omega)]

theorem recvIdx_recvS (k : Fin 31) : recvIdx (.dma (recvS k)) = some k := by
  have hk := k.isLt
  unfold recvIdx recvS
  dsimp only
  rw [dif_pos (by omega)]
  exact congrArg some (Fin.ext (by show 33 + k.val - 33 = k.val; omega))

theorem sendIdx_recvS (k : Fin 31) : sendIdx (.dma (recvS k)) = none := by
  have hk := k.isLt
  unfold sendIdx recvS
  dsimp only
  rw [dif_neg (by omega)]

theorem sendIdx_isSome (k : Fin 31) : (sendIdx (.dma (sendS k))).isSome = true := by rw [sendIdx_sendS]; rfl
theorem recvIdx_isSome (k : Fin 31) : (recvIdx (.dma (recvS k))).isSome = true := by rw [recvIdx_recvS]; rfl

section Sched
variable (c : Dev nD) (k : Fin 31)

theorem duties_bar : (Rd (F := F) m).duties (barCell c) 0 = Finset.univ := by
  dsimp only [Rd]
  exact (if_pos ⟨rfl, rfl⟩).trans (if_pos rfl)
theorem duties_send : (Rd (F := F) m).duties (sendCell c k) 0 = {0} := by
  dsimp only [Rd]
  exact (if_pos ⟨rfl, rfl⟩).trans ((if_neg (dma_ne_bar _)).trans (if_pos (Or.inl (sendIdx_isSome k))))
theorem duties_recv : (Rd (F := F) m).duties (recvCell c k) 0 = {0} := by
  dsimp only [Rd]
  exact (if_pos ⟨rfl, rfl⟩).trans ((if_neg (dma_ne_bar _)).trans (if_pos (Or.inr (recvIdx_isSome k))))
theorem duties_later (g : GSem nD τ sig) : ∀ r, 1 ≤ r → (Rd (F := F) m).duties g r = ∅ := fun r hr => by
  dsimp only [Rd]
  exact if_neg fun h => by have h0 := h.1; omega
theorem amount_bar (d : Fin 31) : (Rd (F := F) m).amount (barCell c) 0 d = 1 := by dsimp only [Rd]; exact if_pos rfl
theorem amount_send (d : Fin 31) : (Rd (F := F) m).amount (sendCell c k) 0 d = N := by dsimp only [Rd]; exact if_neg (dma_ne_bar _)
theorem amount_recv (d : Fin 31) : (Rd (F := F) m).amount (recvCell c k) 0 d = N := by dsimp only [Rd]; exact if_neg (dma_ne_bar _)
theorem expect_bar : (Rd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = N := by
  unfold Schedule.expect Schedule.amountOf; rw [duties_send, Finset.sum_singleton, amount_send]
theorem expect_recv : (Rd (F := F) m).expect (recvCell c k) 0 = N := by
  unfold Schedule.expect Schedule.amountOf; rw [duties_recv, Finset.sum_singleton, amount_recv]
theorem payload_bar (d : Fin 31) : (Rd (F := F) m).payload (barCell c) 0 d = barPay c d := by dsimp only [Rd]; rw [if_pos rfl]
theorem payload_send (d : Fin 31) : (Rd (F := F) m).payload (sendCell c k) 0 d = sendPay m c k := by
  dsimp only [Rd]
  rw [if_neg (dma_ne_bar _), recvIdx_sendS, sendIdx_sendS]
theorem payload_recv (d : Fin 31) : (Rd (F := F) m).payload (recvCell c k) 0 d = recvPay m c k := by
  dsimp only [Rd]
  rw [if_neg (dma_ne_bar _), recvIdx_recvS]
/-- The whole barrier round's payloads: one row of each backward peer's scratch. -/
theorem rest_bar : bigSep ((Rd (F := F) m).duties (barCell c) 0 \ ∅) (fun d => (Rd (F := F) m).payload (barCell c) 0 d)
    = bigSep Finset.univ (fun d : Fin 31 => barPay (F := F) c d) := by
  rw [Finset.sdiff_empty, duties_bar]
  exact bigSep_congr fun d _ => payload_bar m c d
theorem rest_send : bigSep ((Rd (F := F) m).duties (sendCell c k) 0 \ ∅) (fun d => (Rd (F := F) m).payload (sendCell c k) 0 d) = sendPay m c k := by
  rw [Finset.sdiff_empty, duties_send, bigSep_singleton, payload_send]
theorem rest_recv : bigSep ((Rd (F := F) m).duties (recvCell c k) 0 \ ∅) (fun d => (Rd (F := F) m).payload (recvCell c k) 0 d) = recvPay m c k := by
  rw [Finset.sdiff_empty, duties_recv, bigSep_singleton, payload_recv]

end Sched

/-! ## Owed tallies, levels, records -/

/-! ### The index sets j, j+1, ..., 30 -/

theorem ge_succ (k : Fin 31) : ge k.val = insert k (ge (k.val + 1)) := by
  ext j
  simp only [Finset.mem_filter, Finset.mem_univ, true_and, Finset.mem_insert]
  constructor
  · intro h
    by_cases e : j = k
    · exact Or.inl e
    · have hne : j.val ≠ k.val := fun h' => e (Fin.ext h')
      exact Or.inr (by omega)
  · rintro (rfl | h)
    · exact le_refl _
    · omega

theorem not_mem_ge_succ (k : Fin 31) : k ∉ ge (k.val + 1) := by
  simp only [Finset.mem_filter, Finset.mem_univ, true_and]
  omega

theorem ge_31 : ge 31 = ∅ := by
  ext j
  have hj := j.isLt
  simp only [Finset.mem_filter, Finset.mem_univ, true_and, Finset.notMem_empty, iff_false]
  omega

theorem Oat_sig (c : Dev nD) (k : Fin 31) (jt : ℕ) : Oat c k.val jt = Oat c (k.val + 1) jt + tallyAt (barCell (fwd c k)) () 1 := by
  unfold Oat
  rw [ge_succ k, Finset.sum_insert (not_mem_ge_succ k), add_comm (tallyAt (barCell (fwd c k)) () 1), ← add_assoc]
theorem Oat_send (c : Dev nD) (k : Fin 31) (js : ℕ) : Oat c js k.val = Oat c js (k.val + 1) + tallyAt (recvCell (fwd c k) k) () N := by
  unfold Oat
  rw [ge_succ k, Finset.sum_insert (not_mem_ge_succ k), add_comm (tallyAt (recvCell (fwd c k) k) () N), add_right_comm]
theorem Oat_end (c : Dev nD) : Oat c 31 31 = 0 := by
  unfold Oat
  rw [ge_31, Finset.sum_empty, Finset.sum_empty, add_zero]
/-- Something owed at a cell: it is a forward peer's barrier cell or a forward peer's receive cell. -/
theorem Oat_pos {c : Dev nD} {js jt : ℕ} {g : GSem nD τ sig} {u : Unit} (h : 0 < Oat c js jt g u) :
    (∃ k : Fin 31, g = barCell (fwd c k)) ∨ (∃ k : Fin 31, g = recvCell (fwd c k) k) := by
  unfold Oat at h
  rcases Pipeline.add_pos_cases h with h1 | h1
  · obtain ⟨k, _, hk⟩ := Pipeline.sum_pos_exists h1
    rw [tallyAt_apply] at hk
    by_cases e : g = recvCell (fwd c k) k ∧ u = ()
    · exact Or.inr ⟨k, e.1⟩
    · rw [if_neg e] at hk; exact absurd hk (Nat.lt_irrefl 0)
  · obtain ⟨k, _, hk⟩ := Pipeline.sum_pos_exists h1
    rw [tallyAt_apply] at hk
    by_cases e : g = barCell (fwd c k) ∧ u = ()
    · exact Or.inl ⟨k, e.1⟩
    · rw [if_neg e] at hk; exact absurd hk (Nat.lt_irrefl 0)
/-- With every signal sent, what is still owed sits at forward peers' receive cells only. -/
theorem Oat_31_pos {c : Dev nD} {jt : ℕ} {g : GSem nD τ sig} {u : Unit} (h : 0 < Oat c 31 jt g u) :
    ∃ k : Fin 31, g = recvCell (fwd c k) k := by
  unfold Oat at h
  rw [ge_31, Finset.sum_empty, add_zero] at h
  obtain ⟨k, _, hk⟩ := Pipeline.sum_pos_exists h
  rw [tallyAt_apply] at hk
  by_cases e : g = recvCell (fwd c k) k ∧ u = ()
  · exact ⟨k, e.1⟩
  · rw [if_neg e] at hk; exact absurd hk (Nat.lt_irrefl 0)

/-- A wait on a cell that is not a barrier or receive cell (staging, send) is allowed whatever of O₀ is still owed. -/
theorem mayWait_low (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases Oat_pos (show 0 < Oat c 0 0 g u from hg) with ⟨k, rfl⟩ | ⟨k, rfl⟩ <;> (rw [L_tc]; exact Finset.mem_singleton_self _))
      (fun p hp => by
        rw [Finset.mem_singleton.mp hp]; dsimp only [lv]
        rw [if_neg (dma_ne_bar q), if_neg (by rw [hq]; exact Bool.false_ne_true)])
      (fun g u hg => by
        rcases Oat_pos (show 0 < Oat c 0 0 g u from hg) with ⟨k, rfl⟩ | ⟨k, rfl⟩
        · dsimp only [lv]; rw [if_pos rfl]; decide
        · dsimp only [lv]; rw [if_neg (dma_ne_bar _), if_pos (recvIdx_isSome k)]; decide)
  · rw [MayWait_zero]; iintro -; iempintro
/-- At its barrier wait a device owes receive credits only: receive cells lie above barrier cells. -/
theorem mayWait_bar (c : Dev nD) :
    (levAts L lv : sProp 𝕄) ⊢ MayWait (c : Thread nD τ) (.reg barS) () (Oat c 31 0) :=
  MayOwe.of_cut (L := L) (lev := lv) 1 (fun p hp => by rw [Finset.mem_singleton.mp hp, L_tc]; exact Finset.mem_singleton_self _)
    (fun g u hg => by obtain ⟨k, rfl⟩ := Oat_31_pos hg; rw [L_tc]; exact Finset.mem_singleton_self _)
    (fun p hp => by rw [Finset.mem_singleton.mp hp]; dsimp only [lv]; rw [if_pos rfl])
    (fun g u hg => by
      obtain ⟨k, rfl⟩ := Oat_31_pos hg
      dsimp only [lv]; rw [if_neg (dma_ne_bar _), if_pos (recvIdx_isSome k)]; decide)
theorem csem_barJ : csem barJ = .reg barS := dif_pos rfl

theorem csem_sendJ (k : Fin 31) : csem (sendJ k) = .dma (sendS k) := by
  have hk := k.isLt
  have h0 : ¬ (sendJ k).val = 0 := by show ¬ k.val + 1 = 0; omega
  have h1 : (sendJ k).val < 32 := by show k.val + 1 < 32; omega
  show (if h : (sendJ k).val = 0 then (SemLoc.reg barS : SemLoc sig) else _) = _
  rw [dif_neg h0, dif_pos h1]
  exact congrArg (fun j => SemLoc.dma (sendS j)) (Fin.ext (by show k.val + 1 - 1 = k.val; omega))

theorem csem_recvJ (k : Fin 31) : csem (recvJ k) = .dma (recvS k) := by
  have hk := k.isLt
  have h0 : ¬ (recvJ k).val = 0 := by show ¬ k.val + 32 = 0; omega
  have h1 : ¬ (recvJ k).val < 32 := by show ¬ k.val + 32 < 32; omega
  show (if h : (recvJ k).val = 0 then (SemLoc.reg barS : SemLoc sig) else _) = _
  rw [dif_neg h0, dif_neg h1]
  exact congrArg (fun j => SemLoc.dma (recvS j)) (Fin.ext (by show k.val + 32 - 32 = k.val; omega))

theorem kcell_bar (c : Dev nD) : kcell (c, barJ) = barCell c := Prod.ext rfl csem_barJ
theorem kcell_send (c : Dev nD) (k : Fin 31) : kcell (c, sendJ k) = sendCell c k := Prod.ext rfl (csem_sendJ k)
theorem kcell_recv (c : Dev nD) (k : Fin 31) : kcell (c, recvJ k) = recvCell c k := Prod.ext rfl (csem_recvJ k)
/-- One cell's invariant out of the family of all cells' invariants. -/
theorem inv_at (K : Dev nD × Fin 63 → ℕ) (ck : Dev nD × Fin 63) :
    (bigSep Finset.univ fun ck : Dev nD × Fin 63 => (cellInv ER (Rd m) (K ck) (kcell ck) : sProp 𝕄)) ⊢ cellInv ER (Rd m) (K ck) (kcell ck) :=
  bigSep_elim (Finset.mem_univ ck)
/-- One cell's reached round out of the family of all cells'. -/
theorem reached_at (ck : Dev nD × Fin 63) :
    (bigSep Finset.univ fun ck : Dev nD × Fin 63 => (reached ER (kcell ck) 0 : sProp 𝕄)) ⊢ reached ER (kcell ck) 0 :=
  bigSep_elim (Finset.mem_univ ck)

theorem inv_bar (K : Dev nD × Fin 63 → ℕ) (c : Dev nD) : records m K ⊢ cellInv ER (Rd m) (K (c, barJ)) (barCell c) := by
  have h := inv_at m K (c, barJ)
  rw [kcell_bar] at h
  unfold records
  iintro ⟨HI, _⟩
  iapply h; iexact HI
theorem inv_send (K : Dev nD × Fin 63 → ℕ) (c : Dev nD) (k : Fin 31) : records m K ⊢ cellInv ER (Rd m) (K (c, sendJ k)) (sendCell c k) := by
  have h := inv_at m K (c, sendJ k)
  rw [kcell_send] at h
  unfold records
  iintro ⟨HI, _⟩
  iapply h; iexact HI
theorem inv_recv (K : Dev nD × Fin 63 → ℕ) (c : Dev nD) (k : Fin 31) : records m K ⊢ cellInv ER (Rd m) (K (c, recvJ k)) (recvCell c k) := by
  have h := inv_at m K (c, recvJ k)
  rw [kcell_recv] at h
  unfold records
  iintro ⟨HI, _⟩
  iapply h; iexact HI
theorem reached_bar (K : Dev nD × Fin 63 → ℕ) (c : Dev nD) : records m K ⊢ reached ER (barCell c) 0 := by
  have h := reached_at (F := F) (c, barJ)
  rw [kcell_bar] at h
  unfold records
  iintro ⟨_, HR⟩
  iapply h; iexact HR
theorem reached_send (K : Dev nD × Fin 63 → ℕ) (c : Dev nD) (k : Fin 31) : records m K ⊢ reached ER (sendCell c k) 0 := by
  have h := reached_at (F := F) (c, sendJ k)
  rw [kcell_send] at h
  unfold records
  iintro ⟨_, HR⟩
  iapply h; iexact HR
theorem reached_recv (K : Dev nD × Fin 63 → ℕ) (c : Dev nD) (k : Fin 31) : records m K ⊢ reached ER (recvCell c k) 0 := by
  have h := reached_at (F := F) (c, recvJ k)
  rw [kcell_recv] at h
  unfold records
  iintro ⟨_, HR⟩
  iapply h; iexact HR

end Cert.KernelIdeal.Coll

end
-- ==== Proof.KernelIdeal.States.lean ====
/-
  What a device holds at each point of its run, as ONE assertion indexed by how far it has got: js signals sent,
  whether its own statistics are written and its barrier wait done, jt copies started, jr receive waits done, whether
  its result is stored, jw send waits done. Each effect of the body moves one counter.
-/
import proofs.«901062_g7700000000001063_dist_softmax_colshard_i_m2048_n1024_v7x_i32_f32_1_alg».proof.Proof.KernelIdeal.Tables

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer held whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- How far a device has got. -/
structure Pg where
  js : ℕ
  stats : Bool
  bar : Bool
  jt : ℕ
  jr : ℕ
  out : Bool
  jw : ℕ

/-- Everything linear device c holds at progress p. In order: what it still owes; the tokens of the barrier duties it
    has yet to pay, and the rows of its own scratch it hands over with them; before its barrier wait its position and
    credit there, after it the rows of its forward peers' scratches it has yet to write; the tokens of the copies yet
    to start; its own row (any contents before its statistics are written, then the statistics at the share not lent
    out); its send cells' positions, the credit of copies in flight, and for each finished send wait the cell closed
    and the lent share back; its receive cells' positions and credit, and for each finished receive wait the cell
    closed and the peer's row holding the peer's statistics; the two staging buffers. -/
def St (c : Dev nD) (p : Pg) : sProp 𝕄 := iprop(
  (∃ W, owes (c : Thread nD τ) (Oat c p.js p.jt) W)
  ∗ (bigSep (ge p.js) fun k => dutyTok ER (barCell (fwd c k)) 0 k)
  ∗ (bigSep (ge p.js) fun k => iprop(∃ f, rowPts (F := F) c (fwd c k) fullShare f))
  ∗ (if p.bar then (bigSep (ge p.jt) fun k => iprop(∃ f, rowPts (F := F) (fwd c k) c fullShare f))
     else iprop(atPos ER (barCell c) 0 ∅ 0 ∗ cred (tallyAt (barCell c) () 31)))
  ∗ (bigSep (ge p.jt) fun k => iprop(dutyTok ER (recvCell (fwd c k) k) 0 (0 : Fin 31) ∗ dutyTok ER (sendCell c k) 0 (0 : Fin 31)))
  ∗ (if p.stats then rowPts c c (shRest p.jt) (statsOf (xstg m)) else iprop(∃ f, rowPts (F := F) c c fullShare f))
  ∗ (bigSep (ge p.jw) fun k => atPos ER (sendCell c k) 0 ∅ 0)
  ∗ (bigSep (lt p.jt ∩ ge p.jw) fun k => cred (tallyAt (sendCell c k) () N))
  ∗ (bigSep (lt p.jw) fun k => iprop(semVal (sendCell c k) 0 ∗ rowPts c c (shK k.val) (statsOf (xstg m))))
  ∗ (bigSep (ge p.jr) fun k => iprop(atPos ER (recvCell c k) 0 ∅ 0 ∗ cred (tallyAt (recvCell c k) () N)))
  ∗ (bigSep (lt p.jr) fun k => iprop(semVal (recvCell c k) 0 ∗ rowPts c (bwd c k) fullShare (statsOf (xstg m))))
  ∗ stg c cc0_stg0_0 (xstg m c)
  ∗ (if p.out then stg c cc0_stg1_0 (outAt m c) else iprop(∃ f, (((c : Thread nD τ).loc cc0_stg1_0) ↦{fullShare} f))))

/-! ## The points the body passes through -/

/-- j signals sent. -/
abbrev pS (j : ℕ) : Pg := ⟨j, false, false, 0, 0, false, 0⟩
/-- All signals sent and the device's own statistics written. -/
abbrev pStats : Pg := ⟨31, true, false, 0, 0, false, 0⟩
/-- The barrier wait done and j copies started. -/
abbrev pT (j : ℕ) : Pg := ⟨31, true, true, j, 0, false, 0⟩
/-- All copies started and j receive waits done. -/
abbrev pR (j : ℕ) : Pg := ⟨31, true, true, 31, j, false, 0⟩
/-- The result stored and j send waits done. -/
abbrev pW (j : ℕ) : Pg := ⟨31, true, true, 31, 31, true, j⟩

/-! ## The body's pre and post, as the pipeline states them -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (K : Dev nD × Fin 63 → ℕ) (c : Dev nD) : sProp 𝕄 :=
  iprop((ghost m K c ∗ creds c ∗ levAts L lv ∗ scrAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The whole body on device c. -/
abbrev bodyOn : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.KernelIdeal.Coll

end
-- ==== Proof.KernelIdeal.Geom.lean ====
/-
  The statistics scratch as 32 rows: the rows' element sets tile the buffer; a points-to over the whole buffer is the
  32 rows' points-tos; the device's own row and its 31 peers' rows; the share sequence a row is lent out by; what the
  two stores of the local statistics leave in the device's own row, what a landed copy leaves in a peer's row, and
  what the two final loads read.
-/
import proofs.«901062_g7700000000001063_dist_softmax_colshard_i_m2048_n1024_v7x_i32_f32_1_alg».proof.Proof.KernelIdeal.States
import Idealize.ShloMosaic.Lib.Pipeline.Value
import Idealize.ShloMosaic.Rules.PointsTo

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- In this model two assertions that entail each other are equal, and conversely. -/
theorem eq_of_equiv {P Q : sProp 𝕄} (h : P ⊣⊢ Q) : P = Q := BI.equiv_iff.mp ⟨h.1, h.2⟩
theorem equiv_of_eq {P Q : sProp 𝕄} (e : P = Q) : P ⊣⊢ Q := by subst e; exact .rfl

section Geom

variable (c : Dev nD)

/-! ## Rows -/

/-- An element of the scratch is in row r when its first coordinate is r. -/
theorem mem_row_set (dev r : Dev nD) (i : Idx ((rowM r).view.loc (dev : Thread nD τ))) :
    i ∈ (rowM r).view.set ↔ (i 0).val = r.val := by
  have hi1 : (i 1).val < 4096 := (i 1).isLt
  simp only [Memref.view_squeeze, Memref.view_slice, Memref.view_whole, View.set_reshape, View.set_slice_whole, Rect.mem_set_unit, k0_off3_eq r]
  constructor
  · intro h
    have h0 : r.val ≤ (i 0).val ∧ (i 0).val < r.val + 1 := h 0
    omega
  · intro h
    refine Fin.forall_fin_two.mpr ⟨?_, ?_⟩
    · show r.val ≤ (i 0).val ∧ (i 0).val < r.val + 1
      omega
    · show 0 ≤ (i 1).val ∧ (i 1).val < 0 + 4096
      omega

theorem row_sets_disjoint (dev : Dev nD) {r r' : Dev nD} (h : r ≠ r') :
    Disjoint ((rowM r).view.set : Finset (Idx ((rowM r).view.loc (dev : Thread nD τ)))) (rowM r').view.set :=
  Finset.disjoint_left.mpr fun i hi hi' =>
    h (Fin.ext (((mem_row_set dev r i).mp hi).symm.trans ((mem_row_set dev r' i).mp hi')))

/-- The whole scratch at share q is its 32 rows at share q. -/
theorem scratch_rows (dev : Dev nD) (q : PosShare TreeShare) (f : Buf (Elt F) ((dev : Thread nD τ).loc cc0_scratch0)) :
    ((((dev : Thread nD τ).loc cc0_scratch0) ↦{q} f : sProp 𝕄)) ⊣⊢ bigSep Finset.univ (fun r : Dev nD => rowPts (F := F) dev r q f) := by
  have hU : (Finset.univ : Finset (Idx ((dev : Thread nD τ).loc cc0_scratch0)))
      = (Finset.univ : Finset (Dev nD)).biUnion (fun r => ((rowM r).view.set : Finset (Idx ((dev : Thread nD τ).loc cc0_scratch0)))) := by
    ext i
    simp only [Finset.mem_univ, Finset.mem_biUnion, true_and, true_iff]
    exact ⟨⟨(i 0).val, (i 0).isLt⟩, (mem_row_set dev ⟨(i 0).val, (i 0).isLt⟩ i).mpr rfl⟩
  refine equiv_of_eq ?_
  rw [hU, pointsTo_biUnion _ _ (fun r _ r' _ h => row_sets_disjoint dev h)]
  rfl

/-- The 32 devices: device c, and the image of its 31 forward (backward) peers. -/
theorem univ_eq_insert_fwd : (Finset.univ : Finset (Dev nD)) = insert c ((Finset.univ : Finset (Fin 31)).map ⟨fwd c, fwd_injective c⟩) := by
  ext d
  simp only [Finset.mem_univ, Finset.mem_insert, Finset.mem_map, Function.Embedding.coeFn_mk, true_and, true_iff]
  by_cases h : d = c
  · exact Or.inl h
  · obtain ⟨k, hk⟩ := exists_fwd c d h
    exact Or.inr ⟨k, hk⟩
theorem not_mem_fwd : c ∉ (Finset.univ : Finset (Fin 31)).map ⟨fwd c, fwd_injective c⟩ := by
  simp only [Finset.mem_map, Finset.mem_univ, true_and, Function.Embedding.coeFn_mk, not_exists]
  exact fun k => fwd_ne c k
theorem univ_eq_insert_bwd : (Finset.univ : Finset (Dev nD)) = insert c ((Finset.univ : Finset (Fin 31)).map ⟨bwd c, bwd_injective c⟩) := by
  ext d
  simp only [Finset.mem_univ, Finset.mem_insert, Finset.mem_map, Function.Embedding.coeFn_mk, true_and, true_iff]
  by_cases h : d = c
  · exact Or.inl h
  · obtain ⟨k, hk⟩ := exists_bwd c d h
    exact Or.inr ⟨k, hk⟩
theorem not_mem_bwd : c ∉ (Finset.univ : Finset (Fin 31)).map ⟨bwd c, bwd_injective c⟩ := by
  simp only [Finset.mem_map, Finset.mem_univ, true_and, Function.Embedding.coeFn_mk, not_exists]
  exact fun k => bwd_ne c k

/-- The 32 devices are device c and its 31 forward peers; -/
theorem dev_split_fwd (Φ : Dev nD → sProp 𝕄) :
    bigSep Finset.univ Φ ⊣⊢ iprop(Φ c ∗ bigSep Finset.univ (fun k : Fin 31 => Φ (fwd c k))) :=
  equiv_of_eq (by rw [univ_eq_insert_fwd c, bigSep_insert (not_mem_fwd c), bigSep_map]; rfl)
/-- and device c and its 31 backward peers. -/
theorem dev_split_bwd (Φ : Dev nD → sProp 𝕄) :
    bigSep Finset.univ Φ ⊣⊢ iprop(Φ c ∗ bigSep Finset.univ (fun k : Fin 31 => Φ (bwd c k))) :=
  equiv_of_eq (by rw [univ_eq_insert_bwd c, bigSep_insert (not_mem_bwd c), bigSep_map]; rfl)
/-- Forward peer k is backward peer 30 - k. -/
theorem bigSep_fwd_bwd (Φ : Dev nD → sProp 𝕄) :
    bigSep Finset.univ (fun k : Fin 31 => Φ (fwd c k)) ⊣⊢ bigSep Finset.univ (fun k : Fin 31 => Φ (bwd c k)) :=
  equiv_of_eq ((bigSep_congr fun k _ => by rw [fwd_eq_bwd_rev c k]; rfl).trans
    (bigSep_univ_equiv Fin.revPerm (fun k : Fin 31 => Φ (bwd c k))).symm)

/-! ## Index sets -/

theorem ge_zero : ge 0 = Finset.univ := by
  ext j
  simp only [Finset.mem_filter, Finset.mem_univ, true_and, iff_true]
  omega
theorem lt_zero : lt 0 = ∅ := by
  ext j
  simp only [Finset.mem_filter, Finset.mem_univ, true_and, Finset.notMem_empty, iff_false]
  omega
theorem lt_31 : lt 31 = Finset.univ := by
  ext j
  have hj := j.isLt
  simp only [Finset.mem_filter, Finset.mem_univ, true_and, iff_true]
  omega
/-- Index k is the greatest of 0, ..., k. -/
theorem lt_push (k : Fin 31) : lt (k.val + 1) = insert k (lt k.val) ∧ k ∉ lt k.val := by
  refine ⟨?_, ?_⟩
  · ext j
    simp only [Finset.mem_filter, Finset.mem_univ, true_and, Finset.mem_insert]
    constructor
    · intro h
      by_cases e : j = k
      · exact Or.inl e
      · have hne : j.val ≠ k.val := fun h' => e (Fin.ext h')
        exact Or.inr (by omega)
    · rintro (rfl | h)
      · omega
      · omega
  · simp only [Finset.mem_filter, Finset.mem_univ, true_and]
    omega
theorem bigSep_ge_peel (k : Fin 31) (Φ : Fin 31 → sProp 𝕄) :
    bigSep (ge k.val) Φ ⊣⊢ iprop(Φ k ∗ bigSep (ge (k.val + 1)) Φ) :=
  equiv_of_eq ((congrArg (fun s => bigSep s Φ) (ge_succ k)).trans (bigSep_insert (not_mem_ge_succ k)))
theorem bigSep_lt_push (k : Fin 31) (Φ : Fin 31 → sProp 𝕄) :
    bigSep (lt (k.val + 1)) Φ ⊣⊢ iprop(Φ k ∗ bigSep (lt k.val) Φ) :=
  equiv_of_eq ((congrArg (fun s => bigSep s Φ) (lt_push k).1).trans (bigSep_insert (lt_push k).2))

/-! ## Shares -/

/-- The share kept after n loans is the n-th loan and the share kept after n + 1. -/
theorem share_step {ℓ : Loc nD τ sig} (I : Finset (Idx ℓ)) (f : Buf (Elt F) ℓ) (n : ℕ) :
    (ℓ ↦[I]{shRest n} f : sProp 𝕄) ⊣⊢ iprop((ℓ ↦[I]{shK n} f) ∗ ℓ ↦[I]{shRest (n + 1)} f) :=
  pointsTo_share (PosShare.mem_left_op_right (shRest n))
/-- Moving the first of three to the middle. -/
theorem sep_rotate (P Q R : sProp 𝕄) : (iprop((P ∗ Q) ∗ R) : sProp 𝕄) = iprop(Q ∗ (P ∗ R)) :=
  eq_of_equiv ⟨by
      iintro ⟨⟨HP, HQ⟩, HR⟩
      isplitl [HQ]
      · iexact HQ
      · isplitl [HP]
        · iexact HP
        · iexact HR,
    by
      iintro ⟨HQ, HP, HR⟩
      isplitr [HR]
      · isplitl [HP]
        · iexact HP
        · iexact HQ
      · iexact HR⟩

/-- The full share is the first n loans and what is kept after them. -/
theorem share_upto {ℓ : Loc nD τ sig} (I : Finset (Idx ℓ)) (f : Buf (Elt F) ℓ) (n : ℕ) (hn : n ≤ 31) :
    (ℓ ↦[I]{fullShare} f : sProp 𝕄) ⊣⊢ iprop((ℓ ↦[I]{shRest n} f) ∗ bigSep (lt n) (fun k : Fin 31 => (ℓ ↦[I]{shK k.val} f : sProp 𝕄))) := by
  induction n with
  | zero =>
    rw [lt_zero, bigSep_empty]
    exact equiv_of_eq (BI.equiv_iff.mp BI.sep_emp).symm
  | succ n ih =>
    have hk : n < 31 := by omega
    have hp : lt (n + 1) = insert (⟨n, hk⟩ : Fin 31) (lt n) := (lt_push ⟨n, hk⟩).1
    have hq : (⟨n, hk⟩ : Fin 31) ∉ lt n := (lt_push ⟨n, hk⟩).2
    have e1 := eq_of_equiv (ih (by omega))
    have e2 := eq_of_equiv (share_step (F := F) I f n)
    refine equiv_of_eq ?_
    rw [hp, bigSep_insert hq, e1, e2]
    exact sep_rotate _ _ _

/-- The full share is the 31 loans and what is kept after them. -/
theorem share_all {ℓ : Loc nD τ sig} (I : Finset (Idx ℓ)) (f : Buf (Elt F) ℓ) :
    (ℓ ↦[I]{fullShare} f : sProp 𝕄) ⊣⊢ iprop((ℓ ↦[I]{shRest 31} f) ∗ bigSep Finset.univ (fun k : Fin 31 => (ℓ ↦[I]{shK k.val} f : sProp 𝕄))) := by
  have h := share_upto (F := F) I f 31 (le_refl 31)
  rw [lt_31] at h
  exact h

/-! ## Contents -/

/-- A copy of row r of fs over row r of fd leaves, on row r, what fs holds there. -/
theorem landed_row (dev dev' r : Dev nD) (fd : Buf (Elt F) ((rowM r).view.loc (dev' : Thread nD τ))) (fs : Buf (Elt F) ((rowM r).view.loc (dev : Thread nD τ)))
    (g : Buf (Elt F) ((rowM r).view.loc (dev' : Thread nD τ)))
    (hg : ∀ i, (i 0).val = r.val → g i = fs i) :
    ((rowM r).view.loc (dev' : Thread nD τ) ↦[(rowM r).view.set]{fullShare} ((rowM r).view.write (Elt F) fd ((rowM r).view.read (Elt F) fs) Finset.univ) : sProp 𝕄)
      = ((rowM r).view.loc (dev' : Thread nD τ) ↦[(rowM r).view.set]{fullShare} g) := by
  refine pointsTo_congr fun i hi => ?_
  have hrow : (i 0).val = r.val := (mem_row_set dev' r i).mp hi
  obtain ⟨x, hx⟩ := View.exists_emb_of_mem_set _ hi
  have e := View.write_emb_of_mem (v := (rowM r).view) (Val := Elt F) fd ((rowM r).view.read (Elt F) fs) (M := Finset.univ) (x := x) (Finset.mem_univ x)
  rw [hx] at e
  rw [e, View.read_apply, hx, hg i hrow]
  simp only [cast_cast, cast_eq]

/-- The two half-row rectangles the local statistics are stored through, and loaded through first, lie in the
    device's own row. -/
theorem half1_sub_row : ((sM : Memref sig .tc .vmem S32x4096 .f32).access (Rect.unit (s := S32x4096) (k0_off1 c) S1x2048.size (k0_off1_inb c))).setOn Finset.univ
    ⊆ ((rowM c).view.set : Finset (Idx ((rowM c).view.loc (c : Thread nD τ)))) := by
  intro i hi
  simp only [Memref.access, View.setOn_univ, Memref.view_whole, View.set_slice_whole, Rect.mem_set_unit, k0_off1_eq c] at hi
  refine (mem_row_set c c i).mpr ?_
  have h0 : c.val ≤ (i 0).val ∧ (i 0).val < c.val + 1 := hi 0
  omega
theorem half2_sub_row : ((sM : Memref sig .tc .vmem S32x4096 .f32).access (Rect.unit (s := S32x4096) (k0_off2 c) S1x2048.size (k0_off2_inb c))).setOn Finset.univ
    ⊆ ((rowM c).view.set : Finset (Idx ((rowM c).view.loc (c : Thread nD τ)))) := by
  intro i hi
  simp only [Memref.access, View.setOn_univ, Memref.view_whole, View.set_slice_whole, Rect.mem_set_unit, k0_off2_eq c] at hi
  refine (mem_row_set c c i).mpr ?_
  have h0 : c.val ≤ (i 0).val ∧ (i 0).val < c.val + 1 := hi 0
  omega
theorem half1_load_sub_row : (sM : Memref sig .tc .vmem S32x4096 .f32).view.setOn (Rect.unit (s := S32x4096) (k0_off1 c) S1x2048.size (k0_off1_inb c)).toLoadRect.set
    ⊆ ((rowM c).view.set : Finset (Idx ((rowM c).view.loc (c : Thread nD τ)))) := by
  intro i hi
  obtain ⟨j, hj, hji⟩ := Finset.mem_map.mp hi
  have hj' := Rect.mem_set_unit.mp hj
  rw [k0_off1_eq c] at hj'
  refine (mem_row_set c c i).mpr ?_
  have h0 : c.val ≤ (j 0).val ∧ (j 0).val < c.val + 1 := hj' 0
  have hij : (i 0).val = (j 0).val := by rw [← hji]; rfl
  omega
theorem half2_load_sub_row : (sM : Memref sig .tc .vmem S32x4096 .f32).view.setOn (Rect.unit (s := S32x4096) (k0_off2 c) S1x2048.size (k0_off2_inb c)).toLoadRect.set
    ⊆ ((rowM c).view.set : Finset (Idx ((rowM c).view.loc (c : Thread nD τ)))) := by
  intro i hi
  obtain ⟨j, hj, hji⟩ := Finset.mem_map.mp hi
  have hj' := Rect.mem_set_unit.mp hj
  rw [k0_off2_eq c] at hj'
  refine (mem_row_set c c i).mpr ?_
  have h0 : c.val ≤ (j 0).val ∧ (j 0).val < c.val + 1 := hj' 0
  have hij : (i 0).val = (j 0).val := by rw [← hji]; rfl
  omega

/-- The first half-row rectangle places column q of its one row at column q of row c of the scratch; -/
theorem half1_emb (q : Fin 2048) (i : Idx ((c : Thread nD τ).loc cc0_scratch0)) (hi0 : (i 0).val = c.val) (hi1 : (i 1).val = q.val) :
    ((sM : Memref sig .tc .vmem S32x4096 .f32).access (Rect.unit (s := S32x4096) (k0_off1 c) S1x2048.size (k0_off1_inb c))).emb (ValueIdx.ix2 (0 : Fin 1) q) = i := by
  funext a
  refine Fin.ext ?_
  match a with
  | ⟨0, _⟩ =>
    show k0_off1 c 0 + 1 * 0 = (i 0).val
    rw [k0_off1_eq c]
    show c.val + 1 * 0 = (i 0).val
    omega
  | ⟨1, _⟩ =>
    show k0_off1 c 1 + 1 * q.val = (i 1).val
    rw [k0_off1_eq c]
    show 0 + 1 * q.val = (i 1).val
    omega
/-- the second at column 2048 + q. -/
theorem half2_emb (q : Fin 2048) (i : Idx ((c : Thread nD τ).loc cc0_scratch0)) (hi0 : (i 0).val = c.val) (hi1 : (i 1).val = 2048 + q.val) :
    ((sM : Memref sig .tc .vmem S32x4096 .f32).access (Rect.unit (s := S32x4096) (k0_off2 c) S1x2048.size (k0_off2_inb c))).emb (ValueIdx.ix2 (0 : Fin 1) q) = i := by
  funext a
  refine Fin.ext ?_
  match a with
  | ⟨0, _⟩ =>
    show k0_off2 c 0 + 1 * 0 = (i 0).val
    rw [k0_off2_eq c]
    show c.val + 1 * 0 = (i 0).val
    omega
  | ⟨1, _⟩ =>
    show k0_off2 c 1 + 1 * q.val = (i 1).val
    rw [k0_off2_eq c]
    show 2048 + 1 * q.val = (i 1).val
    omega

/-- The statistics at row d, column q below 2048: device d's local maximum of row q; -/
theorem statsOf_max (X : Dev nD → Vec F S2048x1024 .f32) (i : Idx ((c : Thread nD τ).loc cc0_scratch0)) (d : Dev nD) (q : Fin 2048)
    (h0 : (i 0).val = d.val) (h1 : (i 1).val = q.val) :
    statsOf X i = Softmax.localMax (X d) (ValueIdx.ix2 (0 : Fin 1) q) := by
  have hq := q.isLt
  have h : (i 1).val < 2048 := by omega
  have e0 : (⟨(i 0).val, (i 0).isLt⟩ : Dev nD) = d := Fin.ext h0
  have e1 : (⟨(i 1).val, h⟩ : Fin 2048) = q := Fin.ext h1
  show (if h : (i 1).val < 2048 then _ else _) = _
  rw [dif_pos h, e0, e1]
/-- at column 2048 + q: device d's local sum of row q. -/
theorem statsOf_sum (X : Dev nD → Vec F S2048x1024 .f32) (i : Idx ((c : Thread nD τ).loc cc0_scratch0)) (d : Dev nD) (q : Fin 2048)
    (h0 : (i 0).val = d.val) (h1 : (i 1).val = 2048 + q.val) :
    statsOf X i = Softmax.localSum (X d) (ValueIdx.ix2 (0 : Fin 1) q) := by
  have hq := q.isLt
  have h : ¬ (i 1).val < 2048 := by omega
  have e0 : (⟨(i 0).val, (i 0).isLt⟩ : Dev nD) = d := Fin.ext h0
  have e1 : ∀ hlt, (⟨(i 1).val - 2048, hlt⟩ : Fin 2048) = q := fun _ => Fin.ext (by show (i 1).val - 2048 = q.val; omega)
  show (if h : (i 1).val < 2048 then _ else _) = _
  rw [dif_neg h, e0, e1]

/-- Storing the row of local maxima through the first half-row rectangle and the row of local sums through the second
    leaves, on the device's own row, the statistics. -/
theorem stored_stats (X : Dev nD → Vec F S2048x1024 .f32) (f : Buf (Elt F) ((c : Thread nD τ).loc cc0_scratch0))
    (i : Idx ((c : Thread nD τ).loc cc0_scratch0)) (hi : (i 0).val = c.val) :
    (((sM : Memref sig .tc .vmem S32x4096 .f32).access (Rect.unit (s := S32x4096) (k0_off2 c) S1x2048.size (k0_off2_inb c))).write (Elt F)
      (((sM : Memref sig .tc .vmem S32x4096 .f32).access (Rect.unit (s := S32x4096) (k0_off1 c) S1x2048.size (k0_off1_inb c))).write (Elt F) f (Softmax.localMax (X c)) Finset.univ)
      (Softmax.localSum (X c)) Finset.univ) i = statsOf X i := by
  have hi1 : (i 1).val < 4096 := (i 1).isLt
  by_cases h : (i 1).val < 2048
  · have hnot : i ∉ ((sM : Memref sig .tc .vmem S32x4096 .f32).access (Rect.unit (s := S32x4096) (k0_off2 c) S1x2048.size (k0_off2_inb c))).setOn Finset.univ := by
      intro hm
      simp only [Memref.access, View.setOn_univ, Memref.view_whole, View.set_slice_whole, Rect.mem_set_unit, k0_off2_eq c] at hm
      have h1 : 2048 ≤ (i 1).val ∧ (i 1).val < 2048 + 2048 := hm 1
      omega
    rw [View.write_of_not_mem _ _ _ hnot]
    have e := View.write_emb_of_mem (v := ((sM : Memref sig .tc .vmem S32x4096 .f32).access (Rect.unit (s := S32x4096) (k0_off1 c) S1x2048.size (k0_off1_inb c)))) (Val := Elt F) f (Softmax.localMax (X c)) (M := Finset.univ)
      (x := ValueIdx.ix2 (0 : Fin 1) (⟨(i 1).val, h⟩ : Fin 2048)) (Finset.mem_univ _)
    rw [half1_emb c ⟨(i 1).val, h⟩ i hi rfl] at e
    rw [e, statsOf_max c X i c ⟨(i 1).val, h⟩ hi rfl]
    simp only [cast_eq]
  · have hq : (i 1).val - 2048 < 2048 := by omega
    have e := View.write_emb_of_mem (v := ((sM : Memref sig .tc .vmem S32x4096 .f32).access (Rect.unit (s := S32x4096) (k0_off2 c) S1x2048.size (k0_off2_inb c)))) (Val := Elt F)
      (((sM : Memref sig .tc .vmem S32x4096 .f32).access (Rect.unit (s := S32x4096) (k0_off1 c) S1x2048.size (k0_off1_inb c))).write (Elt F) f (Softmax.localMax (X c)) Finset.univ) (Softmax.localSum (X c)) (M := Finset.univ)
      (x := ValueIdx.ix2 (0 : Fin 1) (⟨(i 1).val - 2048, hq⟩ : Fin 2048)) (Finset.mem_univ _)
    have h1 : (i 1).val = 2048 + (⟨(i 1).val - 2048, hq⟩ : Fin 2048).val := by show (i 1).val = 2048 + ((i 1).val - 2048); omega
    rw [half2_emb c ⟨(i 1).val - 2048, hq⟩ i hi h1] at e
    rw [e, statsOf_sum c X i c ⟨(i 1).val - 2048, hq⟩ hi h1]
    simp only [cast_eq]

/-- The first final load reads the 32 rows of maxima, the second the 32 rows of sums. -/
theorem read_allM (X : Dev nD → Vec F S2048x1024 .f32) :
    (sM : Memref sig .tc .vmem S32x4096 .f32).view.readAt (Elt F) (Rect.unit (s := S32x4096) ![0, 0] S32x2048.size inb_S32x4096_S32x2048_0_0).toLoadRect (statsOf X)
      = Softmax.allM X := by
  funext j
  have hj1 : (j 1).val < 2048 := (j 1).isLt
  rw [View.readAt_apply, View.read_apply]
  rw [statsOf_max ⟨(j 0).val, (j 0).isLt⟩ X _ ⟨(j 0).val, (j 0).isLt⟩ ⟨(j 1).val, (j 1).isLt⟩
    (by show 0 + 1 * (j 0).val = (j 0).val; omega) (by show 0 + 1 * (j 1).val = (j 1).val; omega)]
  simp only [cast_eq]
  rfl
theorem read_allS (X : Dev nD → Vec F S2048x1024 .f32) :
    (sM : Memref sig .tc .vmem S32x4096 .f32).view.readAt (Elt F) (Rect.unit (s := S32x4096) ![0, 2048] S32x2048.size inb_S32x4096_S32x2048_0_2048).toLoadRect (statsOf X)
      = Softmax.allS X := by
  funext j
  have hj1 : (j 1).val < 2048 := (j 1).isLt
  rw [View.readAt_apply, View.read_apply]
  rw [statsOf_sum ⟨(j 0).val, (j 0).isLt⟩ X _ ⟨(j 0).val, (j 0).isLt⟩ ⟨(j 1).val, (j 1).isLt⟩
    (by show 0 + 1 * (j 0).val = (j 0).val; omega) (by show 2048 + 1 * (j 1).val = 2048 + (j 1).val; omega)]
  simp only [cast_eq]
  rfl

end Geom

end Cert.KernelIdeal.Coll

end
-- ==== Proof.KernelIdeal.Steps.lean ====
/-
  One lemma per kind of effect of the body: each takes the device's state at one point to its state at the next.
  A signal pays one barrier duty with the row it hands over; the barrier wait takes the whole round, one row of each
  peer's scratch; a copy lends a share of the source row, writes the peer's row and pays that peer's receive duty; a
  receive wait takes the landed row and closes the cell; a send wait takes the lent share back and closes the cell.
-/
import proofs.«901062_g7700000000001063_dist_softmax_colshard_i_m2048_n1024_v7x_i32_f32_1_alg».proof.Proof.KernelIdeal.Geom

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × Fin 63 → ℕ) (c : Dev nD)

/-- Signal k: to the k-th forward peer's barrier semaphore. -/
theorem sig_step {α : Type} {Q : α → sProp 𝕄} (k : Fin 31) {cont : PUnit → Prog (TpuEff nD τ sig (Elt F) Λ₀ .tc) α} :
    iprop(records m K ∗ St m c (pS k.val))
      ⊢ iprop((St m c (pS (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((fwd c k : Dev nD) : Thread nD τ) barS (1#32 : BitVec 32).toNat) cont) Q) := by
  unfold St
  dsimp only
  iintro ⟨#HR, ⟨%W, HO⟩, Htok, Hrows, Hrest⟩ Hk
  ihave Ht := (bigSep_ge_peel k _).1 $$ Htok
  icases Ht with ⟨Ht, Htok⟩
  ihave Hr := (bigSep_ge_peel k _).1 $$ Hrows
  icases Hr with ⟨Hr, Hrows⟩
  iapply (Rounds.wp_signal 𝒱₀ ER (Rd m) (c : Thread nD τ) none (dst := ((fwd c k : Dev nD) : Thread nD τ)) (κ := K (fwd c k, barJ))
      (d := k) (by rw [duties_bar]; exact Finset.mem_univ _) ((amount_bar m (fwd c k) k).trans (by decide)) () (Oat c (k.val + 1) 0) (Oat_sig c k 0))
    $$ [HO Ht Hr]
  · isplitr; · iapply (inv_bar m K (fwd c k)); iexact HR
    isplitl [HO]; · iexact HO
    isplitl [Ht]; · iexact Ht
    isplitl [Hr]
    · rw [payload_bar]; unfold barPay; rw [bwd_fwd]; iexact Hr
    · iapply (reached_bar m K (fwd c k)); iexact HR
  iintro HO
  iapply Hk
  isplitl [HO]; · iexists W; iexact HO
  isplitl [Htok]; · iexact Htok
  isplitl [Hrows]; · iexact Hrows
  iexact Hrest

/-- The wait for the 31 units of the device's own barrier semaphore. -/
theorem bar_step {α : Type} {Q : α → sProp 𝕄} {cont : PUnit → Prog (TpuEff nD τ sig (Elt F) Λ₀ .tc) α} :
    iprop(records m K ∗ levAts L lv ∗ St m c pStats)
      ⊢ iprop((St m c (pT 0) -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32 : BitVec 32).toNat) cont) Q) := by
  unfold St
  dsimp only
  simp only [Bool.false_eq_true, ↓reduceIte]
  iintro ⟨#HR, #Hlev, ⟨%W, HO⟩, Htok, Hrows, ⟨HatB, HcB⟩, Hrest⟩ Hk
  iapply (Rounds.wp_wait_rest_token 𝒱₀ ER (Rd m) (c : Thread nD τ) none (κ := K (c, barJ))
      (wpE_semWait_eq 𝒱₀ (c : Thread nD τ) none Set.univ) (Set.mem_univ _) () (O := Oat c 31 0) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  ihave Hq := (bigSep_fwd_bwd c (fun dev : Dev nD => iprop(∃ f, rowPts (F := F) dev c fullShare f))).2 $$ Hp
  iapply Hk
  isplitl [HO]; · iexists (insert (SemLoc.reg barS, ()) W); iexact HO
  isplitl [Htok]; · iexact Htok
  isplitl [Hrows]; · iexact Hrows
  isplitl [Hq]; · rw [ge_zero]; iexact Hq
  iexact Hrest

/-- Copy k: the device's own row into the same row of its k-th forward peer's scratch. -/
theorem send_step {α : Type} {Q : α → sProp 𝕄} (k : Fin 31) (d : Dev nD) (hd : d = fwd c k)
    {hsc : (rowM c : Memref sig (Dev.tc d : Thread nD τ).2.kind .vmem S4096 .f32).view.ref.isScScratch = false}
    {hsrc : (rowM c).view.WordExact} {hdst : (rowM c).view.WordExact}
    {hsem : DmaTarget.Typed .vmem (.dma (recvS k)) (.remote (Dev.tc d : Thread nD τ) (rowM c) (.dma (sendS k)) hsc)}
    {cont : PUnit → Prog (TpuEff nD τ sig (Elt F) Λ₀ .tc) α} :
    iprop(records m K ∗ St m c (pT k.val))
      ⊢ iprop((St m c (pT (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (rowM c) (.remote (Dev.tc d : Thread nD τ) (rowM c) (.dma (sendS k)) hsc) (.dma (recvS k)) hsrc hdst hsem) cont) Q) := by
  subst hd
  unfold St
  dsimp only
  simp only [↓reduceIte, ge_zero, Finset.inter_univ]
  iintro ⟨#HR, ⟨%W, HO⟩, H2, H3, Hpeers, Htoks, Hown, H7, Hcred, Hrest⟩ Hk
  ihave Hp := (bigSep_ge_peel k _).1 $$ Hpeers
  icases Hp with ⟨⟨%fd, Hdst⟩, Hpeers⟩
  ihave Ht := (bigSep_ge_peel k _).1 $$ Htoks
  icases Ht with ⟨⟨HtR, HtS⟩, Htoks⟩
  unfold rowPts
  ihave Ho := (share_step _ _ k.val).1 $$ Hown
  icases Ho with ⟨Hsrc, Hown⟩
  iapply (Rounds.wp_send_pointsTo 𝒱₀ ER (Rd m) (c : Thread nD τ) none (κ₁ := K (c, sendJ k)) (κ₂ := K (fwd c k, recvJ k))
      (r₁ := 0) (r₂ := 0) (d₁ := (0 : Fin 31)) (d₂ := (0 : Fin 31)) (q := shK k.val) (fs := statsOf (xstg m)) (fd := fd)
      (by rw [duties_send]; exact Finset.mem_singleton_self _) (by rw [duties_recv]; exact Finset.mem_singleton_self _)
      () () N (row_credit c _) (amount_send m c k 0) (amount_recv m (fwd c k) k 0) (Oat c 31 (k.val + 1)) (Oat_send c k 31) (W := W)
      (by rw [payload_send]; unfold sendPay rowPts; exact BI.Entails.refl _)
      (by
        rw [payload_recv]; unfold recvPay; rw [bwd_fwd]; unfold rowPts
        exact Entails.of_eq (landed_row c (fwd c k) c fd (statsOf (xstg m)) (statsOf (xstg m)) (fun i hi => rfl))))
    $$ [HO Hsrc Hdst HtS HtR]
  · isplitr; · iapply (inv_send m K c k); iexact HR
    isplitr; · iapply (inv_recv m K (fwd c k) k); iexact HR
    isplitl [Hsrc]; · iexact Hsrc
    isplitl [Hdst]; · iexact Hdst
    isplitl [HO]; · iexact HO
    isplitl [HtS]; · iexact HtS
    isplitr; · iapply (reached_send m K c k); iexact HR
    isplitl [HtR]; · iexact HtR
    iapply (reached_recv m K (fwd c k) k); iexact HR
  iintro ⟨Hc, HO⟩
  iapply Hk
  isplitl [HO]; · iexists W; iexact HO
  isplitl [H2]; · iexact H2
  isplitl [H3]; · iexact H3
  isplitl [Hpeers]; · iexact Hpeers
  isplitl [Htoks]; · iexact Htoks
  isplitl [Hown]; · iexact Hown
  isplitl [H7]; · iexact H7
  isplitl [Hcred Hc]
  · iapply (bigSep_lt_push k _).2
    isplitl [Hc]; · iexact Hc
    iexact Hcred
  iexact Hrest

end Steps

end Cert.KernelIdeal.Coll

end
-- ==== Proof.KernelIdeal.PartsSig.lean ====
/-
  The opening of the body on device c: the thirty-one barrier signals, one to each forward peer, as the body's first
  parts hold them. Each part takes the device's state from "j signals sent" to "j' signals sent"; the scalar words a
  part only computes and hands on do not touch the state.
-/
import proofs.«901062_g7700000000001063_dist_softmax_colshard_i_m2048_n1024_v7x_i32_f32_1_alg».proof.Proof.KernelIdeal.Steps

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section PartsSig
variable (K : Dev nD × Fin 63 → ℕ) (c : Dev nD)

/-- Part 1: the device reads its own index, then signals 0, 1. What the part hands on names the device itself and
    the barrier semaphore. -/
theorem part1_spec :
    iprop(records m K ∗ St m c (pS 0))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_scratch0) (Memref.isWhole_whole _) cc0_scratch1 cc0_scratch2)
          (fun r => iprop(⌜r.1 = c ∧ r.2.2.1 = SemArray.scalar (sig.barrier 0 rfl)⌝ ∗ St m c (pS 2))) := by
  rw [k0_part1_eq_skeleton]; unfold k0_part1_skel
  simp only [semSignalWord, Prog.lift, Prog.bind_op, Prog.bind_ret, Prog.pure_eq_ret]
  iintro ⟨#HR, HS⟩
  rw [wp_deviceId]
  simp only [dev1_eq c, dev2_eq c]
  iapply (sig_step m K c (0 : Fin 31)) $$ [HS]
  · isplitr; · iexact HR
    iexact HS
  iintro HS
  iapply (sig_step m K c (1 : Fin 31)) $$ [HS]
  · isplitr; · iexact HR
    iexact HS
  iintro HS
  rw [wp_ret]; imodintro
  isplitr
  · ipureintro; exact ⟨rfl, rfl⟩
  iexact HS

/-- Part 2: signals 2, 3. -/
theorem part2_spec (v2 : BitVec 32) (v30 : BitVec 32) (c32 : BitVec 32) (v31 : BitVec 1) :
    iprop(records m K ∗ St m c (pS 2))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v30 c32 v31)
          (fun _ => St m c (pS 4)) := by
  rw [k0_part2_eq_skeleton]; unfold k0_part2_skel
  simp only [semSignalWord, Prog.lift, Prog.bind_op, Prog.bind_ret, Prog.pure_eq_ret, dev3_eq c, dev4_eq c]
  iintro ⟨#HR, HS⟩
  iapply (sig_step m K c (2 : Fin 31)) $$ [HS]
  · isplitr; · iexact HR
    iexact HS
  iintro HS
  iapply (sig_step m K c (3 : Fin 31)) $$ [HS]
  · isplitr; · iexact HR
    iexact HS
  iintro HS
  rw [wp_ret]; imodintro
  iexact HS

/-- Part 3: signals 4, 5, 6. -/
theorem part3_spec (v2 : BitVec 32) (v59 : BitVec 32) (v64 : BitVec 1) (v65 : BitVec 32) :
    iprop(records m K ∗ St m c (pS 4))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v59 v64 v65)
          (fun _ => St m c (pS 7)) := by
  rw [k0_part3_eq_skeleton]; unfold k0_part3_skel
  simp only [semSignalWord, Prog.lift, Prog.bind_op, Prog.bind_ret, Prog.pure_eq_ret, dev5_eq c, dev6_eq c, dev7_eq c]
  iintro ⟨#HR, HS⟩
  iapply (sig_step m K c (4 : Fin 31)) $$ [HS]
  · isplitr; · iexact HR
    iexact HS
  iintro HS
  iapply (sig_step m K c (5 : Fin 31)) $$ [HS]
  · isplitr; · iexact HR
    iexact HS
  iintro HS
  iapply (sig_step m K c (6 : Fin 31)) $$ [HS]
  · isplitr; · iexact HR
    iexact HS
  iintro HS
  rw [wp_ret]; imodintro
  iexact HS

/-- Part 4: signals 7, 8. -/
theorem part4_spec (v2 : BitVec 32) (v95 : BitVec 32) (c32 : BitVec 32) (v96 : BitVec 1) :
    iprop(records m K ∗ St m c (pS 7))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v95 c32 v96)
          (fun _ => St m c (pS 9)) := by
  rw [k0_part4_eq_skeleton]; unfold k0_part4_skel
  simp only [semSignalWord, Prog.lift, Prog.bind_op, Prog.bind_ret, Prog.pure_eq_ret, dev8_eq c, dev9_eq c]
  iintro ⟨#HR, HS⟩
  iapply (sig_step m K c (7 : Fin 31)) $$ [HS]
  · isplitr; · iexact HR
    iexact HS
  iintro HS
  iapply (sig_step m K c (8 : Fin 31)) $$ [HS]
  · isplitr; · iexact HR
    iexact HS
  iintro HS
  rw [wp_ret]; imodintro
  iexact HS

/-- Part 5: signals 9, 10, 11. -/
theorem part5_spec (v2 : BitVec 32) (v124 : BitVec 32) (v129 : BitVec 1) (v130 : BitVec 32) :
    iprop(records m K ∗ St m c (pS 9))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v124 v129 v130)
          (fun _ => St m c (pS 12)) := by
  rw [k0_part5_eq_skeleton]; unfold k0_part5_skel
  simp only [semSignalWord, Prog.lift, Prog.bind_op, Prog.bind_ret, Prog.pure_eq_ret, dev10_eq c, dev11_eq c, dev12_eq c]
  iintro ⟨#HR, HS⟩
  iapply (sig_step m K c (9 : Fin 31)) $$ [HS]
  · isplitr; · iexact HR
    iexact HS
  iintro HS
  iapply (sig_step m K c (10 : Fin 31)) $$ [HS]
  · isplitr; · iexact HR
    iexact HS
  iintro HS
  iapply (sig_step m K c (11 : Fin 31)) $$ [HS]
  · isplitr; · iexact HR
    iexact HS
  iintro HS
  rw [wp_ret]; imodintro
  iexact HS

/-- Part 6: signals 12, 13. -/
theorem part6_spec (v2 : BitVec 32) (v160 : BitVec 32) (c32 : BitVec 32) (v161 : BitVec 1) :
    iprop(records m K ∗ St m c (pS 12))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v160 c32 v161)
          (fun _ => St m c (pS 14)) := by
  rw [k0_part6_eq_skeleton]; unfold k0_part6_skel
  simp only [semSignalWord, Prog.lift, Prog.bind_op, Prog.bind_ret, Prog.pure_eq_ret, dev13_eq c, dev14_eq c]
  iintro ⟨#HR, HS⟩
  iapply (sig_step m K c (12 : Fin 31)) $$ [HS]
  · isplitr; · iexact HR
    iexact HS
  iintro HS
  iapply (sig_step m K c (13 : Fin 31)) $$ [HS]
  · isplitr; · iexact HR
    iexact HS
  iintro HS
  rw [wp_ret]; imodintro
  iexact HS

/-- Part 7: signals 14, 15, 16. -/
theorem part7_spec (v2 : BitVec 32) (v189 : BitVec 32) (v194 : BitVec 1) (v195 : BitVec 32) :
    iprop(records m K ∗ St m c (pS 14))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v189 v194 v195)
          (fun _ => St m c (pS 17)) := by
  rw [k0_part7_eq_skeleton]; unfold k0_part7_skel
  simp only [semSignalWord, Prog.lift, Prog.bind_op, Prog.bind_ret, Prog.pure_eq_ret, dev15_eq c, dev16_eq c, dev17_eq c]
  iintro ⟨#HR, HS⟩
  iapply (sig_step m K c (14 : Fin 31)) $$ [HS]
  · isplitr; · iexact HR
    iexact HS
  iintro HS
  iapply (sig_step m K c (15 : Fin 31)) $$ [HS]
  · isplitr; · iexact HR
    iexact HS
  iintro HS
  iapply (sig_step m K c (16 : Fin 31)) $$ [HS]
  · isplitr; · iexact HR
    iexact HS
  iintro HS
  rw [wp_ret]; imodintro
  iexact HS

/-- Part 8: signals 17, 18. -/
theorem part8_spec (v2 : BitVec 32) (v225 : BitVec 32) (c32 : BitVec 32) (v226 : BitVec 1) :
    iprop(records m K ∗ St m c (pS 17))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v225 c32 v226)
          (fun _ => St m c (pS 19)) := by
  rw [k0_part8_eq_skeleton]; unfold k0_part8_skel
  simp only [semSignalWord, Prog.lift, Prog.bind_op, Prog.bind_ret, Prog.pure_eq_ret, dev18_eq c, dev19_eq c]
  iintro ⟨#HR, HS⟩
  iapply (sig_step m K c (17 : Fin 31)) $$ [HS]
  · isplitr; · iexact HR
    iexact HS
  iintro HS
  iapply (sig_step m K c (18 : Fin 31)) $$ [HS]
  · isplitr; · iexact HR
    iexact HS
  iintro HS
  rw [wp_ret]; imodintro
  iexact HS

/-- Part 9: signals 19, 20, 21. -/
theorem part9_spec (v2 : BitVec 32) (v254 : BitVec 32) (v259 : BitVec 1) (v260 : BitVec 32) :
    iprop(records m K ∗ St m c (pS 19))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v254 v259 v260)
          (fun _ => St m c (pS 22)) := by
  rw [k0_part9_eq_skeleton]; unfold k0_part9_skel
  simp only [semSignalWord, Prog.lift, Prog.bind_op, Prog.bind_ret, Prog.pure_eq_ret, dev20_eq c, dev21_eq c, dev22_eq c]
  iintro ⟨#HR, HS⟩
  iapply (sig_step m K c (19 : Fin 31)) $$ [HS]
  · isplitr; · iexact HR
    iexact HS
  iintro HS
  iapply (sig_step m K c (20 : Fin 31)) $$ [HS]
  · isplitr; · iexact HR
    iexact HS
  iintro HS
  iapply (sig_step m K c (21 : Fin 31)) $$ [HS]
  · isplitr; · iexact HR
    iexact HS
  iintro HS
  rw [wp_ret]; imodintro
  iexact HS

/-- Part 10: signals 22, 23. -/
theorem part10_spec (v2 : BitVec 32) (v290 : BitVec 32) (c32 : BitVec 32) (v291 : BitVec 1) :
    iprop(records m K ∗ St m c (pS 22))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v290 c32 v291)
          (fun _ => St m c (pS 24)) := by
  rw [k0_part10_eq_skeleton]; unfold k0_part10_skel
  simp only [semSignalWord, Prog.lift, Prog.bind_op, Prog.bind_ret, Prog.pure_eq_ret, dev23_eq c, dev24_eq c]
  iintro ⟨#HR, HS⟩
  iapply (sig_step m K c (22 : Fin 31)) $$ [HS]
  · isplitr; · iexact HR
    iexact HS
  iintro HS
  iapply (sig_step m K c (23 : Fin 31)) $$ [HS]
  · isplitr; · iexact HR
    iexact HS
  iintro HS
  rw [wp_ret]; imodintro
  iexact HS

/-- Part 11: signals 24, 25, 26. -/
theorem part11_spec (v2 : BitVec 32) (v319 : BitVec 32) (v324 : BitVec 1) (v325 : BitVec 32) :
    iprop(records m K ∗ St m c (pS 24))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v319 v324 v325)
          (fun _ => St m c (pS 27)) := by
  rw [k0_part11_eq_skeleton]; unfold k0_part11_skel
  simp only [semSignalWord, Prog.lift, Prog.bind_op, Prog.bind_ret, Prog.pure_eq_ret, dev25_eq c, dev26_eq c, dev27_eq c]
  iintro ⟨#HR, HS⟩
  iapply (sig_step m K c (24 : Fin 31)) $$ [HS]
  · isplitr; · iexact HR
    iexact HS
  iintro HS
  iapply (sig_step m K c (25 : Fin 31)) $$ [HS]
  · isplitr; · iexact HR
    iexact HS
  iintro HS
  iapply (sig_step m K c (26 : Fin 31)) $$ [HS]
  · isplitr; · iexact HR
    iexact HS
  iintro HS
  rw [wp_ret]; imodintro
  iexact HS

/-- Part 12: signals 27, 28. -/
theorem part12_spec (v2 : BitVec 32) (v355 : BitVec 32) (c32 : BitVec 32) (v356 : BitVec 1) :
    iprop(records m K ∗ St m c (pS 27))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v355 c32 v356)
          (fun _ => St m c (pS 29)) := by
  rw [k0_part12_eq_skeleton]; unfold k0_part12_skel
  simp only [semSignalWord, Prog.lift, Prog.bind_op, Prog.bind_ret, Prog.pure_eq_ret, dev28_eq c, dev29_eq c]
  iintro ⟨#HR, HS⟩
  iapply (sig_step m K c (27 : Fin 31)) $$ [HS]
  · isplitr; · iexact HR
    iexact HS
  iintro HS
  iapply (sig_step m K c (28 : Fin 31)) $$ [HS]
  · isplitr; · iexact HR
    iexact HS
  iintro HS
  rw [wp_ret]; imodintro
  iexact HS

end PartsSig

end Cert.KernelIdeal.Coll

end
-- ==== Proof.KernelIdeal.PartsSend.lean ====
/-
  The copies, part by part: each printed part that starts copies moves the device's state from "j copies started" to
  "j' copies started", one step per copy, the k-th copy going to the k-th forward peer on the k-th pair of semaphores.
-/
import proofs.«901062_g7700000000001063_dist_softmax_colshard_i_m2048_n1024_v7x_i32_f32_1_alg».proof.Proof.KernelIdeal.Steps

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 63 → ℕ) (c : Dev nD)

/-- Part 15: copy 0 and copy 1. -/
theorem part15_spec (v2 : BitVec 32) (v471 : BitVec 32) :
    iprop(records m K ∗ St m c (pT 0))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_scratch0) (Memref.isWhole_whole _) cc0_scratch1 cc0_scratch2 c v2 v471)
          (fun _ => St m c (pT 2)) := by
  rw [k0_part15_eq_skeleton]; unfold k0_part15_skel
  simp only [Prog.lift, Prog.bind_op, Prog.bind_ret, Prog.pure_eq_ret]
  iintro ⟨#HR, HS⟩
  iapply (send_step m K c (0 : Fin 31) _ (dev32_eq c)) $$ [HS]
  · isplitr; · iexact HR
    iexact HS
  iintro HS
  iapply (send_step m K c (1 : Fin 31) _ (dev33_eq c)) $$ [HS]
  · isplitr; · iexact HR
    iexact HS
  iintro HS
  rw [wp_ret]; imodintro
  iexact HS

/-- Part 16: copy 2. -/
theorem part16_spec (v2 : BitVec 32) (v505 : BitVec 32) (v506 : BitVec 32) :
    iprop(records m K ∗ St m c (pT 2))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_scratch0) (Memref.isWhole_whole _) cc0_scratch1 cc0_scratch2 c v2 v505 v506)
          (fun _ => St m c (pT 3)) := by
  rw [k0_part16_eq_skeleton]; unfold k0_part16_skel
  simp only [Prog.lift, Prog.bind_op, Prog.bind_ret, Prog.pure_eq_ret]
  iintro ⟨#HR, HS⟩
  iapply (send_step m K c (2 : Fin 31) _ (dev34_eq c)) $$ [HS]
  · isplitr; · iexact HR
    iexact HS
  iintro HS
  rw [wp_ret]; imodintro
  iexact HS

/-- Part 17: copy 3 and copy 4. -/
theorem part17_spec (v2 : BitVec 32) :
    iprop(records m K ∗ St m c (pT 3))
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 5)) := by
  rw [k0_part17_eq_skeleton]; unfold k0_part17_skel
  simp only [Prog.lift, Prog.bind_op, Prog.bind_ret, Prog.pure_eq_ret]
  iintro ⟨#HR, HS⟩
  iapply (send_step m K c (3 : Fin 31) _ (dev35_eq c)) $$ [HS]
  · isplitr; · iexact HR
    iexact HS
  iintro HS
  iapply (send_step m K c (4 : Fin 31) _ (dev36_eq c)) $$ [HS]
  · isplitr; · iexact HR
    iexact HS
  iintro HS
  rw [wp_ret]; imodintro
  iexact HS

/-- Part 18: copy 5 and copy 6. -/
theorem part18_spec (v2 : BitVec 32) (v577 : BitVec 32) (c0_i32_364 : BitVec 32) :
    iprop(records m K ∗ St m c (pT 5))
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_scratch0) (Memref.isWhole_whole _) cc0_scratch1 cc0_scratch2 c v2 v577 c0_i32_364)
          (fun _ => St m c (pT 7)) := by
  rw [k0_part18_eq_skeleton]; unfold k0_part18_skel
  simp only [Prog.lift, Prog.bind_op, Prog.bind_ret, Prog.pure_eq_ret]
  iintro ⟨#HR, HS⟩
  iapply (send_step m K c (5 : Fin 31) _ (dev37_eq c)) $$ [HS]
  · isplitr; · iexact HR
    iexact HS
  iintro HS
  iapply (send_step m K c (6 : Fin 31) _ (dev38_eq c)) $$ [HS]
  · isplitr; · iexact HR
    iexact HS
  iintro HS
  rw [wp_ret]; imodintro
  iexact HS

/-- Part 19: copy 7 and copy 8. -/
theorem part19_spec (v2 : BitVec 32) (v610 : BitVec 32) (v611 : BitVec 32) (v612 : BitVec 1) (v613 : BitVec 1) (c0_i32_386 : BitVec 32) :
    iprop(records m K ∗ St m c (pT 7))
      ⊢ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_scratch0) (Memref.isWhole_whole _) cc0_scratch1 cc0_scratch2 c v2 v610 v611 v612 v613 c0_i32_386)
          (fun _ => St m c (pT 9)) := by
  rw [k0_part19_eq_skeleton]; unfold k0_part19_skel
  simp only [Prog.lift, Prog.bind_op, Prog.bind_ret, Prog.pure_eq_ret]
  iintro ⟨#HR, HS⟩
  iapply (send_step m K c (7 : Fin 31) _ (dev39_eq c)) $$ [HS]
  · isplitr; · iexact HR
    iexact HS
  iintro HS
  iapply (send_step m K c (8 : Fin 31) _ (dev40_eq c)) $$ [HS]
  · isplitr; · iexact HR
    iexact HS
  iintro HS
  rw [wp_ret]; imodintro
  iexact HS

/-- Part 20: copy 9. -/
theorem part20_spec (v2 : BitVec 32) (v650 : BitVec 32) (c32_i32_407 : BitVec 32) :
    iprop(records m K ∗ St m c (pT 9))
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_scratch0) (Memref.isWhole_whole _) cc0_scratch1 cc0_scratch2 c v2 v650 c32_i32_407)
          (fun _ => St m c (pT 10)) := by
  rw [k0_part20_eq_skeleton]; unfold k0_part20_skel
  simp only [Prog.lift, Prog.bind_op, Prog.bind_ret, Prog.pure_eq_ret]
  iintro ⟨#HR, HS⟩
  iapply (send_step m K c (9 : Fin 31) _ (dev41_eq c)) $$ [HS]
  · isplitr; · iexact HR
    iexact HS
  iintro HS
  rw [wp_ret]; imodintro
  iexact HS

/-- Part 21: copy 10 and copy 11. -/
theorem part21_spec (v2 : BitVec 32) :
    iprop(records m K ∗ St m c (pT 10))
      ⊢ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 12)) := by
  rw [k0_part21_eq_skeleton]; unfold k0_part21_skel
  simp only [Prog.lift, Prog.bind_op, Prog.bind_ret, Prog.pure_eq_ret]
  iintro ⟨#HR, HS⟩
  iapply (send_step m K c (10 : Fin 31) _ (dev42_eq c)) $$ [HS]
  · isplitr; · iexact HR
    iexact HS
  iintro HS
  iapply (send_step m K c (11 : Fin 31) _ (dev43_eq c)) $$ [HS]
  · isplitr; · iexact HR
    iexact HS
  iintro HS
  rw [wp_ret]; imodintro
  iexact HS

/-- Part 22: copy 12 and copy 13. -/
theorem part22_spec (v2 : BitVec 32) (v723 : BitVec 32) :
    iprop(records m K ∗ St m c (pT 12))
      ⊢ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_scratch0) (Memref.isWhole_whole _) cc0_scratch1 cc0_scratch2 c v2 v723)
          (fun _ => St m c (pT 14)) := by
  rw [k0_part22_eq_skeleton]; unfold k0_part22_skel
  simp only [Prog.lift, Prog.bind_op, Prog.bind_ret, Prog.pure_eq_ret]
  iintro ⟨#HR, HS⟩
  iapply (send_step m K c (12 : Fin 31) _ (dev44_eq c)) $$ [HS]
  · isplitr; · iexact HR
    iexact HS
  iintro HS
  iapply (send_step m K c (13 : Fin 31) _ (dev45_eq c)) $$ [HS]
  · isplitr; · iexact HR
    iexact HS
  iintro HS
  rw [wp_ret]; imodintro
  iexact HS

/-- Part 23: copy 14. -/
theorem part23_spec (v2 : BitVec 32) (v757 : BitVec 32) (v758 : BitVec 32) :
    iprop(records m K ∗ St m c (pT 14))
      ⊢ wp frame (wpE (defs₀ (F := F)) 𝒱₀ (c : Thread nD τ) none) Set.univ
          (k0_part23 (Memref.whole cc0_stg0_0) (Memref.isWhole_whole _) (Memref.whole cc0_stg1_0) (Memref.isWhole_whole _) (Memref.whole cc0_scratch0) (Memref.isWhole_whole _) cc0_scratch1 cc0_scratch2 c v2 v757 v758)
          (fun _ => St m c (pT 15)) := by
  rw [k0_part23_eq_skeleton]; unfold k0_part23_skel
  simp only [Prog.lift, Prog.bind_op, Prog.bind_ret, Prog.pure_eq_ret]
  iintro ⟨#HR, HS⟩
  iapply (send_step m K c (14 : Fin 31) _ (dev46_eq c)) $$ [HS]
  · isplitr; · iexact HR
    iexact HS
  iintro HS
  rw [wp_ret]; imodintro
  iexact HS

/-- Part 24: copy 15 and copy 16. -/
theorem part24_spec (v2 : BitVec 32) :
    iprop(records m K ∗ St m c (pT 15))
      ⊢ wp frame (wpE (defs₀ (F := F)) 𝒱₀ (c : Thread nD τ) none) Set.univ
          (k0_part24 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 17)) := by
  rw [k0_part24_eq_skeleton]; unfold k0_part24_skel
  simp only [Prog.lift, Prog.bind_op, Prog.bind_ret, Prog.pure_eq_ret]
  iintro ⟨#HR, HS⟩
  iapply (send_step m K c (15 : Fin 31) _ (dev47_eq c)) $$ [HS]
  · isplitr; · iexact HR
    iexact HS
  iintro HS
  iapply (send_step m K c (16 : Fin 31) _ (dev48_eq c)) $$ [HS]
  · isplitr; · iexact HR
    iexact HS
  iintro HS
  rw [wp_ret]; imodintro
  iexact HS

/-- Part 25: copy 17 and copy 18. -/
theorem part25_spec (v2 : BitVec 32) (v829 : BitVec 32) (c0_i32_520 : BitVec 32) :
    iprop(records m K ∗ St m c (pT 17))
      ⊢ wp frame (wpE (defs₀ (F := F)) 𝒱₀ (c : Thread nD τ) none) Set.univ
          (k0_part25 (Memref.whole cc0_stg0_0) (Memref.isWhole_whole _) (Memref.whole cc0_stg1_0) (Memref.isWhole_whole _) (Memref.whole cc0_scratch0) (Memref.isWhole_whole _) cc0_scratch1 cc0_scratch2 c v2 v829 c0_i32_520)
          (fun _ => St m c (pT 19)) := by
  rw [k0_part25_eq_skeleton]; unfold k0_part25_skel
  simp only [Prog.lift, Prog.bind_op, Prog.bind_ret, Prog.pure_eq_ret]
  iintro ⟨#HR, HS⟩
  iapply (send_step m K c (17 : Fin 31) _ (dev49_eq c)) $$ [HS]
  · isplitr; · iexact HR
    iexact HS
  iintro HS
  iapply (send_step m K c (18 : Fin 31) _ (dev50_eq c)) $$ [HS]
  · isplitr; · iexact HR
    iexact HS
  iintro HS
  rw [wp_ret]; imodintro
  iexact HS

/-- Part 26: copy 19 and copy 20. -/
theorem part26_spec (v2 : BitVec 32) (v862 : BitVec 32) (v863 : BitVec 32) (v864 : BitVec 1) (v865 : BitVec 1) (c0_i32_542 : BitVec 32) :
    iprop(records m K ∗ St m c (pT 19))
      ⊢ wp frame (wpE (defs₀ (F := F)) 𝒱₀ (c : Thread nD τ) none) Set.univ
          (k0_part26 (Memref.whole cc0_stg0_0) (Memref.isWhole_whole _) (Memref.whole cc0_stg1_0) (Memref.isWhole_whole _) (Memref.whole cc0_scratch0) (Memref.isWhole_whole _) cc0_scratch1 cc0_scratch2 c v2 v862 v863 v864 v865 c0_i32_542)
          (fun _ => St m c (pT 21)) := by
  rw [k0_part26_eq_skeleton]; unfold k0_part26_skel
  simp only [Prog.lift, Prog.bind_op, Prog.bind_ret, Prog.pure_eq_ret]
  iintro ⟨#HR, HS⟩
  iapply (send_step m K c (19 : Fin 31) _ (dev51_eq c)) $$ [HS]
  · isplitr; · iexact HR
    iexact HS
  iintro HS
  iapply (send_step m K c (20 : Fin 31) _ (dev52_eq c)) $$ [HS]
  · isplitr; · iexact HR
    iexact HS
  iintro HS
  rw [wp_ret]; imodintro
  iexact HS

/-- Part 27: copy 21. -/
theorem part27_spec (v2 : BitVec 32) (v902 : BitVec 32) (c32_i32_563 : BitVec 32) :
    iprop(records m K ∗ St m c (pT 21))
      ⊢ wp frame (wpE (defs₀ (F := F)) 𝒱₀ (c : Thread nD τ) none) Set.univ
          (k0_part27 (Memref.whole cc0_stg0_0) (Memref.isWhole_whole _) (Memref.whole cc0_stg1_0) (Memref.isWhole_whole _) (Memref.whole cc0_scratch0) (Memref.isWhole_whole _) cc0_scratch1 cc0_scratch2 c v2 v902 c32_i32_563)
          (fun _ => St m c (pT 22)) := by
  rw [k0_part27_eq_skeleton]; unfold k0_part27_skel
  simp only [Prog.lift, Prog.bind_op, Prog.bind_ret, Prog.pure_eq_ret]
  iintro ⟨#HR, HS⟩
  iapply (send_step m K c (21 : Fin 31) _ (dev53_eq c)) $$ [HS]
  · isplitr; · iexact HR
    iexact HS
  iintro HS
  rw [wp_ret]; imodintro
  iexact HS

/-- Part 28: copy 22 and copy 23. -/
theorem part28_spec (v2 : BitVec 32) :
    iprop(records m K ∗ St m c (pT 22))
      ⊢ wp frame (wpE (defs₀ (F := F)) 𝒱₀ (c : Thread nD τ) none) Set.univ
          (k0_part28 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 24)) := by
  rw [k0_part28_eq_skeleton]; unfold k0_part28_skel
  simp only [Prog.lift, Prog.bind_op, Prog.bind_ret, Prog.pure_eq_ret]
  iintro ⟨#HR, HS⟩
  iapply (send_step m K c (22 : Fin 31) _ (dev54_eq c)) $$ [HS]
  · isplitr; · iexact HR
    iexact HS
  iintro HS
  iapply (send_step m K c (23 : Fin 31) _ (dev55_eq c)) $$ [HS]
  · isplitr; · iexact HR
    iexact HS
  iintro HS
  rw [wp_ret]; imodintro
  iexact HS

/-- Part 29: copy 24 and copy 25. -/
theorem part29_spec (v2 : BitVec 32) (v975 : BitVec 32) :
    iprop(records m K ∗ St m c (pT 24))
      ⊢ wp frame (wpE (defs₀ (F := F)) 𝒱₀ (c : Thread nD τ) none) Set.univ
          (k0_part29 (Memref.whole cc0_stg0_0) (Memref.isWhole_whole _) (Memref.whole cc0_stg1_0) (Memref.isWhole_whole _) (Memref.whole cc0_scratch0) (Memref.isWhole_whole _) cc0_scratch1 cc0_scratch2 c v2 v975)
          (fun _ => St m c (pT 26)) := by
  rw [k0_part29_eq_skeleton]; unfold k0_part29_skel
  simp only [Prog.lift, Prog.bind_op, Prog.bind_ret, Prog.pure_eq_ret]
  iintro ⟨#HR, HS⟩
  iapply (send_step m K c (24 : Fin 31) _ (dev56_eq c)) $$ [HS]
  · isplitr; · iexact HR
    iexact HS
  iintro HS
  iapply (send_step m K c (25 : Fin 31) _ (dev57_eq c)) $$ [HS]
  · isplitr; · iexact HR
    iexact HS
  iintro HS
  rw [wp_ret]; imodintro
  iexact HS

/-- Part 30: copy 26. -/
theorem part30_spec (v2 : BitVec 32) (v1009 : BitVec 32) (v1010 : BitVec 32) :
    iprop(records m K ∗ St m c (pT 26))
      ⊢ wp frame (wpE (defs₀ (F := F)) 𝒱₀ (c : Thread nD τ) none) Set.univ
          (k0_part30 (Memref.whole cc0_stg0_0) (Memref.isWhole_whole _) (Memref.whole cc0_stg1_0) (Memref.isWhole_whole _) (Memref.whole cc0_scratch0) (Memref.isWhole_whole _) cc0_scratch1 cc0_scratch2 c v2 v1009 v1010)
          (fun _ => St m c (pT 27)) := by
  rw [k0_part30_eq_skeleton]; unfold k0_part30_skel
  simp only [Prog.lift, Prog.bind_op, Prog.bind_ret, Prog.pure_eq_ret]
  iintro ⟨#HR, HS⟩
  iapply (send_step m K c (26 : Fin 31) _ (dev58_eq c)) $$ [HS]
  · isplitr; · iexact HR
    iexact HS
  iintro HS
  rw [wp_ret]; imodintro
  iexact HS

/-- Part 31: copy 27 and copy 28. -/
theorem part31_spec (v2 : BitVec 32) :
    iprop(records m K ∗ St m c (pT 27))
      ⊢ wp frame (wpE (defs₀ (F := F)) 𝒱₀ (c : Thread nD τ) none) Set.univ
          (k0_part31 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 29)) := by
  rw [k0_part31_eq_skeleton]; unfold k0_part31_skel
  simp only [Prog.lift, Prog.bind_op, Prog.bind_ret, Prog.pure_eq_ret]
  iintro ⟨#HR, HS⟩
  iapply (send_step m K c (27 : Fin 31) _ (dev59_eq c)) $$ [HS]
  · isplitr; · iexact HR
    iexact HS
  iintro HS
  iapply (send_step m K c (28 : Fin 31) _ (dev60_eq c)) $$ [HS]
  · isplitr; · iexact HR
    iexact HS
  iintro HS
  rw [wp_ret]; imodintro
  iexact HS

/-- Part 32: copy 29 and copy 30. -/
theorem part32_spec (v2 : BitVec 32) (v471 : BitVec 32) (v1081 : BitVec 32) (c0_i32_676 : BitVec 32) :
    iprop(records m K ∗ St m c (pT 29))
      ⊢ wp frame (wpE (defs₀ (F := F)) 𝒱₀ (c : Thread nD τ) none) Set.univ
          (k0_part32 (Memref.whole cc0_stg0_0) (Memref.isWhole_whole _) (Memref.whole cc0_stg1_0) (Memref.isWhole_whole _) (Memref.whole cc0_scratch0) (Memref.isWhole_whole _) cc0_scratch1 cc0_scratch2 c v2 v471 v1081 c0_i32_676)
          (fun _ => St m c (pT 31)) := by
  rw [k0_part32_eq_skeleton]; unfold k0_part32_skel
  simp only [Prog.lift, Prog.bind_op, Prog.bind_ret, Prog.pure_eq_ret]
  iintro ⟨#HR, HS⟩
  iapply (send_step m K c (29 : Fin 31) _ (dev61_eq c)) $$ [HS]
  · isplitr; · iexact HR
    iexact HS
  iintro HS
  iapply (send_step m K c (30 : Fin 31) _ (dev62_eq c)) $$ [HS]
  · isplitr; · iexact HR
    iexact HS
  iintro HS
  rw [wp_ret]; imodintro
  iexact HS

end Parts

end Cert.KernelIdeal.Coll

end
-- ==== Proof.KernelIdeal.StepsWait.lean ====
/-
  The two kinds of DMA wait of the body, and its entry and exit: a receive wait takes the landed row and closes the
  cell; a send wait takes the lent share back and closes the cell; what the pipeline hands the body is the state with
  nothing done, and with everything done the rows and shares rejoin to the whole scratch the pipeline takes back.
-/
import proofs.«901062_g7700000000001063_dist_softmax_colshard_i_m2048_n1024_v7x_i32_f32_1_alg».proof.Proof.KernelIdeal.Geom

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × Fin 63 → ℕ) (c : Dev nD)

/-- Receive wait k: the k-th backward peer's row has landed. -/
theorem recv_step {α : Type} {Q : α → sProp 𝕄} (k : Fin 31) {src dst : Memref sig .tc .vmem S4096 .f32} (hdstN : dst.view.dmaCredit = N)
    {hsrc : src.view.WordExact} {hdst : dst.view.WordExact}
    {cont : PUnit → Prog (TpuEff nD τ sig (Elt F) Λ₀ .tc) α} :
    iprop(records m K ∗ St m c (pR k.val))
      ⊢ iprop((St m c (pR (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (recvS k) src dst hsrc hdst) cont) Q) := by
  unfold St
  dsimp only
  simp only [Bool.false_eq_true, ↓reduceIte, if_true, if_false]
  rw [Oat_end]
  iintro ⟨#HR, ⟨%W, HO⟩, H2, H3, H4, H5, H6, H7, H8, H9, H10, H11, H12, H13⟩ Hk
  -- receive cell k's position and credit, out of those of the waits still to come
  ihave H10' := (bigSep_ge_peel (F := F) k (fun k => iprop(atPos ER (recvCell c k) 0 ∅ 0 ∗ cred (tallyAt (recvCell c k) () N)))).1 $$ H10
  icases H10' with ⟨⟨Hat, Hc⟩, H10⟩
  iapply (Rounds.wp_wait_rest_token 𝒱₀ ER (Rd m) (c : Thread nD τ) none (κ := K (c, recvJ k))
      (wpE_waitDma2_eq 𝒱₀ (c : Thread nD τ) none Set.univ) (Set.mem_univ _) () (O := 0) (W := W) (R := 0) (m := 0) (T := ∅)
      (by rw [Nat.zero_add, expect_recv, hdstN])) $$ [Hc HO Hat]
  · isplitr; · iapply (inv_recv m K c k); iexact HR
    isplitl [Hc]; · rw [hdstN]; iexact Hc
    isplitl [HO]; · iexact HO
    isplitr; · rw [MayWait_zero]; iempintro
    iexact Hat
  iintro ⟨HO, Hat, -, Hpay⟩
  ihave Hrow := (Entails.of_eq (rest_recv m c k)) $$ Hpay
  imod (Rounds.cell_close ER (Rd m) (Set.mem_univ (K (c, recvJ k))) (fun h => h) (R := 0 + 1) (duties_later m (recvCell c k))) $$ [Hat] with Hz
  · isplitr; · iapply (inv_recv m K c k); iexact HR
    iexact Hat
  iapply Hk
  isplitl [HO]; · iexists _; iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11 Hz Hrow]
  · iapply (bigSep_lt_push (F := F) k (fun k => iprop(semVal (recvCell c k) 0 ∗ rowPts c (bwd c k) fullShare (statsOf (xstg m))))).2
    isplitl [Hz Hrow]
    · isplitl [Hz]; · iexact Hz
      unfold recvPay
      iexact Hrow
    iexact H11
  isplitl [H12]; · iexact H12
  iexact H13

/-- Send wait k: copy k has been read out of the device's own row. -/
theorem swait_step {α : Type} {Q : α → sProp 𝕄} (k : Fin 31) {src dst : Memref sig .tc .vmem S4096 .f32} (hdstN : dst.view.dmaCredit = N)
    {hsrc : src.view.WordExact} {hdst : dst.view.WordExact}
    {cont : PUnit → Prog (TpuEff nD τ sig (Elt F) Λ₀ .tc) α} :
    iprop(records m K ∗ St m c (pW k.val))
      ⊢ iprop((St m c (pW (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendS k) src dst hsrc hdst) cont) Q) := by
  unfold St
  dsimp only
  simp only [Bool.false_eq_true, ↓reduceIte, if_true, if_false, lt_31, Finset.univ_inter]
  rw [Oat_end]
  iintro ⟨#HR, ⟨%W, HO⟩, H2, H3, H4, H5, H6, H7, H8, H9, H10, H11, H12, H13⟩ Hk
  -- send cell k's position, and the credit of copy k, out of those of the waits still to come
  ihave H7' := (bigSep_ge_peel (F := F) k (fun k => atPos ER (sendCell c k) 0 ∅ 0)).1 $$ H7
  icases H7' with ⟨Hat, H7⟩
  ihave H8' := (bigSep_ge_peel (F := F) k (fun k => cred (tallyAt (sendCell c k) () N))).1 $$ H8
  icases H8' with ⟨Hc, H8⟩
  iapply (Rounds.wp_wait_rest_token 𝒱₀ ER (Rd m) (c : Thread nD τ) none (κ := K (c, sendJ k))
      (wpE_waitDma2_eq 𝒱₀ (c : Thread nD τ) none Set.univ) (Set.mem_univ _) () (O := 0) (W := W) (R := 0) (m := 0) (T := ∅)
      (by rw [Nat.zero_add, expect_send, hdstN])) $$ [Hc HO Hat]
  · isplitr; · iapply (inv_send m K c k); iexact HR
    isplitl [Hc]; · rw [hdstN]; iexact Hc
    isplitl [HO]; · iexact HO
    isplitr; · rw [MayWait_zero]; iempintro
    iexact Hat
  iintro ⟨HO, Hat, -, Hpay⟩
  ihave Hrow := (Entails.of_eq (rest_send m c k)) $$ Hpay
  imod (Rounds.cell_close ER (Rd m) (Set.mem_univ (K (c, sendJ k))) (fun h => h) (R := 0 + 1) (duties_later m (sendCell c k))) $$ [Hat] with Hz
  · isplitr; · iapply (inv_send m K c k); iexact HR
    iexact Hat
  iapply Hk
  isplitl [HO]; · iexists _; iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9 Hz Hrow]
  · iapply (bigSep_lt_push (F := F) k (fun k => iprop(semVal (sendCell c k) 0 ∗ rowPts c c (shK k.val) (statsOf (xstg m))))).2
    isplitl [Hz Hrow]
    · isplitl [Hz]; · iexact Hz
      unfold sendPay
      iexact Hrow
    iexact H9
  isplitl [H10]; · iexact H10
  isplitl [H11]; · iexact H11
  isplitl [H12]; · iexact H12
  iexact H13

/-- What the pipeline hands the body is the state with nothing done yet. -/
theorem St_init : bodyPre m K c ⊢ iprop(records m K ∗ levAts L lv ∗ St m c (pS 0)) := by
  unfold bodyPre ghost positions payToks creds scrAny St Dat.owesAt Pipeline.owesWithin
  dsimp only
  simp only [Bool.false_eq_true, ↓reduceIte, if_true, if_false, ge_zero, lt_zero, Finset.empty_inter, bigSep_empty]
  rw [show (dats m 0 c).owed t₀.castSucc = Oat c 0 0 from rfl]
  iintro ⟨⟨⟨#HR, ⟨HatB, HatS, HatR⟩, HtB, HtR, HtS⟩, ⟨HcB, HcR⟩, Hlev, ⟨%f0, Hscr⟩⟩, ⟨%W, %hW, HO⟩, ⟨%d0, %g0, %hg0, Hx⟩, ⟨%d1, %g1, %hg1, Hout⟩⟩
  have hx : g0 = xstg m c := by rw [hg0]; unfold Dat.before; rw [if_pos (Gen.fetch0_0 t₀)]; rfl
  have hex : bigSep Finset.univ (fun k : Fin 31 => rowPts (F := F) c (fwd c k) fullShare f0)
      ⊢ bigSep Finset.univ (fun k : Fin 31 => (iprop(∃ f, rowPts (F := F) c (fwd c k) fullShare f) : sProp 𝕄)) :=
    bigSep_mono fun k _ => exists_intro (Φ := fun f => rowPts (F := F) c (fwd c k) fullShare f) f0
  -- the scratch as the device's own row and one row per forward peer
  ihave Hrows := (scratch_rows (F := F) c fullShare f0).1 $$ Hscr
  ihave Hrows' := (dev_split_fwd (F := F) c (fun r => rowPts (F := F) c r fullShare f0)).1 $$ Hrows
  icases Hrows' with ⟨Hown, Hpeers⟩
  isplitr; · iexact HR
  isplitl [Hlev]; · iexact Hlev
  isplitl [HO]; · iexists W; iexact HO
  isplitl [HtB]; · iexact HtB
  isplitl [Hpeers]
  · iapply hex
    iexact Hpeers
  isplitl [HatB HcB]
  · isplitl [HatB]; · iexact HatB
    iexact HcB
  isplitl [HtR HtS]
  · iapply (Entails.of_eq (bigSep_sep' Finset.univ (fun k : Fin 31 => dutyTok ER (recvCell (fwd c k) k) 0 (0 : Fin 31)) (fun k : Fin 31 => dutyTok ER (sendCell c k) 0 (0 : Fin 31))).symm)
    isplitl [HtR]; · iexact HtR
    iexact HtS
  isplitl [Hown]; · iexists f0; iexact Hown
  isplitl [HatS]; · iexact HatS
  isplitr; · iempintro
  isplitr; · iempintro
  isplitl [HatR HcR]
  · iapply (Entails.of_eq (bigSep_sep' Finset.univ (fun k : Fin 31 => atPos ER (recvCell c k) 0 ∅ 0) (fun k : Fin 31 => cred (tallyAt (recvCell c k) () N))).symm)
    isplitl [HatR]; · iexact HatR
    iexact HcR
  isplitr; · iempintro
  isplitl [Hx]
  · iexists g0
    isplitr; · ipureintro; exact hx
    iexact Hx
  iexists g1
  iexact Hout

/-- With everything done the state is what the pipeline takes back. -/
theorem St_final : iprop(records m K ∗ St m c (pW 31)) ⊢ bodyPost m c := by
  unfold St bodyPost Φ₁ scrAny ownZero Dat.owesAt Pipeline.owesWithin
  dsimp only
  simp only [Bool.false_eq_true, ↓reduceIte, if_true, if_false, lt_31, Finset.univ_inter, ge_31, bigSep_empty, bigSep_sep']
  rw [Oat_end, show (dats m 0 c).owed t₀.succ = 0 from rfl]
  -- the device's own row at the full share is the share kept after 31 loans and the 31 loans
  have hshare : (rowPts (F := F) c c fullShare (statsOf (xstg m)))
      ⊣⊢ iprop(rowPts (F := F) c c (shRest 31) (statsOf (xstg m))
          ∗ bigSep Finset.univ (fun k : Fin 31 => rowPts (F := F) c c (shK k.val) (statsOf (xstg m)))) :=
    share_all (F := F) _ _
  iintro ⟨-, ⟨%W, HO⟩, -, -, -, -, Hown, -, -, ⟨HzS, Hshares⟩, -, ⟨HzR, Hrows⟩, Hx, Hout⟩
  isplitl [Hown Hshares Hrows HzS HzR]
  · isplitl [Hown Hshares Hrows]
    · iexists (statsOf (xstg m))
      iapply (scratch_rows (F := F) c fullShare (statsOf (xstg m))).2
      iapply (dev_split_bwd (F := F) c (fun r => rowPts (F := F) c r fullShare (statsOf (xstg m)))).2
      isplitl [Hown Hshares]
      · iapply hshare.2
        isplitl [Hown]; · iexact Hown
        iexact Hshares
      · iexact Hrows
    · isplitl [HzS]; · iexact HzS
      iexact HzR
  isplitl [HO]
  · iexists W
    isplitr; · ipureintro; exact fun _ _ => Or.inl trivial
    iexact HO
  isplitl [Hx]; · iexact Hx
  iexact Hout

end Steps

end Cert.KernelIdeal.Coll

end
-- ==== Proof.KernelIdeal.PartsWait.lean ====
/-
  The body's parts that only wait: receive waits 0 to 27 (four a part) and send waits 4 to 28 (five a part). Each
  part moves the device's state from one point of its run to the next through the wait steps.
-/
import proofs.«901062_g7700000000001063_dist_softmax_colshard_i_m2048_n1024_v7x_i32_f32_1_alg».proof.Proof.KernelIdeal.StepsWait

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 63 → ℕ) (c : Dev nD)

/-- The credit of a copy of any row of the scratch. -/
theorem rowM_dmaCredit (r : Dev nD) : (rowM r).view.dmaCredit = N := rfl

/-- Receive waits 0 to 3. -/
theorem part33_spec (v492 v513 v534 v555 : BitVec 32) :
    iprop(records m K ∗ St m c (pR 0))
      ⊢ wp frame (wpE (defs₀ (F := F)) 𝒱₀ (c : Thread nD τ) none) Set.univ
          (k0_part33 (Memref.whole cc0_stg0_0) (Memref.isWhole_whole _) (Memref.whole cc0_stg1_0) (Memref.isWhole_whole _) (Memref.whole cc0_scratch0) (Memref.isWhole_whole _) cc0_scratch1 cc0_scratch2 c v492 v513 v534 v555)
          (fun _ => St m c (pR 4)) := by
  rw [k0_part33_eq_skeleton]; unfold k0_part33_skel
  simp only [Prog.lift, Prog.bind_op, Prog.bind_ret, Prog.pure_eq_ret]
  iintro ⟨#HR, HS⟩
  iapply (recv_step m K c (0 : Fin 31) (src := rowM c) (dst := rowM c) (rowM_dmaCredit c)) $$ [HS]
  · isplitr; · iexact HR
    iexact HS
  iintro HS
  iapply (recv_step m K c (1 : Fin 31) (src := rowM c) (dst := rowM c) (rowM_dmaCredit c)) $$ [HS]
  · isplitr; · iexact HR
    iexact HS
  iintro HS
  iapply (recv_step m K c (2 : Fin 31) (src := rowM c) (dst := rowM c) (rowM_dmaCredit c)) $$ [HS]
  · isplitr; · iexact HR
    iexact HS
  iintro HS
  iapply (recv_step m K c (3 : Fin 31) (src := rowM c) (dst := rowM c) (rowM_dmaCredit c)) $$ [HS]
  · isplitr; · iexact HR
    iexact HS
  iintro HS
  rw [wp_ret]; imodintro
  iexact HS

/-- Receive waits 4 to 7. -/
theorem part34_spec (v576 v597 v618 v639 : BitVec 32) :
    iprop(records m K ∗ St m c (pR 4))
      ⊢ wp frame (wpE (defs₀ (F := F)) 𝒱₀ (c : Thread nD τ) none) Set.univ
          (k0_part34 (Memref.whole cc0_stg0_0) (Memref.isWhole_whole _) (Memref.whole cc0_stg1_0) (Memref.isWhole_whole _) (Memref.whole cc0_scratch0) (Memref.isWhole_whole _) cc0_scratch1 cc0_scratch2 c v576 v597 v618 v639)
          (fun _ => St m c (pR 8)) := by
  rw [k0_part34_eq_skeleton]; unfold k0_part34_skel
  simp only [Prog.lift, Prog.bind_op, Prog.bind_ret, Prog.pure_eq_ret]
  iintro ⟨#HR, HS⟩
  iapply (recv_step m K c (4 : Fin 31) (src := rowM c) (dst := rowM c) (rowM_dmaCredit c)) $$ [HS]
  · isplitr; · iexact HR
    iexact HS
  iintro HS
  iapply (recv_step m K c (5 : Fin 31) (src := rowM c) (dst := rowM c) (rowM_dmaCredit c)) $$ [HS]
  · isplitr; · iexact HR
    iexact HS
  iintro HS
  iapply (recv_step m K c (6 : Fin 31) (src := rowM c) (dst := rowM c) (rowM_dmaCredit c)) $$ [HS]
  · isplitr; · iexact HR
    iexact HS
  iintro HS
  iapply (recv_step m K c (7 : Fin 31) (src := rowM c) (dst := rowM c) (rowM_dmaCredit c)) $$ [HS]
  · isplitr; · iexact HR
    iexact HS
  iintro HS
  rw [wp_ret]; imodintro
  iexact HS

/-- Receive waits 8 to 11. -/
theorem part35_spec (v660 v681 v702 v723 : BitVec 32) :
    iprop(records m K ∗ St m c (pR 8))
      ⊢ wp frame (wpE (defs₀ (F := F)) 𝒱₀ (c : Thread nD τ) none) Set.univ
          (k0_part35 (Memref.whole cc0_stg0_0) (Memref.isWhole_whole _) (Memref.whole cc0_stg1_0) (Memref.isWhole_whole _) (Memref.whole cc0_scratch0) (Memref.isWhole_whole _) cc0_scratch1 cc0_scratch2 c v660 v681 v702 v723)
          (fun _ => St m c (pR 12)) := by
  rw [k0_part35_eq_skeleton]; unfold k0_part35_skel
  simp only [Prog.lift, Prog.bind_op, Prog.bind_ret, Prog.pure_eq_ret]
  iintro ⟨#HR, HS⟩
  iapply (recv_step m K c (8 : Fin 31) (src := rowM c) (dst := rowM c) (rowM_dmaCredit c)) $$ [HS]
  · isplitr; · iexact HR
    iexact HS
  iintro HS
  iapply (recv_step m K c (9 : Fin 31) (src := rowM c) (dst := rowM c) (rowM_dmaCredit c)) $$ [HS]
  · isplitr; · iexact HR
    iexact HS
  iintro HS
  iapply (recv_step m K c (10 : Fin 31) (src := rowM c) (dst := rowM c) (rowM_dmaCredit c)) $$ [HS]
  · isplitr; · iexact HR
    iexact HS
  iintro HS
  iapply (recv_step m K c (11 : Fin 31) (src := rowM c) (dst := rowM c) (rowM_dmaCredit c)) $$ [HS]
  · isplitr; · iexact HR
    iexact HS
  iintro HS
  rw [wp_ret]; imodintro
  iexact HS

/-- Receive waits 12 to 15. -/
theorem part36_spec (v744 v765 v786 v807 : BitVec 32) :
    iprop(records m K ∗ St m c (pR 12))
      ⊢ wp frame (wpE (defs₀ (F := F)) 𝒱₀ (c : Thread nD τ) none) Set.univ
          (k0_part36 (Memref.whole cc0_stg0_0) (Memref.isWhole_whole _) (Memref.whole cc0_stg1_0) (Memref.isWhole_whole _) (Memref.whole cc0_scratch0) (Memref.isWhole_whole _) cc0_scratch1 cc0_scratch2 c v744 v765 v786 v807)
          (fun _ => St m c (pR 16)) := by
  rw [k0_part36_eq_skeleton]; unfold k0_part36_skel
  simp only [Prog.lift, Prog.bind_op, Prog.bind_ret, Prog.pure_eq_ret]
  iintro ⟨#HR, HS⟩
  iapply (recv_step m K c (12 : Fin 31) (src := rowM c) (dst := rowM c) (rowM_dmaCredit c)) $$ [HS]
  · isplitr; · iexact HR
    iexact HS
  iintro HS
  iapply (recv_step m K c (13 : Fin 31) (src := rowM c) (dst := rowM c) (rowM_dmaCredit c)) $$ [HS]
  · isplitr; · iexact HR
    iexact HS
  iintro HS
  iapply (recv_step m K c (14 : Fin 31) (src := rowM c) (dst := rowM c) (rowM_dmaCredit c)) $$ [HS]
  · isplitr; · iexact HR
    iexact HS
  iintro HS
  iapply (recv_step m K c (15 : Fin 31) (src := rowM c) (dst := rowM c) (rowM_dmaCredit c)) $$ [HS]
  · isplitr; · iexact HR
    iexact HS
  iintro HS
  rw [wp_ret]; imodintro
  iexact HS

/-- Receive waits 16 to 19. -/
theorem part37_spec (v828 v849 v870 v891 : BitVec 32) :
    iprop(records m K ∗ St m c (pR 16))
      ⊢ wp frame (wpE (defs₀ (F := F)) 𝒱₀ (c : Thread nD τ) none) Set.univ
          (k0_part37 (Memref.whole cc0_stg0_0) (Memref.isWhole_whole _) (Memref.whole cc0_stg1_0) (Memref.isWhole_whole _) (Memref.whole cc0_scratch0) (Memref.isWhole_whole _) cc0_scratch1 cc0_scratch2 c v828 v849 v870 v891)
          (fun _ => St m c (pR 20)) := by
  rw [k0_part37_eq_skeleton]; unfold k0_part37_skel
  simp only [Prog.lift, Prog.bind_op, Prog.bind_ret, Prog.pure_eq_ret]
  iintro ⟨#HR, HS⟩
  iapply (recv_step m K c (16 : Fin 31) (src := rowM c) (dst := rowM c) (rowM_dmaCredit c)) $$ [HS]
  · isplitr; · iexact HR
    iexact HS
  iintro HS
  iapply (recv_step m K c (17 : Fin 31) (src := rowM c) (dst := rowM c) (rowM_dmaCredit c)) $$ [HS]
  · isplitr; · iexact HR
    iexact HS
  iintro HS
  iapply (recv_step m K c (18 : Fin 31) (src := rowM c) (dst := rowM c) (rowM_dmaCredit c)) $$ [HS]
  · isplitr; · iexact HR
    iexact HS
  iintro HS
  iapply (recv_step m K c (19 : Fin 31) (src := rowM c) (dst := rowM c) (rowM_dmaCredit c)) $$ [HS]
  · isplitr; · iexact HR
    iexact HS
  iintro HS
  rw [wp_ret]; imodintro
  iexact HS

/-- Receive waits 20 to 23. -/
theorem part38_spec (v912 v933 v954 v975 : BitVec 32) :
    iprop(records m K ∗ St m c (pR 20))
      ⊢ wp frame (wpE (defs₀ (F := F)) 𝒱₀ (c : Thread nD τ) none) Set.univ
          (k0_part38 (Memref.whole cc0_stg0_0) (Memref.isWhole_whole _) (Memref.whole cc0_stg1_0) (Memref.isWhole_whole _) (Memref.whole cc0_scratch0) (Memref.isWhole_whole _) cc0_scratch1 cc0_scratch2 c v912 v933 v954 v975)
          (fun _ => St m c (pR 24)) := by
  rw [k0_part38_eq_skeleton]; unfold k0_part38_skel
  simp only [Prog.lift, Prog.bind_op, Prog.bind_ret, Prog.pure_eq_ret]
  iintro ⟨#HR, HS⟩
  iapply (recv_step m K c (20 : Fin 31) (src := rowM c) (dst := rowM c) (rowM_dmaCredit c)) $$ [HS]
  · isplitr; · iexact HR
    iexact HS
  iintro HS
  iapply (recv_step m K c (21 : Fin 31) (src := rowM c) (dst := rowM c) (rowM_dmaCredit c)) $$ [HS]
  · isplitr; · iexact HR
    iexact HS
  iintro HS
  iapply (recv_step m K c (22 : Fin 31) (src := rowM c) (dst := rowM c) (rowM_dmaCredit c)) $$ [HS]
  · isplitr; · iexact HR
    iexact HS
  iintro HS
  iapply (recv_step m K c (23 : Fin 31) (src := rowM c) (dst := rowM c) (rowM_dmaCredit c)) $$ [HS]
  · isplitr; · iexact HR
    iexact HS
  iintro HS
  rw [wp_ret]; imodintro
  iexact HS

/-- Receive waits 24 to 27. -/
theorem part39_spec (v996 v1017 v1038 v1059 : BitVec 32) :
    iprop(records m K ∗ St m c (pR 24))
      ⊢ wp frame (wpE (defs₀ (F := F)) 𝒱₀ (c : Thread nD τ) none) Set.univ
          (k0_part39 (Memref.whole cc0_stg0_0) (Memref.isWhole_whole _) (Memref.whole cc0_stg1_0) (Memref.isWhole_whole _) (Memref.whole cc0_scratch0) (Memref.isWhole_whole _) cc0_scratch1 cc0_scratch2 c v996 v1017 v1038 v1059)
          (fun _ => St m c (pR 28)) := by
  rw [k0_part39_eq_skeleton]; unfold k0_part39_skel
  simp only [Prog.lift, Prog.bind_op, Prog.bind_ret, Prog.pure_eq_ret]
  iintro ⟨#HR, HS⟩
  iapply (recv_step m K c (24 : Fin 31) (src := rowM c) (dst := rowM c) (rowM_dmaCredit c)) $$ [HS]
  · isplitr; · iexact HR
    iexact HS
  iintro HS
  iapply (recv_step m K c (25 : Fin 31) (src := rowM c) (dst := rowM c) (rowM_dmaCredit c)) $$ [HS]
  · isplitr; · iexact HR
    iexact HS
  iintro HS
  iapply (recv_step m K c (26 : Fin 31) (src := rowM c) (dst := rowM c) (rowM_dmaCredit c)) $$ [HS]
  · isplitr; · iexact HR
    iexact HS
  iintro HS
  iapply (recv_step m K c (27 : Fin 31) (src := rowM c) (dst := rowM c) (rowM_dmaCredit c)) $$ [HS]
  · isplitr; · iexact HR
    iexact HS
  iintro HS
  rw [wp_ret]; imodintro
  iexact HS

/-- Send waits 4 to 8. -/
theorem part42_spec :
    iprop(records m K ∗ St m c (pW 4))
      ⊢ wp frame (wpE (defs₀ (F := F)) 𝒱₀ (c : Thread nD τ) none) Set.univ
          (k0_part42 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 9)) := by
  rw [k0_part42_eq_skeleton]; unfold k0_part42_skel
  simp only [Prog.lift, Prog.bind_op, Prog.bind_ret, Prog.pure_eq_ret]
  iintro ⟨#HR, HS⟩
  iapply (swait_step m K c (4 : Fin 31) (src := rowM c) (dst := rowM c) (rowM_dmaCredit c)) $$ [HS]
  · isplitr; · iexact HR
    iexact HS
  iintro HS
  iapply (swait_step m K c (5 : Fin 31) (src := rowM c) (dst := rowM c) (rowM_dmaCredit c)) $$ [HS]
  · isplitr; · iexact HR
    iexact HS
  iintro HS
  iapply (swait_step m K c (6 : Fin 31) (src := rowM c) (dst := rowM c) (rowM_dmaCredit c)) $$ [HS]
  · isplitr; · iexact HR
    iexact HS
  iintro HS
  iapply (swait_step m K c (7 : Fin 31) (src := rowM c) (dst := rowM c) (rowM_dmaCredit c)) $$ [HS]
  · isplitr; · iexact HR
    iexact HS
  iintro HS
  iapply (swait_step m K c (8 : Fin 31) (src := rowM c) (dst := rowM c) (rowM_dmaCredit c)) $$ [HS]
  · isplitr; · iexact HR
    iexact HS
  iintro HS
  rw [wp_ret]; imodintro
  iexact HS

/-- Send waits 9 to 13. -/
theorem part43_spec :
    iprop(records m K ∗ St m c (pW 9))
      ⊢ wp frame (wpE (defs₀ (F := F)) 𝒱₀ (c : Thread nD τ) none) Set.univ
          (k0_part43 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 14)) := by
  rw [k0_part43_eq_skeleton]; unfold k0_part43_skel
  simp only [Prog.lift, Prog.bind_op, Prog.bind_ret, Prog.pure_eq_ret]
  iintro ⟨#HR, HS⟩
  iapply (swait_step m K c (9 : Fin 31) (src := rowM c) (dst := rowM c) (rowM_dmaCredit c)) $$ [HS]
  · isplitr; · iexact HR
    iexact HS
  iintro HS
  iapply (swait_step m K c (10 : Fin 31) (src := rowM c) (dst := rowM c) (rowM_dmaCredit c)) $$ [HS]
  · isplitr; · iexact HR
    iexact HS
  iintro HS
  iapply (swait_step m K c (11 : Fin 31) (src := rowM c) (dst := rowM c) (rowM_dmaCredit c)) $$ [HS]
  · isplitr; · iexact HR
    iexact HS
  iintro HS
  iapply (swait_step m K c (12 : Fin 31) (src := rowM c) (dst := rowM c) (rowM_dmaCredit c)) $$ [HS]
  · isplitr; · iexact HR
    iexact HS
  iintro HS
  iapply (swait_step m K c (13 : Fin 31) (src := rowM c) (dst := rowM c) (rowM_dmaCredit c)) $$ [HS]
  · isplitr; · iexact HR
    iexact HS
  iintro HS
  rw [wp_ret]; imodintro
  iexact HS

/-- Send waits 14 to 18. -/
theorem part44_spec :
    iprop(records m K ∗ St m c (pW 14))
      ⊢ wp frame (wpE (defs₀ (F := F)) 𝒱₀ (c : Thread nD τ) none) Set.univ
          (k0_part44 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 19)) := by
  rw [k0_part44_eq_skeleton]; unfold k0_part44_skel
  simp only [Prog.lift, Prog.bind_op, Prog.bind_ret, Prog.pure_eq_ret]
  iintro ⟨#HR, HS⟩
  iapply (swait_step m K c (14 : Fin 31) (src := rowM c) (dst := rowM c) (rowM_dmaCredit c)) $$ [HS]
  · isplitr; · iexact HR
    iexact HS
  iintro HS
  iapply (swait_step m K c (15 : Fin 31) (src := rowM c) (dst := rowM c) (rowM_dmaCredit c)) $$ [HS]
  · isplitr; · iexact HR
    iexact HS
  iintro HS
  iapply (swait_step m K c (16 : Fin 31) (src := rowM c) (dst := rowM c) (rowM_dmaCredit c)) $$ [HS]
  · isplitr; · iexact HR
    iexact HS
  iintro HS
  iapply (swait_step m K c (17 : Fin 31) (src := rowM c) (dst := rowM c) (rowM_dmaCredit c)) $$ [HS]
  · isplitr; · iexact HR
    iexact HS
  iintro HS
  iapply (swait_step m K c (18 : Fin 31) (src := rowM c) (dst := rowM c) (rowM_dmaCredit c)) $$ [HS]
  · isplitr; · iexact HR
    iexact HS
  iintro HS
  rw [wp_ret]; imodintro
  iexact HS

/-- Send waits 19 to 23. -/
theorem part45_spec :
    iprop(records m K ∗ St m c (pW 19))
      ⊢ wp frame (wpE (defs₀ (F := F)) 𝒱₀ (c : Thread nD τ) none) Set.univ
          (k0_part45 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 24)) := by
  rw [k0_part45_eq_skeleton]; unfold k0_part45_skel
  simp only [Prog.lift, Prog.bind_op, Prog.bind_ret, Prog.pure_eq_ret]
  iintro ⟨#HR, HS⟩
  iapply (swait_step m K c (19 : Fin 31) (src := rowM c) (dst := rowM c) (rowM_dmaCredit c)) $$ [HS]
  · isplitr; · iexact HR
    iexact HS
  iintro HS
  iapply (swait_step m K c (20 : Fin 31) (src := rowM c) (dst := rowM c) (rowM_dmaCredit c)) $$ [HS]
  · isplitr; · iexact HR
    iexact HS
  iintro HS
  iapply (swait_step m K c (21 : Fin 31) (src := rowM c) (dst := rowM c) (rowM_dmaCredit c)) $$ [HS]
  · isplitr; · iexact HR
    iexact HS
  iintro HS
  iapply (swait_step m K c (22 : Fin 31) (src := rowM c) (dst := rowM c) (rowM_dmaCredit c)) $$ [HS]
  · isplitr; · iexact HR
    iexact HS
  iintro HS
  iapply (swait_step m K c (23 : Fin 31) (src := rowM c) (dst := rowM c) (rowM_dmaCredit c)) $$ [HS]
  · isplitr; · iexact HR
    iexact HS
  iintro HS
  rw [wp_ret]; imodintro
  iexact HS

/-- Send waits 24 to 28. -/
theorem part46_spec :
    iprop(records m K ∗ St m c (pW 24))
      ⊢ wp frame (wpE (defs₀ (F := F)) 𝒱₀ (c : Thread nD τ) none) Set.univ
          (k0_part46 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 29)) := by
  rw [k0_part46_eq_skeleton]; unfold k0_part46_skel
  simp only [Prog.lift, Prog.bind_op, Prog.bind_ret, Prog.pure_eq_ret]
  iintro ⟨#HR, HS⟩
  iapply (swait_step m K c (24 : Fin 31) (src := rowM c) (dst := rowM c) (rowM_dmaCredit c)) $$ [HS]
  · isplitr; · iexact HR
    iexact HS
  iintro HS
  iapply (swait_step m K c (25 : Fin 31) (src := rowM c) (dst := rowM c) (rowM_dmaCredit c)) $$ [HS]
  · isplitr; · iexact HR
    iexact HS
  iintro HS
  iapply (swait_step m K c (26 : Fin 31) (src := rowM c) (dst := rowM c) (rowM_dmaCredit c)) $$ [HS]
  · isplitr; · iexact HR
    iexact HS
  iintro HS
  iapply (swait_step m K c (27 : Fin 31) (src := rowM c) (dst := rowM c) (rowM_dmaCredit c)) $$ [HS]
  · isplitr; · iexact HR
    iexact HS
  iintro HS
  iapply (swait_step m K c (28 : Fin 31) (src := rowM c) (dst := rowM c) (rowM_dmaCredit c)) $$ [HS]
  · isplitr; · iexact HR
    iexact HS
  iintro HS
  rw [wp_ret]; imodintro
  iexact HS

end Parts

end Cert.KernelIdeal.Coll

end
-- ==== Proof.KernelIdeal.StepsLocal.lean ====
/-
  The local effects of the body. The load of the input block reads the staged block. The two stores of the row of
  local maxima and the row of local sums, each after a load of the same half row, leave the statistics in the device's
  own row. The two final loads read the 32 rows of maxima and the 32 rows of sums: for them the device's own row, held
  at the share not lent out, and the 31 landed rows, cut to that same share, are joined to the whole scratch and taken
  apart again. The store of the result fills the output's staging buffer.
-/
import proofs.«901062_g7700000000001063_dist_softmax_colshard_i_m2048_n1024_v7x_i32_f32_1_alg».proof.Proof.KernelIdeal.Geom

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Local

variable (K : Dev nD × Fin 63 → ℕ) (c : Dev nD)

abbrev rX : Rect S2048x1024 := Rect.unit (s := S2048x1024) ![0, 0] S2048x1024.size inb_S2048x1024_S2048x1024_0_0
abbrev r1 : Rect S32x4096 := Rect.unit (s := S32x4096) (k0_off1 c) S1x2048.size (k0_off1_inb c)
abbrev r2 : Rect S32x4096 := Rect.unit (s := S32x4096) (k0_off2 c) S1x2048.size (k0_off2_inb c)
abbrev rA : Rect S32x4096 := Rect.unit (s := S32x4096) ![0, 0] S32x2048.size inb_S32x4096_S32x2048_0_0
abbrev rB : Rect S32x4096 := Rect.unit (s := S32x4096) ![0, 2048] S32x2048.size inb_S32x4096_S32x2048_0_2048

omit [FloatOps F] in
theorem hz2 : (![0, 0] : Fin 2 → Nat) = fun _ => 0 := funext fun a => by fin_cases a <;> rfl

omit [FloatOps F] in
theorem read_x (f : (cc0_stg0_0 : Ref sig .tc).ty.Contents (Elt F)) :
    (xM : Memref sig .tc .vmem S2048x1024 .f32).view.readAt (Elt F) rX.toLoadRect f = f :=
  Memref.readAt_unit_zero (Elt F) cc0_stg0_0 hz2 _ f

omit [FloatOps F] in
theorem write_out (f w : (cc0_stg1_0 : Ref sig .tc).ty.Contents (Elt F)) :
    ((oM : Memref sig .tc .vmem S2048x1024 .f32).access rX : View sig .tc _ _ _).write (Elt F) f w Finset.univ = w :=
  Memref.write_access_unit_zero_univ (Elt F) cc0_stg1_0 hz2 _ f w

/-- The load of the staged input block, at any point of the run. -/
theorem loadx_step {α : Type} {Q : α → sProp 𝕄} (p : Pg) {hl : (xM : Memref sig .tc .vmem S2048x1024 .f32).view.LoadsAt rX.toLoadRect}
    {cont : (rX.toLoadRect.shape.Idx → Elt F .f32) → Prog (TpuEff nD τ sig (Elt F) Λ₀ .tc) α} :
    St m c p
      ⊢ iprop((St m c p -∗ wp frame (wpE (defs₀ (F := F)) 𝒱₀ (c : Thread nD τ) none) Set.univ (cont (xstg m c)) Q)
          -∗ wp frame (wpE (defs₀ (F := F)) 𝒱₀ (c : Thread nD τ) none) Set.univ (.op (.load xM rX.toLoadRect hl) cont) Q) := by
  unfold St
  iintro ⟨H1, H2, H3, H4, H5, H6, H7, H8, H9, H10, H11, ⟨%f, %hf, Hx⟩, H13⟩ Hk
  subst hf
  iapply (wp_load 𝒱₀ (c : Thread nD τ) none Set.univ (m := xM) (Finset.subset_univ _)) $$ Hx
  iintro Hx
  rw [read_x]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hx]
  · iexists _; isplitr; · (ipureintro; rfl)
    iexact Hx
  iexact H13

/-- The statistics written: each half row loaded, then stored. -/
theorem stats_step {α : Type} {Q : α → sProp 𝕄}
    {hl1 : (sM : Memref sig .tc .vmem S32x4096 .f32).view.LoadsAt (r1 c).toLoadRect} {hx1 : ((sM : Memref sig .tc .vmem S32x4096 .f32).access (r1 c)).Stores Finset.univ}
    {hm1 : (Finset.univ : Finset (r1 c).shape.Idx) = Finset.univ ∨ ∀ a, (r1 c).stride a = 1}
    {hl2 : (sM : Memref sig .tc .vmem S32x4096 .f32).view.LoadsAt (r2 c).toLoadRect} {hx2 : ((sM : Memref sig .tc .vmem S32x4096 .f32).access (r2 c)).Stores Finset.univ}
    {hm2 : (Finset.univ : Finset (r2 c).shape.Idx) = Finset.univ ∨ ∀ a, (r2 c).stride a = 1}
    {cont : PUnit → Prog (TpuEff nD τ sig (Elt F) Λ₀ .tc) α} :
    St m c (pS 31)
      ⊢ iprop((St m c pStats -∗ wp frame (wpE (defs₀ (F := F)) 𝒱₀ (c : Thread nD τ) none) Set.univ (cont ⟨⟩) Q)
          -∗ wp frame (wpE (defs₀ (F := F)) 𝒱₀ (c : Thread nD τ) none) Set.univ (.op (.load sM (r1 c).toLoadRect hl1) fun _ => .op (.store sM (r1 c) (Softmax.localMax (xstg m c)) Finset.univ hx1 hm1) fun _ => .op (.load sM (r2 c).toLoadRect hl2) fun _ => .op (.store sM (r2 c) (Softmax.localSum (xstg m c)) Finset.univ hx2 hm2) cont) Q) := by
  unfold St
  dsimp only
  simp only [Bool.false_eq_true, ↓reduceIte]
  iintro ⟨H1, H2, H3, H4, H5, ⟨%f, Hrow⟩, H7, H8, H9, H10, H11, H12, H13⟩ Hk
  unfold rowPts
  iapply (wp_load 𝒱₀ (c : Thread nD τ) none Set.univ (m := sM) (half1_load_sub_row c)) $$ Hrow
  iintro Hrow
  iapply (wp_store 𝒱₀ (c : Thread nD τ) none Set.univ (m := sM) (r := r1 c) (Mk := Finset.univ) (half1_sub_row c)) $$ Hrow
  iintro Hrow
  iapply (wp_load 𝒱₀ (c : Thread nD τ) none Set.univ (m := sM) (half2_load_sub_row c)) $$ Hrow
  iintro Hrow
  iapply (wp_store 𝒱₀ (c : Thread nD τ) none Set.univ (m := sM) (r := r2 c) (Mk := Finset.univ) (half2_sub_row c)) $$ Hrow
  iintro Hrow
  ihave Hrow := (Entails.of_eq (pointsTo_congr (g := statsOf (xstg m)) (fun i hi => stored_stats c (xstg m) f i ((mem_row_set c c i).1 hi)))) $$ Hrow
  iapply Hk
  isplitl [H1]; · iexact H1
  isplitl [H2]; · iexact H2
  isplitl [H3]; · iexact H3
  isplitl [H4]; · iexact H4
  isplitl [H5]; · iexact H5
  isplitl [Hrow]; · iexact Hrow
  isplitl [H7]; · iexact H7
  isplitl [H8]; · iexact H8
  isplitl [H9]; · iexact H9
  isplitl [H10]; · iexact H10
  isplitl [H11]; · iexact H11
  isplitl [H12]; · iexact H12
  iexact H13

/-- The result stored. -/
theorem out_step {α : Type} {Q : α → sProp 𝕄}
    {hx : ((oM : Memref sig .tc .vmem S2048x1024 .f32).access rX).Stores Finset.univ}
    {hm : (Finset.univ : Finset rX.shape.Idx) = Finset.univ ∨ ∀ a, rX.stride a = 1}
    {cont : PUnit → Prog (TpuEff nD τ sig (Elt F) Λ₀ .tc) α} :
    St m c (pR 31)
      ⊢ iprop((St m c (pW 0) -∗ wp frame (wpE (defs₀ (F := F)) 𝒱₀ (c : Thread nD τ) none) Set.univ (cont ⟨⟩) Q)
          -∗ wp frame (wpE (defs₀ (F := F)) 𝒱₀ (c : Thread nD τ) none) Set.univ (.op (.store oM rX (outAt m c) Finset.univ hx hm) cont) Q) := by
  unfold St
  dsimp only
  simp only [Bool.false_eq_true, ↓reduceIte]
  iintro ⟨H1, H2, H3, H4, H5, H6, H7, H8, H9, H10, H11, H12, ⟨%f, Hout⟩⟩ Hk
  iapply (wp_store 𝒱₀ (c : Thread nD τ) none Set.univ (m := oM) (r := rX) (Mk := Finset.univ) (Finset.subset_univ _)) $$ Hout
  iintro Hout
  rw [write_out]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; isplitr; · (ipureintro; rfl)
  iexact Hout

/-- The final loads: the 32 rows of maxima, the 32 rows of sums (and the output's staging buffer, whose value is not used). -/
theorem loads_step {α : Type} {Q : α → sProp 𝕄}
    {hlA : (sM : Memref sig .tc .vmem S32x4096 .f32).view.LoadsAt rA.toLoadRect} {hlB : (sM : Memref sig .tc .vmem S32x4096 .f32).view.LoadsAt rB.toLoadRect}
    {hlO : (oM : Memref sig .tc .vmem S2048x1024 .f32).view.LoadsAt rX.toLoadRect}
    {cont : (rA.toLoadRect.shape.Idx → Elt F .f32) → (rB.toLoadRect.shape.Idx → Elt F .f32) → Prog (TpuEff nD τ sig (Elt F) Λ₀ .tc) α} :
    St m c (pR 31)
      ⊢ iprop((St m c (pR 31) -∗ wp frame (wpE (defs₀ (F := F)) 𝒱₀ (c : Thread nD τ) none) Set.univ (cont (Softmax.allM (xstg m)) (Softmax.allS (xstg m))) Q)
          -∗ wp frame (wpE (defs₀ (F := F)) 𝒱₀ (c : Thread nD τ) none) Set.univ (.op (.load sM rA.toLoadRect hlA) fun vM => .op (.load sM rB.toLoadRect hlB) fun vS => .op (.load oM rX.toLoadRect hlO) fun _ => cont vM vS) Q) := by
  unfold St
  dsimp only
  simp only [Bool.false_eq_true, ↓reduceIte, lt_31]
  unfold rowPts
  rw [bigSep_sep' Finset.univ (fun k : Fin 31 => (semVal (recvCell c k) 0 : sProp 𝕄))
    (fun k : Fin 31 => ((rowM (bwd c k)).view.loc (c : Thread nD τ) ↦[(rowM (bwd c k)).view.set]{fullShare} statsOf (xstg m) : sProp 𝕄))]
  have hsplit : (bigSep Finset.univ fun k : Fin 31 => ((rowM (bwd c k)).view.loc (c : Thread nD τ) ↦[(rowM (bwd c k)).view.set]{fullShare} statsOf (xstg m) : sProp 𝕄))
      ⊢ iprop((bigSep Finset.univ fun k : Fin 31 => ((rowM (bwd c k)).view.loc (c : Thread nD τ) ↦[(rowM (bwd c k)).view.set]{shRest 31} statsOf (xstg m) : sProp 𝕄))
        ∗ bigSep Finset.univ fun k : Fin 31 => bigSep Finset.univ fun j : Fin 31 => ((rowM (bwd c k)).view.loc (c : Thread nD τ) ↦[(rowM (bwd c k)).view.set]{shK j.val} statsOf (xstg m) : sProp 𝕄)) :=
    (bigSep_mono fun k _ => (share_all _ _).1).trans (Entails.of_eq (bigSep_sep' _ _ _))
  have hjoin : iprop((bigSep Finset.univ fun k : Fin 31 => ((rowM (bwd c k)).view.loc (c : Thread nD τ) ↦[(rowM (bwd c k)).view.set]{shRest 31} statsOf (xstg m) : sProp 𝕄))
        ∗ bigSep Finset.univ fun k : Fin 31 => bigSep Finset.univ fun j : Fin 31 => ((rowM (bwd c k)).view.loc (c : Thread nD τ) ↦[(rowM (bwd c k)).view.set]{shK j.val} statsOf (xstg m) : sProp 𝕄))
      ⊢ (bigSep Finset.univ fun k : Fin 31 => ((rowM (bwd c k)).view.loc (c : Thread nD τ) ↦[(rowM (bwd c k)).view.set]{fullShare} statsOf (xstg m) : sProp 𝕄)) :=
    (Entails.of_eq (bigSep_sep' _ _ _).symm).trans (bigSep_mono fun k _ => (share_all _ _).2)
  iintro ⟨H1, H2, H3, H4, H5, Hown, H7, H8, H9, H10, ⟨Hsv, Hrows⟩, H12, ⟨%fo, Hout⟩⟩ Hk
  ihave Hs := hsplit $$ Hrows
  icases Hs with ⟨HrowsR, HrowsL⟩
  ihave Hall := (dev_split_bwd c (fun r : Dev nD => rowPts (F := F) c r (shRest 31) (statsOf (xstg m)))).2 $$ [Hown HrowsR]
  · unfold rowPts
    isplitl [Hown]; · iexact Hown
    iexact HrowsR
  ihave Hw := (scratch_rows c (shRest 31) (statsOf (xstg m))).2 $$ Hall
  iapply (wp_load 𝒱₀ (c : Thread nD τ) none Set.univ (m := sM) (Finset.subset_univ _)) $$ Hw
  iintro Hw
  rw [read_allM]
  iapply (wp_load 𝒱₀ (c : Thread nD τ) none Set.univ (m := sM) (Finset.subset_univ _)) $$ Hw
  iintro Hw
  rw [read_allS]
  iapply (wp_load 𝒱₀ (c : Thread nD τ) none Set.univ (m := oM) (Finset.subset_univ _)) $$ Hout
  iintro Hout
  ihave Hall := (scratch_rows c (shRest 31) (statsOf (xstg m))).1 $$ Hw
  ihave Hsp := (dev_split_bwd c (fun r : Dev nD => rowPts (F := F) c r (shRest 31) (statsOf (xstg m)))).1 $$ Hall
  unfold rowPts
  icases Hsp with ⟨Hown, HrowsR⟩
  ihave Hrows := hjoin $$ [HrowsR HrowsL]
  · isplitl [HrowsR]; · iexact HrowsR
    iexact HrowsL
  iapply Hk
  isplitl [H1]; · iexact H1
  isplitl [H2]; · iexact H2
  isplitl [H3]; · iexact H3
  isplitl [H4]; · iexact H4
  isplitl [H5]; · iexact H5
  isplitl [Hown]; · iexact Hown
  isplitl [H7]; · iexact H7
  isplitl [H8]; · iexact H8
  isplitl [H9]; · iexact H9
  isplitl [H10]; · iexact H10
  isplitl [Hsv Hrows]
  · isplitl [Hsv]; · iexact Hsv
    iexact Hrows
  isplitl [H12]; · iexact H12
  iexists fo; iexact Hout

end Local

end Cert.KernelIdeal.Coll

end
-- ==== Proof.KernelIdeal.PartsLocal.lean ====
/-
  The four parts of the body that hold local effects: the last two signals and the load of the input block; the two
  stores of the statistics and the barrier wait; the last three receive waits and the final loads; the store of the
  result and the first four send waits.
-/
import proofs.«901062_g7700000000001063_dist_softmax_colshard_i_m2048_n1024_v7x_i32_f32_1_alg».proof.Proof.KernelIdeal.Steps
import proofs.«901062_g7700000000001063_dist_softmax_colshard_i_m2048_n1024_v7x_i32_f32_1_alg».proof.Proof.KernelIdeal.StepsWait
import proofs.«901062_g7700000000001063_dist_softmax_colshard_i_m2048_n1024_v7x_i32_f32_1_alg».proof.Proof.KernelIdeal.StepsLocal
import proofs.«901062_g7700000000001063_dist_softmax_colshard_i_m2048_n1024_v7x_i32_f32_1_alg».proof.Proof.KernelIdeal.PartsWait

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Fin 63 → ℕ) (c : Dev nD)

/-- Part 13: signals 29 and 30, then the input block is loaded and reduced to the values the statistics are made of. -/
theorem part13_spec (v2 v384 v390 : BitVec 32) (v389 : BitVec 1) :
    iprop(records m K ∗ St m c (pS 29))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v384 v389 v390)
          (fun r => iprop(⌜r = ⟨k0_pay1 (xstg m c), k0_pay4 (xstg m c), k0_pay5 (xstg m c), k0_pay6 (xstg m c)⟩⌝ ∗ St m c (pS 31))) := by
  rw [k0_part13_eq_skeleton]; unfold k0_part13_skel
  simp only [semSignalWord, Prog.lift, Prog.bind_op, Prog.bind_ret, Prog.pure_eq_ret, dev30_eq c, dev31_eq c]
  iintro ⟨#HR, HS⟩
  iapply (sig_step m K c (29 : Fin 31)) $$ [HS]
  · isplitr; · iexact HR
    iexact HS
  iintro HS
  iapply (sig_step m K c (30 : Fin 31)) $$ [HS]
  · isplitr; · iexact HR
    iexact HS
  iintro HS
  iapply (loadx_step m c (pS 31)) $$ [HS]
  · iexact HS
  iintro HS
  rw [wp_ret]; imodintro
  isplitr; · (ipureintro; rfl)
  iexact HS

/-- Part 14: the statistics are written into the device's own row, then the barrier wait. -/
theorem part14_spec (v2 : BitVec 32) :
    iprop(records m K ∗ levAts L lv ∗ St m c (pS 31))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) (k0_pay1 (xstg m c)) (k0_pay4 (xstg m c)) (k0_pay5 (xstg m c)) (k0_pay6 (xstg m c)))
          (fun _ => St m c (pT 0)) := by
  rw [k0_part14_eq_skeleton]; unfold k0_part14_skel
  simp only [semWaitWord, Prog.lift, Prog.bind_op, Prog.bind_ret, Prog.pure_eq_ret]
  iintro ⟨#HR, #Hlev, HS⟩
  iapply (stats_step m c) $$ HS
  iintro HS
  iapply (bar_step m K c) $$ [HS]
  · isplitr; · iexact HR
    isplitr; · iexact Hlev
    iexact HS
  iintro HS
  rw [wp_ret]; imodintro
  iexact HS

/-- Part 40: receive waits 28, 29 and 30, then all 32 rows of statistics are read and the result block computed. -/
theorem part40_spec (v1080 v1101 : BitVec 32) :
    iprop(records m K ∗ St m c (pR 28))
      ⊢ wp frame (wpE (defs₀ (F := F)) 𝒱₀ (c : Thread nD τ) none) Set.univ
          (k0_part40 (Memref.whole cc0_stg0_0) (Memref.isWhole_whole _) (Memref.whole cc0_stg1_0) (Memref.isWhole_whole _) (Memref.whole cc0_scratch0) (Memref.isWhole_whole _) cc0_scratch1 cc0_scratch2 c (k0_pay1 (xstg m c)) v1080 v1101)
          (fun r => iprop(⌜r = outAt m c⌝ ∗ St m c (pR 31))) := by
  rw [k0_part40_eq_skeleton]; unfold k0_part40_skel
  simp only [Prog.lift, Prog.bind_op, Prog.bind_ret, Prog.pure_eq_ret]
  iintro ⟨#HR, HS⟩
  iapply (recv_step m K c (28 : Fin 31) (src := rowM c) (dst := rowM c) (rowM_dmaCredit c)) $$ [HS]
  · isplitr; · iexact HR
    iexact HS
  iintro HS
  iapply (recv_step m K c (29 : Fin 31) (src := rowM c) (dst := rowM c) (rowM_dmaCredit c)) $$ [HS]
  · isplitr; · iexact HR
    iexact HS
  iintro HS
  iapply (recv_step m K c (30 : Fin 31) (src := rowM c) (dst := rowM c) (rowM_dmaCredit c)) $$ [HS]
  · isplitr; · iexact HR
    iexact HS
  iintro HS
  iapply (loads_step m c) $$ [HS]
  · iexact HS
  iintro HS
  rw [wp_ret]; imodintro
  isplitr; · (ipureintro; rfl)
  iexact HS

/-- Part 41: the result block is stored, then send waits 0 to 3. -/
theorem part41_spec :
    iprop(records m K ∗ St m c (pR 31))
      ⊢ wp frame (wpE (defs₀ (F := F)) 𝒱₀ (c : Thread nD τ) none) Set.univ
          (k0_part41 (Memref.whole cc0_stg0_0) (Memref.isWhole_whole _) (Memref.whole cc0_stg1_0) (Memref.isWhole_whole _) (Memref.whole cc0_scratch0) (Memref.isWhole_whole _) cc0_scratch1 cc0_scratch2 c (outAt m c))
          (fun _ => St m c (pW 4)) := by
  rw [k0_part41_eq_skeleton]; unfold k0_part41_skel
  simp only [Prog.lift, Prog.bind_op, Prog.bind_ret, Prog.pure_eq_ret]
  iintro ⟨#HR, HS⟩
  iapply (out_step m c) $$ HS
  iintro HS
  iapply (swait_step m K c (0 : Fin 31) (src := rowM c) (dst := rowM c) (rowM_dmaCredit c)) $$ [HS]
  · isplitr; · iexact HR
    iexact HS
  iintro HS
  iapply (swait_step m K c (1 : Fin 31) (src := rowM c) (dst := rowM c) (rowM_dmaCredit c)) $$ [HS]
  · isplitr; · iexact HR
    iexact HS
  iintro HS
  iapply (swait_step m K c (2 : Fin 31) (src := rowM c) (dst := rowM c) (rowM_dmaCredit c)) $$ [HS]
  · isplitr; · iexact HR
    iexact HS
  iintro HS
  iapply (swait_step m K c (3 : Fin 31) (src := rowM c) (dst := rowM c) (rowM_dmaCredit c)) $$ [HS]
  · isplitr; · iexact HR
    iexact HS
  iintro HS
  rw [wp_ret]; imodintro
  iexact HS

end Parts

end Cert.KernelIdeal.Coll

end
-- ==== Proof.KernelIdeal.Body.lean ====
/-
  The body on one device, from the state the pipeline hands it to the state it takes back: the 46 printed parts in
  order, each by its own theorem, then the last two send waits.
-/
import proofs.«901062_g7700000000001063_dist_softmax_colshard_i_m2048_n1024_v7x_i32_f32_1_alg».proof.Proof.KernelIdeal.PartsSig
import proofs.«901062_g7700000000001063_dist_softmax_colshard_i_m2048_n1024_v7x_i32_f32_1_alg».proof.Proof.KernelIdeal.PartsSend
import proofs.«901062_g7700000000001063_dist_softmax_colshard_i_m2048_n1024_v7x_i32_f32_1_alg».proof.Proof.KernelIdeal.PartsWait
import proofs.«901062_g7700000000001063_dist_softmax_colshard_i_m2048_n1024_v7x_i32_f32_1_alg».proof.Proof.KernelIdeal.PartsLocal

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part's theorem carries over the rest of the program. -/
theorem bind_rule {β α : Type} {p : Prog (TpuEff nD τ sig (Elt F) Λ₀ .tc) β} {f : β → Prog (TpuEff nD τ sig (Elt F) Λ₀ .tc) α}
    {P : sProp 𝕄} {Φ : β → sProp 𝕄} {Q : α → sProp 𝕄} (c : Dev nD)
    (hp : P ⊢ wp frame (wpE (defs₀ (F := F)) 𝒱₀ (c : Thread nD τ) none) Set.univ p Φ) :
    P ⊢ iprop((∀ r, Φ r -∗ wp frame (wpE (defs₀ (F := F)) 𝒱₀ (c : Thread nD τ) none) Set.univ (f r) Q)
      -∗ wp frame (wpE (defs₀ (F := F)) 𝒱₀ (c : Thread nD τ) none) Set.univ (p >>= f) Q) := by
  rw [wp_bind]
  exact hp.trans (wp_wand _ _ _)

set_option maxRecDepth 100000 in
/-- The body on device c, run from the pipeline's precondition to its postcondition. -/
theorem sound_body (K : Dev nD × Fin 63 → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ (bodyOn (F := F)) Kt := by
  unfold bodyOn
  rw [cc0_body_eq_skeleton]; unfold cc0_body_skel
  simp only [Prog.lift, Prog.bind_op, Prog.bind_ret, Prog.pure_eq_ret]
  iintro ⟨Hpre, Hk⟩
  ihave Hi := (St_init m K c) $$ Hpre
  icases Hi with ⟨#HR, #Hlev, HS⟩
  -- part 1
  iapply (bind_rule c (part1_spec m K c)) $$ [HS]
  · isplitr; · iexact HR
    iexact HS
  iintro %r ⟨%hr, HS⟩
  obtain ⟨d0, x2, x3, x4, x5, x6⟩ := r
  obtain ⟨hd, hv⟩ := hr
  dsimp only at hd hv
  have hd' : c = d0 := hd.symm
  subst hd'
  have hv' : (SemArray.scalar (sig.barrier 0 rfl)) = x3 := hv.symm
  subst hv'
  dsimp only
  -- part 2
  iapply (bind_rule c (part2_spec m K c _ _ _ _)) $$ [HS]
  · isplitr; · iexact HR
    iexact HS
  iintro %r HS
  obtain ⟨y2_0, y2_1, y2_2⟩ := r
  dsimp only
  -- part 3
  iapply (bind_rule c (part3_spec m K c _ _ _ _)) $$ [HS]
  · isplitr; · iexact HR
    iexact HS
  iintro %r HS
  obtain ⟨y3_0, y3_1, y3_2⟩ := r
  dsimp only
  -- part 4
  iapply (bind_rule c (part4_spec m K c _ _ _ _)) $$ [HS]
  · isplitr; · iexact HR
    iexact HS
  iintro %r HS
  obtain ⟨y4_0, y4_1, y4_2⟩ := r
  dsimp only
  -- part 5
  iapply (bind_rule c (part5_spec m K c _ _ _ _)) $$ [HS]
  · isplitr; · iexact HR
    iexact HS
  iintro %r HS
  obtain ⟨y5_0, y5_1, y5_2⟩ := r
  dsimp only
  -- part 6
  iapply (bind_rule c (part6_spec m K c _ _ _ _)) $$ [HS]
  · isplitr; · iexact HR
    iexact HS
  iintro %r HS
  obtain ⟨y6_0, y6_1, y6_2⟩ := r
  dsimp only
  -- part 7
  iapply (bind_rule c (part7_spec m K c _ _ _ _)) $$ [HS]
  · isplitr; · iexact HR
    iexact HS
  iintro %r HS
  obtain ⟨y7_0, y7_1, y7_2⟩ := r
  dsimp only
  -- part 8
  iapply (bind_rule c (part8_spec m K c _ _ _ _)) $$ [HS]
  · isplitr; · iexact HR
    iexact HS
  iintro %r HS
  obtain ⟨y8_0, y8_1, y8_2⟩ := r
  dsimp only
  -- part 9
  iapply (bind_rule c (part9_spec m K c _ _ _ _)) $$ [HS]
  · isplitr; · iexact HR
    iexact HS
  iintro %r HS
  obtain ⟨y9_0, y9_1, y9_2⟩ := r
  dsimp only
  -- part 10
  iapply (bind_rule c (part10_spec m K c _ _ _ _)) $$ [HS]
  · isplitr; · iexact HR
    iexact HS
  iintro %r HS
  obtain ⟨y10_0, y10_1, y10_2⟩ := r
  dsimp only
  -- part 11
  iapply (bind_rule c (part11_spec m K c _ _ _ _)) $$ [HS]
  · isplitr; · iexact HR
    iexact HS
  iintro %r HS
  obtain ⟨y11_0, y11_1, y11_2⟩ := r
  dsimp only
  -- part 12
  iapply (bind_rule c (part12_spec m K c _ _ _ _)) $$ [HS]
  · isplitr; · iexact HR
    iexact HS
  iintro %r HS
  obtain ⟨y12_0, y12_1, y12_2⟩ := r
  dsimp only
  -- part 13
  iapply (bind_rule c (part13_spec m K c _ _ _ _)) $$ [HS]
  · isplitr; · iexact HR
    iexact HS
  iintro %r ⟨%hr, HS⟩
  subst hr
  dsimp only
  -- part 14
  iapply (bind_rule c (part14_spec m K c _)) $$ [HS]
  · isplitr; · iexact HR
    isplitr; · iexact Hlev
    iexact HS
  iintro %r HS
  -- part 15
  iapply (bind_rule c (part15_spec m K c _ _)) $$ [HS]
  · isplitr; · iexact HR
    iexact HS
  iintro %r HS
  obtain ⟨y15_0, y15_1, y15_2⟩ := r
  dsimp only
  -- part 16
  iapply (bind_rule c (part16_spec m K c _ _ _)) $$ [HS]
  · isplitr; · iexact HR
    iexact HS
  iintro %r HS
  obtain ⟨y16_0, y16_1⟩ := r
  dsimp only
  -- part 17
  iapply (bind_rule c (part17_spec m K c _)) $$ [HS]
  · isplitr; · iexact HR
    iexact HS
  iintro %r HS
  obtain ⟨y17_0, y17_1, y17_2, y17_3⟩ := r
  dsimp only
  -- part 18
  iapply (bind_rule c (part18_spec m K c _ _ _)) $$ [HS]
  · isplitr; · iexact HR
    iexact HS
  iintro %r HS
  obtain ⟨y18_0, y18_1, y18_2, y18_3, y18_4, y18_5⟩ := r
  dsimp only
  -- part 19
  iapply (bind_rule c (part19_spec m K c _ _ _ _ _ _)) $$ [HS]
  · isplitr; · iexact HR
    iexact HS
  iintro %r HS
  obtain ⟨y19_0, y19_1, y19_2, y19_3⟩ := r
  dsimp only
  -- part 20
  iapply (bind_rule c (part20_spec m K c _ _ _)) $$ [HS]
  · isplitr; · iexact HR
    iexact HS
  iintro %r HS
  obtain ⟨y20_0, y20_1⟩ := r
  dsimp only
  -- part 21
  iapply (bind_rule c (part21_spec m K c _)) $$ [HS]
  · isplitr; · iexact HR
    iexact HS
  iintro %r HS
  obtain ⟨y21_0, y21_1⟩ := r
  dsimp only
  -- part 22
  iapply (bind_rule c (part22_spec m K c _ _)) $$ [HS]
  · isplitr; · iexact HR
    iexact HS
  iintro %r HS
  obtain ⟨y22_0, y22_1, y22_2⟩ := r
  dsimp only
  -- part 23
  iapply (bind_rule c (part23_spec m K c _ _ _)) $$ [HS]
  · isplitr; · iexact HR
    iexact HS
  iintro %r HS
  obtain ⟨y23_0, y23_1⟩ := r
  dsimp only
  -- part 24
  iapply (bind_rule c (part24_spec m K c _)) $$ [HS]
  · isplitr; · iexact HR
    iexact HS
  iintro %r HS
  obtain ⟨y24_0, y24_1, y24_2, y24_3⟩ := r
  dsimp only
  -- part 25
  iapply (bind_rule c (part25_spec m K c _ _ _)) $$ [HS]
  · isplitr; · iexact HR
    iexact HS
  iintro %r HS
  obtain ⟨y25_0, y25_1, y25_2, y25_3, y25_4, y25_5⟩ := r
  dsimp only
  -- part 26
  iapply (bind_rule c (part26_spec m K c _ _ _ _ _ _)) $$ [HS]
  · isplitr; · iexact HR
    iexact HS
  iintro %r HS
  obtain ⟨y26_0, y26_1, y26_2, y26_3⟩ := r
  dsimp only
  -- part 27
  iapply (bind_rule c (part27_spec m K c _ _ _)) $$ [HS]
  · isplitr; · iexact HR
    iexact HS
  iintro %r HS
  obtain ⟨y27_0, y27_1⟩ := r
  dsimp only
  -- part 28
  iapply (bind_rule c (part28_spec m K c _)) $$ [HS]
  · isplitr; · iexact HR
    iexact HS
  iintro %r HS
  obtain ⟨y28_0, y28_1⟩ := r
  dsimp only
  -- part 29
  iapply (bind_rule c (part29_spec m K c _ _)) $$ [HS]
  · isplitr; · iexact HR
    iexact HS
  iintro %r HS
  obtain ⟨y29_0, y29_1, y29_2⟩ := r
  dsimp only
  -- part 30
  iapply (bind_rule c (part30_spec m K c _ _ _)) $$ [HS]
  · isplitr; · iexact HR
    iexact HS
  iintro %r HS
  obtain ⟨y30_0, y30_1⟩ := r
  dsimp only
  -- part 31
  iapply (bind_rule c (part31_spec m K c _)) $$ [HS]
  · isplitr; · iexact HR
    iexact HS
  iintro %r HS
  obtain ⟨y31_0, y31_1, y31_2, y31_3⟩ := r
  dsimp only
  -- part 32
  iapply (bind_rule c (part32_spec m K c _ _ _ _)) $$ [HS]
  · isplitr; · iexact HR
    iexact HS
  iintro %r HS
  -- part 33
  iapply (bind_rule c (part33_spec m K c _ _ _ _)) $$ [HS]
  · isplitr; · iexact HR
    iexact HS
  iintro %r HS
  -- part 34
  iapply (bind_rule c (part34_spec m K c _ _ _ _)) $$ [HS]
  · isplitr; · iexact HR
    iexact HS
  iintro %r HS
  -- part 35
  iapply (bind_rule c (part35_spec m K c _ _ _ _)) $$ [HS]
  · isplitr; · iexact HR
    iexact HS
  iintro %r HS
  -- part 36
  iapply (bind_rule c (part36_spec m K c _ _ _ _)) $$ [HS]
  · isplitr; · iexact HR
    iexact HS
  iintro %r HS
  -- part 37
  iapply (bind_rule c (part37_spec m K c _ _ _ _)) $$ [HS]
  · isplitr; · iexact HR
    iexact HS
  iintro %r HS
  -- part 38
  iapply (bind_rule c (part38_spec m K c _ _ _ _)) $$ [HS]
  · isplitr; · iexact HR
    iexact HS
  iintro %r HS
  -- part 39
  iapply (bind_rule c (part39_spec m K c _ _ _ _)) $$ [HS]
  · isplitr; · iexact HR
    iexact HS
  iintro %r HS
  -- part 40
  iapply (bind_rule c (part40_spec m K c _ _)) $$ [HS]
  · isplitr; · iexact HR
    iexact HS
  iintro %r ⟨%hr, HS⟩
  subst hr
  dsimp only
  -- part 41
  iapply (bind_rule c (part41_spec m K c)) $$ [HS]
  · isplitr; · iexact HR
    iexact HS
  iintro %r HS
  -- part 42
  iapply (bind_rule c (part42_spec m K c)) $$ [HS]
  · isplitr; · iexact HR
    iexact HS
  iintro %r HS
  -- part 43
  iapply (bind_rule c (part43_spec m K c)) $$ [HS]
  · isplitr; · iexact HR
    iexact HS
  iintro %r HS
  -- part 44
  iapply (bind_rule c (part44_spec m K c)) $$ [HS]
  · isplitr; · iexact HR
    iexact HS
  iintro %r HS
  -- part 45
  iapply (bind_rule c (part45_spec m K c)) $$ [HS]
  · isplitr; · iexact HR
    iexact HS
  iintro %r HS
  -- part 46
  iapply (bind_rule c (part46_spec m K c)) $$ [HS]
  · isplitr; · iexact HR
    iexact HS
  iintro %r HS
  -- the last two send waits
  iapply (swait_step m K c (29 : Fin 31) (src := rowM c) (dst := rowM c) (rowM_dmaCredit c)) $$ [HS]
  · isplitr; · iexact HR
    iexact HS
  iintro HS
  iapply (swait_step m K c (30 : Fin 31) (src := rowM c) (dst := rowM c) (rowM_dmaCredit c)) $$ [HS]
  · isplitr; · iexact HR
    iexact HS
  iintro HS
  rw [wp_ret]; imodintro
  iapply Hk
  iapply (St_final m K c)
  isplitr; · iexact HR
  iexact HS

end Cert.KernelIdeal.Coll

end
-- ==== Proof.KernelIdeal.Launch.lean ====
/-
  The launch: the exchange's cells funded and their invariants allocated for all 32 devices at once, the duty tokens
  dealt to their payers, the launch credit counted, and the region's run from the body's run on every device.
-/
import proofs.«901062_g7700000000001063_dist_softmax_colshard_i_m2048_n1024_v7x_i32_f32_1_alg».proof.Proof.KernelIdeal.Body
import proofs.«901062_g7700000000001063_dist_softmax_colshard_i_m2048_n1024_v7x_i32_f32_1_alg».proof.Proof.Gen.KernelIdeal.Frame

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's two windows, and a whole staging buffer -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation from the body's run -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 100000 in
/-- The library's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ (bodyOn (F := F)) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The kernel's own semaphores, the cells, the tokens -/

/-- The kernel's own (scoped) semaphores: the 31 send semaphores, then the 31 receive semaphores. -/
abbrev osem : Fin 31 ⊕ Fin 31 → SemLoc sig := Sum.elim (fun k => .dma (sendS k)) (fun k => .dma (recvS k))

theorem ownSemFacts : Pipeline.OwnSemFacts cfg0.spec osem := by decide +kernel

theorem share_eq (c : Dev nD) (w : Fin cfg0.W) : (dats m 0 c).share w = fullShare := by unfold Dat.share; split <;> rfl

theorem csem_injective : Function.Injective (csem : Fin 63 → SemLoc sig) := by decide +kernel

theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def exCells : Finset (GSem nD τ sig) := Finset.univ.map ⟨kcell, kcell_injective⟩

/-! ## The 63 cells of one device as barrier, 31 send, 31 receive -/

/-- The barrier, the 31 send and the 31 receive positions, as the positions 0 .. 62. -/
def e63 : Unit ⊕ Fin 31 ⊕ Fin 31 ≃ Fin 63 where
  toFun x := match x with
    | .inl _ => barJ
    | .inr (.inl k) => sendJ k
    | .inr (.inr k) => recvJ k
  invFun j := if h : j.val = 0 then .inl () else if h2 : j.val < 32 then .inr (.inl ⟨j.val - 1, by omega⟩)
    else .inr (.inr ⟨j.val - 32, by have := j.isLt; omega⟩)
  left_inv x := by
    match x with
    | .inl u => simp [barJ]
    | .inr (.inl k) =>
      have hk := k.isLt
      have h0 : ¬ (sendJ k).val = 0 := by show ¬ k.val + 1 = 0; omega
      have h1 : (sendJ k).val < 32 := by show k.val + 1 < 32; omega
      show (if h : (sendJ k).val = 0 then _ else _) = _
      rw [dif_neg h0, dif_pos h1]
      exact congrArg (fun j => Sum.inr (Sum.inl j)) (Fin.ext (by show k.val + 1 - 1 = k.val; omega))
    | .inr (.inr k) =>
      have hk := k.isLt
      have h0 : ¬ (recvJ k).val = 0 := by show ¬ k.val + 32 = 0; omega
      have h1 : ¬ (recvJ k).val < 32 := by show ¬ k.val + 32 < 32; omega
      show (if h : (recvJ k).val = 0 then _ else _) = _
      rw [dif_neg h0, dif_neg h1]
      exact congrArg (fun j => Sum.inr (Sum.inr j)) (Fin.ext (by show k.val + 32 - 32 = k.val; omega))
  right_inv j := by
    have hj := j.isLt
    dsimp only
    by_cases h : j.val = 0
    · rw [dif_pos h]; exact Fin.ext (by show 0 = j.val; omega)
    · rw [dif_neg h]
      by_cases h2 : j.val < 32
      · rw [dif_pos h2]; exact Fin.ext (by show j.val - 1 + 1 = j.val; omega)
      · rw [dif_neg h2]; exact Fin.ext (by show j.val - 32 + 32 = j.val; omega)

/-- A bigSep over a device's 63 positions is the barrier's, the 31 send positions' and the 31 receive positions'. -/
theorem bigSep_fin63 (Φ : Fin 63 → sProp 𝕄) :
    bigSep Finset.univ Φ = iprop(Φ barJ ∗ (bigSep Finset.univ fun k : Fin 31 => Φ (sendJ k)) ∗ bigSep Finset.univ fun k : Fin 31 => Φ (recvJ k)) := by
  rw [bigSep_univ_equiv e63, bigSep_univ_sum, bigSep_univ_sum, bigSep_univ_of_subsingleton ()]
  rfl

/-- The same over the cells themselves. -/
theorem bigSep_cells (c : Dev nD) (Ψ : GSem nD τ sig → sProp 𝕄) :
    (bigSep Finset.univ fun j : Fin 63 => Ψ (kcell (c, j)))
      = iprop(Ψ (barCell c) ∗ (bigSep Finset.univ fun k : Fin 31 => Ψ (sendCell c k)) ∗ bigSep Finset.univ fun k : Fin 31 => Ψ (recvCell c k)) := by
  rw [bigSep_fin63, kcell_bar]
  simp only [kcell_send, kcell_recv]

/-! ## The tokens minted at launch -/

theorem sendS_injective : Function.Injective sendS := fun k k' h =>
  Fin.ext (by have := congrArg Fin.val h; simp only [sendS] at this; omega)
theorem recvS_injective : Function.Injective recvS := fun k k' h =>
  Fin.ext (by have := congrArg Fin.val h; simp only [recvS] at this; omega)
theorem sendS_ne_recvS (k k' : Fin 31) : sendS k ≠ recvS k' := fun h => by
  have := congrArg Fin.val h; simp only [sendS, recvS] at this
  have := k.isLt; omega

/-- A device's own cells' duty tokens as minted: its barrier's 31 duties, each send cell's one, each receive cell's one. -/
abbrev tokOf (cx : Dev nD × (Fin 31 ⊕ Fin 31 ⊕ Fin 31)) : GSem nD τ sig × ℕ × Fin 31 := match cx.2 with
  | .inl k => (barCell cx.1, 0, k)
  | .inr (.inl k) => (sendCell cx.1 k, 0, 0)
  | .inr (.inr k) => (recvCell cx.1 k, 0, 0)

theorem tokOf_injective : Function.Injective (tokOf : Dev nD × (Fin 31 ⊕ Fin 31 ⊕ Fin 31) → GSem nD τ sig × ℕ × Fin 31) := by
  rintro ⟨c, x⟩ ⟨c', x'⟩ h
  have h1 : c = c' := by
    have := congrArg (fun y : GSem nD τ sig × ℕ × Fin 31 => y.1.1.1) h
    rcases x with k | k | k <;> rcases x' with k' | k' | k' <;> exact this
  subst h1
  have hs : (tokOf (c, x)).1.2 = (tokOf (c, x')).1.2 := congrArg (fun y : GSem nD τ sig × ℕ × Fin 31 => y.1.2) h
  have hd : (tokOf (c, x)).2.2 = (tokOf (c, x')).2.2 := congrArg (fun y : GSem nD τ sig × ℕ × Fin 31 => y.2.2) h
  rcases x with k | k | k <;> rcases x' with k' | k' | k'
  · have : k = k' := hd
    rw [this]
  · exact absurd hs (fun e => by cases e)
  · exact absurd hs (fun e => by cases e)
  · exact absurd hs (fun e => by cases e)
  · have : sendS k = sendS k' := SemLoc.dma.inj hs
    rw [sendS_injective this]
  · exact absurd (SemLoc.dma.inj hs) (sendS_ne_recvS k k')
  · exact absurd hs (fun e => by cases e)
  · exact absurd (SemLoc.dma.inj hs).symm (sendS_ne_recvS k' k)
  · have : recvS k = recvS k' := SemLoc.dma.inj hs
    rw [recvS_injective this]

def exToks : Finset (GSem nD τ sig × ℕ × Fin 31) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop((bigSep Finset.univ fun k : Fin 31 => dutyTok ER (barCell c) 0 k)
    ∗ (bigSep Finset.univ fun k : Fin 31 => dutyTok ER (sendCell c k) 0 (0 : Fin 31))
    ∗ (bigSep Finset.univ fun k : Fin 31 => dutyTok ER (recvCell c k) 0 (0 : Fin 31)))

/-- What the launch deals device c. -/
def G (c : Dev nD) : sProp 𝕄 :=
  iprop((bigSep Finset.univ fun j : Fin 63 => roundState ER (Rd m) (kcell (c, j)) 0)
    ∗ (bigSep Finset.univ fun j : Fin 63 => iprop(atPos ER (kcell (c, j)) 0 ∅ 0 ∗ reached ER (kcell (c, j)) 0)) ∗ toks c)

/-- What the global step makes of it. -/
def G' (c : Dev nD) : sProp 𝕄 := iprop(∃ K, ghost m K c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun j : Fin 63 => Φ (kcell (c, j)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's semaphores at zero into the cells' invariants, the tokens to their payers -/

/-- The 62 own semaphores at zero are the 31 send cells and the 31 receive cells at zero; -/
theorem ownSems0_eq (c : Dev nD) : (Pipeline.ownSems0 (Ix := Unit) (Name := ℕ) (U := UU) (Lvl := ℕ) (Val := Elt F) (τ := τ) osem c : sProp 𝕄)
    = ownZero c := by
  unfold Pipeline.ownSems0 ownZero
  rw [bigSep_univ_sum]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 63 => semVal (kcell (c, j)) 0 : sProp 𝕄) := by
  have h := bigSep_cells (F := F) c (fun g => (semVal g 0 : sProp 𝕄))
  rw [ownSems0_eq, unscopedSems0_eq, h]
  unfold ownZero
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (Rd m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 63 => semVal (kcell (c, j)) 0) ∗ bigSep Finset.univ fun j : Fin 63 => roundState ER (Rd m) (kcell (c, j)) 0)
      ⊢ (|={Set.univ}=> bigSep Finset.univ fun j => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 63 → ℕ) (c : Dev nD) : iprop(records m K ∗ (positions c ∗ payToks c)) ⊢ G' m c := by
  unfold G' ghost
  iintro ⟨#HR, Hl⟩
  iexists K
  isplitr; · iexact HR
  iexact Hl

/-- Device c ↦ its k-th forward peer, a permutation of the devices. -/
def fwdE (k : Fin 31) : Dev nD ≃ Dev nD := ⟨fun c => fwd c k, fun c => bwd c k, fun c => bwd_fwd c k, fun c => fwd_bwd c k⟩

/-- A family over (device, k) summed over all devices and all k is the same family read at (k-th forward peer, k). -/
theorem around (a : Dev nD → Fin 31 → sProp 𝕄) :
    (bigSep Finset.univ fun c : Dev nD => bigSep Finset.univ fun k : Fin 31 => a c k)
      = bigSep Finset.univ fun c : Dev nD => bigSep Finset.univ fun k : Fin 31 => a (fwd c k) k :=
  (bigSep_univ_comm (fun c k => a c k)).trans
    ((bigSep_congr fun k _ => bigSep_univ_equiv (fwdE k) (fun c => a c k)).trans
      (bigSep_univ_comm (fun c k => a (fwd c k) k)).symm)

/-- The tokens dealt around: a device's barrier token k and receive-cell-k token go to its k-th backward peer, which pays
    them; its send tokens stay. -/
theorem toks_around : (bigSep Finset.univ fun c : Dev nD => (toks c : sProp 𝕄)) ⊢ bigSep Finset.univ fun c : Dev nD => payToks c := by
  unfold toks payToks
  simp only [bigSep_sep']
  rw [around (fun c k => (dutyTok ER (barCell c) 0 k : sProp 𝕄)),
    around (fun c k => (dutyTok ER (recvCell c k) 0 (0 : Fin 31) : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (Rd m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 63 => iprop(∃ κ : ℕ, cellInv ER (Rd m) κ (kcell ck))),
    bigSep_congr (s := Finset.univ) (fun (c : Dev nD) _ => bigSep_sep' Finset.univ (fun j : Fin 63 => (atPos ER (kcell (c, j)) 0 ∅ 0 : sProp 𝕄)) (fun j => reached ER (kcell (c, j)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 63 => (atPos ER (kcell (c, j)) 0 ∅ 0 : sProp 𝕄)) payToks).symm).trans
      (bigSep_mono fun c _ => show _ ⊢ iprop(positions c ∗ payToks c) from Entails.of_eq (by
        unfold positions
        rw [bigSep_cells (F := F) c (fun g => (atPos ER g 0 ∅ 0 : sProp 𝕄))])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k k' : Fin 31} : Iff (recvCell a k = recvCell b k') (a = b ∧ k = k') :=
  ⟨fun h => ⟨Fin.ext (congrArg (fun g : GSem nD τ sig => g.1.1.val) h), recvS_injective (SemLoc.dma.inj (congrArg Prod.snd h))⟩,
    fun h => by rw [h.1, h.2]⟩

theorem fwd_eq_iff (d c : Dev nD) (k : Fin 31) : Iff (fwd d k = c) (d = bwd c k) :=
  ⟨fun h => by rw [← h, bwd_fwd], fun h => by rw [h, fwd_bwd]⟩

/-- Exactly one device has c as its k-th forward peer. -/
theorem sum_fwd_eq (c : Dev nD) (k : Fin 31) (n : ℕ) : (∑ d : Dev nD, if fwd d k = c then n else 0) = n := by
  rw [Finset.sum_congr rfl fun d _ => if_congr (fwd_eq_iff d c k) rfl rfl, Finset.sum_ite_eq' Finset.univ (bwd c k) fun _ => n,
    if_pos (Finset.mem_univ _)]

/-- What device d owes device c's barrier cell: a unit for each k with c its k-th forward peer. -/
theorem owed_bar (d c : Dev nD) : O₀ d (barCell c) () = ∑ k : Fin 31, if fwd d k = c then 1 else 0 := by
  unfold O₀ Oat
  rw [ge_zero, Pi.add_apply, Finsupp.add_apply, Finset.sum_apply, Finset.sum_apply, Finsupp.finset_sum_apply, Finsupp.finset_sum_apply,
    Finset.sum_eq_zero (s := Finset.univ) (f := fun k : Fin 31 => tallyAt (recvCell (fwd d k) k) () N (barCell c) ())
      (fun k _ => by rw [tallyAt_ne_cell (fun h => dma_ne_bar _ (congrArg Prod.snd h).symm), Finsupp.zero_apply]), Nat.zero_add]
  refine Finset.sum_congr rfl fun k _ => ?_
  rw [tallyAt_apply]
  by_cases h : fwd d k = c
  · rw [if_pos ⟨by rw [h], rfl⟩, if_pos h]
  · rw [if_neg (fun h' => h (bar_eq_iff.mp h'.1).symm), if_neg h]

/-- What device d owes device c's k-th receive cell: the copy's credit if c is its k-th forward peer. -/
theorem owed_recv (d c : Dev nD) (k : Fin 31) : O₀ d (recvCell c k) () = if fwd d k = c then N else 0 := by
  unfold O₀ Oat
  rw [ge_zero, Pi.add_apply, Finsupp.add_apply, Finset.sum_apply, Finset.sum_apply, Finsupp.finset_sum_apply, Finsupp.finset_sum_apply,
    Finset.sum_eq_zero (s := Finset.univ) (f := fun k' : Fin 31 => tallyAt (barCell (fwd d k')) () 1 (recvCell c k) ())
      (fun k' _ => by rw [tallyAt_ne_cell (fun h => dma_ne_bar _ (congrArg Prod.snd h)), Finsupp.zero_apply]), Nat.add_zero,
    Finset.sum_eq_single k]
  · rw [tallyAt_apply]
    by_cases h : fwd d k = c
    · rw [if_pos ⟨by rw [h], rfl⟩, if_pos h]
    · rw [if_neg (fun h' => h (recv_eq_iff.mp h'.1).1.symm), if_neg h]
  · intro k' _ hk'
    rw [tallyAt_apply, if_neg (fun h' => hk' (recv_eq_iff.mp h'.1).2.symm)]
  · intro h; exact absurd (Finset.mem_univ k) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => sum_fwd_eq c k 1, Finset.sum_const, Finset.card_univ, Fintype.card_fin, smul_eq_mul, mul_one]

theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, sum_fwd_eq]

theorem recvLoc_injective : Function.Injective (fun k : Fin 31 => (SemLoc.dma (recvS k) : SemLoc sig)) :=
  fun k k' h => recvS_injective (SemLoc.dma.inj h)

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map ⟨fun k : Fin 31 => (SemLoc.dma (recvS k) : SemLoc sig), recvLoc_injective⟩) (fun sm h => by
    obtain ⟨k, _, rfl⟩ := Finset.mem_map.mp h
    exact Finset.mem_erase.mpr ⟨dma_ne_bar _, Finset.mem_univ _⟩)).trans ?_
  rw [bigSep_map]
  exact bigSep_mono fun k _ => Entails.of_eq (congrArg cred (launch_recv c k))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every weakly fair execution of @main on the 32 devices terminates without a
    fault, and every final state has each window's array at what the pipeline's write-backs leave in it. -/
theorem run_windows : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array after the run holds the device's result block: its one block, the whole array, is what the body
    left in the staging buffer. -/
theorem finalA_o (c : Dev nD) : finalA m c (1 : Fin 2) = outAt m c := by
  have ho : ((cfg0.win (1 : Fin 2)).blk t₀).view.read (Elt F) (finalA m c (1 : Fin 2)) = (dats m 0 c).flushed (1 : Fin 2) t₀ := by
    unfold finalA
    rw [show cfg0.N = (t₀ : Fin cfg0.N).val + 1 from rfl, (dats m 0 c).arrAt_succ (1 : Fin 2) t₀, if_pos (flush0_1 t₀)]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  exact ho

/-- From any memory with zero counters every weakly fair execution of @main on the 32 devices terminates without a
    fault, each device's result array holding its result block and its argument array unchanged. -/
theorem run_main : θ_run defs (onTc (τ := τ) (main (F := F))) ⟨m, fun _ => 0, ρ⟩ (fun r => ∀ c : Dev nD,
    r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_o m c), (h c (0 : Fin 2)).trans (finalA_x m c)⟩) (run_windows m ρ)

end Cert.KernelIdeal.Coll

end
-- ==== Proof.SoftmaxSpec.lean ====
/-
  The kernel's result as one pure term of the devices' input blocks: the definitions localMax, localSum, allM, allS
  and outAt (namespace Cert.KernelIdeal.Softmax) are in the module imported here.
-/
import proofs.«901062_g7700000000001063_dist_softmax_colshard_i_m2048_n1024_v7x_i32_f32_1_alg».proof.Proof.KernelIdeal.Spec
-- ==== Proof.SoftmaxLocalReal.lean ====
/-
  A row of 1024 reals cut into four tiles of 256 consecutive entries. The running maximum over the tiles is the
  row's maximum; the running sum of exp (entry - running maximum), rescaled at each new tile by
  exp (old maximum - new maximum), is the row's sum of exp (entry - maximum).
-/
import Mathlib.Analysis.Complex.Exponential
import Mathlib.Algebra.BigOperators.Fin
import Mathlib.Data.Finset.Lattice.Fold
import Mathlib.Logic.Equiv.Fin.Basic
import Mathlib.Tactic.Ring

noncomputable section

namespace Cert.KernelIdeal.Softmax

open scoped BigOperators

/-- The 256 consecutive entries of a row from column o on. -/
def tile (o : ℕ) (ho : o + 256 ≤ 1024) (x : Fin 1024 → ℝ) : Fin 256 → ℝ :=
  fun l => x ⟨o + l.val, by have := l.isLt; omega⟩

/-- A tile's maximum. -/
def tmax (f : Fin 256 → ℝ) : ℝ := Finset.univ.sup' Finset.univ_nonempty f

/-- A tile's sum of exp (entry - μ). -/
def tsum (f : Fin 256 → ℝ) (μ : ℝ) : ℝ := ∑ l, Real.exp (f l - μ)

/-- The running maxima after one, two, three and four tiles. -/
def runMax0 (x : Fin 1024 → ℝ) : ℝ := tmax (tile 0 (by decide) x)
def runMax1 (x : Fin 1024 → ℝ) : ℝ := max (runMax0 x) (tmax (tile 256 (by decide) x))
def runMax2 (x : Fin 1024 → ℝ) : ℝ := max (runMax1 x) (tmax (tile 512 (by decide) x))
def runMax3 (x : Fin 1024 → ℝ) : ℝ := max (runMax2 x) (tmax (tile 768 (by decide) x))

/-- The running sums after one, two, three and four tiles, each taken against the running maximum so far. -/
def runSum0 (x : Fin 1024 → ℝ) : ℝ := tsum (tile 0 (by decide) x) (runMax0 x)
def runSum1 (x : Fin 1024 → ℝ) : ℝ :=
  runSum0 x * Real.exp (runMax0 x - runMax1 x) + tsum (tile 256 (by decide) x) (runMax1 x)
def runSum2 (x : Fin 1024 → ℝ) : ℝ :=
  runSum1 x * Real.exp (runMax1 x - runMax2 x) + tsum (tile 512 (by decide) x) (runMax2 x)
def runSum3 (x : Fin 1024 → ℝ) : ℝ :=
  runSum2 x * Real.exp (runMax2 x - runMax3 x) + tsum (tile 768 (by decide) x) (runMax3 x)

/-- An entry whose column lies in a tile is at most the tile's maximum. -/
theorem le_tmax (o : ℕ) (ho : o + 256 ≤ 1024) (x : Fin 1024 → ℝ) (j : Fin 1024) (h1 : o ≤ j.val) (h2 : j.val < o + 256) :
    x j ≤ tmax (tile o ho x) := by
  have e : x j = tile o ho x ⟨j.val - o, by omega⟩ := by
    unfold tile
    exact congrArg x (Fin.ext (by show j.val = o + (j.val - o); omega))
  rw [e]
  exact Finset.le_sup' _ (Finset.mem_univ _)

/-- A tile's maximum is at most the row's. -/
theorem tmax_le (o : ℕ) (ho : o + 256 ≤ 1024) (x : Fin 1024 → ℝ) :
    tmax (tile o ho x) ≤ Finset.univ.sup' Finset.univ_nonempty x :=
  Finset.sup'_le _ _ fun l _ => Finset.le_sup' x (Finset.mem_univ (⟨o + l.val, by have := l.isLt; omega⟩ : Fin 1024))

/-- The running maximum after the four tiles is the row's maximum. -/
theorem runMax3_eq (x : Fin 1024 → ℝ) : runMax3 x = Finset.univ.sup' Finset.univ_nonempty x := by
  apply le_antisymm
  · exact max_le (max_le (max_le (tmax_le 0 _ x) (tmax_le 256 _ x)) (tmax_le 512 _ x)) (tmax_le 768 _ x)
  · refine Finset.sup'_le _ _ fun j _ => ?_
    have hj := j.isLt
    unfold runMax3 runMax2 runMax1 runMax0
    by_cases h1 : j.val < 256
    · exact (le_tmax 0 _ x j (by omega) (by omega)).trans (le_max_of_le_left (le_max_of_le_left (le_max_left _ _)))
    · by_cases h2 : j.val < 512
      · exact (le_tmax 256 _ x j (by omega) (by omega)).trans (le_max_of_le_left (le_max_of_le_left (le_max_right _ _)))
      · by_cases h3 : j.val < 768
        · exact (le_tmax 512 _ x j (by omega) (by omega)).trans (le_max_of_le_left (le_max_right _ _))
        · exact (le_tmax 768 _ x j (by omega) (by omega)).trans (le_max_right _ _)

/-- Rescaling a tile's sum by exp (μ - ν) moves it from the maximum μ to the maximum ν. -/
theorem tsum_mul_exp (f : Fin 256 → ℝ) (μ ν : ℝ) : tsum f μ * Real.exp (μ - ν) = tsum f ν := by
  unfold tsum
  rw [Finset.sum_mul]
  refine Finset.sum_congr rfl fun l _ => ?_
  rw [← Real.exp_add]
  exact congrArg Real.exp (by ring)

/-- A sum over the row's 1024 columns is the sum of the sums over its four tiles. -/
theorem sum_tiles (g : Fin 1024 → ℝ) :
    ∑ j, g j = (∑ l, tile 0 (by decide) g l) + (∑ l, tile 256 (by decide) g l)
      + (∑ l, tile 512 (by decide) g l) + ∑ l, tile 768 (by decide) g l := by
  have e : ∑ p : Fin 4 × Fin 256, g (finProdFinEquiv (m := 4) (n := 256) p) = ∑ j, g j :=
    Equiv.sum_comp (finProdFinEquiv (m := 4) (n := 256)) g
  rw [← e, Fintype.sum_prod_type, Fin.sum_univ_four]
  have k : ∀ (t : Fin 4) (o : ℕ) (ho : o + 256 ≤ 1024), o = 256 * t.val →
      ∑ l : Fin 256, g (finProdFinEquiv (m := 4) (n := 256) (t, l)) = ∑ l, tile o ho g l := by
    intro t o ho hot
    refine Finset.sum_congr rfl fun l _ => ?_
    unfold tile
    exact congrArg g (Fin.ext (by show l.val + 256 * t.val = o + l.val; omega))
  rw [k 0 0 (by decide) rfl, k 1 256 (by decide) rfl, k 2 512 (by decide) rfl, k 3 768 (by decide) rfl]

/-- The running sum after the four tiles is the row's sum of exp (entry - the row's maximum). -/
theorem runSum3_eq (x : Fin 1024 → ℝ) :
    runSum3 x = ∑ j, Real.exp (x j - Finset.univ.sup' Finset.univ_nonempty x) := by
  rw [← runMax3_eq, sum_tiles]
  simp only [runSum3, runSum2, runSum1, runSum0, add_mul, tsum_mul_exp]
  rfl

end Cert.KernelIdeal.Softmax

end
-- ==== Proof.SoftmaxLocalRead.lean ====
/-
  Reading one lane of a [2048, 256] tile at the exact (extended-real) values: the keepdims reshape and broadcast
  [2048] -> [2048, 1] -> [2048, 256] read at (r, l) is the vector at r; a lane maximum of real entries is the
  maximum of the reals; a lane sum of real entries is the sum of the reals; and the lane sum of exp (entry - m)
  against a real m broadcast along the lane is the real sum of exp (entry - m).
-/
import Idealize.ShloMosaic.Lib.ValueLayout
import Idealize.ShloMosaic.PureOps.Ideal.Laws

noncomputable section

namespace Cert.KernelIdeal.Softmax

open Idealize.ShloMosaic Idealize.ShloMosaic.ValueIdx
open scoped BigOperators

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector reshaped to one column and broadcast along the lanes reads, at (p, c), the vector at p. -/
theorem keepdims_apply {a b : ℕ} (m : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ m h1) h2 (ix2 p c) = m (ix1 p) := by
  rw [broadcastTo_a1_ab_apply, shapeCast_a_a1_apply]

end Layout

section Coe

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with max. -/
theorem coe_max (a b : ℝ) : ((max a b : ℝ) : EReal) = max (a : EReal) (b : EReal) :=
  EReal.coe_strictMono.monotone.map_max

/-- Folding max from -∞ over real values gives the reals' maximum. -/
theorem fold_max_bot_coe {ι : Type*} (s : Finset ι) (hs : s.Nonempty) (f : ι → ℝ) :
    s.fold max (⊥ : EReal) (fun i => (f i : EReal)) = ((s.sup' hs f : ℝ) : EReal) := by
  have e : ((s.sup' hs f : ℝ) : EReal) = s.sup' hs ((fun r : ℝ => (r : EReal)) ∘ f) :=
    Finset.comp_sup'_eq_sup'_comp hs (fun r : ℝ => (r : EReal)) coe_max
  rw [e, Finset.sup'_eq_sup]
  rfl

/-- One rescaling step on real values: s * exp (μ - ν) + t, each operand the coercion of a real, is the coercion of
    the same expression over the reals. -/
theorem rescale_step (s e1 e2 t : EReal) (S μ ν T : ℝ) (hs : s = (S : EReal)) (h1 : e1 = (μ : EReal)) (h2 : e2 = (ν : EReal))
    (ht : t = (T : EReal)) : s * Ideal.exp (e1 - e2) + t = ((S * Real.exp (μ - ν) + T : ℝ) : EReal) := by
  rw [hs, h1, h2, ht, ← EReal.coe_sub, Ideal.exp_coe, ← EReal.coe_mul, ← EReal.coe_add]

/-- exp of a difference of two vectors, read at an index, is the exact exp of the difference of the entries. -/
theorem exp_sub_apply {s : Shape} {φ : FTy} (a b : FVec Ideal s φ) (i : s.Idx) :
    exp (subf a b) i = Ideal.exp (a i - b i) := rfl

/-- The word 0xFF800000 is -∞. -/
theorem ofBits_neg_inf : Ideal.ofBits .f32 0xFF800000#32 = ⊥ := by simp [Ideal.ofBits, Ideal.ieee]

end Coe

section Lanes

/-- The index of a [2048, 256] tile over lane r with column l inserted is (r, l). -/
theorem lift_ix1 (h : (⟨2, ![2048, 256]⟩ : Shape).Reduces [1] ⟨1, ![2048]⟩) (r : Fin 2048) (l : Fin 256) :
    h.lift (ix1 r) l = ix2 r l := by
  funext c
  match c with
  | ⟨0, _⟩ => rfl
  | ⟨1, _⟩ => rfl

/-- A lane maximum of real entries is the maximum of the reals. -/
theorem laneMax_apply (T : FVec Ideal ⟨2, ![2048, 256]⟩ .f32) (h : (⟨2, ![2048, 256]⟩ : Shape).Reduces [1] ⟨1, ![2048]⟩)
    (hφ : FKind.Formats .f32) (hacc : (0xFF800000#32 : BitVec 32) = FKind.maximumf.neutral .f32 hφ)
    (f : Fin 256 → ℝ) (r : Fin 2048) (hT : ∀ l : Fin 256, T (ix2 r l) = (f l : EReal)) :
    multiReduction (F := Ideal) .maximumf [1] ⟨1, ![2048]⟩ T 0xFF800000#32 h hφ hacc (ix1 r)
      = ((Finset.univ.sup' Finset.univ_nonempty f : ℝ) : EReal) := by
  rw [Ideal.multiReduction_maximumf_single]
  have e : (T ∘ h.lift (ix1 r)) = fun l : Fin 256 => (f l : EReal) := funext fun l => by
    exact (congrArg T (lift_ix1 h r l)).trans (hT l)
  rw [← fold_max_bot_coe, ← ofBits_neg_inf, ← e]
  rfl

/-- A lane sum of real entries is the sum of the reals. -/
theorem laneSum_apply (E : FVec Ideal ⟨2, ![2048, 256]⟩ .f32) (h : (⟨2, ![2048, 256]⟩ : Shape).Reduces [1] ⟨1, ![2048]⟩)
    (hφ : FKind.Formats .f32) (hacc : (0x00000000#32 : BitVec 32) = FKind.add.neutral .f32 hφ)
    (g : Fin 256 → ℝ) (r : Fin 2048) (hE : ∀ l : Fin 256, E (ix2 r l) = (g l : EReal)) :
    multiReduction (F := Ideal) .add [1] ⟨1, ![2048]⟩ E 0x00000000#32 h hφ hacc (ix1 r) = ((∑ l, g l : ℝ) : EReal) := by
  rw [Ideal.multiReduction_add_single, coe_finset_sum]
  exact Finset.sum_congr rfl fun l _ => (congrArg E (lift_ix1 h r l)).trans (hE l)

/-- The lane sum of exp (entry - m), with m a real at lane r broadcast along the lane, is the real sum. -/
theorem laneExpSum_apply (T : FVec Ideal ⟨2, ![2048, 256]⟩ .f32) (m : FVec Ideal ⟨1, ![2048]⟩ .f32)
    (h1 : (⟨1, ![2048]⟩ : Shape).ShapeCasts ⟨2, ![2048, 1]⟩) (h2 : (⟨2, ![2048, 1]⟩ : Shape).Broadcasts ⟨2, ![2048, 256]⟩)
    (h : (⟨2, ![2048, 256]⟩ : Shape).Reduces [1] ⟨1, ![2048]⟩)
    (hφ : FKind.Formats .f32) (hacc : (0x00000000#32 : BitVec 32) = FKind.add.neutral .f32 hφ)
    (f : Fin 256 → ℝ) (μ : ℝ) (r : Fin 2048) (hT : ∀ l : Fin 256, T (ix2 r l) = (f l : EReal)) (hm : m (ix1 r) = (μ : EReal)) :
    multiReduction (F := Ideal) .add [1] ⟨1, ![2048]⟩
        (exp (subf T (broadcastTo ⟨2, ![2048, 256]⟩ (shapeCast ⟨2, ![2048, 1]⟩ m h1) h2))) 0x00000000#32 h hφ hacc (ix1 r)
      = ((∑ l, Real.exp (f l - μ) : ℝ) : EReal) := by
  refine laneSum_apply _ h hφ hacc (fun l => Real.exp (f l - μ)) r fun l => ?_
  show Ideal.exp (T (ix2 r l) - broadcastTo ⟨2, ![2048, 256]⟩ (shapeCast ⟨2, ![2048, 1]⟩ m h1) h2 (ix2 r l)) = _
  rw [keepdims_apply, hT, hm, ← EReal.coe_sub, Ideal.exp_coe]

end Lanes

end Cert.KernelIdeal.Softmax

end
-- ==== Proof.SoftmaxLocal.lean ====
/-
  The device-local row statistics over the reals: the tile-by-tile running maximum and rescaled running sum
  of a row of 1024 finite entries are the row's maximum and its sum of exp (entry - maximum).

  Each payload of the body is read at lane r. The four tiles' entries are the row's entries at columns
  o + l (o = 0, 256, 512, 768); the running maxima are the coercions of the reals runMax0 .. runMax3 and the
  running sums the coercions of runSum1 .. runSum3; the laws over the reals (runMax3_eq, runSum3_eq) then give
  the row's maximum and its sum of exp (entry - maximum).
-/
import proofs.«901062_g7700000000001063_dist_softmax_colshard_i_m2048_n1024_v7x_i32_f32_1_alg».proof.Proof.SoftmaxSpec
import proofs.«901062_g7700000000001063_dist_softmax_colshard_i_m2048_n1024_v7x_i32_f32_1_alg».proof.Proof.SoftmaxLocalReal
import proofs.«901062_g7700000000001063_dist_softmax_colshard_i_m2048_n1024_v7x_i32_f32_1_alg».proof.Proof.SoftmaxLocalRead
import Idealize.ShloMosaic.Lib.ValueIdx
import Idealize.ShloMosaic.PureOps.Ideal.Laws

noncomputable section

namespace Cert.KernelIdeal.Softmax

open Cert.KernelIdeal Cert.KernelIdeal.Gen Idealize.ShloMosaic Idealize.ShloMosaic.ValueIdx

/-- The block re-cast to its own shape is the block. -/
theorem pay1_eq (xb : FVec Ideal S2048x1024 .f32) : k0_pay1 (F := Ideal) xb = xb := by
  unfold k0_pay1
  exact shapeCast_self _ _

section Row

variable (xb : FVec Ideal S2048x1024 .f32) (xr : Fin 2048 → Fin 1024 → ℝ)
  (hx : ∀ r j, xb (ix2 r j) = (xr r j : EReal)) (r : Fin 2048)
include hx

/-- The tile cut at column offset o reads, at (r, l), the row's real entry at column o + l. -/
theorem tile_apply (o : ℕ) (ho : o + 256 ≤ 1024) (h : S2048x1024.Slices ![0, o] S2048x256) (l : Fin 256) :
    extractStridedSlice S2048x256 ![0, o] (k0_pay1 (F := Ideal) xb) h (ix2 r l) = (tile o ho (xr r) l : EReal) := by
  rw [pay1_eq, slice2_axis1_eq, hx]
  rfl

/-- The second tile's entries. -/
theorem pay3_apply (l : Fin 256) : k0_pay3 (F := Ideal) xb (ix2 r l) = (tile 256 (by decide) (xr r) l : EReal) := by
  unfold k0_pay3
  exact tile_apply xb xr hx r 256 _ _ l

/-- The third tile's entries. -/
theorem pay6_apply (l : Fin 256) : k0_pay6 (F := Ideal) xb (ix2 r l) = (tile 512 (by decide) (xr r) l : EReal) := by
  unfold k0_pay6
  exact tile_apply xb xr hx r 512 _ _ l

/-- The fourth tile's entries. -/
theorem pay8_apply (l : Fin 256) :
    k0_pay8 (F := Ideal) (k0_pay1 xb) (ix2 r l) = (tile 768 (by decide) (xr r) l : EReal) := by
  unfold k0_pay8
  exact tile_apply xb xr hx r 768 _ _ l

/-- The maximum of the first tile. -/
theorem pay2_apply : k0_pay2 (F := Ideal) xb (ix1 r) = (runMax0 (xr r) : EReal) := by
  unfold k0_pay2
  exact laneMax_apply _ _ _ _ (tile 0 (by decide) (xr r)) r (tile_apply xb xr hx r 0 _ _)

/-- The running maximum after two tiles. -/
theorem pay4_apply : k0_pay4 (F := Ideal) xb (ix1 r) = (runMax1 (xr r) : EReal) := by
  unfold k0_pay4
  refine (maximumf_apply _ _ _).trans ?_
  refine (congrArg₂ max (pay2_apply xb xr hx r)
    (laneMax_apply _ _ _ _ (tile 256 (by decide) (xr r)) r (pay3_apply xb xr hx r))).trans ?_
  exact (coe_max _ _).symm

/-- The running maximum after three tiles. -/
theorem pay7_apply :
    k0_pay7 (F := Ideal) (k0_pay4 xb) (k0_pay6 xb) (ix1 r) = (runMax2 (xr r) : EReal) := by
  unfold k0_pay7
  refine (maximumf_apply _ _ _).trans ?_
  refine (congrArg₂ max (pay4_apply xb xr hx r)
    (laneMax_apply _ _ _ _ (tile 512 (by decide) (xr r)) r (pay6_apply xb xr hx r))).trans ?_
  exact (coe_max _ _).symm

/-- The running maximum after the four tiles. -/
theorem pay9_apply :
    k0_pay9 (F := Ideal) (k0_pay1 xb) (k0_pay4 xb) (k0_pay6 xb) (ix1 r) = (runMax3 (xr r) : EReal) := by
  unfold k0_pay9
  refine (maximumf_apply _ _ _).trans ?_
  refine (congrArg₂ max (pay7_apply xb xr hx r)
    (laneMax_apply _ _ _ _ (tile 768 (by decide) (xr r)) r (pay8_apply xb xr hx r))).trans ?_
  exact (coe_max _ _).symm

/-- The running sum after two tiles. -/
theorem pay5_apply : k0_pay5 (F := Ideal) xb (ix1 r) = (runSum1 (xr r) : EReal) := by
  unfold k0_pay5
  simp only [addf_apply, mulf_apply, exp_sub_apply]
  exact rescale_step _ _ _ _ _ _ _ _
    (laneExpSum_apply _ _ _ _ _ _ _ (tile 0 (by decide) (xr r)) (runMax0 (xr r)) r
      (tile_apply xb xr hx r 0 _ _) (pay2_apply xb xr hx r))
    (pay2_apply xb xr hx r) (pay4_apply xb xr hx r)
    (laneExpSum_apply _ _ _ _ _ _ _ (tile 256 (by decide) (xr r)) (runMax1 (xr r)) r
      (pay3_apply xb xr hx r) (pay4_apply xb xr hx r))

end Row

/-- The local maximum of row r is the maximum of the row's 1024 real entries. -/
theorem localMax_apply (xb : FVec Ideal S2048x1024 .f32) (xr : Fin 2048 → Fin 1024 → ℝ)
    (hx : ∀ r j, xb (ix2 r j) = (xr r j : EReal)) (r : Fin 2048) :
    localMax (F := Ideal) xb (ix2 (0 : Fin 1) r) = ((Finset.univ.sup' Finset.univ_nonempty (xr r) : ℝ) : EReal) := by
  unfold localMax k0_pay10
  refine (shapeCast_a_1a_apply _ _ (0 : Fin 1) r).trans ?_
  rw [pay9_apply xb xr hx r, runMax3_eq]

/-- The local sum of row r is the sum over the row's 1024 entries of exp (entry - the row's local maximum). -/
theorem localSum_apply (xb : FVec Ideal S2048x1024 .f32) (xr : Fin 2048 → Fin 1024 → ℝ)
    (hx : ∀ r j, xb (ix2 r j) = (xr r j : EReal)) (r : Fin 2048) :
    localSum (F := Ideal) xb (ix2 (0 : Fin 1) r)
      = ((∑ j : Fin 1024, Real.exp (xr r j - Finset.univ.sup' Finset.univ_nonempty (xr r)) : ℝ) : EReal) := by
  unfold localSum k0_pay11
  refine (shapeCast_a_1a_apply _ _ (0 : Fin 1) r).trans ?_
  simp only [addf_apply, mulf_apply, exp_sub_apply]
  rw [← runSum3_eq]
  exact rescale_step _ _ _ _ _ _ _ _
    (rescale_step _ _ _ _ _ _ _ _ (pay5_apply xb xr hx r) (pay4_apply xb xr hx r) (pay7_apply xb xr hx r)
      (laneExpSum_apply _ _ _ _ _ _ _ (tile 512 (by decide) (xr r)) (runMax2 (xr r)) r
        (pay6_apply xb xr hx r) (pay7_apply xb xr hx r)))
    (pay7_apply xb xr hx r) (pay9_apply xb xr hx r)
    (laneExpSum_apply _ _ _ _ _ _ _ (tile 768 (by decide) (xr r)) (runMax3 (xr r)) r
      (pay8_apply xb xr hx r) (pay9_apply xb xr hx r))

end Cert.KernelIdeal.Softmax

end
-- ==== Proof.SoftmaxFinite.lean ====
/-
  Finite inputs: the printed precondition, all ones on a block, says every entry of the block is a real number.
-/
import proofs.«901062_g7700000000001063_dist_softmax_colshard_i_m2048_n1024_v7x_i32_f32_1_alg».proof.Proof.SoftmaxSpec
import proofs.«901062_g7700000000001063_dist_softmax_colshard_i_m2048_n1024_v7x_i32_f32_1_alg».proof.Proof.Gen.Pre_finite_inputs_Kernel
import Idealize.ShloMosaic.Lib.ReduceAll
import Idealize.ShloMosaic.PureOps.Ideal.Laws
import Mathlib.Data.EReal.Basic
import Mathlib.Data.EReal.Operations

noncomputable section

namespace Cert.KernelIdeal.Softmax

open Cert.KernelIdeal Cert.KernelIdeal.Gen Idealize.ShloMosaic Idealize.ShloMosaic.ValueIdx

/-- Every entry is a real number. -/
def Finite {S : Shape} (x : S.Idx → EReal) : Prop := ∀ i, ∃ r : ℝ, x i = (r : EReal)

/-- The f32 word with exponent all ones and fraction zero, sign clear, denotes +∞. -/
theorem posInf_word : Ideal.ofBits .f32 0x7F800000#32 = (⊤ : EReal) := by
  simp [Ideal.ofBits, Ideal.ieee]

/-- An extended real whose absolute value max x (-x) is below +∞ is a real number. -/
theorem real_of_abs_lt_top (x : EReal) (hx : max x (-x) < (⊤ : EReal)) : ∃ r : ℝ, x = (r : EReal) := by
  obtain ⟨h1, h2⟩ := max_lt_iff.1 hx
  have hne_top : x ≠ ⊤ := ne_of_lt h1
  have hne_bot : x ≠ ⊥ := by
    intro hb
    rw [hb, EReal.neg_bot] at h2
    exact lt_irrefl _ h2
  exact ⟨x.toReal, (EReal.coe_toReal hne_top hne_bot).symm⟩

/-- The comparison "less than" on extended reals returns the word 1 only when the strict inequality holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- The printed precondition, all ones on a block, says every entry of the block is a real number. -/
theorem finite_of_pre (xb : FVec Ideal S2048x1024 .f32)
    (h : Cert.Pre_finite_inputs_Kernel.fn (F := Ideal) xb = fun _ => 1#1) : Finite xb := by
  intro i
  have h0 := congrFun h ValueIdx.ix0
  dsimp only [Cert.Pre_finite_inputs_Kernel.fn] at h0
  haveI : Subsingleton Cert.Pre_finite_inputs_Kernel.S_.Idx := ⟨fun a b => funext fun d => d.elim0⟩
  have hi := Host.reduce_andi_all _ _ _ _ _ h0 i
  have hc : Ideal.cmp .olt (max (xb i) (-(xb i))) (Ideal.ofBits .f32 0x7F800000#32) = 1#1 := hi
  have hlt := lt_of_cmp_olt _ _ hc
  rw [posInf_word] at hlt
  exact real_of_abs_lt_top (xb i) hlt

end Cert.KernelIdeal.Softmax

end
-- ==== Proof.SoftmaxGlobalReal.lean ====
/-
  Real-number facts behind the several-device softmax: the maximum of block maxima is the whole maximum, block sums of
  exponentials rescaled from their own block maximum to a common one add up to the whole sum, and the two coercion
  facts that carry a finite maximum and a finite sum from the reals into the extended reals.
-/
import Mathlib.Data.EReal.Inv
import Mathlib.Analysis.SpecialFunctions.Exp
import Mathlib.Logic.Equiv.Fin.Basic
import Mathlib.Data.Fintype.BigOperators
import Mathlib.Algebra.BigOperators.Ring.Finset
import Mathlib.Data.Finset.Lattice.Fold

open scoped BigOperators

namespace Cert.KernelIdeal.Softmax.RealFacts

/-- Column `1024 * d + j` of the whole row, as the pair (block d, column j of the block). -/
def colEquiv : Fin 32 × Fin 1024 ≃ Fin 32768 := finProdFinEquiv.trans (finCongr (by norm_num))

theorem colEquiv_val (d : Fin 32) (j : Fin 1024) : (colEquiv (d, j)).val = d.val * 1024 + j.val := by
  show j.val + 1024 * d.val = d.val * 1024 + j.val
  omega

section Blocks
variable {ι κ τ : Type} [Fintype ι] [Fintype κ] [Fintype τ] [Nonempty ι] [Nonempty κ] [Nonempty τ]

/-- The maximum of the blocks' maxima is the maximum of the whole. -/
theorem sup'_blocks (e : ι × κ ≃ τ) (f : τ → ℝ) :
    Finset.univ.sup' Finset.univ_nonempty (fun d => Finset.univ.sup' Finset.univ_nonempty (fun j => f (e (d, j))))
      = Finset.univ.sup' Finset.univ_nonempty f := by
  apply le_antisymm
  · refine Finset.sup'_le _ _ fun d _ => Finset.sup'_le _ _ fun j _ => ?_
    exact Finset.le_sup' f (Finset.mem_univ _)
  · refine Finset.sup'_le _ _ fun k _ => ?_
    obtain ⟨⟨d, j⟩, rfl⟩ := e.surjective k
    exact le_trans (Finset.le_sup' (fun j => f (e (d, j))) (Finset.mem_univ j))
      (Finset.le_sup' (fun d => Finset.univ.sup' Finset.univ_nonempty (fun j => f (e (d, j)))) (Finset.mem_univ d))

/-- Each block's sum of exp (entry - the block's own level m d), rescaled by exp (m d - M), summed over the blocks, is
    the whole sum of exp (entry - M). -/
theorem sum_rescale (e : ι × κ ≃ τ) (f : τ → ℝ) (m : ι → ℝ) (M : ℝ) :
    ∑ d, (∑ j, Real.exp (f (e (d, j)) - m d)) * Real.exp (m d - M) = ∑ k, Real.exp (f k - M) := by
  rw [← e.sum_comp, Fintype.sum_prod_type]
  refine Finset.sum_congr rfl fun d _ => ?_
  rw [Finset.sum_mul]
  refine Finset.sum_congr rfl fun j _ => ?_
  rw [← Real.exp_add]
  congr 1
  ring

end Blocks

/-- A finite sum of reals, carried into the extended reals, is the sum of the carried terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from -∞ over a nonempty finite family of reals is the family's maximum. -/
theorem fold_max_coe {ι : Type} (s : Finset ι) (hs : s.Nonempty) (f : ι → ℝ) :
    s.fold max (⊥ : EReal) (fun k => (f k : EReal)) = ((s.sup' hs f : ℝ) : EReal) := by
  classical
  induction hs using Finset.Nonempty.cons_induction with
  | singleton a =>
    rw [Finset.fold_singleton, Finset.sup'_singleton]
    exact max_eq_left bot_le
  | cons a s ha hs ih =>
    rw [Finset.fold_cons, ih, Finset.sup'_cons hs]
    exact (EReal.coe_strictMono.monotone.map_max).symm

/-- A sum of exponentials over a nonempty family is positive. -/
theorem sum_exp_pos {ι : Type} [Fintype ι] [Nonempty ι] (g : ι → ℝ) : 0 < ∑ k, Real.exp (g k) :=
  Finset.sum_pos (fun k _ => Real.exp_pos _) Finset.univ_nonempty

end Cert.KernelIdeal.Softmax.RealFacts
-- ==== Proof.SoftmaxGlobalPay.lean ====
/-
  The kernel's last stage read at one entry: with M the maximum over the 32 devices of the local maxima of the row and
  S the sum over the devices of the local sums rescaled by exp (local maximum - M), the entry is
  exp (x - M) * (1 / S).
-/
import proofs.«901062_g7700000000001063_dist_softmax_colshard_i_m2048_n1024_v7x_i32_f32_1_alg».proof.Proof.SoftmaxSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Softmax.Global

open Cert.KernelIdeal Cert.KernelIdeal.Gen Idealize.ShloMosaic Idealize.ShloMosaic.ValueIdx

/-- A vector of `a` entries cast to one column reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row index with device `d` put back on the reduced axis is (d, r). -/
theorem lift_dev_row (h : S32x2048.Reduces [0] S2048) (r : Fin 2048) (d : Fin (S32x2048.size 0)) :
    h.lift (ix1 r) d = ix2 (⟨d.val, d.isLt⟩ : Fin 32) r := by
  funext c; apply Fin.ext
  match c with
  | ⟨0, _⟩ => rfl
  | ⟨1, _⟩ => rfl

/-- The maximum over the devices, at row `r`. -/
def devMax (am : FVec Ideal S32x2048 .f32) (r : Fin 2048) : EReal :=
  (Finset.univ : Finset (Fin 32)).fold max (Ideal.ofBits .f32 0xFF800000#32) (fun d => am (ix2 d r))

/-- The devices' sums rescaled to the common maximum and added, at row `r`. -/
def devSum (am sv : FVec Ideal S32x2048 .f32) (r : Fin 2048) : EReal :=
  ∑ d : Fin 32, sv (ix2 d r) * Ideal.exp (am (ix2 d r) - devMax am r)

/-- The maximum stage at row `r`. -/
theorem maxStage_apply (am : FVec Ideal S32x2048 .f32) (hacc : (0xFF800000#32 : BitVec 32) = 0xFF800000#32) (r : Fin 2048) :
    multiReduction (F := Ideal) .maximumf [0] S2048 am 0xFF800000#32 reduces_S32x2048_S2048 (.inl rfl) hacc (ix1 r) = devMax am r := by
  refine (Ideal.multiReduction_maximumf_single am 0xFF800000#32 reduces_S32x2048_S2048 (.inl rfl) hacc (ix1 r)).trans ?_
  unfold devMax
  have hf : (am ∘ reduces_S32x2048_S2048.lift (ix1 r)) = fun d : Fin 32 => am (ix2 d r) :=
    funext fun d => congrArg am (lift_dev_row reduces_S32x2048_S2048 r d)
  exact congrArg (fun f => Finset.fold max (Ideal.ofBits .f32 0xFF800000#32) f (Finset.univ : Finset (Fin 32))) hf

/-- The sum stage at row `r`. -/
theorem sumStage_apply (v : FVec Ideal S32x2048 .f32) (hacc : (0x00000000#32 : BitVec 32) = 0x00000000#32) (r : Fin 2048) :
    multiReduction (F := Ideal) .add [0] S2048 v 0x00000000#32 reduces_S32x2048_S2048 (.inl rfl) hacc (ix1 r)
      = ∑ d : Fin 32, v (ix2 d r) := by
  refine (Ideal.multiReduction_add_single v 0x00000000#32 reduces_S32x2048_S2048 (.inl rfl) hacc (ix1 r)).trans ?_
  exact Finset.sum_congr rfl fun d _ => congrArg v (lift_dev_row reduces_S32x2048_S2048 r d)

/-- The exponential of a vector reads the exponential of the entry. -/
theorem exp_apply {s : Shape} (v : FVec Ideal s .f32) (i : s.Idx) : exp v i = Ideal.exp (v i) := rfl

/-- A vector of rows cast to one column and broadcast along the columns reads, at (r, l), entry r. -/
theorem colBroadcast_apply (v : FVec Ideal S2048 .f32) (r : Fin 2048) (l : Fin 1024) :
    broadcastTo S2048x1024 (shapeCast S2048x1 v shapeCasts_S2048_S2048x1) broadcasts_S2048x1_S2048x1024 (ix2 r l) = v (ix1 r) := by
  rw [broadcastTo_a1_ab_apply, shapeCast_a_a1_apply]

/-- A vector of rows cast to one row and broadcast over the devices reads, at (d, r), entry r. -/
theorem rowBroadcast_apply (v : FVec Ideal S2048 .f32) (d : Fin 32) (r : Fin 2048) :
    broadcastTo S32x2048 (shapeCast S1x2048 v shapeCasts_S2048_S1x2048) broadcasts_S1x2048_S32x2048 (ix2 d r) = v (ix1 r) := by
  rw [broadcastTo_1b_ab_apply, shapeCast_a_1a_apply]

/-- The last stage at entry (r, l). -/
theorem pay12_apply (x : FVec Ideal S2048x1024 .f32) (am sv : FVec Ideal S32x2048 .f32) (r : Fin 2048) (l : Fin 1024) :
    k0_pay12 (F := Ideal) x am sv (ix2 r l)
      = Ideal.exp (x (ix2 r l) - devMax am r) * Ideal.div (Ideal.ofBits .f32 0x3F800000#32) (devSum am sv r) := by
  unfold k0_pay12
  simp only []
  rw [mulf_apply, exp_apply, subf_apply, colBroadcast_apply, colBroadcast_apply, divf_apply, broadcast_apply,
    maxStage_apply, sumStage_apply]
  unfold devSum
  refine congrArg (fun s => Ideal.exp (x (ix2 r l) - devMax am r) * Ideal.div (Ideal.ofBits .f32 0x3F800000#32) s) ?_
  refine Finset.sum_congr rfl fun d _ => ?_
  rw [mulf_apply, exp_apply, subf_apply, rowBroadcast_apply, maxStage_apply]

end Cert.KernelIdeal.Softmax.Global

end
-- ==== Proof.SoftmaxGlobalRef.lean ====
/-
  The reference's softmax read at one entry: with the row's maximum M over all 32768 columns, the entry at (r, k) is
  exp (A[r, k] - M) divided by (0 + the sum over all columns k' of exp (A[r, k'] - M)).
-/
import proofs.«901062_g7700000000001063_dist_softmax_colshard_i_m2048_n1024_v7x_i32_f32_1_alg».proof.Proof.Gen.ReferenceIdeal.Read
import Idealize.ShloMosaic.Lib.ValueIdx
import Idealize.ShloMosaic.PureOps.Ideal.Laws

noncomputable section

namespace Cert.KernelIdeal.Softmax.Ref

open Cert.ReferenceIdeal Cert.ReferenceIdeal.Gen Cert.ReferenceIdeal.Read Idealize.ShloMosaic Idealize.ShloMosaic.ValueIdx

/-- The whole array's columns reduce to the vector of rows. -/
theorem reduces_cols : S2048x32768.Reduces [1] S2048 := by decide

/-- Row `r` with column `k` put back on the reduced axis is (r, k). -/
theorem lift_row_col (h : S2048x32768.Reduces [1] S2048) (r : Fin 2048) (k : Fin (S2048x32768.size 1)) :
    h.lift (ix1 r) k = ix2 r (⟨k.val, k.isLt⟩ : Fin 32768) := by
  funext c; apply Fin.ext
  match c with
  | ⟨0, _⟩ => rfl
  | ⟨1, _⟩ => rfl

/-- The row's running maximum from the initial word over all 32768 columns. -/
def rowMax (A : FVec Ideal S2048x32768 .f32) (r : Fin 2048) : EReal :=
  (Finset.univ : Finset (Fin 32768)).fold max (Ideal.ofBits .f32 0xFF800000#32) (fun k => A (ix2 r k))

/-- The max-reduce stage at row `r`. -/
theorem v0_apply (A : FVec Ideal S2048x32768 .f32) (r : Fin 2048) : val_main_v0 (F := Ideal) A (ix1 r) = rowMax A r := by
  unfold val_main_v0
  rw [Host.reduce_eq_fold_single FloatOps.maximumf A _ reducesTo_S2048x32768_S2048_d1 reduces_cols h_S_]
  have hf : (A ∘ reduces_cols.lift (ix1 r)) = fun k : Fin 32768 => A (ix2 r k) :=
    funext fun k => congrArg A (lift_row_col reduces_cols r k)
  exact congrArg (fun f => Finset.fold max (Ideal.ofBits .f32 0xFF800000#32) f (Finset.univ : Finset (Fin 32768))) hf

/-- The exponential stage at (r, k). -/
theorem v4_apply (A : FVec Ideal S2048x32768 .f32) (r : Fin 2048) (k : Fin 32768) :
    val_main_v4 (F := Ideal) A (ix2 r k) = Ideal.exp (A (ix2 r k) - rowMax A r) := by
  have e : idx_main_v1 (idx_main_v2 (ix2 r k)) = ix1 r :=
    funext fun a => Fin.ext (by match a with | ⟨0, _⟩ => rfl)
  rw [val_main_v4_apply, val_main_v3_apply, val_main_v2_apply, val_main_v1_apply, e, v0_apply]
  rfl

/-- The last stage at (r, k). -/
theorem v8_apply (A : FVec Ideal S2048x32768 .f32) (r : Fin 2048) (k : Fin 32768) :
    val_main_v8 (F := Ideal) A (ix2 r k)
      = Ideal.div (Ideal.exp (A (ix2 r k) - rowMax A r))
          (Ideal.ofBits .f32 0x00000000#32 + ∑ k' : Fin 32768, Ideal.exp (A (ix2 r k') - rowMax A r)) := by
  have e : idx_main_v6 (idx_main_v7 (ix2 r k)) = ix1 r :=
    funext fun a => Fin.ext (by match a with | ⟨0, _⟩ => rfl)
  rw [val_main_v8_apply, val_main_v7_apply, val_main_v6_apply, e, val_main_v5_apply, val_main_cst_0_apply, v4_apply]
  have hs : ∑ k' : Fin 32768, val_main_v4 (F := Ideal) A (idx_main_v5 (ix1 r) k')
      = ∑ k' : Fin 32768, Ideal.exp (A (ix2 r k') - rowMax A r) := by
    refine Finset.sum_congr rfl fun k' _ => ?_
    have e5 : idx_main_v5 (ix1 r) k' = ix2 r k' :=
      funext fun a => Fin.ext (by match a with | ⟨0, _⟩ => rfl | ⟨1, _⟩ => rfl)
    rw [e5, v4_apply]
  rw [hs]
  rfl

end Cert.KernelIdeal.Softmax.Ref

end
-- ==== Proof.SoftmaxGlobal.lean ====
/-
  The kernel's result against the reference: the maximum of the 32 local maxima is the whole row's maximum, the
  32 local sums rescaled to it add up to the whole row's sum of exp (entry - maximum), and multiplying by the
  reciprocal of that sum is dividing by it; so device c's result is its block of the reference's softmax.
-/
import proofs.«901062_g7700000000001063_dist_softmax_colshard_i_m2048_n1024_v7x_i32_f32_1_alg».proof.Proof.SoftmaxLocal
import proofs.«901062_g7700000000001063_dist_softmax_colshard_i_m2048_n1024_v7x_i32_f32_1_alg».proof.Proof.SoftmaxFinite
import proofs.«901062_g7700000000001063_dist_softmax_colshard_i_m2048_n1024_v7x_i32_f32_1_alg».proof.Proof.Gen.ReferenceIdeal.Read
import proofs.«901062_g7700000000001063_dist_softmax_colshard_i_m2048_n1024_v7x_i32_f32_1_alg».proof.Proof.SoftmaxGlobalReal
import proofs.«901062_g7700000000001063_dist_softmax_colshard_i_m2048_n1024_v7x_i32_f32_1_alg».proof.Proof.SoftmaxGlobalPay
import proofs.«901062_g7700000000001063_dist_softmax_colshard_i_m2048_n1024_v7x_i32_f32_1_alg».proof.Proof.SoftmaxGlobalRef
import Idealize.ShloMosaic.Lib.Layout
import Idealize.ShloMosaic.Lib.ValueIdx
import Idealize.ShloMosaic.PureOps.Ideal.Laws

noncomputable section

namespace Cert.KernelIdeal.Softmax

open Cert.KernelIdeal Cert.KernelIdeal.Gen Idealize.ShloMosaic Idealize.ShloMosaic.ValueIdx

namespace Global

/-- The word of -∞ is the bottom of the extended reals. -/
theorem negInf_word : Ideal.ofBits .f32 0xFF800000#32 = ⊥ := by simp [Ideal.ofBits, Ideal.ieee]

/-- The word of 1.0 is one. -/
theorem one_word : Ideal.ofBits .f32 0x3F800000#32 = 1 := by
  simp [Ideal.ofBits, Ideal.ieee, -EReal.coe_mul]; norm_num

/-- Entry (r, j) of device d's block is entry (r, 1024 * d + j) of the whole array. -/
theorem idx_col (h : Layout.Tiles ⟨2, ![2048, 1024]⟩ ⟨2, ![2048, 32768]⟩ 1 32) (d : Fin 32) (r : Fin 2048) (j : Fin 1024) :
    h.idx d (ix2 r j) = ix2 r (RealFacts.colEquiv (d, j)) := by
  funext a; apply Fin.ext
  match a with
  | ⟨0, _⟩ => rfl
  | ⟨1, _⟩ =>
    show d.val * 1024 + j.val = (RealFacts.colEquiv (d, j)).val
    rw [RealFacts.colEquiv_val]

/-- The first stage is the identity. -/
theorem pay1_eq (v : FVec Ideal S2048x1024 .f32) : k0_pay1 (F := Ideal) v = v :=
  shapeCast_self v shapeCasts_S2048x1024_S2048x1024

section Kernel

variable (X : Dev nD → FVec Ideal S2048x1024 .f32) (xr : Fin 32 → Fin 2048 → Fin 1024 → ℝ)
  (hx : ∀ (d : Fin 32) (r : Fin 2048) (j : Fin 1024), X d (ix2 r j) = ((xr d r j : ℝ) : EReal))

/-- Device d's local maximum of row r, as a real. -/
def locMax (d : Fin 32) (r : Fin 2048) : ℝ := Finset.univ.sup' Finset.univ_nonempty (xr d r)

/-- The maximum over the devices of the local maxima of row r, as a real. -/
def allMax (r : Fin 2048) : ℝ := Finset.univ.sup' Finset.univ_nonempty (fun d : Fin 32 => locMax xr d r)

/-- The devices' local sums of row r rescaled to the common maximum and added, as a real. -/
def allSum (r : Fin 2048) : ℝ :=
  ∑ d : Fin 32, (∑ j : Fin 1024, Real.exp (xr d r j - locMax xr d r)) * Real.exp (locMax xr d r - allMax xr r)

include hx in
theorem allM_apply (d : Fin 32) (r : Fin 2048) : allM (F := Ideal) X (ix2 d r) = ((locMax xr d r : ℝ) : EReal) :=
  localMax_apply (X d) (xr d) (hx d) r

include hx in
theorem allS_apply (d : Fin 32) (r : Fin 2048) :
    allS (F := Ideal) X (ix2 d r) = ((∑ j : Fin 1024, Real.exp (xr d r j - locMax xr d r) : ℝ) : EReal) :=
  localSum_apply (X d) (xr d) (hx d) r

include hx in
theorem devMax_allM (r : Fin 2048) : devMax (allM (F := Ideal) X) r = ((allMax xr r : ℝ) : EReal) := by
  unfold devMax
  have e : (fun d : Fin 32 => allM (F := Ideal) X (ix2 d r)) = fun d => ((locMax xr d r : ℝ) : EReal) :=
    funext fun d => allM_apply X xr hx d r
  rw [e, negInf_word]
  exact RealFacts.fold_max_coe Finset.univ Finset.univ_nonempty _

include hx in
theorem devSum_all (r : Fin 2048) :
    devSum (allM (F := Ideal) X) (allS (F := Ideal) X) r = ((allSum xr r : ℝ) : EReal) := by
  unfold devSum allSum
  rw [devMax_allM X xr hx r, RealFacts.coe_sum]
  refine Finset.sum_congr rfl fun d _ => ?_
  rw [allS_apply X xr hx d r, allM_apply X xr hx d r, ← EReal.coe_sub, Ideal.exp_coe, ← EReal.coe_mul]

theorem allSum_pos (r : Fin 2048) : 0 < allSum xr r :=
  Finset.sum_pos (fun d _ => mul_pos (Finset.sum_pos (fun j _ => Real.exp_pos _) Finset.univ_nonempty) (Real.exp_pos _))
    Finset.univ_nonempty

include hx in
/-- The kernel's entry (r, l) on device c, as a real. -/
theorem outAt_apply (c : Fin 32) (r : Fin 2048) (l : Fin 1024) :
    outAt (F := Ideal) X c (ix2 r l) = ((Real.exp (xr c r l - allMax xr r) * (1 / allSum xr r) : ℝ) : EReal) := by
  unfold outAt
  rw [pay12_apply, pay1_eq, hx, devMax_allM X xr hx r, devSum_all X xr hx r, one_word, ← EReal.coe_sub, Ideal.exp_coe,
    Ideal.div_coe (allSum_pos xr r).ne', one_mul, ← EReal.coe_mul]

end Kernel

section Reference

variable (A : FVec Ideal Cert.ReferenceIdeal.S2048x32768 .f32) (AR : Fin 2048 → Fin 32768 → ℝ)
  (hAR : ∀ (r : Fin 2048) (k : Fin 32768), A (ix2 r k) = ((AR r k : ℝ) : EReal))

/-- The whole row's maximum, as a real. -/
def wholeMax (r : Fin 2048) : ℝ := Finset.univ.sup' Finset.univ_nonempty (AR r)

/-- The whole row's sum of exp (entry - maximum), as a real. -/
def wholeSum (r : Fin 2048) : ℝ := ∑ k : Fin 32768, Real.exp (AR r k - wholeMax AR r)

include hAR in
theorem rowMax_eq (r : Fin 2048) : Ref.rowMax A r = ((wholeMax AR r : ℝ) : EReal) := by
  unfold Ref.rowMax
  have e : (fun k : Fin 32768 => A (ix2 r k)) = fun k => ((AR r k : ℝ) : EReal) := funext fun k => hAR r k
  rw [e, negInf_word]
  exact RealFacts.fold_max_coe Finset.univ Finset.univ_nonempty _

theorem wholeSum_pos (r : Fin 2048) : 0 < wholeSum AR r := RealFacts.sum_exp_pos _

include hAR in
/-- The reference's entry (r, k), as a real. -/
theorem ref_apply (r : Fin 2048) (k : Fin 32768) :
    Cert.ReferenceIdeal.Read.val_main_v8 (F := Ideal) A (ix2 r k)
      = ((Real.exp (AR r k - wholeMax AR r) * (1 / wholeSum AR r) : ℝ) : EReal) := by
  have hs : ∑ k' : Fin 32768, Ideal.exp (A (ix2 r k') - Ref.rowMax A r) = ((wholeSum AR r : ℝ) : EReal) := by
    unfold wholeSum
    rw [RealFacts.coe_sum]
    refine Finset.sum_congr rfl fun k' _ => ?_
    rw [hAR, rowMax_eq A AR hAR r, ← EReal.coe_sub, Ideal.exp_coe]
  rw [Ref.v8_apply, hs, hAR, rowMax_eq A AR hAR r, ← EReal.coe_sub, Ideal.exp_coe, Ideal.ofBits_zero_f32, zero_add,
    Ideal.div_coe (wholeSum_pos AR r).ne', ← EReal.coe_mul]

end Reference

end Global

open Global

/-- Device c's result is its block of the reference's result, when every device's block of the whole array is finite. -/
theorem outAt_eq_block (A : FVec Ideal Cert.ReferenceIdeal.S2048x32768 .f32)
    (hfin : ∀ d : Dev nD, Finite (Layout.block ⟨2, ![2048, 1024]⟩ ⟨2, ![2048, 32768]⟩ 1 32 d A)) (c : Dev nD) :
    outAt (F := Ideal) (fun d => Layout.block ⟨2, ![2048, 1024]⟩ ⟨2, ![2048, 32768]⟩ 1 32 d A) c
      = Layout.block ⟨2, ![2048, 1024]⟩ ⟨2, ![2048, 32768]⟩ 1 32 c (Cert.ReferenceIdeal.Read.val_main_v8 (F := Ideal) A) := by
  -- every entry of the whole array is a real number
  have hA : ∀ (r : Fin 2048) (k : Fin 32768), ∃ v : ℝ, A (ix2 r k) = ((v : ℝ) : EReal) := by
    intro r k
    obtain ⟨⟨d, j⟩, rfl⟩ := RealFacts.colEquiv.surjective k
    obtain ⟨v, hv⟩ := hfin d (ix2 r j)
    refine ⟨v, ?_⟩
    rw [← hv, Layout.block_apply, idx_col]
  choose AR hAR using hA
  -- the devices' blocks in those reals
  have hx : ∀ (d : Fin 32) (r : Fin 2048) (j : Fin 1024),
      (fun d => Layout.block ⟨2, ![2048, 1024]⟩ ⟨2, ![2048, 32768]⟩ 1 32 d A) d (ix2 r j)
        = (((fun d r j => AR r (RealFacts.colEquiv (d, j))) d r j : ℝ) : EReal) := by
    intro d r j
    show (Layout.block ⟨2, ![2048, 1024]⟩ ⟨2, ![2048, 32768]⟩ 1 32 d A) (ix2 r j) = _
    rw [Layout.block_apply, idx_col, hAR]
  funext i
  obtain ⟨r, l, rfl⟩ : ∃ (r : Fin 2048) (l : Fin 1024), i = ix2 r l := ⟨i 0, i 1, eq_ix2 i⟩
  rw [outAt_apply _ (fun d r j => AR r (RealFacts.colEquiv (d, j))) hx c r l, Layout.block_apply, idx_col,
    ref_apply A AR hAR r]
  -- the two real expressions agree: the maximum of maxima and the rescaled sums
  have hM : allMax (fun d r j => AR r (RealFacts.colEquiv (d, j))) r = wholeMax AR r :=
    RealFacts.sup'_blocks RealFacts.colEquiv (AR r)
  have hS : allSum (fun d r j => AR r (RealFacts.colEquiv (d, j))) r = wholeSum AR r := by
    unfold allSum wholeSum
    rw [hM]
    exact RealFacts.sum_rescale RealFacts.colEquiv (AR r) _ _
  rw [hM, hS]

end Cert.KernelIdeal.Softmax

end
-- ==== Proof.Claims.lean ====
/-
  The certificate's conjuncts for the idealized programs: the kernel on 32 devices and the reference on one both run
  with their arguments unchanged, and each device's result is its block of the reference's softmax of the whole array.
  The kernel's run gives each device's result as the kernel's pure term of the devices' staged input blocks; a staged
  block is the device's argument array; the argument arrays are the blocks of the reference's argument; the printed
  precondition makes every block finite; and on finite blocks the kernel's term is the block of the reference's.
-/
import proofs.«901062_g7700000000001063_dist_softmax_colshard_i_m2048_n1024_v7x_i32_f32_1_alg».proof.Defs
import proofs.«901062_g7700000000001063_dist_softmax_colshard_i_m2048_n1024_v7x_i32_f32_1_alg».proof.Proof.Gen.KernelIdeal
import proofs.«901062_g7700000000001063_dist_softmax_colshard_i_m2048_n1024_v7x_i32_f32_1_alg».proof.Proof.Gen.ReferenceIdeal
import proofs.«901062_g7700000000001063_dist_softmax_colshard_i_m2048_n1024_v7x_i32_f32_1_alg».proof.Proof.Gen.Pre_finite_inputs_Kernel
import proofs.«901062_g7700000000001063_dist_softmax_colshard_i_m2048_n1024_v7x_i32_f32_1_alg».proof.Proof.Gen.Pre_finite_inputs_ReferenceIdeal
import proofs.«901062_g7700000000001063_dist_softmax_colshard_i_m2048_n1024_v7x_i32_f32_1_alg».proof.Proof.Gen.ReferenceIdeal.Run
import proofs.«901062_g7700000000001063_dist_softmax_colshard_i_m2048_n1024_v7x_i32_f32_1_alg».proof.Proof.Gen.ReferenceIdeal.Read
import proofs.«901062_g7700000000001063_dist_softmax_colshard_i_m2048_n1024_v7x_i32_f32_1_alg».proof.Proof.KernelIdeal.Launch
import proofs.«901062_g7700000000001063_dist_softmax_colshard_i_m2048_n1024_v7x_i32_f32_1_alg».proof.Proof.SoftmaxGlobal
import proofs.«901062_g7700000000001063_dist_softmax_colshard_i_m2048_n1024_v7x_i32_f32_1_alg».proof.Proof.SoftmaxFinite

noncomputable section

open Idealize.ShloMosaic Idealize.ShloMosaic.TcCoe Idealize.SL.Sem

namespace Cert.Proof.Claims

/-- The staged input window is the whole argument array: what a device stages is its argument array itself. -/
theorem xstg_eq (m : (ℓ : Loc Cert.KernelIdeal.nD Cert.KernelIdeal.τ Cert.KernelIdeal.sig) → Buf (Elt Ideal) ℓ)
    (d : Dev Cert.KernelIdeal.nD) :
    Cert.KernelIdeal.Coll.xstg (F := Ideal) m d
      = m ((d.tc : Thread Cert.KernelIdeal.nD Cert.KernelIdeal.τ).loc Cert.KernelIdeal.main_arg0) := by
  unfold Cert.KernelIdeal.Coll.xstg
  have hz : (fun a => (Cert.KernelIdeal.win0_0.index (0 : Fin 1)) a * Cert.KernelIdeal.main_arg0.ty.shape.size a) = fun _ => 0 :=
    funext fun a => by fin_cases a <;> decide
  exact Memref.read_access_unit_zero (Elt Ideal) Cert.KernelIdeal.main_arg0 hz (fun a => by fin_cases a <;> decide) _

theorem frame_pi : Cert.frame_KernelIdeal := fun m ρ _ =>
  (θ_run Cert.KernelIdeal.defs _ _).mono (fun _ h c => (h c).2) (Cert.KernelIdeal.Coll.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Each device's result is its block of the reference's result, of arguments that agree block by block. -/
theorem algebraic : Cert.algebraic_KernelIdeal_ReferenceIdeal := by
  intro m ρ m' ρ' hpre hagree
  refine ⟨Cert.ReferenceIdeal.Read.val_main_v8 (F := Ideal)
      (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Coll.run_main (F := Ideal) m ρ)
    -- the staged blocks are the blocks of the reference's argument
    have hX : Cert.KernelIdeal.Coll.xstg (F := Ideal) m
        = fun d => Layout.block ⟨2, ![2048, 1024]⟩ ⟨2, ![2048, 32768]⟩ 1 32 d
            (m' (((0 : Dev Cert.ReferenceIdeal.nD).tc : Thread Cert.ReferenceIdeal.nD Cert.ReferenceIdeal.τ).loc Cert.ReferenceIdeal.main_arg0)) :=
      funext fun d => (xstg_eq m d).trans (hagree d)
    -- every block is finite, by the printed precondition
    have hfin : ∀ d : Dev Cert.KernelIdeal.nD, Cert.KernelIdeal.Softmax.Finite
        (Layout.block ⟨2, ![2048, 1024]⟩ ⟨2, ![2048, 32768]⟩ 1 32 d
          (m' (((0 : Dev Cert.ReferenceIdeal.nD).tc : Thread Cert.ReferenceIdeal.nD Cert.ReferenceIdeal.τ).loc Cert.ReferenceIdeal.main_arg0))) := by
      intro d
      have h := Cert.KernelIdeal.Softmax.finite_of_pre _ (hpre d)
      rw [hagree d] at h
      exact h
    unfold Cert.KernelIdeal.Coll.outAt
    rw [hX]
    exact Cert.KernelIdeal.Softmax.outAt_eq_block _ hfin c
  · refine (θ_run Cert.ReferenceIdeal.defs _ _).mono (fun _ h => ⟨(h 0).1.trans ?_, (h 0).2⟩)
      (Cert.ReferenceIdeal.Value.run (F := Ideal) m' ρ')
    exact Cert.ReferenceIdeal.Read.val_main_v8_eq _

end Cert.Proof.Claims

end
-- ==== Proof.Kernel.Spec.lean ====
/-
  The kernel's result as ONE pure term of the devices' input blocks, at any float instance.

  Device d holds the block X d of 2048 rows by 1024 columns. It reduces each row to a pair: the row's maximum
  (localMax) and the row's sum of exp (entry - maximum) (localSum), both computed tile by tile over four tiles of
  256 columns with the running rescaling exp (old maximum - new maximum). After the exchange every device holds
  all 32 pairs per row (allM, allS), takes the maximum M of the 32 maxima, the sum S of the 32 sums each rescaled
  by exp (its maximum - M), and writes exp (entry - M) * (1 / S).
-/
import proofs.«901062_g7700000000001063_dist_softmax_colshard_i_m2048_n1024_v7x_i32_f32_1_alg».proof.Proof.Gen.Kernel.Skeleton
import Idealize.ShloMosaic.Lib.ValueIdx

noncomputable section

namespace Cert.Kernel.Softmax

open Cert.Kernel Cert.Kernel.Gen Idealize.ShloMosaic

variable {F : FTy → Type} [FloatOps F]

/-- A row's maximum over the device's 1024 columns, as the one-row vector the device stores. -/
def localMax (xb : Vec F S2048x1024 .f32) : FVec F S1x2048 .f32 :=
  k0_pay10 (k0_pay1 xb) (k0_pay4 xb) (k0_pay6 xb)

/-- A row's sum of exp (entry - the row's local maximum) over the device's 1024 columns, as the one-row vector the device stores. -/
def localSum (xb : Vec F S2048x1024 .f32) : FVec F S1x2048 .f32 :=
  k0_pay11 (k0_pay1 xb) (k0_pay4 xb) (k0_pay5 xb) (k0_pay6 xb)

/-- The 32 devices' local maxima, one row per device. -/
def allM (X : Dev nD → Vec F S2048x1024 .f32) : Vec F S32x2048 .f32 :=
  fun i => localMax (X ⟨(i 0).val, (i 0).isLt⟩) (ValueIdx.ix2 (0 : Fin 1) (⟨(i 1).val, (i 1).isLt⟩ : Fin 2048))

/-- The 32 devices' local sums, one row per device. -/
def allS (X : Dev nD → Vec F S2048x1024 .f32) : Vec F S32x2048 .f32 :=
  fun i => localSum (X ⟨(i 0).val, (i 0).isLt⟩) (ValueIdx.ix2 (0 : Fin 1) (⟨(i 1).val, (i 1).isLt⟩ : Fin 2048))

/-- Device c's result block. -/
def outAt (X : Dev nD → Vec F S2048x1024 .f32) (c : Dev nD) : FVec F S2048x1024 .f32 :=
  k0_pay12 (k0_pay1 (X c)) (allM X) (allS X)

end Cert.Kernel.Softmax

end
-- ==== Proof.Kernel.Ring.lean ====
/-
  The mesh as a ring of 32 devices: device c's k-th peer forwards is c + k + 1 (mod 32), k = 0 .. 30, and backwards
  c - k - 1 (mod 32). Every device signals and copies to each of its 31 forward peers, so it is signalled and copied
  to by each of its 31 backward peers. The printed device-id chains (a remainder, a sign fix-up) are these peers.
-/
import proofs.«901062_g7700000000001063_dist_softmax_colshard_i_m2048_n1024_v7x_i32_f32_1_alg».proof.Proof.Gen.Kernel

noncomputable section

namespace Cert.Kernel.Coll

open Cert.Kernel Cert.Kernel.Gen Idealize.ShloMosaic

/-- Device c's k-th peer forwards. -/
def fwd (c : Dev nD) (k : Fin 31) : Dev nD := ⟨(c.val + k.val + 1) % 32, Nat.mod_lt _ (by decide)⟩
/-- Device c's k-th peer backwards: the device whose k-th forward peer is c. -/
def bwd (c : Dev nD) (k : Fin 31) : Dev nD := ⟨(c.val + 31 - k.val) % 32, Nat.mod_lt _ (by decide)⟩

theorem bwd_fwd (c : Dev nD) (k : Fin 31) : bwd (fwd c k) k = c := by
  have hc : c.val < 32 := c.isLt
  have hk : k.val < 31 := k.isLt
  refine Fin.ext ?_
  show ((c.val + k.val + 1) % 32 + 31 - k.val) % 32 = c.val
  omega
theorem fwd_bwd (c : Dev nD) (k : Fin 31) : fwd (bwd c k) k = c := by
  have hc : c.val < 32 := c.isLt
  have hk : k.val < 31 := k.isLt
  refine Fin.ext ?_
  show ((c.val + 31 - k.val) % 32 + k.val + 1) % 32 = c.val
  omega
theorem fwd_ne (c : Dev nD) (k : Fin 31) : fwd c k ≠ c := by
  have hc : c.val < 32 := c.isLt
  have hk : k.val < 31 := k.isLt
  intro h
  have hv : (c.val + k.val + 1) % 32 = c.val := congrArg Fin.val h
  omega
theorem bwd_ne (c : Dev nD) (k : Fin 31) : bwd c k ≠ c := by
  have hc : c.val < 32 := c.isLt
  have hk : k.val < 31 := k.isLt
  intro h
  have hv : (c.val + 31 - k.val) % 32 = c.val := congrArg Fin.val h
  omega
theorem fwd_injective (c : Dev nD) : Function.Injective (fwd c) := by
  intro k k' h
  have hc : c.val < 32 := c.isLt
  have hk : k.val < 31 := k.isLt
  have hk' : k'.val < 31 := k'.isLt
  have hv : (c.val + k.val + 1) % 32 = (c.val + k'.val + 1) % 32 := congrArg Fin.val h
  exact Fin.ext (by omega)
theorem bwd_injective (c : Dev nD) : Function.Injective (bwd c) := by
  intro k k' h
  have hc : c.val < 32 := c.isLt
  have hk : k.val < 31 := k.isLt
  have hk' : k'.val < 31 := k'.isLt
  have hv : (c.val + 31 - k.val) % 32 = (c.val + 31 - k'.val) % 32 := congrArg Fin.val h
  exact Fin.ext (by omega)
/-- For a fixed k, c ↦ its k-th forward peer is a permutation of the devices (inverse: the k-th backward peer). -/
theorem fwd_left_injective (k : Fin 31) : Function.Injective (fun c : Dev nD => fwd c k) := by
  intro a b h
  have e : bwd (fwd a k) k = bwd (fwd b k) k := congrArg (fun x => bwd x k) h
  rwa [bwd_fwd, bwd_fwd] at e
theorem exists_fwd (c d : Dev nD) (h : d ≠ c) : ∃ k, fwd c k = d := by
  have hc : c.val < 32 := c.isLt
  have hd : d.val < 32 := d.isLt
  have hne : d.val ≠ c.val := fun e => h (Fin.ext e)
  refine ⟨⟨(d.val + 31 - c.val) % 32, by omega⟩, Fin.ext ?_⟩
  show (c.val + (d.val + 31 - c.val) % 32 + 1) % 32 = d.val
  omega
theorem exists_bwd (c d : Dev nD) (h : d ≠ c) : ∃ k, bwd c k = d := by
  have hc : c.val < 32 := c.isLt
  have hd : d.val < 32 := d.isLt
  have hne : d.val ≠ c.val := fun e => h (Fin.ext e)
  refine ⟨⟨(c.val + 31 - d.val) % 32, by omega⟩, Fin.ext ?_⟩
  show (c.val + 31 - (c.val + 31 - d.val) % 32) % 32 = d.val
  omega
/-- The k-th forward peer is the (30 - k)-th backward peer. -/
theorem fwd_eq_bwd_rev (c : Dev nD) (k : Fin 31) : fwd c k = bwd c (Fin.rev k) := by
  have hc : c.val < 32 := c.isLt
  have hk : k.val < 31 := k.isLt
  refine Fin.ext ?_
  show (c.val + k.val + 1) % 32 = (c.val + 31 - (Fin.rev k).val) % 32
  rw [Fin.val_rev]
  omega

/-! ## The printed device chains: signals 1..31 and copies 32..62 name the forward peers 0..30 -/

theorem dev1_eq (c : Dev nD) : (⟨k0_dev1 c, k0_dev1_lt c⟩ : Dev nD) = fwd c 0 := by
  refine Fin.ext ?_
  revert c
  decide +kernel
theorem dev2_eq (c : Dev nD) : (⟨k0_dev2 c, k0_dev2_lt c⟩ : Dev nD) = fwd c 1 := by
  refine Fin.ext ?_
  revert c
  decide +kernel
theorem dev3_eq (c : Dev nD) : (⟨k0_dev3 c, k0_dev3_lt c⟩ : Dev nD) = fwd c 2 := by
  refine Fin.ext ?_
  revert c
  decide +kernel
theorem dev4_eq (c : Dev nD) : (⟨k0_dev4 c, k0_dev4_lt c⟩ : Dev nD) = fwd c 3 := by
  refine Fin.ext ?_
  revert c
  decide +kernel
theorem dev5_eq (c : Dev nD) : (⟨k0_dev5 c, k0_dev5_lt c⟩ : Dev nD) = fwd c 4 := by
  refine Fin.ext ?_
  revert c
  decide +kernel
theorem dev6_eq (c : Dev nD) : (⟨k0_dev6 c, k0_dev6_lt c⟩ : Dev nD) = fwd c 5 := by
  refine Fin.ext ?_
  revert c
  decide +kernel
theorem dev7_eq (c : Dev nD) : (⟨k0_dev7 c, k0_dev7_lt c⟩ : Dev nD) = fwd c 6 := by
  refine Fin.ext ?_
  revert c
  decide +kernel
theorem dev8_eq (c : Dev nD) : (⟨k0_dev8 c, k0_dev8_lt c⟩ : Dev nD) = fwd c 7 := by
  refine Fin.ext ?_
  revert c
  decide +kernel
theorem dev9_eq (c : Dev nD) : (⟨k0_dev9 c, k0_dev9_lt c⟩ : Dev nD) = fwd c 8 := by
  refine Fin.ext ?_
  revert c
  decide +kernel
theorem dev10_eq (c : Dev nD) : (⟨k0_dev10 c, k0_dev10_lt c⟩ : Dev nD) = fwd c 9 := by
  refine Fin.ext ?_
  revert c
  decide +kernel
theorem dev11_eq (c : Dev nD) : (⟨k0_dev11 c, k0_dev11_lt c⟩ : Dev nD) = fwd c 10 := by
  refine Fin.ext ?_
  revert c
  decide +kernel
theorem dev12_eq (c : Dev nD) : (⟨k0_dev12 c, k0_dev12_lt c⟩ : Dev nD) = fwd c 11 := by
  refine Fin.ext ?_
  revert c
  decide +kernel
theorem dev13_eq (c : Dev nD) : (⟨k0_dev13 c, k0_dev13_lt c⟩ : Dev nD) = fwd c 12 := by
  refine Fin.ext ?_
  revert c
  decide +kernel
theorem dev14_eq (c : Dev nD) : (⟨k0_dev14 c, k0_dev14_lt c⟩ : Dev nD) = fwd c 13 := by
  refine Fin.ext ?_
  revert c
  decide +kernel
theorem dev15_eq (c : Dev nD) : (⟨k0_dev15 c, k0_dev15_lt c⟩ : Dev nD) = fwd c 14 := by
  refine Fin.ext ?_
  revert c
  decide +kernel
theorem dev16_eq (c : Dev nD) : (⟨k0_dev16 c, k0_dev16_lt c⟩ : Dev nD) = fwd c 15 := by
  refine Fin.ext ?_
  revert c
  decide +kernel
theorem dev17_eq (c : Dev nD) : (⟨k0_dev17 c, k0_dev17_lt c⟩ : Dev nD) = fwd c 16 := by
  refine Fin.ext ?_
  revert c
  decide +kernel
theorem dev18_eq (c : Dev nD) : (⟨k0_dev18 c, k0_dev18_lt c⟩ : Dev nD) = fwd c 17 := by
  refine Fin.ext ?_
  revert c
  decide +kernel
theorem dev19_eq (c : Dev nD) : (⟨k0_dev19 c, k0_dev19_lt c⟩ : Dev nD) = fwd c 18 := by
  refine Fin.ext ?_
  revert c
  decide +kernel
theorem dev20_eq (c : Dev nD) : (⟨k0_dev20 c, k0_dev20_lt c⟩ : Dev nD) = fwd c 19 := by
  refine Fin.ext ?_
  revert c
  decide +kernel
theorem dev21_eq (c : Dev nD) : (⟨k0_dev21 c, k0_dev21_lt c⟩ : Dev nD) = fwd c 20 := by
  refine Fin.ext ?_
  revert c
  decide +kernel
theorem dev22_eq (c : Dev nD) : (⟨k0_dev22 c, k0_dev22_lt c⟩ : Dev nD) = fwd c 21 := by
  refine Fin.ext ?_
  revert c
  decide +kernel
theorem dev23_eq (c : Dev nD) : (⟨k0_dev23 c, k0_dev23_lt c⟩ : Dev nD) = fwd c 22 := by
  refine Fin.ext ?_
  revert c
  decide +kernel
theorem dev24_eq (c : Dev nD) : (⟨k0_dev24 c, k0_dev24_lt c⟩ : Dev nD) = fwd c 23 := by
  refine Fin.ext ?_
  revert c
  decide +kernel
theorem dev25_eq (c : Dev nD) : (⟨k0_dev25 c, k0_dev25_lt c⟩ : Dev nD) = fwd c 24 := by
  refine Fin.ext ?_
  revert c
  decide +kernel
theorem dev26_eq (c : Dev nD) : (⟨k0_dev26 c, k0_dev26_lt c⟩ : Dev nD) = fwd c 25 := by
  refine Fin.ext ?_
  revert c
  decide +kernel
theorem dev27_eq (c : Dev nD) : (⟨k0_dev27 c, k0_dev27_lt c⟩ : Dev nD) = fwd c 26 := by
  refine Fin.ext ?_
  revert c
  decide +kernel
theorem dev28_eq (c : Dev nD) : (⟨k0_dev28 c, k0_dev28_lt c⟩ : Dev nD) = fwd c 27 := by
  refine Fin.ext ?_
  revert c
  decide +kernel
theorem dev29_eq (c : Dev nD) : (⟨k0_dev29 c, k0_dev29_lt c⟩ : Dev nD) = fwd c 28 := by
  refine Fin.ext ?_
  revert c
  decide +kernel
theorem dev30_eq (c : Dev nD) : (⟨k0_dev30 c, k0_dev30_lt c⟩ : Dev nD) = fwd c 29 := by
  refine Fin.ext ?_
  revert c
  decide +kernel
theorem dev31_eq (c : Dev nD) : (⟨k0_dev31 c, k0_dev31_lt c⟩ : Dev nD) = fwd c 30 := by
  refine Fin.ext ?_
  revert c
  decide +kernel
theorem dev32_eq (c : Dev nD) : (⟨k0_dev32 c, k0_dev32_lt c⟩ : Dev nD) = fwd c 0 := by
  refine Fin.ext ?_
  revert c
  decide +kernel
theorem dev33_eq (c : Dev nD) : (⟨k0_dev33 c, k0_dev33_lt c⟩ : Dev nD) = fwd c 1 := by
  refine Fin.ext ?_
  revert c
  decide +kernel
theorem dev34_eq (c : Dev nD) : (⟨k0_dev34 c, k0_dev34_lt c⟩ : Dev nD) = fwd c 2 := by
  refine Fin.ext ?_
  revert c
  decide +kernel
theorem dev35_eq (c : Dev nD) : (⟨k0_dev35 c, k0_dev35_lt c⟩ : Dev nD) = fwd c 3 := by
  refine Fin.ext ?_
  revert c
  decide +kernel
theorem dev36_eq (c : Dev nD) : (⟨k0_dev36 c, k0_dev36_lt c⟩ : Dev nD) = fwd c 4 := by
  refine Fin.ext ?_
  revert c
  decide +kernel
theorem dev37_eq (c : Dev nD) : (⟨k0_dev37 c, k0_dev37_lt c⟩ : Dev nD) = fwd c 5 := by
  refine Fin.ext ?_
  revert c
  decide +kernel
theorem dev38_eq (c : Dev nD) : (⟨k0_dev38 c, k0_dev38_lt c⟩ : Dev nD) = fwd c 6 := by
  refine Fin.ext ?_
  revert c
  decide +kernel
theorem dev39_eq (c : Dev nD) : (⟨k0_dev39 c, k0_dev39_lt c⟩ : Dev nD) = fwd c 7 := by
  refine Fin.ext ?_
  revert c
  decide +kernel
theorem dev40_eq (c : Dev nD) : (⟨k0_dev40 c, k0_dev40_lt c⟩ : Dev nD) = fwd c 8 := by
  refine Fin.ext ?_
  revert c
  decide +kernel
theorem dev41_eq (c : Dev nD) : (⟨k0_dev41 c, k0_dev41_lt c⟩ : Dev nD) = fwd c 9 := by
  refine Fin.ext ?_
  revert c
  decide +kernel
theorem dev42_eq (c : Dev nD) : (⟨k0_dev42 c, k0_dev42_lt c⟩ : Dev nD) = fwd c 10 := by
  refine Fin.ext ?_
  revert c
  decide +kernel
theorem dev43_eq (c : Dev nD) : (⟨k0_dev43 c, k0_dev43_lt c⟩ : Dev nD) = fwd c 11 := by
  refine Fin.ext ?_
  revert c
  decide +kernel
theorem dev44_eq (c : Dev nD) : (⟨k0_dev44 c, k0_dev44_lt c⟩ : Dev nD) = fwd c 12 := by
  refine Fin.ext ?_
  revert c
  decide +kernel
theorem dev45_eq (c : Dev nD) : (⟨k0_dev45 c, k0_dev45_lt c⟩ : Dev nD) = fwd c 13 := by
  refine Fin.ext ?_
  revert c
  decide +kernel
theorem dev46_eq (c : Dev nD) : (⟨k0_dev46 c, k0_dev46_lt c⟩ : Dev nD) = fwd c 14 := by
  refine Fin.ext ?_
  revert c
  decide +kernel
theorem dev47_eq (c : Dev nD) : (⟨k0_dev47 c, k0_dev47_lt c⟩ : Dev nD) = fwd c 15 := by
  refine Fin.ext ?_
  revert c
  decide +kernel
theorem dev48_eq (c : Dev nD) : (⟨k0_dev48 c, k0_dev48_lt c⟩ : Dev nD) = fwd c 16 := by
  refine Fin.ext ?_
  revert c
  decide +kernel
theorem dev49_eq (c : Dev nD) : (⟨k0_dev49 c, k0_dev49_lt c⟩ : Dev nD) = fwd c 17 := by
  refine Fin.ext ?_
  revert c
  decide +kernel
theorem dev50_eq (c : Dev nD) : (⟨k0_dev50 c, k0_dev50_lt c⟩ : Dev nD) = fwd c 18 := by
  refine Fin.ext ?_
  revert c
  decide +kernel
theorem dev51_eq (c : Dev nD) : (⟨k0_dev51 c, k0_dev51_lt c⟩ : Dev nD) = fwd c 19 := by
  refine Fin.ext ?_
  revert c
  decide +kernel
theorem dev52_eq (c : Dev nD) : (⟨k0_dev52 c, k0_dev52_lt c⟩ : Dev nD) = fwd c 20 := by
  refine Fin.ext ?_
  revert c
  decide +kernel
theorem dev53_eq (c : Dev nD) : (⟨k0_dev53 c, k0_dev53_lt c⟩ : Dev nD) = fwd c 21 := by
  refine Fin.ext ?_
  revert c
  decide +kernel
theorem dev54_eq (c : Dev nD) : (⟨k0_dev54 c, k0_dev54_lt c⟩ : Dev nD) = fwd c 22 := by
  refine Fin.ext ?_
  revert c
  decide +kernel
theorem dev55_eq (c : Dev nD) : (⟨k0_dev55 c, k0_dev55_lt c⟩ : Dev nD) = fwd c 23 := by
  refine Fin.ext ?_
  revert c
  decide +kernel
theorem dev56_eq (c : Dev nD) : (⟨k0_dev56 c, k0_dev56_lt c⟩ : Dev nD) = fwd c 24 := by
  refine Fin.ext ?_
  revert c
  decide +kernel
theorem dev57_eq (c : Dev nD) : (⟨k0_dev57 c, k0_dev57_lt c⟩ : Dev nD) = fwd c 25 := by
  refine Fin.ext ?_
  revert c
  decide +kernel
theorem dev58_eq (c : Dev nD) : (⟨k0_dev58 c, k0_dev58_lt c⟩ : Dev nD) = fwd c 26 := by
  refine Fin.ext ?_
  revert c
  decide +kernel
theorem dev59_eq (c : Dev nD) : (⟨k0_dev59 c, k0_dev59_lt c⟩ : Dev nD) = fwd c 27 := by
  refine Fin.ext ?_
  revert c
  decide +kernel
theorem dev60_eq (c : Dev nD) : (⟨k0_dev60 c, k0_dev60_lt c⟩ : Dev nD) = fwd c 28 := by
  refine Fin.ext ?_
  revert c
  decide +kernel
theorem dev61_eq (c : Dev nD) : (⟨k0_dev61 c, k0_dev61_lt c⟩ : Dev nD) = fwd c 29 := by
  refine Fin.ext ?_
  revert c
  decide +kernel
theorem dev62_eq (c : Dev nD) : (⟨k0_dev62 c, k0_dev62_lt c⟩ : Dev nD) = fwd c 30 := by
  refine Fin.ext ?_
  revert c
  decide +kernel

end Cert.Kernel.Coll

end
-- ==== Proof.Kernel.Proto.lean ====
/-
  The exchange of row statistics among 32 devices, as a schedule of rounds.

  Device c signals the barrier semaphore of each of its 31 forward peers, computes the statistics of its own rows into
  row c of its scratch, waits for 31 units on its own barrier semaphore, copies row c into row c of each forward peer's
  scratch, waits for the 31 copies its backward peers make into its own scratch, reads all 32 rows, and at the end waits
  for its own 31 copies to have been read out.

  Cells and duties (one round each): a device's barrier cell has 31 unit duties, duty k paid by its k-th backward peer,
  which hands over the row of ITS scratch that this device will write (so a copy lands only in a scratch whose owner
  is inside the kernel); send cell k of a device has one duty, returning the share of the source row lent to copy k;
  receive cell k of a device has one duty, paid by its k-th backward peer's copy, handing over that peer's row of this
  device's scratch holding that peer's statistics.
-/
import proofs.«901062_g7700000000001063_dist_softmax_colshard_i_m2048_n1024_v7x_i32_f32_1_alg».proof.Proof.Kernel.Spec
import proofs.«901062_g7700000000001063_dist_softmax_colshard_i_m2048_n1024_v7x_i32_f32_1_alg».proof.Proof.Kernel.Ring
import proofs.«901062_g7700000000001063_dist_softmax_colshard_i_m2048_n1024_v7x_i32_f32_1_alg».proof.Proof.Gen.Kernel
import proofs.«901062_g7700000000001063_dist_softmax_colshard_i_m2048_n1024_v7x_i32_f32_1_alg».proof.Proof.Gen.Kernel.Skeleton
import proofs.«901062_g7700000000001063_dist_softmax_colshard_i_m2048_n1024_v7x_i32_f32_1_alg».proof.Proof.Gen.Kernel.Launch
import proofs.«901062_g7700000000001063_dist_softmax_colshard_i_m2048_n1024_v7x_i32_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by Fin 31) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Memrefs and cells -/

abbrev xM : Memref sig .tc .vmem S2048x1024 .f32 := Memref.whole cc0_stg0_0
abbrev oM : Memref sig .tc .vmem S2048x1024 .f32 := Memref.whole cc0_stg1_0
abbrev sM : Memref sig .tc .vmem S32x4096 .f32 := Memref.whole cc0_scratch0

/-- Row r of the statistics scratch, as the kernel slices it. -/
abbrev rowM (r : Dev nD) : Memref sig .tc .vmem S4096 .f32 :=
  ((sM : Memref sig .tc .vmem S32x4096 .f32).slice (Rect.unit (s := S32x4096) (k0_off3 r) S1x4096.size (k0_off3_inb r)) (fun _ => rfl)).squeeze S4096 squeezes_S1x4096_S4096

abbrev barS : Sem sig := (SemArray.scalar (sig.barrier 0 rfl) : Sems sig S_).sem
/-- The k-th send semaphore and the k-th receive semaphore of the two scratch arrays of 31. -/
def sendS (k : Fin 31) : DmaSem sig := ⟨2 + k.val, by have := k.isLt; show 2 + k.val < 64; omega⟩
def recvS (k : Fin 31) : DmaSem sig := ⟨33 + k.val, by have := k.isLt; show 33 + k.val < 64; omega⟩

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-- The units one row's copy credits. -/
abbrev N : ℕ := (rowM (0 : Dev nD)).view.dmaCredit
theorem N_pos : 0 < N := View.dmaCredit_pos _ (by decide)
theorem row_credit (r : Dev nD) (s : DmaSem sig) : (rowM r).view.amount (.dma s) = N := rfl

/-! ## Contents -/

/-- Device c's block of the input, as staged. -/
def xstg (c : Dev nD) : (cc0_stg0_0 : Ref sig .tc).ty.Contents (Elt F) :=
  (win0_0.blk (0 : Fin 1)).view.read (Elt F) (m ((c : Thread nD τ).loc main_arg0))

/-- What every device's statistics scratch holds once all rows have landed: row d is device d's pair of rows,
    its 2048 local maxima then its 2048 local sums. -/
def statsOf (X : Dev nD → Vec F S2048x1024 .f32) : (cc0_scratch0 : Ref sig .tc).ty.Contents (Elt F) := fun i =>
  if h : (i 1).val < 2048 then Softmax.localMax (X ⟨(i 0).val, (i 0).isLt⟩) (ValueIdx.ix2 (0 : Fin 1) (⟨(i 1).val, h⟩ : Fin 2048))
  else Softmax.localSum (X ⟨(i 0).val, (i 0).isLt⟩)
    (ValueIdx.ix2 (0 : Fin 1) (⟨(i 1).val - 2048, by have h2 : (i 1).val < 4096 := (i 1).isLt; omega⟩ : Fin 2048))

/-- The device's result block. -/
def outAt (c : Dev nD) : (cc0_stg1_0 : Ref sig .tc).ty.Contents (Elt F) := Softmax.outAt (xstg m) c

/-- Row r of device dev's scratch, held at share q with contents f. -/
def rowPts (dev r : Dev nD) (q : PosShare TreeShare) (f : Buf (Elt F) ((rowM r).view.loc (dev : Thread nD τ))) : sProp 𝕄 :=
  (rowM r).view.loc (dev : Thread nD τ) ↦[(rowM r).view.set]{q} f

/-! ## Shares of the source row: copy k borrows shK k; after j copies the device keeps shRest j -/

def shRest : ℕ → PosShare TreeShare
  | 0 => fullShare
  | n + 1 => (shRest n).right
def shK (k : ℕ) : PosShare TreeShare := (shRest k).left

/-! ## The schedule -/

/-- Which copy a DMA semaphore serves: send k or receive k. -/
def sendIdx (s : SemLoc sig) : Option (Fin 31) := match s with
  | .dma d => if h : 2 ≤ d.val ∧ d.val < 33 then some ⟨d.val - 2, by omega⟩ else none
  | .reg _ => none
def recvIdx (s : SemLoc sig) : Option (Fin 31) := match s with
  | .dma d => if h : 33 ≤ d.val then some ⟨d.val - 33, by have h2 : d.val < 64 := d.isLt; omega⟩ else none
  | .reg _ => none

/-- Duty k of device c's barrier cell, paid by its k-th backward peer p: row c of p's scratch, at any contents. -/
def barPay (c : Dev nD) (k : Fin 31) : sProp 𝕄 := iprop(∃ f, rowPts (bwd c k) c fullShare f)
/-- The duty of device c's k-th receive cell: row (its k-th backward peer) of c's scratch, holding the statistics. -/
def recvPay (c : Dev nD) (k : Fin 31) : sProp 𝕄 := rowPts c (bwd c k) fullShare (statsOf (xstg m))
/-- The duty of device c's k-th send cell: the lent share of its own row back. -/
def sendPay (c : Dev nD) (k : Fin 31) : sProp 𝕄 := rowPts c c (shK k.val) (statsOf (xstg m))

def Rd : Rounds.Schedule (GSem nD τ sig) (Fin 31) 𝕄 where
  duties g r := if r = 0 ∧ g.1.2 = .tc then
      (if g.2 = .reg barS then Finset.univ else if (sendIdx g.2).isSome ∨ (recvIdx g.2).isSome then {0} else ∅) else ∅
  unitless _ := False
  amount g _ _ := if g.2 = .reg barS then 1 else N
  payload g _ d :=
    if g.2 = .reg barS then barPay g.1.1 d
    else match recvIdx g.2 with
      | some k => recvPay m g.1.1 k
      | none => match sendIdx g.2 with
        | some k => sendPay m g.1.1 k
        | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 31) :
    BI.Storable (upEmb : UEmb _ 𝕄) ((Rd (F := F) m).payload g r d) := by
  show BI.Storable upEmb (if g.2 = .reg barS then barPay g.1.1 d
    else match recvIdx g.2 with
      | some k => recvPay m g.1.1 k
      | none => match sendIdx g.2 with
        | some k => sendPay m g.1.1 k
        | none => iprop(emp))
  unfold barPay recvPay sendPay rowPts
  (repeat' split) <;> infer_instance

/-! ### The schedule's tables -/

/-! ## What each device owes at launch, and the levels -/

/-- The indices j, j+1, ..., 30. -/
abbrev ge (j : ℕ) : Finset (Fin 31) := Finset.univ.filter (fun k : Fin 31 => j ≤ k.val)
/-- The indices 0, ..., j-1. -/
abbrev lt (j : ℕ) : Finset (Fin 31) := Finset.univ.filter (fun k : Fin 31 => k.val < j)

/-- What device c still owes when signals js, js+1, ... are yet to be sent and copies jt, jt+1, ... yet to start:
    a unit to each of those peers' barrier cells and the copy's credit to each of those peers' receive cells. -/
def Oat (c : Dev nD) (js jt : ℕ) : CellTallies nD τ sig Unit :=
  (∑ k ∈ ge jt, tallyAt (recvCell (fwd c k) k) () N) + ∑ k ∈ ge js, tallyAt (barCell (fwd c k)) () 1
def O₀ (c : Dev nD) : CellTallies nD τ sig Unit := Oat c 0 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device runs with -/

/-- The 63 semaphores of the exchange on one device: the barrier, the 31 send, the 31 receive. -/
abbrev csem : Fin 63 → SemLoc sig := fun j =>
  if h : j.val = 0 then .reg barS
  else if h2 : j.val < 32 then .dma (sendS ⟨j.val - 1, by omega⟩)
  else .dma (recvS ⟨j.val - 32, by have := j.isLt; omega⟩)
abbrev kcell (ck : Dev nD × Fin 63) : GSem nD τ sig := ((ck.1 : Thread nD τ), csem ck.2)
def barJ : Fin 63 := ⟨0, by decide⟩
def sendJ (k : Fin 31) : Fin 63 := ⟨k.val + 1, by have := k.isLt; omega⟩
def recvJ (k : Fin 31) : Fin 63 := ⟨k.val + 32, by have := k.isLt; omega⟩

/-- Every cell's invariant, at the names K, and that round 0 of every cell is reached: persistent, the same for
    every device. -/
def records (K : Dev nD × Fin 63 → ℕ) : sProp 𝕄 :=
  iprop((bigSep Finset.univ fun ck : Dev nD × Fin 63 => cellInv ER (Rd m) (K ck) (kcell ck))
    ∗ bigSep Finset.univ fun ck : Dev nD × Fin 63 => reached ER (kcell ck) 0)

instance records_persistent (K : Dev nD × Fin 63 → ℕ) : BI.Persistent (records m K) := by unfold records; infer_instance

/-- The tokens of the duties device c pays: its forward peers' barrier duties and receive duties, its own send duties. -/
def payToks (c : Dev nD) : sProp 𝕄 :=
  iprop((bigSep Finset.univ fun k : Fin 31 => dutyTok ER (barCell (fwd c k)) 0 k)
    ∗ (bigSep Finset.univ fun k : Fin 31 => dutyTok ER (recvCell (fwd c k) k) 0 (0 : Fin 31))
    ∗ (bigSep Finset.univ fun k : Fin 31 => dutyTok ER (sendCell c k) 0 (0 : Fin 31)))

/-- Device c's positions: round 0 of its barrier, send and receive cells, nothing taken. -/
def positions (c : Dev nD) : sProp 𝕄 :=
  iprop(atPos ER (barCell c) 0 ∅ 0
    ∗ (bigSep Finset.univ fun k : Fin 31 => atPos ER (sendCell c k) 0 ∅ 0)
    ∗ (bigSep Finset.univ fun k : Fin 31 => atPos ER (recvCell c k) 0 ∅ 0))

def ghost (K : Dev nD × Fin 63 → ℕ) (c : Dev nD) : sProp 𝕄 := iprop(records m K ∗ positions c ∗ payToks c)

/-- The credit device c is dealt at launch: its barrier's 31 units and each receive cell's copy. -/
def creds (c : Dev nD) : sProp 𝕄 :=
  iprop(cred (tallyAt (barCell c) () 31) ∗ bigSep Finset.univ fun k : Fin 31 => cred (tallyAt (recvCell c k) () N))

/-- What device c's body starts from, besides the pipeline's: the ghost state at some names, the credit, the levels. -/
def start (c : Dev nD) : sProp 𝕄 := iprop((∃ K, ghost m K c) ∗ creds c ∗ levAts L lv)

/-- The whole scratch at some contents. -/
def scrAny (c : Dev nD) : sProp 𝕄 := iprop(∃ f : Buf (Elt F) ((c : Thread nD τ).loc cc0_scratch0), ((c : Thread nD τ).loc cc0_scratch0) ↦{fullShare} f)

/-- The device's own 62 scoped semaphores at zero. -/
def ownZero (c : Dev nD) : sProp 𝕄 :=
  iprop((bigSep Finset.univ fun k : Fin 31 => semVal (sendCell c k) 0) ∗ bigSep Finset.univ fun k : Fin 31 => semVal (recvCell c k) 0)

def Φ₀ (c : Dev nD) : sProp 𝕄 := iprop(start m c ∗ scrAny c)
def Φ₁ (c : Dev nD) : sProp 𝕄 := iprop(scrAny c ∗ ownZero c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Coll

end
-- ==== Proof.Kernel.Tables.lean ====
/-
  The exchange's schedule read entry by entry: each cell's duties, amounts, expected units and payloads; what a
  device still owes after j signals or j copies; the levels that order the waits; each cell's invariant and reached
  round out of the shared records.
-/
import proofs.«901062_g7700000000001063_dist_softmax_colshard_i_m2048_n1024_v7x_i32_f32_1_alg».proof.Proof.Kernel.Proto

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

/-! ### Which copy a semaphore serves, at the named semaphores -/

theorem dma_ne_bar (q : DmaSem sig) : (SemLoc.dma q : SemLoc sig) ≠ .reg barS := fun h => by cases h

theorem sendIdx_sendS (k : Fin 31) : sendIdx (.dma (sendS k)) = some k := by
  have hk := k.isLt
  unfold sendIdx sendS
  dsimp only
  rw [dif_pos (by omega)]
  exact congrArg some (Fin.ext (by show 2 + k.val - 2 = k.val; omega))

theorem recvIdx_sendS (k : Fin 31) : recvIdx (.dma (sendS k)) = none := by
  have hk := k.isLt
  unfold recvIdx sendS
  dsimp only
  rw [dif_neg (by omega)]

theorem recvIdx_recvS (k : Fin 31) : recvIdx (.dma (recvS k)) = some k := by
  have hk := k.isLt
  unfold recvIdx recvS
  dsimp only
  rw [dif_pos (by omega)]
  exact congrArg some (Fin.ext (by show 33 + k.val - 33 = k.val; omega))

theorem sendIdx_recvS (k : Fin 31) : sendIdx (.dma (recvS k)) = none := by
  have hk := k.isLt
  unfold sendIdx recvS
  dsimp only
  rw [dif_neg (by omega)]

theorem sendIdx_isSome (k : Fin 31) : (sendIdx (.dma (sendS k))).isSome = true := by rw [sendIdx_sendS]; rfl
theorem recvIdx_isSome (k : Fin 31) : (recvIdx (.dma (recvS k))).isSome = true := by rw [recvIdx_recvS]; rfl

section Sched
variable (c : Dev nD) (k : Fin 31)

theorem duties_bar : (Rd (F := F) m).duties (barCell c) 0 = Finset.univ := by
  dsimp only [Rd]
  exact (if_pos ⟨rfl, rfl⟩).trans (if_pos rfl)
theorem duties_send : (Rd (F := F) m).duties (sendCell c k) 0 = {0} := by
  dsimp only [Rd]
  exact (if_pos ⟨rfl, rfl⟩).trans ((if_neg (dma_ne_bar _)).trans (if_pos (Or.inl (sendIdx_isSome k))))
theorem duties_recv : (Rd (F := F) m).duties (recvCell c k) 0 = {0} := by
  dsimp only [Rd]
  exact (if_pos ⟨rfl, rfl⟩).trans ((if_neg (dma_ne_bar _)).trans (if_pos (Or.inr (recvIdx_isSome k))))
theorem duties_later (g : GSem nD τ sig) : ∀ r, 1 ≤ r → (Rd (F := F) m).duties g r = ∅ := fun r hr => by
  dsimp only [Rd]
  exact if_neg fun h => by have h0 := h.1; omega
theorem amount_bar (d : Fin 31) : (Rd (F := F) m).amount (barCell c) 0 d = 1 := by dsimp only [Rd]; exact if_pos rfl
theorem amount_send (d : Fin 31) : (Rd (F := F) m).amount (sendCell c k) 0 d = N := by dsimp only [Rd]; exact if_neg (dma_ne_bar _)
theorem amount_recv (d : Fin 31) : (Rd (F := F) m).amount (recvCell c k) 0 d = N := by dsimp only [Rd]; exact if_neg (dma_ne_bar _)
theorem expect_bar : (Rd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = N := by
  unfold Schedule.expect Schedule.amountOf; rw [duties_send, Finset.sum_singleton, amount_send]
theorem expect_recv : (Rd (F := F) m).expect (recvCell c k) 0 = N := by
  unfold Schedule.expect Schedule.amountOf; rw [duties_recv, Finset.sum_singleton, amount_recv]
theorem payload_bar (d : Fin 31) : (Rd (F := F) m).payload (barCell c) 0 d = barPay c d := by dsimp only [Rd]; rw [if_pos rfl]
theorem payload_send (d : Fin 31) : (Rd (F := F) m).payload (sendCell c k) 0 d = sendPay m c k := by
  dsimp only [Rd]
  rw [if_neg (dma_ne_bar _), recvIdx_sendS, sendIdx_sendS]
theorem payload_recv (d : Fin 31) : (Rd (F := F) m).payload (recvCell c k) 0 d = recvPay m c k := by
  dsimp only [Rd]
  rw [if_neg (dma_ne_bar _), recvIdx_recvS]
/-- The whole barrier round's payloads: one row of each backward peer's scratch. -/
theorem rest_bar : bigSep ((Rd (F := F) m).duties (barCell c) 0 \ ∅) (fun d => (Rd (F := F) m).payload (barCell c) 0 d)
    = bigSep Finset.univ (fun d : Fin 31 => barPay (F := F) c d) := by
  rw [Finset.sdiff_empty, duties_bar]
  exact bigSep_congr fun d _ => payload_bar m c d
theorem rest_send : bigSep ((Rd (F := F) m).duties (sendCell c k) 0 \ ∅) (fun d => (Rd (F := F) m).payload (sendCell c k) 0 d) = sendPay m c k := by
  rw [Finset.sdiff_empty, duties_send, bigSep_singleton, payload_send]
theorem rest_recv : bigSep ((Rd (F := F) m).duties (recvCell c k) 0 \ ∅) (fun d => (Rd (F := F) m).payload (recvCell c k) 0 d) = recvPay m c k := by
  rw [Finset.sdiff_empty, duties_recv, bigSep_singleton, payload_recv]

end Sched

/-! ## Owed tallies, levels, records -/

/-! ### The index sets j, j+1, ..., 30 -/

theorem ge_succ (k : Fin 31) : ge k.val = insert k (ge (k.val + 1)) := by
  ext j
  simp only [Finset.mem_filter, Finset.mem_univ, true_and, Finset.mem_insert]
  constructor
  · intro h
    by_cases e : j = k
    · exact Or.inl e
    · have hne : j.val ≠ k.val := fun h' => e (Fin.ext h')
      exact Or.inr (by omega)
  · rintro (rfl | h)
    · exact le_refl _
    · omega

theorem not_mem_ge_succ (k : Fin 31) : k ∉ ge (k.val + 1) := by
  simp only [Finset.mem_filter, Finset.mem_univ, true_and]
  omega

theorem ge_31 : ge 31 = ∅ := by
  ext j
  have hj := j.isLt
  simp only [Finset.mem_filter, Finset.mem_univ, true_and, Finset.notMem_empty, iff_false]
  omega

theorem Oat_sig (c : Dev nD) (k : Fin 31) (jt : ℕ) : Oat c k.val jt = Oat c (k.val + 1) jt + tallyAt (barCell (fwd c k)) () 1 := by
  unfold Oat
  rw [ge_succ k, Finset.sum_insert (not_mem_ge_succ k), add_comm (tallyAt (barCell (fwd c k)) () 1), ← add_assoc]
theorem Oat_send (c : Dev nD) (k : Fin 31) (js : ℕ) : Oat c js k.val = Oat c js (k.val + 1) + tallyAt (recvCell (fwd c k) k) () N := by
  unfold Oat
  rw [ge_succ k, Finset.sum_insert (not_mem_ge_succ k), add_comm (tallyAt (recvCell (fwd c k) k) () N), add_right_comm]
theorem Oat_end (c : Dev nD) : Oat c 31 31 = 0 := by
  unfold Oat
  rw [ge_31, Finset.sum_empty, Finset.sum_empty, add_zero]
/-- Something owed at a cell: it is a forward peer's barrier cell or a forward peer's receive cell. -/
theorem Oat_pos {c : Dev nD} {js jt : ℕ} {g : GSem nD τ sig} {u : Unit} (h : 0 < Oat c js jt g u) :
    (∃ k : Fin 31, g = barCell (fwd c k)) ∨ (∃ k : Fin 31, g = recvCell (fwd c k) k) := by
  unfold Oat at h
  rcases Pipeline.add_pos_cases h with h1 | h1
  · obtain ⟨k, _, hk⟩ := Pipeline.sum_pos_exists h1
    rw [tallyAt_apply] at hk
    by_cases e : g = recvCell (fwd c k) k ∧ u = ()
    · exact Or.inr ⟨k, e.1⟩
    · rw [if_neg e] at hk; exact absurd hk (Nat.lt_irrefl 0)
  · obtain ⟨k, _, hk⟩ := Pipeline.sum_pos_exists h1
    rw [tallyAt_apply] at hk
    by_cases e : g = barCell (fwd c k) ∧ u = ()
    · exact Or.inl ⟨k, e.1⟩
    · rw [if_neg e] at hk; exact absurd hk (Nat.lt_irrefl 0)
/-- With every signal sent, what is still owed sits at forward peers' receive cells only. -/
theorem Oat_31_pos {c : Dev nD} {jt : ℕ} {g : GSem nD τ sig} {u : Unit} (h : 0 < Oat c 31 jt g u) :
    ∃ k : Fin 31, g = recvCell (fwd c k) k := by
  unfold Oat at h
  rw [ge_31, Finset.sum_empty, add_zero] at h
  obtain ⟨k, _, hk⟩ := Pipeline.sum_pos_exists h
  rw [tallyAt_apply] at hk
  by_cases e : g = recvCell (fwd c k) k ∧ u = ()
  · exact ⟨k, e.1⟩
  · rw [if_neg e] at hk; exact absurd hk (Nat.lt_irrefl 0)

/-- A wait on a cell that is not a barrier or receive cell (staging, send) is allowed whatever of O₀ is still owed. -/
theorem mayWait_low (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases Oat_pos (show 0 < Oat c 0 0 g u from hg) with ⟨k, rfl⟩ | ⟨k, rfl⟩ <;> (rw [L_tc]; exact Finset.mem_singleton_self _))
      (fun p hp => by
        rw [Finset.mem_singleton.mp hp]; dsimp only [lv]
        rw [if_neg (dma_ne_bar q), if_neg (by rw [hq]; exact Bool.false_ne_true)])
      (fun g u hg => by
        rcases Oat_pos (show 0 < Oat c 0 0 g u from hg) with ⟨k, rfl⟩ | ⟨k, rfl⟩
        · dsimp only [lv]; rw [if_pos rfl]; decide
        · dsimp only [lv]; rw [if_neg (dma_ne_bar _), if_pos (recvIdx_isSome k)]; decide)
  · rw [MayWait_zero]; iintro -; iempintro
/-- At its barrier wait a device owes receive credits only: receive cells lie above barrier cells. -/
theorem mayWait_bar (c : Dev nD) :
    (levAts L lv : sProp 𝕄) ⊢ MayWait (c : Thread nD τ) (.reg barS) () (Oat c 31 0) :=
  MayOwe.of_cut (L := L) (lev := lv) 1 (fun p hp => by rw [Finset.mem_singleton.mp hp, L_tc]; exact Finset.mem_singleton_self _)
    (fun g u hg => by obtain ⟨k, rfl⟩ := Oat_31_pos hg; rw [L_tc]; exact Finset.mem_singleton_self _)
    (fun p hp => by rw [Finset.mem_singleton.mp hp]; dsimp only [lv]; rw [if_pos rfl])
    (fun g u hg => by
      obtain ⟨k, rfl⟩ := Oat_31_pos hg
      dsimp only [lv]; rw [if_neg (dma_ne_bar _), if_pos (recvIdx_isSome k)]; decide)
theorem csem_barJ : csem barJ = .reg barS := dif_pos rfl

theorem csem_sendJ (k : Fin 31) : csem (sendJ k) = .dma (sendS k) := by
  have hk := k.isLt
  have h0 : ¬ (sendJ k).val = 0 := by show ¬ k.val + 1 = 0; omega
  have h1 : (sendJ k).val < 32 := by show k.val + 1 < 32; omega
  show (if h : (sendJ k).val = 0 then (SemLoc.reg barS : SemLoc sig) else _) = _
  rw [dif_neg h0, dif_pos h1]
  exact congrArg (fun j => SemLoc.dma (sendS j)) (Fin.ext (by show k.val + 1 - 1 = k.val; omega))

theorem csem_recvJ (k : Fin 31) : csem (recvJ k) = .dma (recvS k) := by
  have hk := k.isLt
  have h0 : ¬ (recvJ k).val = 0 := by show ¬ k.val + 32 = 0; omega
  have h1 : ¬ (recvJ k).val < 32 := by show ¬ k.val + 32 < 32; omega
  show (if h : (recvJ k).val = 0 then (SemLoc.reg barS : SemLoc sig) else _) = _
  rw [dif_neg h0, dif_neg h1]
  exact congrArg (fun j => SemLoc.dma (recvS j)) (Fin.ext (by show k.val + 32 - 32 = k.val; omega))

theorem kcell_bar (c : Dev nD) : kcell (c, barJ) = barCell c := Prod.ext rfl csem_barJ
theorem kcell_send (c : Dev nD) (k : Fin 31) : kcell (c, sendJ k) = sendCell c k := Prod.ext rfl (csem_sendJ k)
theorem kcell_recv (c : Dev nD) (k : Fin 31) : kcell (c, recvJ k) = recvCell c k := Prod.ext rfl (csem_recvJ k)
/-- One cell's invariant out of the family of all cells' invariants. -/
theorem inv_at (K : Dev nD × Fin 63 → ℕ) (ck : Dev nD × Fin 63) :
    (bigSep Finset.univ fun ck : Dev nD × Fin 63 => (cellInv ER (Rd m) (K ck) (kcell ck) : sProp 𝕄)) ⊢ cellInv ER (Rd m) (K ck) (kcell ck) :=
  bigSep_elim (Finset.mem_univ ck)
/-- One cell's reached round out of the family of all cells'. -/
theorem reached_at (ck : Dev nD × Fin 63) :
    (bigSep Finset.univ fun ck : Dev nD × Fin 63 => (reached ER (kcell ck) 0 : sProp 𝕄)) ⊢ reached ER (kcell ck) 0 :=
  bigSep_elim (Finset.mem_univ ck)

theorem inv_bar (K : Dev nD × Fin 63 → ℕ) (c : Dev nD) : records m K ⊢ cellInv ER (Rd m) (K (c, barJ)) (barCell c) := by
  have h := inv_at m K (c, barJ)
  rw [kcell_bar] at h
  unfold records
  iintro ⟨HI, _⟩
  iapply h; iexact HI
theorem inv_send (K : Dev nD × Fin 63 → ℕ) (c : Dev nD) (k : Fin 31) : records m K ⊢ cellInv ER (Rd m) (K (c, sendJ k)) (sendCell c k) := by
  have h := inv_at m K (c, sendJ k)
  rw [kcell_send] at h
  unfold records
  iintro ⟨HI, _⟩
  iapply h; iexact HI
theorem inv_recv (K : Dev nD × Fin 63 → ℕ) (c : Dev nD) (k : Fin 31) : records m K ⊢ cellInv ER (Rd m) (K (c, recvJ k)) (recvCell c k) := by
  have h := inv_at m K (c, recvJ k)
  rw [kcell_recv] at h
  unfold records
  iintro ⟨HI, _⟩
  iapply h; iexact HI
theorem reached_bar (K : Dev nD × Fin 63 → ℕ) (c : Dev nD) : records m K ⊢ reached ER (barCell c) 0 := by
  have h := reached_at (F := F) (c, barJ)
  rw [kcell_bar] at h
  unfold records
  iintro ⟨_, HR⟩
  iapply h; iexact HR
theorem reached_send (K : Dev nD × Fin 63 → ℕ) (c : Dev nD) (k : Fin 31) : records m K ⊢ reached ER (sendCell c k) 0 := by
  have h := reached_at (F := F) (c, sendJ k)
  rw [kcell_send] at h
  unfold records
  iintro ⟨_, HR⟩
  iapply h; iexact HR
theorem reached_recv (K : Dev nD × Fin 63 → ℕ) (c : Dev nD) (k : Fin 31) : records m K ⊢ reached ER (recvCell c k) 0 := by
  have h := reached_at (F := F) (c, recvJ k)
  rw [kcell_recv] at h
  unfold records
  iintro ⟨_, HR⟩
  iapply h; iexact HR

end Cert.Kernel.Coll

end
-- ==== Proof.Kernel.States.lean ====
/-
  What a device holds at each point of its run, as ONE assertion indexed by how far it has got: js signals sent,
  whether its own statistics are written and its barrier wait done, jt copies started, jr receive waits done, whether
  its result is stored, jw send waits done. Each effect of the body moves one counter.
-/
import proofs.«901062_g7700000000001063_dist_softmax_colshard_i_m2048_n1024_v7x_i32_f32_1_alg».proof.Proof.Kernel.Tables

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer held whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- How far a device has got. -/
structure Pg where
  js : ℕ
  stats : Bool
  bar : Bool
  jt : ℕ
  jr : ℕ
  out : Bool
  jw : ℕ

/-- Everything linear device c holds at progress p. In order: what it still owes; the tokens of the barrier duties it
    has yet to pay, and the rows of its own scratch it hands over with them; before its barrier wait its position and
    credit there, after it the rows of its forward peers' scratches it has yet to write; the tokens of the copies yet
    to start; its own row (any contents before its statistics are written, then the statistics at the share not lent
    out); its send cells' positions, the credit of copies in flight, and for each finished send wait the cell closed
    and the lent share back; its receive cells' positions and credit, and for each finished receive wait the cell
    closed and the peer's row holding the peer's statistics; the two staging buffers. -/
def St (c : Dev nD) (p : Pg) : sProp 𝕄 := iprop(
  (∃ W, owes (c : Thread nD τ) (Oat c p.js p.jt) W)
  ∗ (bigSep (ge p.js) fun k => dutyTok ER (barCell (fwd c k)) 0 k)
  ∗ (bigSep (ge p.js) fun k => iprop(∃ f, rowPts (F := F) c (fwd c k) fullShare f))
  ∗ (if p.bar then (bigSep (ge p.jt) fun k => iprop(∃ f, rowPts (F := F) (fwd c k) c fullShare f))
     else iprop(atPos ER (barCell c) 0 ∅ 0 ∗ cred (tallyAt (barCell c) () 31)))
  ∗ (bigSep (ge p.jt) fun k => iprop(dutyTok ER (recvCell (fwd c k) k) 0 (0 : Fin 31) ∗ dutyTok ER (sendCell c k) 0 (0 : Fin 31)))
  ∗ (if p.stats then rowPts c c (shRest p.jt) (statsOf (xstg m)) else iprop(∃ f, rowPts (F := F) c c fullShare f))
  ∗ (bigSep (ge p.jw) fun k => atPos ER (sendCell c k) 0 ∅ 0)
  ∗ (bigSep (lt p.jt ∩ ge p.jw) fun k => cred (tallyAt (sendCell c k) () N))
  ∗ (bigSep (lt p.jw) fun k => iprop(semVal (sendCell c k) 0 ∗ rowPts c c (shK k.val) (statsOf (xstg m))))
  ∗ (bigSep (ge p.jr) fun k => iprop(atPos ER (recvCell c k) 0 ∅ 0 ∗ cred (tallyAt (recvCell c k) () N)))
  ∗ (bigSep (lt p.jr) fun k => iprop(semVal (recvCell c k) 0 ∗ rowPts c (bwd c k) fullShare (statsOf (xstg m))))
  ∗ stg c cc0_stg0_0 (xstg m c)
  ∗ (if p.out then stg c cc0_stg1_0 (outAt m c) else iprop(∃ f, (((c : Thread nD τ).loc cc0_stg1_0) ↦{fullShare} f))))

/-! ## The points the body passes through -/

/-- j signals sent. -/
abbrev pS (j : ℕ) : Pg := ⟨j, false, false, 0, 0, false, 0⟩
/-- All signals sent and the device's own statistics written. -/
abbrev pStats : Pg := ⟨31, true, false, 0, 0, false, 0⟩
/-- The barrier wait done and j copies started. -/
abbrev pT (j : ℕ) : Pg := ⟨31, true, true, j, 0, false, 0⟩
/-- All copies started and j receive waits done. -/
abbrev pR (j : ℕ) : Pg := ⟨31, true, true, 31, j, false, 0⟩
/-- The result stored and j send waits done. -/
abbrev pW (j : ℕ) : Pg := ⟨31, true, true, 31, 31, true, j⟩

/-! ## The body's pre and post, as the pipeline states them -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (K : Dev nD × Fin 63 → ℕ) (c : Dev nD) : sProp 𝕄 :=
  iprop((ghost m K c ∗ creds c ∗ levAts L lv ∗ scrAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The whole body on device c. -/
abbrev bodyOn : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.Kernel.Coll

end
-- ==== Proof.Kernel.Geom.lean ====
/-
  The statistics scratch as 32 rows: the rows' element sets tile the buffer; a points-to over the whole buffer is the
  32 rows' points-tos; the device's own row and its 31 peers' rows; the share sequence a row is lent out by; what the
  two stores of the local statistics leave in the device's own row, what a landed copy leaves in a peer's row, and
  what the two final loads read.
-/
import proofs.«901062_g7700000000001063_dist_softmax_colshard_i_m2048_n1024_v7x_i32_f32_1_alg».proof.Proof.Kernel.States
import Idealize.ShloMosaic.Lib.Pipeline.Value
import Idealize.ShloMosaic.Rules.PointsTo

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- In this model two assertions that entail each other are equal, and conversely. -/
theorem eq_of_equiv {P Q : sProp 𝕄} (h : P ⊣⊢ Q) : P = Q := BI.equiv_iff.mp ⟨h.1, h.2⟩
theorem equiv_of_eq {P Q : sProp 𝕄} (e : P = Q) : P ⊣⊢ Q := by subst e; exact .rfl

section Geom

variable (c : Dev nD)

/-! ## Rows -/

/-- An element of the scratch is in row r when its first coordinate is r. -/
theorem mem_row_set (dev r : Dev nD) (i : Idx ((rowM r).view.loc (dev : Thread nD τ))) :
    i ∈ (rowM r).view.set ↔ (i 0).val = r.val := by
  have hi1 : (i 1).val < 4096 := (i 1).isLt
  simp only [Memref.view_squeeze, Memref.view_slice, Memref.view_whole, View.set_reshape, View.set_slice_whole, Rect.mem_set_unit, k0_off3_eq r]
  constructor
  · intro h
    have h0 : r.val ≤ (i 0).val ∧ (i 0).val < r.val + 1 := h 0
    omega
  · intro h
    refine Fin.forall_fin_two.mpr ⟨?_, ?_⟩
    · show r.val ≤ (i 0).val ∧ (i 0).val < r.val + 1
      omega
    · show 0 ≤ (i 1).val ∧ (i 1).val < 0 + 4096
      omega

theorem row_sets_disjoint (dev : Dev nD) {r r' : Dev nD} (h : r ≠ r') :
    Disjoint ((rowM r).view.set : Finset (Idx ((rowM r).view.loc (dev : Thread nD τ)))) (rowM r').view.set :=
  Finset.disjoint_left.mpr fun i hi hi' =>
    h (Fin.ext (((mem_row_set dev r i).mp hi).symm.trans ((mem_row_set dev r' i).mp hi')))

/-- The whole scratch at share q is its 32 rows at share q. -/
theorem scratch_rows (dev : Dev nD) (q : PosShare TreeShare) (f : Buf (Elt F) ((dev : Thread nD τ).loc cc0_scratch0)) :
    ((((dev : Thread nD τ).loc cc0_scratch0) ↦{q} f : sProp 𝕄)) ⊣⊢ bigSep Finset.univ (fun r : Dev nD => rowPts (F := F) dev r q f) := by
  have hU : (Finset.univ : Finset (Idx ((dev : Thread nD τ).loc cc0_scratch0)))
      = (Finset.univ : Finset (Dev nD)).biUnion (fun r => ((rowM r).view.set : Finset (Idx ((dev : Thread nD τ).loc cc0_scratch0)))) := by
    ext i
    simp only [Finset.mem_univ, Finset.mem_biUnion, true_and, true_iff]
    exact ⟨⟨(i 0).val, (i 0).isLt⟩, (mem_row_set dev ⟨(i 0).val, (i 0).isLt⟩ i).mpr rfl⟩
  refine equiv_of_eq ?_
  rw [hU, pointsTo_biUnion _ _ (fun r _ r' _ h => row_sets_disjoint dev h)]
  rfl

/-- The 32 devices: device c, and the image of its 31 forward (backward) peers. -/
theorem univ_eq_insert_fwd : (Finset.univ : Finset (Dev nD)) = insert c ((Finset.univ : Finset (Fin 31)).map ⟨fwd c, fwd_injective c⟩) := by
  ext d
  simp only [Finset.mem_univ, Finset.mem_insert, Finset.mem_map, Function.Embedding.coeFn_mk, true_and, true_iff]
  by_cases h : d = c
  · exact Or.inl h
  · obtain ⟨k, hk⟩ := exists_fwd c d h
    exact Or.inr ⟨k, hk⟩
theorem not_mem_fwd : c ∉ (Finset.univ : Finset (Fin 31)).map ⟨fwd c, fwd_injective c⟩ := by
  simp only [Finset.mem_map, Finset.mem_univ, true_and, Function.Embedding.coeFn_mk, not_exists]
  exact fun k => fwd_ne c k
theorem univ_eq_insert_bwd : (Finset.univ : Finset (Dev nD)) = insert c ((Finset.univ : Finset (Fin 31)).map ⟨bwd c, bwd_injective c⟩) := by
  ext d
  simp only [Finset.mem_univ, Finset.mem_insert, Finset.mem_map, Function.Embedding.coeFn_mk, true_and, true_iff]
  by_cases h : d = c
  · exact Or.inl h
  · obtain ⟨k, hk⟩ := exists_bwd c d h
    exact Or.inr ⟨k, hk⟩
theorem not_mem_bwd : c ∉ (Finset.univ : Finset (Fin 31)).map ⟨bwd c, bwd_injective c⟩ := by
  simp only [Finset.mem_map, Finset.mem_univ, true_and, Function.Embedding.coeFn_mk, not_exists]
  exact fun k => bwd_ne c k

/-- The 32 devices are device c and its 31 forward peers; -/
theorem dev_split_fwd (Φ : Dev nD → sProp 𝕄) :
    bigSep Finset.univ Φ ⊣⊢ iprop(Φ c ∗ bigSep Finset.univ (fun k : Fin 31 => Φ (fwd c k))) :=
  equiv_of_eq (by rw [univ_eq_insert_fwd c, bigSep_insert (not_mem_fwd c), bigSep_map]; rfl)
/-- and device c and its 31 backward peers. -/
theorem dev_split_bwd (Φ : Dev nD → sProp 𝕄) :
    bigSep Finset.univ Φ ⊣⊢ iprop(Φ c ∗ bigSep Finset.univ (fun k : Fin 31 => Φ (bwd c k))) :=
  equiv_of_eq (by rw [univ_eq_insert_bwd c, bigSep_insert (not_mem_bwd c), bigSep_map]; rfl)
/-- Forward peer k is backward peer 30 - k. -/
theorem bigSep_fwd_bwd (Φ : Dev nD → sProp 𝕄) :
    bigSep Finset.univ (fun k : Fin 31 => Φ (fwd c k)) ⊣⊢ bigSep Finset.univ (fun k : Fin 31 => Φ (bwd c k)) :=
  equiv_of_eq ((bigSep_congr fun k _ => by rw [fwd_eq_bwd_rev c k]; rfl).trans
    (bigSep_univ_equiv Fin.revPerm (fun k : Fin 31 => Φ (bwd c k))).symm)

/-! ## Index sets -/

theorem ge_zero : ge 0 = Finset.univ := by
  ext j
  simp only [Finset.mem_filter, Finset.mem_univ, true_and, iff_true]
  omega
theorem lt_zero : lt 0 = ∅ := by
  ext j
  simp only [Finset.mem_filter, Finset.mem_univ, true_and, Finset.notMem_empty, iff_false]
  omega
theorem lt_31 : lt 31 = Finset.univ := by
  ext j
  have hj := j.isLt
  simp only [Finset.mem_filter, Finset.mem_univ, true_and, iff_true]
  omega
/-- Index k is the greatest of 0, ..., k. -/
theorem lt_push (k : Fin 31) : lt (k.val + 1) = insert k (lt k.val) ∧ k ∉ lt k.val := by
  refine ⟨?_, ?_⟩
  · ext j
    simp only [Finset.mem_filter, Finset.mem_univ, true_and, Finset.mem_insert]
    constructor
    · intro h
      by_cases e : j = k
      · exact Or.inl e
      · have hne : j.val ≠ k.val := fun h' => e (Fin.ext h')
        exact Or.inr (by omega)
    · rintro (rfl | h)
      · omega
      · omega
  · simp only [Finset.mem_filter, Finset.mem_univ, true_and]
    omega
theorem bigSep_ge_peel (k : Fin 31) (Φ : Fin 31 → sProp 𝕄) :
    bigSep (ge k.val) Φ ⊣⊢ iprop(Φ k ∗ bigSep (ge (k.val + 1)) Φ) :=
  equiv_of_eq ((congrArg (fun s => bigSep s Φ) (ge_succ k)).trans (bigSep_insert (not_mem_ge_succ k)))
theorem bigSep_lt_push (k : Fin 31) (Φ : Fin 31 → sProp 𝕄) :
    bigSep (lt (k.val + 1)) Φ ⊣⊢ iprop(Φ k ∗ bigSep (lt k.val) Φ) :=
  equiv_of_eq ((congrArg (fun s => bigSep s Φ) (lt_push k).1).trans (bigSep_insert (lt_push k).2))

/-! ## Shares -/

/-- The share kept after n loans is the n-th loan and the share kept after n + 1. -/
theorem share_step {ℓ : Loc nD τ sig} (I : Finset (Idx ℓ)) (f : Buf (Elt F) ℓ) (n : ℕ) :
    (ℓ ↦[I]{shRest n} f : sProp 𝕄) ⊣⊢ iprop((ℓ ↦[I]{shK n} f) ∗ ℓ ↦[I]{shRest (n + 1)} f) :=
  pointsTo_share (PosShare.mem_left_op_right (shRest n))
/-- Moving the first of three to the middle. -/
theorem sep_rotate (P Q R : sProp 𝕄) : (iprop((P ∗ Q) ∗ R) : sProp 𝕄) = iprop(Q ∗ (P ∗ R)) :=
  eq_of_equiv ⟨by
      iintro ⟨⟨HP, HQ⟩, HR⟩
      isplitl [HQ]
      · iexact HQ
      · isplitl [HP]
        · iexact HP
        · iexact HR,
    by
      iintro ⟨HQ, HP, HR⟩
      isplitr [HR]
      · isplitl [HP]
        · iexact HP
        · iexact HQ
      · iexact HR⟩

/-- The full share is the first n loans and what is kept after them. -/
theorem share_upto {ℓ : Loc nD τ sig} (I : Finset (Idx ℓ)) (f : Buf (Elt F) ℓ) (n : ℕ) (hn : n ≤ 31) :
    (ℓ ↦[I]{fullShare} f : sProp 𝕄) ⊣⊢ iprop((ℓ ↦[I]{shRest n} f) ∗ bigSep (lt n) (fun k : Fin 31 => (ℓ ↦[I]{shK k.val} f : sProp 𝕄))) := by
  induction n with
  | zero =>
    rw [lt_zero, bigSep_empty]
    exact equiv_of_eq (BI.equiv_iff.mp BI.sep_emp).symm
  | succ n ih =>
    have hk : n < 31 := by omega
    have hp : lt (n + 1) = insert (⟨n, hk⟩ : Fin 31) (lt n) := (lt_push ⟨n, hk⟩).1
    have hq : (⟨n, hk⟩ : Fin 31) ∉ lt n := (lt_push ⟨n, hk⟩).2
    have e1 := eq_of_equiv (ih (by omega))
    have e2 := eq_of_equiv (share_step (F := F) I f n)
    refine equiv_of_eq ?_
    rw [hp, bigSep_insert hq, e1, e2]
    exact sep_rotate _ _ _

/-- The full share is the 31 loans and what is kept after them. -/
theorem share_all {ℓ : Loc nD τ sig} (I : Finset (Idx ℓ)) (f : Buf (Elt F) ℓ) :
    (ℓ ↦[I]{fullShare} f : sProp 𝕄) ⊣⊢ iprop((ℓ ↦[I]{shRest 31} f) ∗ bigSep Finset.univ (fun k : Fin 31 => (ℓ ↦[I]{shK k.val} f : sProp 𝕄))) := by
  have h := share_upto (F := F) I f 31 (le_refl 31)
  rw [lt_31] at h
  exact h

/-! ## Contents -/

/-- A copy of row r of fs over row r of fd leaves, on row r, what fs holds there. -/
theorem landed_row (dev dev' r : Dev nD) (fd : Buf (Elt F) ((rowM r).view.loc (dev' : Thread nD τ))) (fs : Buf (Elt F) ((rowM r).view.loc (dev : Thread nD τ)))
    (g : Buf (Elt F) ((rowM r).view.loc (dev' : Thread nD τ)))
    (hg : ∀ i, (i 0).val = r.val → g i = fs i) :
    ((rowM r).view.loc (dev' : Thread nD τ) ↦[(rowM r).view.set]{fullShare} ((rowM r).view.write (Elt F) fd ((rowM r).view.read (Elt F) fs) Finset.univ) : sProp 𝕄)
      = ((rowM r).view.loc (dev' : Thread nD τ) ↦[(rowM r).view.set]{fullShare} g) := by
  refine pointsTo_congr fun i hi => ?_
  have hrow : (i 0).val = r.val := (mem_row_set dev' r i).mp hi
  obtain ⟨x, hx⟩ := View.exists_emb_of_mem_set _ hi
  have e := View.write_emb_of_mem (v := (rowM r).view) (Val := Elt F) fd ((rowM r).view.read (Elt F) fs) (M := Finset.univ) (x := x) (Finset.mem_univ x)
  rw [hx] at e
  rw [e, View.read_apply, hx, hg i hrow]
  simp only [cast_cast, cast_eq]

/-- The two half-row rectangles the local statistics are stored through, and loaded through first, lie in the
    device's own row. -/
theorem half1_sub_row : ((sM : Memref sig .tc .vmem S32x4096 .f32).access (Rect.unit (s := S32x4096) (k0_off1 c) S1x2048.size (k0_off1_inb c))).setOn Finset.univ
    ⊆ ((rowM c).view.set : Finset (Idx ((rowM c).view.loc (c : Thread nD τ)))) := by
  intro i hi
  simp only [Memref.access, View.setOn_univ, Memref.view_whole, View.set_slice_whole, Rect.mem_set_unit, k0_off1_eq c] at hi
  refine (mem_row_set c c i).mpr ?_
  have h0 : c.val ≤ (i 0).val ∧ (i 0).val < c.val + 1 := hi 0
  omega
theorem half2_sub_row : ((sM : Memref sig .tc .vmem S32x4096 .f32).access (Rect.unit (s := S32x4096) (k0_off2 c) S1x2048.size (k0_off2_inb c))).setOn Finset.univ
    ⊆ ((rowM c).view.set : Finset (Idx ((rowM c).view.loc (c : Thread nD τ)))) := by
  intro i hi
  simp only [Memref.access, View.setOn_univ, Memref.view_whole, View.set_slice_whole, Rect.mem_set_unit, k0_off2_eq c] at hi
  refine (mem_row_set c c i).mpr ?_
  have h0 : c.val ≤ (i 0).val ∧ (i 0).val < c.val + 1 := hi 0
  omega
theorem half1_load_sub_row : (sM : Memref sig .tc .vmem S32x4096 .f32).view.setOn (Rect.unit (s := S32x4096) (k0_off1 c) S1x2048.size (k0_off1_inb c)).toLoadRect.set
    ⊆ ((rowM c).view.set : Finset (Idx ((rowM c).view.loc (c : Thread nD τ)))) := by
  intro i hi
  obtain ⟨j, hj, hji⟩ := Finset.mem_map.mp hi
  have hj' := Rect.mem_set_unit.mp hj
  rw [k0_off1_eq c] at hj'
  refine (mem_row_set c c i).mpr ?_
  have h0 : c.val ≤ (j 0).val ∧ (j 0).val < c.val + 1 := hj' 0
  have hij : (i 0).val = (j 0).val := by rw [← hji]; rfl
  omega
theorem half2_load_sub_row : (sM : Memref sig .tc .vmem S32x4096 .f32).view.setOn (Rect.unit (s := S32x4096) (k0_off2 c) S1x2048.size (k0_off2_inb c)).toLoadRect.set
    ⊆ ((rowM c).view.set : Finset (Idx ((rowM c).view.loc (c : Thread nD τ)))) := by
  intro i hi
  obtain ⟨j, hj, hji⟩ := Finset.mem_map.mp hi
  have hj' := Rect.mem_set_unit.mp hj
  rw [k0_off2_eq c] at hj'
  refine (mem_row_set c c i).mpr ?_
  have h0 : c.val ≤ (j 0).val ∧ (j 0).val < c.val + 1 := hj' 0
  have hij : (i 0).val = (j 0).val := by rw [← hji]; rfl
  omega

/-- The first half-row rectangle places column q of its one row at column q of row c of the scratch; -/
theorem half1_emb (q : Fin 2048) (i : Idx ((c : Thread nD τ).loc cc0_scratch0)) (hi0 : (i 0).val = c.val) (hi1 : (i 1).val = q.val) :
    ((sM : Memref sig .tc .vmem S32x4096 .f32).access (Rect.unit (s := S32x4096) (k0_off1 c) S1x2048.size (k0_off1_inb c))).emb (ValueIdx.ix2 (0 : Fin 1) q) = i := by
  funext a
  refine Fin.ext ?_
  match a with
  | ⟨0, _⟩ =>
    show k0_off1 c 0 + 1 * 0 = (i 0).val
    rw [k0_off1_eq c]
    show c.val + 1 * 0 = (i 0).val
    omega
  | ⟨1, _⟩ =>
    show k0_off1 c 1 + 1 * q.val = (i 1).val
    rw [k0_off1_eq c]
    show 0 + 1 * q.val = (i 1).val
    omega
/-- the second at column 2048 + q. -/
theorem half2_emb (q : Fin 2048) (i : Idx ((c : Thread nD τ).loc cc0_scratch0)) (hi0 : (i 0).val = c.val) (hi1 : (i 1).val = 2048 + q.val) :
    ((sM : Memref sig .tc .vmem S32x4096 .f32).access (Rect.unit (s := S32x4096) (k0_off2 c) S1x2048.size (k0_off2_inb c))).emb (ValueIdx.ix2 (0 : Fin 1) q) = i := by
  funext a
  refine Fin.ext ?_
  match a with
  | ⟨0, _⟩ =>
    show k0_off2 c 0 + 1 * 0 = (i 0).val
    rw [k0_off2_eq c]
    show c.val + 1 * 0 = (i 0).val
    omega
  | ⟨1, _⟩ =>
    show k0_off2 c 1 + 1 * q.val = (i 1).val
    rw [k0_off2_eq c]
    show 2048 + 1 * q.val = (i 1).val
    omega

/-- The statistics at row d, column q below 2048: device d's local maximum of row q; -/
theorem statsOf_max (X : Dev nD → Vec F S2048x1024 .f32) (i : Idx ((c : Thread nD τ).loc cc0_scratch0)) (d : Dev nD) (q : Fin 2048)
    (h0 : (i 0).val = d.val) (h1 : (i 1).val = q.val) :
    statsOf X i = Softmax.localMax (X d) (ValueIdx.ix2 (0 : Fin 1) q) := by
  have hq := q.isLt
  have h : (i 1).val < 2048 := by omega
  have e0 : (⟨(i 0).val, (i 0).isLt⟩ : Dev nD) = d := Fin.ext h0
  have e1 : (⟨(i 1).val, h⟩ : Fin 2048) = q := Fin.ext h1
  show (if h : (i 1).val < 2048 then _ else _) = _
  rw [dif_pos h, e0, e1]
/-- at column 2048 + q: device d's local sum of row q. -/
theorem statsOf_sum (X : Dev nD → Vec F S2048x1024 .f32) (i : Idx ((c : Thread nD τ).loc cc0_scratch0)) (d : Dev nD) (q : Fin 2048)
    (h0 : (i 0).val = d.val) (h1 : (i 1).val = 2048 + q.val) :
    statsOf X i = Softmax.localSum (X d) (ValueIdx.ix2 (0 : Fin 1) q) := by
  have hq := q.isLt
  have h : ¬ (i 1).val < 2048 := by omega
  have e0 : (⟨(i 0).val, (i 0).isLt⟩ : Dev nD) = d := Fin.ext h0
  have e1 : ∀ hlt, (⟨(i 1).val - 2048, hlt⟩ : Fin 2048) = q := fun _ => Fin.ext (by show (i 1).val - 2048 = q.val; omega)
  show (if h : (i 1).val < 2048 then _ else _) = _
  rw [dif_neg h, e0, e1]

/-- Storing the row of local maxima through the first half-row rectangle and the row of local sums through the second
    leaves, on the device's own row, the statistics. -/
theorem stored_stats (X : Dev nD → Vec F S2048x1024 .f32) (f : Buf (Elt F) ((c : Thread nD τ).loc cc0_scratch0))
    (i : Idx ((c : Thread nD τ).loc cc0_scratch0)) (hi : (i 0).val = c.val) :
    (((sM : Memref sig .tc .vmem S32x4096 .f32).access (Rect.unit (s := S32x4096) (k0_off2 c) S1x2048.size (k0_off2_inb c))).write (Elt F)
      (((sM : Memref sig .tc .vmem S32x4096 .f32).access (Rect.unit (s := S32x4096) (k0_off1 c) S1x2048.size (k0_off1_inb c))).write (Elt F) f (Softmax.localMax (X c)) Finset.univ)
      (Softmax.localSum (X c)) Finset.univ) i = statsOf X i := by
  have hi1 : (i 1).val < 4096 := (i 1).isLt
  by_cases h : (i 1).val < 2048
  · have hnot : i ∉ ((sM : Memref sig .tc .vmem S32x4096 .f32).access (Rect.unit (s := S32x4096) (k0_off2 c) S1x2048.size (k0_off2_inb c))).setOn Finset.univ := by
      intro hm
      simp only [Memref.access, View.setOn_univ, Memref.view_whole, View.set_slice_whole, Rect.mem_set_unit, k0_off2_eq c] at hm
      have h1 : 2048 ≤ (i 1).val ∧ (i 1).val < 2048 + 2048 := hm 1
      omega
    rw [View.write_of_not_mem _ _ _ hnot]
    have e := View.write_emb_of_mem (v := ((sM : Memref sig .tc .vmem S32x4096 .f32).access (Rect.unit (s := S32x4096) (k0_off1 c) S1x2048.size (k0_off1_inb c)))) (Val := Elt F) f (Softmax.localMax (X c)) (M := Finset.univ)
      (x := ValueIdx.ix2 (0 : Fin 1) (⟨(i 1).val, h⟩ : Fin 2048)) (Finset.mem_univ _)
    rw [half1_emb c ⟨(i 1).val, h⟩ i hi rfl] at e
    rw [e, statsOf_max c X i c ⟨(i 1).val, h⟩ hi rfl]
    simp only [cast_eq]
  · have hq : (i 1).val - 2048 < 2048 := by omega
    have e := View.write_emb_of_mem (v := ((sM : Memref sig .tc .vmem S32x4096 .f32).access (Rect.unit (s := S32x4096) (k0_off2 c) S1x2048.size (k0_off2_inb c)))) (Val := Elt F)
      (((sM : Memref sig .tc .vmem S32x4096 .f32).access (Rect.unit (s := S32x4096) (k0_off1 c) S1x2048.size (k0_off1_inb c))).write (Elt F) f (Softmax.localMax (X c)) Finset.univ) (Softmax.localSum (X c)) (M := Finset.univ)
      (x := ValueIdx.ix2 (0 : Fin 1) (⟨(i 1).val - 2048, hq⟩ : Fin 2048)) (Finset.mem_univ _)
    have h1 : (i 1).val = 2048 + (⟨(i 1).val - 2048, hq⟩ : Fin 2048).val := by show (i 1).val = 2048 + ((i 1).val - 2048); omega
    rw [half2_emb c ⟨(i 1).val - 2048, hq⟩ i hi h1] at e
    rw [e, statsOf_sum c X i c ⟨(i 1).val - 2048, hq⟩ hi h1]
    simp only [cast_eq]

/-- The first final load reads the 32 rows of maxima, the second the 32 rows of sums. -/
theorem read_allM (X : Dev nD → Vec F S2048x1024 .f32) :
    (sM : Memref sig .tc .vmem S32x4096 .f32).view.readAt (Elt F) (Rect.unit (s := S32x4096) ![0, 0] S32x2048.size inb_S32x4096_S32x2048_0_0).toLoadRect (statsOf X)
      = Softmax.allM X := by
  funext j
  have hj1 : (j 1).val < 2048 := (j 1).isLt
  rw [View.readAt_apply, View.read_apply]
  rw [statsOf_max ⟨(j 0).val, (j 0).isLt⟩ X _ ⟨(j 0).val, (j 0).isLt⟩ ⟨(j 1).val, (j 1).isLt⟩
    (by show 0 + 1 * (j 0).val = (j 0).val; omega) (by show 0 + 1 * (j 1).val = (j 1).val; omega)]
  simp only [cast_eq]
  rfl
theorem read_allS (X : Dev nD → Vec F S2048x1024 .f32) :
    (sM : Memref sig .tc .vmem S32x4096 .f32).view.readAt (Elt F) (Rect.unit (s := S32x4096) ![0, 2048] S32x2048.size inb_S32x4096_S32x2048_0_2048).toLoadRect (statsOf X)
      = Softmax.allS X := by
  funext j
  have hj1 : (j 1).val < 2048 := (j 1).isLt
  rw [View.readAt_apply, View.read_apply]
  rw [statsOf_sum ⟨(j 0).val, (j 0).isLt⟩ X _ ⟨(j 0).val, (j 0).isLt⟩ ⟨(j 1).val, (j 1).isLt⟩
    (by show 0 + 1 * (j 0).val = (j 0).val; omega) (by show 2048 + 1 * (j 1).val = 2048 + (j 1).val; omega)]
  simp only [cast_eq]
  rfl

end Geom

end Cert.Kernel.Coll

end
-- ==== Proof.Kernel.Steps.lean ====
/-
  One lemma per kind of effect of the body: each takes the device's state at one point to its state at the next.
  A signal pays one barrier duty with the row it hands over; the barrier wait takes the whole round, one row of each
  peer's scratch; a copy lends a share of the source row, writes the peer's row and pays that peer's receive duty; a
  receive wait takes the landed row and closes the cell; a send wait takes the lent share back and closes the cell.
-/
import proofs.«901062_g7700000000001063_dist_softmax_colshard_i_m2048_n1024_v7x_i32_f32_1_alg».proof.Proof.Kernel.Geom

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × Fin 63 → ℕ) (c : Dev nD)

/-- Signal k: to the k-th forward peer's barrier semaphore. -/
theorem sig_step {α : Type} {Q : α → sProp 𝕄} (k : Fin 31) {cont : PUnit → Prog (TpuEff nD τ sig (Elt F) Λ₀ .tc) α} :
    iprop(records m K ∗ St m c (pS k.val))
      ⊢ iprop((St m c (pS (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((fwd c k : Dev nD) : Thread nD τ) barS (1#32 : BitVec 32).toNat) cont) Q) := by
  unfold St
  dsimp only
  iintro ⟨#HR, ⟨%W, HO⟩, Htok, Hrows, Hrest⟩ Hk
  ihave Ht := (bigSep_ge_peel k _).1 $$ Htok
  icases Ht with ⟨Ht, Htok⟩
  ihave Hr := (bigSep_ge_peel k _).1 $$ Hrows
  icases Hr with ⟨Hr, Hrows⟩
  iapply (Rounds.wp_signal 𝒱₀ ER (Rd m) (c : Thread nD τ) none (dst := ((fwd c k : Dev nD) : Thread nD τ)) (κ := K (fwd c k, barJ))
      (d := k) (by rw [duties_bar]; exact Finset.mem_univ _) ((amount_bar m (fwd c k) k).trans (by decide)) () (Oat c (k.val + 1) 0) (Oat_sig c k 0))
    $$ [HO Ht Hr]
  · isplitr; · iapply (inv_bar m K (fwd c k)); iexact HR
    isplitl [HO]; · iexact HO
    isplitl [Ht]; · iexact Ht
    isplitl [Hr]
    · rw [payload_bar]; unfold barPay; rw [bwd_fwd]; iexact Hr
    · iapply (reached_bar m K (fwd c k)); iexact HR
  iintro HO
  iapply Hk
  isplitl [HO]; · iexists W; iexact HO
  isplitl [Htok]; · iexact Htok
  isplitl [Hrows]; · iexact Hrows
  iexact Hrest

/-- The wait for the 31 units of the device's own barrier semaphore. -/
theorem bar_step {α : Type} {Q : α → sProp 𝕄} {cont : PUnit → Prog (TpuEff nD τ sig (Elt F) Λ₀ .tc) α} :
    iprop(records m K ∗ levAts L lv ∗ St m c pStats)
      ⊢ iprop((St m c (pT 0) -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32 : BitVec 32).toNat) cont) Q) := by
  unfold St
  dsimp only
  simp only [Bool.false_eq_true, ↓reduceIte]
  iintro ⟨#HR, #Hlev, ⟨%W, HO⟩, Htok, Hrows, ⟨HatB, HcB⟩, Hrest⟩ Hk
  iapply (Rounds.wp_wait_rest_token 𝒱₀ ER (Rd m) (c : Thread nD τ) none (κ := K (c, barJ))
      (wpE_semWait_eq 𝒱₀ (c : Thread nD τ) none Set.univ) (Set.mem_univ _) () (O := Oat c 31 0) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  ihave Hq := (bigSep_fwd_bwd c (fun dev : Dev nD => iprop(∃ f, rowPts (F := F) dev c fullShare f))).2 $$ Hp
  iapply Hk
  isplitl [HO]; · iexists (insert (SemLoc.reg barS, ()) W); iexact HO
  isplitl [Htok]; · iexact Htok
  isplitl [Hrows]; · iexact Hrows
  isplitl [Hq]; · rw [ge_zero]; iexact Hq
  iexact Hrest

/-- Copy k: the device's own row into the same row of its k-th forward peer's scratch. -/
theorem send_step {α : Type} {Q : α → sProp 𝕄} (k : Fin 31) (d : Dev nD) (hd : d = fwd c k)
    {hsc : (rowM c : Memref sig (Dev.tc d : Thread nD τ).2.kind .vmem S4096 .f32).view.ref.isScScratch = false}
    {hsrc : (rowM c).view.WordExact} {hdst : (rowM c).view.WordExact}
    {hsem : DmaTarget.Typed .vmem (.dma (recvS k)) (.remote (Dev.tc d : Thread nD τ) (rowM c) (.dma (sendS k)) hsc)}
    {cont : PUnit → Prog (TpuEff nD τ sig (Elt F) Λ₀ .tc) α} :
    iprop(records m K ∗ St m c (pT k.val))
      ⊢ iprop((St m c (pT (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (rowM c) (.remote (Dev.tc d : Thread nD τ) (rowM c) (.dma (sendS k)) hsc) (.dma (recvS k)) hsrc hdst hsem) cont) Q) := by
  subst hd
  unfold St
  dsimp only
  simp only [↓reduceIte, ge_zero, Finset.inter_univ]
  iintro ⟨#HR, ⟨%W, HO⟩, H2, H3, Hpeers, Htoks, Hown, H7, Hcred, Hrest⟩ Hk
  ihave Hp := (bigSep_ge_peel k _).1 $$ Hpeers
  icases Hp with ⟨⟨%fd, Hdst⟩, Hpeers⟩
  ihave Ht := (bigSep_ge_peel k _).1 $$ Htoks
  icases Ht with ⟨⟨HtR, HtS⟩, Htoks⟩
  unfold rowPts
  ihave Ho := (share_step _ _ k.val).1 $$ Hown
  icases Ho with ⟨Hsrc, Hown⟩
  iapply (Rounds.wp_send_pointsTo 𝒱₀ ER (Rd m) (c : Thread nD τ) none (κ₁ := K (c, sendJ k)) (κ₂ := K (fwd c k, recvJ k))
      (r₁ := 0) (r₂ := 0) (d₁ := (0 : Fin 31)) (d₂ := (0 : Fin 31)) (q := shK k.val) (fs := statsOf (xstg m)) (fd := fd)
      (by rw [duties_send]; exact Finset.mem_singleton_self _) (by rw [duties_recv]; exact Finset.mem_singleton_self _)
      () () N (row_credit c _) (amount_send m c k 0) (amount_recv m (fwd c k) k 0) (Oat c 31 (k.val + 1)) (Oat_send c k 31) (W := W)
      (by rw [payload_send]; unfold sendPay rowPts; exact BI.Entails.refl _)
      (by
        rw [payload_recv]; unfold recvPay; rw [bwd_fwd]; unfold rowPts
        exact Entails.of_eq (landed_row c (fwd c k) c fd (statsOf (xstg m)) (statsOf (xstg m)) (fun i hi => rfl))))
    $$ [HO Hsrc Hdst HtS HtR]
  · isplitr; · iapply (inv_send m K c k); iexact HR
    isplitr; · iapply (inv_recv m K (fwd c k) k); iexact HR
    isplitl [Hsrc]; · iexact Hsrc
    isplitl [Hdst]; · iexact Hdst
    isplitl [HO]; · iexact HO
    isplitl [HtS]; · iexact HtS
    isplitr; · iapply (reached_send m K c k); iexact HR
    isplitl [HtR]; · iexact HtR
    iapply (reached_recv m K (fwd c k) k); iexact HR
  iintro ⟨Hc, HO⟩
  iapply Hk
  isplitl [HO]; · iexists W; iexact HO
  isplitl [H2]; · iexact H2
  isplitl [H3]; · iexact H3
  isplitl [Hpeers]; · iexact Hpeers
  isplitl [Htoks]; · iexact Htoks
  isplitl [Hown]; · iexact Hown
  isplitl [H7]; · iexact H7
  isplitl [Hcred Hc]
  · iapply (bigSep_lt_push k _).2
    isplitl [Hc]; · iexact Hc
    iexact Hcred
  iexact Hrest

end Steps

end Cert.Kernel.Coll

end
-- ==== Proof.Kernel.PartsSig.lean ====
/-
  The opening of the body on device c: the thirty-one barrier signals, one to each forward peer, as the body's first
  parts hold them. Each part takes the device's state from "j signals sent" to "j' signals sent"; the scalar words a
  part only computes and hands on do not touch the state.
-/
import proofs.«901062_g7700000000001063_dist_softmax_colshard_i_m2048_n1024_v7x_i32_f32_1_alg».proof.Proof.Kernel.Steps

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section PartsSig
variable (K : Dev nD × Fin 63 → ℕ) (c : Dev nD)

/-- Part 1: the device reads its own index, then signals 0, 1. What the part hands on names the device itself and
    the barrier semaphore. -/
theorem part1_spec :
    iprop(records m K ∗ St m c (pS 0))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_scratch0) (Memref.isWhole_whole _) cc0_scratch1 cc0_scratch2)
          (fun r => iprop(⌜r.1 = c ∧ r.2.2.1 = SemArray.scalar (sig.barrier 0 rfl)⌝ ∗ St m c (pS 2))) := by
  rw [k0_part1_eq_skeleton]; unfold k0_part1_skel
  simp only [semSignalWord, Prog.lift, Prog.bind_op, Prog.bind_ret, Prog.pure_eq_ret]
  iintro ⟨#HR, HS⟩
  rw [wp_deviceId]
  simp only [dev1_eq c, dev2_eq c]
  iapply (sig_step m K c (0 : Fin 31)) $$ [HS]
  · isplitr; · iexact HR
    iexact HS
  iintro HS
  iapply (sig_step m K c (1 : Fin 31)) $$ [HS]
  · isplitr; · iexact HR
    iexact HS
  iintro HS
  rw [wp_ret]; imodintro
  isplitr
  · ipureintro; exact ⟨rfl, rfl⟩
  iexact HS

/-- Part 2: signals 2, 3. -/
theorem part2_spec (v2 : BitVec 32) (v30 : BitVec 32) (c32 : BitVec 32) (v31 : BitVec 1) :
    iprop(records m K ∗ St m c (pS 2))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v30 c32 v31)
          (fun _ => St m c (pS 4)) := by
  rw [k0_part2_eq_skeleton]; unfold k0_part2_skel
  simp only [semSignalWord, Prog.lift, Prog.bind_op, Prog.bind_ret, Prog.pure_eq_ret, dev3_eq c, dev4_eq c]
  iintro ⟨#HR, HS⟩
  iapply (sig_step m K c (2 : Fin 31)) $$ [HS]
  · isplitr; · iexact HR
    iexact HS
  iintro HS
  iapply (sig_step m K c (3 : Fin 31)) $$ [HS]
  · isplitr; · iexact HR
    iexact HS
  iintro HS
  rw [wp_ret]; imodintro
  iexact HS

/-- Part 3: signals 4, 5, 6. -/
theorem part3_spec (v2 : BitVec 32) (v59 : BitVec 32) (v64 : BitVec 1) (v65 : BitVec 32) :
    iprop(records m K ∗ St m c (pS 4))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v59 v64 v65)
          (fun _ => St m c (pS 7)) := by
  rw [k0_part3_eq_skeleton]; unfold k0_part3_skel
  simp only [semSignalWord, Prog.lift, Prog.bind_op, Prog.bind_ret, Prog.pure_eq_ret, dev5_eq c, dev6_eq c, dev7_eq c]
  iintro ⟨#HR, HS⟩
  iapply (sig_step m K c (4 : Fin 31)) $$ [HS]
  · isplitr; · iexact HR
    iexact HS
  iintro HS
  iapply (sig_step m K c (5 : Fin 31)) $$ [HS]
  · isplitr; · iexact HR
    iexact HS
  iintro HS
  iapply (sig_step m K c (6 : Fin 31)) $$ [HS]
  · isplitr; · iexact HR
    iexact HS
  iintro HS
  rw [wp_ret]; imodintro
  iexact HS

/-- Part 4: signals 7, 8. -/
theorem part4_spec (v2 : BitVec 32) (v95 : BitVec 32) (c32 : BitVec 32) (v96 : BitVec 1) :
    iprop(records m K ∗ St m c (pS 7))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v95 c32 v96)
          (fun _ => St m c (pS 9)) := by
  rw [k0_part4_eq_skeleton]; unfold k0_part4_skel
  simp only [semSignalWord, Prog.lift, Prog.bind_op, Prog.bind_ret, Prog.pure_eq_ret, dev8_eq c, dev9_eq c]
  iintro ⟨#HR, HS⟩
  iapply (sig_step m K c (7 : Fin 31)) $$ [HS]
  · isplitr; · iexact HR
    iexact HS
  iintro HS
  iapply (sig_step m K c (8 : Fin 31)) $$ [HS]
  · isplitr; · iexact HR
    iexact HS
  iintro HS
  rw [wp_ret]; imodintro
  iexact HS

/-- Part 5: signals 9, 10, 11. -/
theorem part5_spec (v2 : BitVec 32) (v124 : BitVec 32) (v129 : BitVec 1) (v130 : BitVec 32) :
    iprop(records m K ∗ St m c (pS 9))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v124 v129 v130)
          (fun _ => St m c (pS 12)) := by
  rw [k0_part5_eq_skeleton]; unfold k0_part5_skel
  simp only [semSignalWord, Prog.lift, Prog.bind_op, Prog.bind_ret, Prog.pure_eq_ret, dev10_eq c, dev11_eq c, dev12_eq c]
  iintro ⟨#HR, HS⟩
  iapply (sig_step m K c (9 : Fin 31)) $$ [HS]
  · isplitr; · iexact HR
    iexact HS
  iintro HS
  iapply (sig_step m K c (10 : Fin 31)) $$ [HS]
  · isplitr; · iexact HR
    iexact HS
  iintro HS
  iapply (sig_step m K c (11 : Fin 31)) $$ [HS]
  · isplitr; · iexact HR
    iexact HS
  iintro HS
  rw [wp_ret]; imodintro
  iexact HS

/-- Part 6: signals 12, 13. -/
theorem part6_spec (v2 : BitVec 32) (v160 : BitVec 32) (c32 : BitVec 32) (v161 : BitVec 1) :
    iprop(records m K ∗ St m c (pS 12))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v160 c32 v161)
          (fun _ => St m c (pS 14)) := by
  rw [k0_part6_eq_skeleton]; unfold k0_part6_skel
  simp only [semSignalWord, Prog.lift, Prog.bind_op, Prog.bind_ret, Prog.pure_eq_ret, dev13_eq c, dev14_eq c]
  iintro ⟨#HR, HS⟩
  iapply (sig_step m K c (12 : Fin 31)) $$ [HS]
  · isplitr; · iexact HR
    iexact HS
  iintro HS
  iapply (sig_step m K c (13 : Fin 31)) $$ [HS]
  · isplitr; · iexact HR
    iexact HS
  iintro HS
  rw [wp_ret]; imodintro
  iexact HS

/-- Part 7: signals 14, 15, 16. -/
theorem part7_spec (v2 : BitVec 32) (v189 : BitVec 32) (v194 : BitVec 1) (v195 : BitVec 32) :
    iprop(records m K ∗ St m c (pS 14))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v189 v194 v195)
          (fun _ => St m c (pS 17)) := by
  rw [k0_part7_eq_skeleton]; unfold k0_part7_skel
  simp only [semSignalWord, Prog.lift, Prog.bind_op, Prog.bind_ret, Prog.pure_eq_ret, dev15_eq c, dev16_eq c, dev17_eq c]
  iintro ⟨#HR, HS⟩
  iapply (sig_step m K c (14 : Fin 31)) $$ [HS]
  · isplitr; · iexact HR
    iexact HS
  iintro HS
  iapply (sig_step m K c (15 : Fin 31)) $$ [HS]
  · isplitr; · iexact HR
    iexact HS
  iintro HS
  iapply (sig_step m K c (16 : Fin 31)) $$ [HS]
  · isplitr; · iexact HR
    iexact HS
  iintro HS
  rw [wp_ret]; imodintro
  iexact HS

/-- Part 8: signals 17, 18. -/
theorem part8_spec (v2 : BitVec 32) (v225 : BitVec 32) (c32 : BitVec 32) (v226 : BitVec 1) :
    iprop(records m K ∗ St m c (pS 17))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v225 c32 v226)
          (fun _ => St m c (pS 19)) := by
  rw [k0_part8_eq_skeleton]; unfold k0_part8_skel
  simp only [semSignalWord, Prog.lift, Prog.bind_op, Prog.bind_ret, Prog.pure_eq_ret, dev18_eq c, dev19_eq c]
  iintro ⟨#HR, HS⟩
  iapply (sig_step m K c (17 : Fin 31)) $$ [HS]
  · isplitr; · iexact HR
    iexact HS
  iintro HS
  iapply (sig_step m K c (18 : Fin 31)) $$ [HS]
  · isplitr; · iexact HR
    iexact HS
  iintro HS
  rw [wp_ret]; imodintro
  iexact HS

/-- Part 9: signals 19, 20, 21. -/
theorem part9_spec (v2 : BitVec 32) (v254 : BitVec 32) (v259 : BitVec 1) (v260 : BitVec 32) :
    iprop(records m K ∗ St m c (pS 19))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v254 v259 v260)
          (fun _ => St m c (pS 22)) := by
  rw [k0_part9_eq_skeleton]; unfold k0_part9_skel
  simp only [semSignalWord, Prog.lift, Prog.bind_op, Prog.bind_ret, Prog.pure_eq_ret, dev20_eq c, dev21_eq c, dev22_eq c]
  iintro ⟨#HR, HS⟩
  iapply (sig_step m K c (19 : Fin 31)) $$ [HS]
  · isplitr; · iexact HR
    iexact HS
  iintro HS
  iapply (sig_step m K c (20 : Fin 31)) $$ [HS]
  · isplitr; · iexact HR
    iexact HS
  iintro HS
  iapply (sig_step m K c (21 : Fin 31)) $$ [HS]
  · isplitr; · iexact HR
    iexact HS
  iintro HS
  rw [wp_ret]; imodintro
  iexact HS

/-- Part 10: signals 22, 23. -/
theorem part10_spec (v2 : BitVec 32) (v290 : BitVec 32) (c32 : BitVec 32) (v291 : BitVec 1) :
    iprop(records m K ∗ St m c (pS 22))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v290 c32 v291)
          (fun _ => St m c (pS 24)) := by
  rw [k0_part10_eq_skeleton]; unfold k0_part10_skel
  simp only [semSignalWord, Prog.lift, Prog.bind_op, Prog.bind_ret, Prog.pure_eq_ret, dev23_eq c, dev24_eq c]
  iintro ⟨#HR, HS⟩
  iapply (sig_step m K c (22 : Fin 31)) $$ [HS]
  · isplitr; · iexact HR
    iexact HS
  iintro HS
  iapply (sig_step m K c (23 : Fin 31)) $$ [HS]
  · isplitr; · iexact HR
    iexact HS
  iintro HS
  rw [wp_ret]; imodintro
  iexact HS

/-- Part 11: signals 24, 25, 26. -/
theorem part11_spec (v2 : BitVec 32) (v319 : BitVec 32) (v324 : BitVec 1) (v325 : BitVec 32) :
    iprop(records m K ∗ St m c (pS 24))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v319 v324 v325)
          (fun _ => St m c (pS 27)) := by
  rw [k0_part11_eq_skeleton]; unfold k0_part11_skel
  simp only [semSignalWord, Prog.lift, Prog.bind_op, Prog.bind_ret, Prog.pure_eq_ret, dev25_eq c, dev26_eq c, dev27_eq c]
  iintro ⟨#HR, HS⟩
  iapply (sig_step m K c (24 : Fin 31)) $$ [HS]
  · isplitr; · iexact HR
    iexact HS
  iintro HS
  iapply (sig_step m K c (25 : Fin 31)) $$ [HS]
  · isplitr; · iexact HR
    iexact HS
  iintro HS
  iapply (sig_step m K c (26 : Fin 31)) $$ [HS]
  · isplitr; · iexact HR
    iexact HS
  iintro HS
  rw [wp_ret]; imodintro
  iexact HS

/-- Part 12: signals 27, 28. -/
theorem part12_spec (v2 : BitVec 32) (v355 : BitVec 32) (c32 : BitVec 32) (v356 : BitVec 1) :
    iprop(records m K ∗ St m c (pS 27))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v355 c32 v356)
          (fun _ => St m c (pS 29)) := by
  rw [k0_part12_eq_skeleton]; unfold k0_part12_skel
  simp only [semSignalWord, Prog.lift, Prog.bind_op, Prog.bind_ret, Prog.pure_eq_ret, dev28_eq c, dev29_eq c]
  iintro ⟨#HR, HS⟩
  iapply (sig_step m K c (27 : Fin 31)) $$ [HS]
  · isplitr; · iexact HR
    iexact HS
  iintro HS
  iapply (sig_step m K c (28 : Fin 31)) $$ [HS]
  · isplitr; · iexact HR
    iexact HS
  iintro HS
  rw [wp_ret]; imodintro
  iexact HS

end PartsSig

end Cert.Kernel.Coll

end
-- ==== Proof.Kernel.PartsSend.lean ====
/-
  The copies, part by part: each printed part that starts copies moves the device's state from "j copies started" to
  "j' copies started", one step per copy, the k-th copy going to the k-th forward peer on the k-th pair of semaphores.
-/
import proofs.«901062_g7700000000001063_dist_softmax_colshard_i_m2048_n1024_v7x_i32_f32_1_alg».proof.Proof.Kernel.Steps

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 63 → ℕ) (c : Dev nD)

/-- Part 15: copy 0 and copy 1. -/
theorem part15_spec (v2 : BitVec 32) (v471 : BitVec 32) :
    iprop(records m K ∗ St m c (pT 0))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_scratch0) (Memref.isWhole_whole _) cc0_scratch1 cc0_scratch2 c v2 v471)
          (fun _ => St m c (pT 2)) := by
  rw [k0_part15_eq_skeleton]; unfold k0_part15_skel
  simp only [Prog.lift, Prog.bind_op, Prog.bind_ret, Prog.pure_eq_ret]
  iintro ⟨#HR, HS⟩
  iapply (send_step m K c (0 : Fin 31) _ (dev32_eq c)) $$ [HS]
  · isplitr; · iexact HR
    iexact HS
  iintro HS
  iapply (send_step m K c (1 : Fin 31) _ (dev33_eq c)) $$ [HS]
  · isplitr; · iexact HR
    iexact HS
  iintro HS
  rw [wp_ret]; imodintro
  iexact HS

/-- Part 16: copy 2. -/
theorem part16_spec (v2 : BitVec 32) (v505 : BitVec 32) (v506 : BitVec 32) :
    iprop(records m K ∗ St m c (pT 2))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_scratch0) (Memref.isWhole_whole _) cc0_scratch1 cc0_scratch2 c v2 v505 v506)
          (fun _ => St m c (pT 3)) := by
  rw [k0_part16_eq_skeleton]; unfold k0_part16_skel
  simp only [Prog.lift, Prog.bind_op, Prog.bind_ret, Prog.pure_eq_ret]
  iintro ⟨#HR, HS⟩
  iapply (send_step m K c (2 : Fin 31) _ (dev34_eq c)) $$ [HS]
  · isplitr; · iexact HR
    iexact HS
  iintro HS
  rw [wp_ret]; imodintro
  iexact HS

/-- Part 17: copy 3 and copy 4. -/
theorem part17_spec (v2 : BitVec 32) :
    iprop(records m K ∗ St m c (pT 3))
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 5)) := by
  rw [k0_part17_eq_skeleton]; unfold k0_part17_skel
  simp only [Prog.lift, Prog.bind_op, Prog.bind_ret, Prog.pure_eq_ret]
  iintro ⟨#HR, HS⟩
  iapply (send_step m K c (3 : Fin 31) _ (dev35_eq c)) $$ [HS]
  · isplitr; · iexact HR
    iexact HS
  iintro HS
  iapply (send_step m K c (4 : Fin 31) _ (dev36_eq c)) $$ [HS]
  · isplitr; · iexact HR
    iexact HS
  iintro HS
  rw [wp_ret]; imodintro
  iexact HS

/-- Part 18: copy 5 and copy 6. -/
theorem part18_spec (v2 : BitVec 32) (v577 : BitVec 32) (c0_i32_364 : BitVec 32) :
    iprop(records m K ∗ St m c (pT 5))
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_scratch0) (Memref.isWhole_whole _) cc0_scratch1 cc0_scratch2 c v2 v577 c0_i32_364)
          (fun _ => St m c (pT 7)) := by
  rw [k0_part18_eq_skeleton]; unfold k0_part18_skel
  simp only [Prog.lift, Prog.bind_op, Prog.bind_ret, Prog.pure_eq_ret]
  iintro ⟨#HR, HS⟩
  iapply (send_step m K c (5 : Fin 31) _ (dev37_eq c)) $$ [HS]
  · isplitr; · iexact HR
    iexact HS
  iintro HS
  iapply (send_step m K c (6 : Fin 31) _ (dev38_eq c)) $$ [HS]
  · isplitr; · iexact HR
    iexact HS
  iintro HS
  rw [wp_ret]; imodintro
  iexact HS

/-- Part 19: copy 7 and copy 8. -/
theorem part19_spec (v2 : BitVec 32) (v610 : BitVec 32) (v611 : BitVec 32) (v612 : BitVec 1) (v613 : BitVec 1) (c0_i32_386 : BitVec 32) :
    iprop(records m K ∗ St m c (pT 7))
      ⊢ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_scratch0) (Memref.isWhole_whole _) cc0_scratch1 cc0_scratch2 c v2 v610 v611 v612 v613 c0_i32_386)
          (fun _ => St m c (pT 9)) := by
  rw [k0_part19_eq_skeleton]; unfold k0_part19_skel
  simp only [Prog.lift, Prog.bind_op, Prog.bind_ret, Prog.pure_eq_ret]
  iintro ⟨#HR, HS⟩
  iapply (send_step m K c (7 : Fin 31) _ (dev39_eq c)) $$ [HS]
  · isplitr; · iexact HR
    iexact HS
  iintro HS
  iapply (send_step m K c (8 : Fin 31) _ (dev40_eq c)) $$ [HS]
  · isplitr; · iexact HR
    iexact HS
  iintro HS
  rw [wp_ret]; imodintro
  iexact HS

/-- Part 20: copy 9. -/
theorem part20_spec (v2 : BitVec 32) (v650 : BitVec 32) (c32_i32_407 : BitVec 32) :
    iprop(records m K ∗ St m c (pT 9))
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_scratch0) (Memref.isWhole_whole _) cc0_scratch1 cc0_scratch2 c v2 v650 c32_i32_407)
          (fun _ => St m c (pT 10)) := by
  rw [k0_part20_eq_skeleton]; unfold k0_part20_skel
  simp only [Prog.lift, Prog.bind_op, Prog.bind_ret, Prog.pure_eq_ret]
  iintro ⟨#HR, HS⟩
  iapply (send_step m K c (9 : Fin 31) _ (dev41_eq c)) $$ [HS]
  · isplitr; · iexact HR
    iexact HS
  iintro HS
  rw [wp_ret]; imodintro
  iexact HS

/-- Part 21: copy 10 and copy 11. -/
theorem part21_spec (v2 : BitVec 32) :
    iprop(records m K ∗ St m c (pT 10))
      ⊢ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 12)) := by
  rw [k0_part21_eq_skeleton]; unfold k0_part21_skel
  simp only [Prog.lift, Prog.bind_op, Prog.bind_ret, Prog.pure_eq_ret]
  iintro ⟨#HR, HS⟩
  iapply (send_step m K c (10 : Fin 31) _ (dev42_eq c)) $$ [HS]
  · isplitr; · iexact HR
    iexact HS
  iintro HS
  iapply (send_step m K c (11 : Fin 31) _ (dev43_eq c)) $$ [HS]
  · isplitr; · iexact HR
    iexact HS
  iintro HS
  rw [wp_ret]; imodintro
  iexact HS

/-- Part 22: copy 12 and copy 13. -/
theorem part22_spec (v2 : BitVec 32) (v723 : BitVec 32) :
    iprop(records m K ∗ St m c (pT 12))
      ⊢ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_scratch0) (Memref.isWhole_whole _) cc0_scratch1 cc0_scratch2 c v2 v723)
          (fun _ => St m c (pT 14)) := by
  rw [k0_part22_eq_skeleton]; unfold k0_part22_skel
  simp only [Prog.lift, Prog.bind_op, Prog.bind_ret, Prog.pure_eq_ret]
  iintro ⟨#HR, HS⟩
  iapply (send_step m K c (12 : Fin 31) _ (dev44_eq c)) $$ [HS]
  · isplitr; · iexact HR
    iexact HS
  iintro HS
  iapply (send_step m K c (13 : Fin 31) _ (dev45_eq c)) $$ [HS]
  · isplitr; · iexact HR
    iexact HS
  iintro HS
  rw [wp_ret]; imodintro
  iexact HS

/-- Part 23: copy 14. -/
theorem part23_spec (v2 : BitVec 32) (v757 : BitVec 32) (v758 : BitVec 32) :
    iprop(records m K ∗ St m c (pT 14))
      ⊢ wp frame (wpE (defs₀ (F := F)) 𝒱₀ (c : Thread nD τ) none) Set.univ
          (k0_part23 (Memref.whole cc0_stg0_0) (Memref.isWhole_whole _) (Memref.whole cc0_stg1_0) (Memref.isWhole_whole _) (Memref.whole cc0_scratch0) (Memref.isWhole_whole _) cc0_scratch1 cc0_scratch2 c v2 v757 v758)
          (fun _ => St m c (pT 15)) := by
  rw [k0_part23_eq_skeleton]; unfold k0_part23_skel
  simp only [Prog.lift, Prog.bind_op, Prog.bind_ret, Prog.pure_eq_ret]
  iintro ⟨#HR, HS⟩
  iapply (send_step m K c (14 : Fin 31) _ (dev46_eq c)) $$ [HS]
  · isplitr; · iexact HR
    iexact HS
  iintro HS
  rw [wp_ret]; imodintro
  iexact HS

/-- Part 24: copy 15 and copy 16. -/
theorem part24_spec (v2 : BitVec 32) :
    iprop(records m K ∗ St m c (pT 15))
      ⊢ wp frame (wpE (defs₀ (F := F)) 𝒱₀ (c : Thread nD τ) none) Set.univ
          (k0_part24 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 17)) := by
  rw [k0_part24_eq_skeleton]; unfold k0_part24_skel
  simp only [Prog.lift, Prog.bind_op, Prog.bind_ret, Prog.pure_eq_ret]
  iintro ⟨#HR, HS⟩
  iapply (send_step m K c (15 : Fin 31) _ (dev47_eq c)) $$ [HS]
  · isplitr; · iexact HR
    iexact HS
  iintro HS
  iapply (send_step m K c (16 : Fin 31) _ (dev48_eq c)) $$ [HS]
  · isplitr; · iexact HR
    iexact HS
  iintro HS
  rw [wp_ret]; imodintro
  iexact HS

/-- Part 25: copy 17 and copy 18. -/
theorem part25_spec (v2 : BitVec 32) (v829 : BitVec 32) (c0_i32_520 : BitVec 32) :
    iprop(records m K ∗ St m c (pT 17))
      ⊢ wp frame (wpE (defs₀ (F := F)) 𝒱₀ (c : Thread nD τ) none) Set.univ
          (k0_part25 (Memref.whole cc0_stg0_0) (Memref.isWhole_whole _) (Memref.whole cc0_stg1_0) (Memref.isWhole_whole _) (Memref.whole cc0_scratch0) (Memref.isWhole_whole _) cc0_scratch1 cc0_scratch2 c v2 v829 c0_i32_520)
          (fun _ => St m c (pT 19)) := by
  rw [k0_part25_eq_skeleton]; unfold k0_part25_skel
  simp only [Prog.lift, Prog.bind_op, Prog.bind_ret, Prog.pure_eq_ret]
  iintro ⟨#HR, HS⟩
  iapply (send_step m K c (17 : Fin 31) _ (dev49_eq c)) $$ [HS]
  · isplitr; · iexact HR
    iexact HS
  iintro HS
  iapply (send_step m K c (18 : Fin 31) _ (dev50_eq c)) $$ [HS]
  · isplitr; · iexact HR
    iexact HS
  iintro HS
  rw [wp_ret]; imodintro
  iexact HS

/-- Part 26: copy 19 and copy 20. -/
theorem part26_spec (v2 : BitVec 32) (v862 : BitVec 32) (v863 : BitVec 32) (v864 : BitVec 1) (v865 : BitVec 1) (c0_i32_542 : BitVec 32) :
    iprop(records m K ∗ St m c (pT 19))
      ⊢ wp frame (wpE (defs₀ (F := F)) 𝒱₀ (c : Thread nD τ) none) Set.univ
          (k0_part26 (Memref.whole cc0_stg0_0) (Memref.isWhole_whole _) (Memref.whole cc0_stg1_0) (Memref.isWhole_whole _) (Memref.whole cc0_scratch0) (Memref.isWhole_whole _) cc0_scratch1 cc0_scratch2 c v2 v862 v863 v864 v865 c0_i32_542)
          (fun _ => St m c (pT 21)) := by
  rw [k0_part26_eq_skeleton]; unfold k0_part26_skel
  simp only [Prog.lift, Prog.bind_op, Prog.bind_ret, Prog.pure_eq_ret]
  iintro ⟨#HR, HS⟩
  iapply (send_step m K c (19 : Fin 31) _ (dev51_eq c)) $$ [HS]
  · isplitr; · iexact HR
    iexact HS
  iintro HS
  iapply (send_step m K c (20 : Fin 31) _ (dev52_eq c)) $$ [HS]
  · isplitr; · iexact HR
    iexact HS
  iintro HS
  rw [wp_ret]; imodintro
  iexact HS

/-- Part 27: copy 21. -/
theorem part27_spec (v2 : BitVec 32) (v902 : BitVec 32) (c32_i32_563 : BitVec 32) :
    iprop(records m K ∗ St m c (pT 21))
      ⊢ wp frame (wpE (defs₀ (F := F)) 𝒱₀ (c : Thread nD τ) none) Set.univ
          (k0_part27 (Memref.whole cc0_stg0_0) (Memref.isWhole_whole _) (Memref.whole cc0_stg1_0) (Memref.isWhole_whole _) (Memref.whole cc0_scratch0) (Memref.isWhole_whole _) cc0_scratch1 cc0_scratch2 c v2 v902 c32_i32_563)
          (fun _ => St m c (pT 22)) := by
  rw [k0_part27_eq_skeleton]; unfold k0_part27_skel
  simp only [Prog.lift, Prog.bind_op, Prog.bind_ret, Prog.pure_eq_ret]
  iintro ⟨#HR, HS⟩
  iapply (send_step m K c (21 : Fin 31) _ (dev53_eq c)) $$ [HS]
  · isplitr; · iexact HR
    iexact HS
  iintro HS
  rw [wp_ret]; imodintro
  iexact HS

/-- Part 28: copy 22 and copy 23. -/
theorem part28_spec (v2 : BitVec 32) :
    iprop(records m K ∗ St m c (pT 22))
      ⊢ wp frame (wpE (defs₀ (F := F)) 𝒱₀ (c : Thread nD τ) none) Set.univ
          (k0_part28 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 24)) := by
  rw [k0_part28_eq_skeleton]; unfold k0_part28_skel
  simp only [Prog.lift, Prog.bind_op, Prog.bind_ret, Prog.pure_eq_ret]
  iintro ⟨#HR, HS⟩
  iapply (send_step m K c (22 : Fin 31) _ (dev54_eq c)) $$ [HS]
  · isplitr; · iexact HR
    iexact HS
  iintro HS
  iapply (send_step m K c (23 : Fin 31) _ (dev55_eq c)) $$ [HS]
  · isplitr; · iexact HR
    iexact HS
  iintro HS
  rw [wp_ret]; imodintro
  iexact HS

/-- Part 29: copy 24 and copy 25. -/
theorem part29_spec (v2 : BitVec 32) (v975 : BitVec 32) :
    iprop(records m K ∗ St m c (pT 24))
      ⊢ wp frame (wpE (defs₀ (F := F)) 𝒱₀ (c : Thread nD τ) none) Set.univ
          (k0_part29 (Memref.whole cc0_stg0_0) (Memref.isWhole_whole _) (Memref.whole cc0_stg1_0) (Memref.isWhole_whole _) (Memref.whole cc0_scratch0) (Memref.isWhole_whole _) cc0_scratch1 cc0_scratch2 c v2 v975)
          (fun _ => St m c (pT 26)) := by
  rw [k0_part29_eq_skeleton]; unfold k0_part29_skel
  simp only [Prog.lift, Prog.bind_op, Prog.bind_ret, Prog.pure_eq_ret]
  iintro ⟨#HR, HS⟩
  iapply (send_step m K c (24 : Fin 31) _ (dev56_eq c)) $$ [HS]
  · isplitr; · iexact HR
    iexact HS
  iintro HS
  iapply (send_step m K c (25 : Fin 31) _ (dev57_eq c)) $$ [HS]
  · isplitr; · iexact HR
    iexact HS
  iintro HS
  rw [wp_ret]; imodintro
  iexact HS

/-- Part 30: copy 26. -/
theorem part30_spec (v2 : BitVec 32) (v1009 : BitVec 32) (v1010 : BitVec 32) :
    iprop(records m K ∗ St m c (pT 26))
      ⊢ wp frame (wpE (defs₀ (F := F)) 𝒱₀ (c : Thread nD τ) none) Set.univ
          (k0_part30 (Memref.whole cc0_stg0_0) (Memref.isWhole_whole _) (Memref.whole cc0_stg1_0) (Memref.isWhole_whole _) (Memref.whole cc0_scratch0) (Memref.isWhole_whole _) cc0_scratch1 cc0_scratch2 c v2 v1009 v1010)
          (fun _ => St m c (pT 27)) := by
  rw [k0_part30_eq_skeleton]; unfold k0_part30_skel
  simp only [Prog.lift, Prog.bind_op, Prog.bind_ret, Prog.pure_eq_ret]
  iintro ⟨#HR, HS⟩
  iapply (send_step m K c (26 : Fin 31) _ (dev58_eq c)) $$ [HS]
  · isplitr; · iexact HR
    iexact HS
  iintro HS
  rw [wp_ret]; imodintro
  iexact HS

/-- Part 31: copy 27 and copy 28. -/
theorem part31_spec (v2 : BitVec 32) :
    iprop(records m K ∗ St m c (pT 27))
      ⊢ wp frame (wpE (defs₀ (F := F)) 𝒱₀ (c : Thread nD τ) none) Set.univ
          (k0_part31 (Memref.whole cc0_stg0_0) (Memref.isWhole_whole _) (Memref.whole cc0_stg1_0) (Memref.isWhole_whole _) (Memref.whole cc0_scratch0) (Memref.isWhole_whole _) cc0_scratch1 cc0_scratch2 c v2)
          (fun _ => St m c (pT 29)) := by
  rw [k0_part31_eq_skeleton]; unfold k0_part31_skel
  simp only [Prog.lift, Prog.bind_op, Prog.bind_ret, Prog.pure_eq_ret]
  iintro ⟨#HR, HS⟩
  iapply (send_step m K c (27 : Fin 31) _ (dev59_eq c)) $$ [HS]
  · isplitr; · iexact HR
    iexact HS
  iintro HS
  iapply (send_step m K c (28 : Fin 31) _ (dev60_eq c)) $$ [HS]
  · isplitr; · iexact HR
    iexact HS
  iintro HS
  rw [wp_ret]; imodintro
  iexact HS

/-- Part 32: copy 29 and copy 30. -/
theorem part32_spec (v2 : BitVec 32) (v471 : BitVec 32) (v1081 : BitVec 32) (c0_i32_676 : BitVec 32) :
    iprop(records m K ∗ St m c (pT 29))
      ⊢ wp frame (wpE (defs₀ (F := F)) 𝒱₀ (c : Thread nD τ) none) Set.univ
          (k0_part32 (Memref.whole cc0_stg0_0) (Memref.isWhole_whole _) (Memref.whole cc0_stg1_0) (Memref.isWhole_whole _) (Memref.whole cc0_scratch0) (Memref.isWhole_whole _) cc0_scratch1 cc0_scratch2 c v2 v471 v1081 c0_i32_676)
          (fun _ => St m c (pT 31)) := by
  rw [k0_part32_eq_skeleton]; unfold k0_part32_skel
  simp only [Prog.lift, Prog.bind_op, Prog.bind_ret, Prog.pure_eq_ret]
  iintro ⟨#HR, HS⟩
  iapply (send_step m K c (29 : Fin 31) _ (dev61_eq c)) $$ [HS]
  · isplitr; · iexact HR
    iexact HS
  iintro HS
  iapply (send_step m K c (30 : Fin 31) _ (dev62_eq c)) $$ [HS]
  · isplitr; · iexact HR
    iexact HS
  iintro HS
  rw [wp_ret]; imodintro
  iexact HS

end Parts

end Cert.Kernel.Coll

end
-- ==== Proof.Kernel.StepsWait.lean ====
/-
  The two kinds of DMA wait of the body, and its entry and exit: a receive wait takes the landed row and closes the
  cell; a send wait takes the lent share back and closes the cell; what the pipeline hands the body is the state with
  nothing done, and with everything done the rows and shares rejoin to the whole scratch the pipeline takes back.
-/
import proofs.«901062_g7700000000001063_dist_softmax_colshard_i_m2048_n1024_v7x_i32_f32_1_alg».proof.Proof.Kernel.Geom

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × Fin 63 → ℕ) (c : Dev nD)

/-- Receive wait k: the k-th backward peer's row has landed. -/
theorem recv_step {α : Type} {Q : α → sProp 𝕄} (k : Fin 31) {src dst : Memref sig .tc .vmem S4096 .f32} (hdstN : dst.view.dmaCredit = N)
    {hsrc : src.view.WordExact} {hdst : dst.view.WordExact}
    {cont : PUnit → Prog (TpuEff nD τ sig (Elt F) Λ₀ .tc) α} :
    iprop(records m K ∗ St m c (pR k.val))
      ⊢ iprop((St m c (pR (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (recvS k) src dst hsrc hdst) cont) Q) := by
  unfold St
  dsimp only
  simp only [Bool.false_eq_true, ↓reduceIte, if_true, if_false]
  rw [Oat_end]
  iintro ⟨#HR, ⟨%W, HO⟩, H2, H3, H4, H5, H6, H7, H8, H9, H10, H11, H12, H13⟩ Hk
  -- receive cell k's position and credit, out of those of the waits still to come
  ihave H10' := (bigSep_ge_peel (F := F) k (fun k => iprop(atPos ER (recvCell c k) 0 ∅ 0 ∗ cred (tallyAt (recvCell c k) () N)))).1 $$ H10
  icases H10' with ⟨⟨Hat, Hc⟩, H10⟩
  iapply (Rounds.wp_wait_rest_token 𝒱₀ ER (Rd m) (c : Thread nD τ) none (κ := K (c, recvJ k))
      (wpE_waitDma2_eq 𝒱₀ (c : Thread nD τ) none Set.univ) (Set.mem_univ _) () (O := 0) (W := W) (R := 0) (m := 0) (T := ∅)
      (by rw [Nat.zero_add, expect_recv, hdstN])) $$ [Hc HO Hat]
  · isplitr; · iapply (inv_recv m K c k); iexact HR
    isplitl [Hc]; · rw [hdstN]; iexact Hc
    isplitl [HO]; · iexact HO
    isplitr; · rw [MayWait_zero]; iempintro
    iexact Hat
  iintro ⟨HO, Hat, -, Hpay⟩
  ihave Hrow := (Entails.of_eq (rest_recv m c k)) $$ Hpay
  imod (Rounds.cell_close ER (Rd m) (Set.mem_univ (K (c, recvJ k))) (fun h => h) (R := 0 + 1) (duties_later m (recvCell c k))) $$ [Hat] with Hz
  · isplitr; · iapply (inv_recv m K c k); iexact HR
    iexact Hat
  iapply Hk
  isplitl [HO]; · iexists _; iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11 Hz Hrow]
  · iapply (bigSep_lt_push (F := F) k (fun k => iprop(semVal (recvCell c k) 0 ∗ rowPts c (bwd c k) fullShare (statsOf (xstg m))))).2
    isplitl [Hz Hrow]
    · isplitl [Hz]; · iexact Hz
      unfold recvPay
      iexact Hrow
    iexact H11
  isplitl [H12]; · iexact H12
  iexact H13

/-- Send wait k: copy k has been read out of the device's own row. -/
theorem swait_step {α : Type} {Q : α → sProp 𝕄} (k : Fin 31) {src dst : Memref sig .tc .vmem S4096 .f32} (hdstN : dst.view.dmaCredit = N)
    {hsrc : src.view.WordExact} {hdst : dst.view.WordExact}
    {cont : PUnit → Prog (TpuEff nD τ sig (Elt F) Λ₀ .tc) α} :
    iprop(records m K ∗ St m c (pW k.val))
      ⊢ iprop((St m c (pW (k.val + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendS k) src dst hsrc hdst) cont) Q) := by
  unfold St
  dsimp only
  simp only [Bool.false_eq_true, ↓reduceIte, if_true, if_false, lt_31, Finset.univ_inter]
  rw [Oat_end]
  iintro ⟨#HR, ⟨%W, HO⟩, H2, H3, H4, H5, H6, H7, H8, H9, H10, H11, H12, H13⟩ Hk
  -- send cell k's position, and the credit of copy k, out of those of the waits still to come
  ihave H7' := (bigSep_ge_peel (F := F) k (fun k => atPos ER (sendCell c k) 0 ∅ 0)).1 $$ H7
  icases H7' with ⟨Hat, H7⟩
  ihave H8' := (bigSep_ge_peel (F := F) k (fun k => cred (tallyAt (sendCell c k) () N))).1 $$ H8
  icases H8' with ⟨Hc, H8⟩
  iapply (Rounds.wp_wait_rest_token 𝒱₀ ER (Rd m) (c : Thread nD τ) none (κ := K (c, sendJ k))
      (wpE_waitDma2_eq 𝒱₀ (c : Thread nD τ) none Set.univ) (Set.mem_univ _) () (O := 0) (W := W) (R := 0) (m := 0) (T := ∅)
      (by rw [Nat.zero_add, expect_send, hdstN])) $$ [Hc HO Hat]
  · isplitr; · iapply (inv_send m K c k); iexact HR
    isplitl [Hc]; · rw [hdstN]; iexact Hc
    isplitl [HO]; · iexact HO
    isplitr; · rw [MayWait_zero]; iempintro
    iexact Hat
  iintro ⟨HO, Hat, -, Hpay⟩
  ihave Hrow := (Entails.of_eq (rest_send m c k)) $$ Hpay
  imod (Rounds.cell_close ER (Rd m) (Set.mem_univ (K (c, sendJ k))) (fun h => h) (R := 0 + 1) (duties_later m (sendCell c k))) $$ [Hat] with Hz
  · isplitr; · iapply (inv_send m K c k); iexact HR
    iexact Hat
  iapply Hk
  isplitl [HO]; · iexists _; iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9 Hz Hrow]
  · iapply (bigSep_lt_push (F := F) k (fun k => iprop(semVal (sendCell c k) 0 ∗ rowPts c c (shK k.val) (statsOf (xstg m))))).2
    isplitl [Hz Hrow]
    · isplitl [Hz]; · iexact Hz
      unfold sendPay
      iexact Hrow
    iexact H9
  isplitl [H10]; · iexact H10
  isplitl [H11]; · iexact H11
  isplitl [H12]; · iexact H12
  iexact H13

/-- What the pipeline hands the body is the state with nothing done yet. -/
theorem St_init : bodyPre m K c ⊢ iprop(records m K ∗ levAts L lv ∗ St m c (pS 0)) := by
  unfold bodyPre ghost positions payToks creds scrAny St Dat.owesAt Pipeline.owesWithin
  dsimp only
  simp only [Bool.false_eq_true, ↓reduceIte, if_true, if_false, ge_zero, lt_zero, Finset.empty_inter, bigSep_empty]
  rw [show (dats m 0 c).owed t₀.castSucc = Oat c 0 0 from rfl]
  iintro ⟨⟨⟨#HR, ⟨HatB, HatS, HatR⟩, HtB, HtR, HtS⟩, ⟨HcB, HcR⟩, Hlev, ⟨%f0, Hscr⟩⟩, ⟨%W, %hW, HO⟩, ⟨%d0, %g0, %hg0, Hx⟩, ⟨%d1, %g1, %hg1, Hout⟩⟩
  have hx : g0 = xstg m c := by rw [hg0]; unfold Dat.before; rw [if_pos (Gen.fetch0_0 t₀)]; rfl
  have hex : bigSep Finset.univ (fun k : Fin 31 => rowPts (F := F) c (fwd c k) fullShare f0)
      ⊢ bigSep Finset.univ (fun k : Fin 31 => (iprop(∃ f, rowPts (F := F) c (fwd c k) fullShare f) : sProp 𝕄)) :=
    bigSep_mono fun k _ => exists_intro (Φ := fun f => rowPts (F := F) c (fwd c k) fullShare f) f0
  -- the scratch as the device's own row and one row per forward peer
  ihave Hrows := (scratch_rows (F := F) c fullShare f0).1 $$ Hscr
  ihave Hrows' := (dev_split_fwd (F := F) c (fun r => rowPts (F := F) c r fullShare f0)).1 $$ Hrows
  icases Hrows' with ⟨Hown, Hpeers⟩
  isplitr; · iexact HR
  isplitl [Hlev]; · iexact Hlev
  isplitl [HO]; · iexists W; iexact HO
  isplitl [HtB]; · iexact HtB
  isplitl [Hpeers]
  · iapply hex
    iexact Hpeers
  isplitl [HatB HcB]
  · isplitl [HatB]; · iexact HatB
    iexact HcB
  isplitl [HtR HtS]
  · iapply (Entails.of_eq (bigSep_sep' Finset.univ (fun k : Fin 31 => dutyTok ER (recvCell (fwd c k) k) 0 (0 : Fin 31)) (fun k : Fin 31 => dutyTok ER (sendCell c k) 0 (0 : Fin 31))).symm)
    isplitl [HtR]; · iexact HtR
    iexact HtS
  isplitl [Hown]; · iexists f0; iexact Hown
  isplitl [HatS]; · iexact HatS
  isplitr; · iempintro
  isplitr; · iempintro
  isplitl [HatR HcR]
  · iapply (Entails.of_eq (bigSep_sep' Finset.univ (fun k : Fin 31 => atPos ER (recvCell c k) 0 ∅ 0) (fun k : Fin 31 => cred (tallyAt (recvCell c k) () N))).symm)
    isplitl [HatR]; · iexact HatR
    iexact HcR
  isplitr; · iempintro
  isplitl [Hx]
  · iexists g0
    isplitr; · ipureintro; exact hx
    iexact Hx
  iexists g1
  iexact Hout

/-- With everything done the state is what the pipeline takes back. -/
theorem St_final : iprop(records m K ∗ St m c (pW 31)) ⊢ bodyPost m c := by
  unfold St bodyPost Φ₁ scrAny ownZero Dat.owesAt Pipeline.owesWithin
  dsimp only
  simp only [Bool.false_eq_true, ↓reduceIte, if_true, if_false, lt_31, Finset.univ_inter, ge_31, bigSep_empty, bigSep_sep']
  rw [Oat_end, show (dats m 0 c).owed t₀.succ = 0 from rfl]
  -- the device's own row at the full share is the share kept after 31 loans and the 31 loans
  have hshare : (rowPts (F := F) c c fullShare (statsOf (xstg m)))
      ⊣⊢ iprop(rowPts (F := F) c c (shRest 31) (statsOf (xstg m))
          ∗ bigSep Finset.univ (fun k : Fin 31 => rowPts (F := F) c c (shK k.val) (statsOf (xstg m)))) :=
    share_all (F := F) _ _
  iintro ⟨-, ⟨%W, HO⟩, -, -, -, -, Hown, -, -, ⟨HzS, Hshares⟩, -, ⟨HzR, Hrows⟩, Hx, Hout⟩
  isplitl [Hown Hshares Hrows HzS HzR]
  · isplitl [Hown Hshares Hrows]
    · iexists (statsOf (xstg m))
      iapply (scratch_rows (F := F) c fullShare (statsOf (xstg m))).2
      iapply (dev_split_bwd (F := F) c (fun r => rowPts (F := F) c r fullShare (statsOf (xstg m)))).2
      isplitl [Hown Hshares]
      · iapply hshare.2
        isplitl [Hown]; · iexact Hown
        iexact Hshares
      · iexact Hrows
    · isplitl [HzS]; · iexact HzS
      iexact HzR
  isplitl [HO]
  · iexists W
    isplitr; · ipureintro; exact fun _ _ => Or.inl trivial
    iexact HO
  isplitl [Hx]; · iexact Hx
  iexact Hout

end Steps

end Cert.Kernel.Coll

end
-- ==== Proof.Kernel.PartsWait.lean ====
/-
  The body's parts that only wait: receive waits 0 to 27 (four a part) and send waits 4 to 28 (five a part). Each
  part moves the device's state from one point of its run to the next through the wait steps.
-/
import proofs.«901062_g7700000000001063_dist_softmax_colshard_i_m2048_n1024_v7x_i32_f32_1_alg».proof.Proof.Kernel.StepsWait

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 63 → ℕ) (c : Dev nD)

/-- The credit of a copy of any row of the scratch. -/
theorem rowM_dmaCredit (r : Dev nD) : (rowM r).view.dmaCredit = N := rfl

/-- Receive waits 0 to 3. -/
theorem part33_spec (v492 v513 v534 v555 : BitVec 32) :
    iprop(records m K ∗ St m c (pR 0))
      ⊢ wp frame (wpE (defs₀ (F := F)) 𝒱₀ (c : Thread nD τ) none) Set.univ
          (k0_part33 (Memref.whole cc0_stg0_0) (Memref.isWhole_whole _) (Memref.whole cc0_stg1_0) (Memref.isWhole_whole _) (Memref.whole cc0_scratch0) (Memref.isWhole_whole _) cc0_scratch1 cc0_scratch2 c v492 v513 v534 v555)
          (fun _ => St m c (pR 4)) := by
  rw [k0_part33_eq_skeleton]; unfold k0_part33_skel
  simp only [Prog.lift, Prog.bind_op, Prog.bind_ret, Prog.pure_eq_ret]
  iintro ⟨#HR, HS⟩
  iapply (recv_step m K c (0 : Fin 31) (src := rowM c) (dst := rowM c) (rowM_dmaCredit c)) $$ [HS]
  · isplitr; · iexact HR
    iexact HS
  iintro HS
  iapply (recv_step m K c (1 : Fin 31) (src := rowM c) (dst := rowM c) (rowM_dmaCredit c)) $$ [HS]
  · isplitr; · iexact HR
    iexact HS
  iintro HS
  iapply (recv_step m K c (2 : Fin 31) (src := rowM c) (dst := rowM c) (rowM_dmaCredit c)) $$ [HS]
  · isplitr; · iexact HR
    iexact HS
  iintro HS
  iapply (recv_step m K c (3 : Fin 31) (src := rowM c) (dst := rowM c) (rowM_dmaCredit c)) $$ [HS]
  · isplitr; · iexact HR
    iexact HS
  iintro HS
  rw [wp_ret]; imodintro
  iexact HS

/-- Receive waits 4 to 7. -/
theorem part34_spec (v576 v597 v618 v639 : BitVec 32) :
    iprop(records m K ∗ St m c (pR 4))
      ⊢ wp frame (wpE (defs₀ (F := F)) 𝒱₀ (c : Thread nD τ) none) Set.univ
          (k0_part34 (Memref.whole cc0_stg0_0) (Memref.isWhole_whole _) (Memref.whole cc0_stg1_0) (Memref.isWhole_whole _) (Memref.whole cc0_scratch0) (Memref.isWhole_whole _) cc0_scratch1 cc0_scratch2 c v576 v597 v618 v639)
          (fun _ => St m c (pR 8)) := by
  rw [k0_part34_eq_skeleton]; unfold k0_part34_skel
  simp only [Prog.lift, Prog.bind_op, Prog.bind_ret, Prog.pure_eq_ret]
  iintro ⟨#HR, HS⟩
  iapply (recv_step m K c (4 : Fin 31) (src := rowM c) (dst := rowM c) (rowM_dmaCredit c)) $$ [HS]
  · isplitr; · iexact HR
    iexact HS
  iintro HS
  iapply (recv_step m K c (5 : Fin 31) (src := rowM c) (dst := rowM c) (rowM_dmaCredit c)) $$ [HS]
  · isplitr; · iexact HR
    iexact HS
  iintro HS
  iapply (recv_step m K c (6 : Fin 31) (src := rowM c) (dst := rowM c) (rowM_dmaCredit c)) $$ [HS]
  · isplitr; · iexact HR
    iexact HS
  iintro HS
  iapply (recv_step m K c (7 : Fin 31) (src := rowM c) (dst := rowM c) (rowM_dmaCredit c)) $$ [HS]
  · isplitr; · iexact HR
    iexact HS
  iintro HS
  rw [wp_ret]; imodintro
  iexact HS

/-- Receive waits 8 to 11. -/
theorem part35_spec (v660 v681 v702 v723 : BitVec 32) :
    iprop(records m K ∗ St m c (pR 8))
      ⊢ wp frame (wpE (defs₀ (F := F)) 𝒱₀ (c : Thread nD τ) none) Set.univ
          (k0_part35 (Memref.whole cc0_stg0_0) (Memref.isWhole_whole _) (Memref.whole cc0_stg1_0) (Memref.isWhole_whole _) (Memref.whole cc0_scratch0) (Memref.isWhole_whole _) cc0_scratch1 cc0_scratch2 c v660 v681 v702 v723)
          (fun _ => St m c (pR 12)) := by
  rw [k0_part35_eq_skeleton]; unfold k0_part35_skel
  simp only [Prog.lift, Prog.bind_op, Prog.bind_ret, Prog.pure_eq_ret]
  iintro ⟨#HR, HS⟩
  iapply (recv_step m K c (8 : Fin 31) (src := rowM c) (dst := rowM c) (rowM_dmaCredit c)) $$ [HS]
  · isplitr; · iexact HR
    iexact HS
  iintro HS
  iapply (recv_step m K c (9 : Fin 31) (src := rowM c) (dst := rowM c) (rowM_dmaCredit c)) $$ [HS]
  · isplitr; · iexact HR
    iexact HS
  iintro HS
  iapply (recv_step m K c (10 : Fin 31) (src := rowM c) (dst := rowM c) (rowM_dmaCredit c)) $$ [HS]
  · isplitr; · iexact HR
    iexact HS
  iintro HS
  iapply (recv_step m K c (11 : Fin 31) (src := rowM c) (dst := rowM c) (rowM_dmaCredit c)) $$ [HS]
  · isplitr; · iexact HR
    iexact HS
  iintro HS
  rw [wp_ret]; imodintro
  iexact HS

/-- Receive waits 12 to 15. -/
theorem part36_spec (v744 v765 v786 v807 : BitVec 32) :
    iprop(records m K ∗ St m c (pR 12))
      ⊢ wp frame (wpE (defs₀ (F := F)) 𝒱₀ (c : Thread nD τ) none) Set.univ
          (k0_part36 (Memref.whole cc0_stg0_0) (Memref.isWhole_whole _) (Memref.whole cc0_stg1_0) (Memref.isWhole_whole _) (Memref.whole cc0_scratch0) (Memref.isWhole_whole _) cc0_scratch1 cc0_scratch2 c v744 v765 v786 v807)
          (fun _ => St m c (pR 16)) := by
  rw [k0_part36_eq_skeleton]; unfold k0_part36_skel
  simp only [Prog.lift, Prog.bind_op, Prog.bind_ret, Prog.pure_eq_ret]
  iintro ⟨#HR, HS⟩
  iapply (recv_step m K c (12 : Fin 31) (src := rowM c) (dst := rowM c) (rowM_dmaCredit c)) $$ [HS]
  · isplitr; · iexact HR
    iexact HS
  iintro HS
  iapply (recv_step m K c (13 : Fin 31) (src := rowM c) (dst := rowM c) (rowM_dmaCredit c)) $$ [HS]
  · isplitr; · iexact HR
    iexact HS
  iintro HS
  iapply (recv_step m K c (14 : Fin 31) (src := rowM c) (dst := rowM c) (rowM_dmaCredit c)) $$ [HS]
  · isplitr; · iexact HR
    iexact HS
  iintro HS
  iapply (recv_step m K c (15 : Fin 31) (src := rowM c) (dst := rowM c) (rowM_dmaCredit c)) $$ [HS]
  · isplitr; · iexact HR
    iexact HS
  iintro HS
  rw [wp_ret]; imodintro
  iexact HS

/-- Receive waits 16 to 19. -/
theorem part37_spec (v828 v849 v870 v891 : BitVec 32) :
    iprop(records m K ∗ St m c (pR 16))
      ⊢ wp frame (wpE (defs₀ (F := F)) 𝒱₀ (c : Thread nD τ) none) Set.univ
          (k0_part37 (Memref.whole cc0_stg0_0) (Memref.isWhole_whole _) (Memref.whole cc0_stg1_0) (Memref.isWhole_whole _) (Memref.whole cc0_scratch0) (Memref.isWhole_whole _) cc0_scratch1 cc0_scratch2 c v828 v849 v870 v891)
          (fun _ => St m c (pR 20)) := by
  rw [k0_part37_eq_skeleton]; unfold k0_part37_skel
  simp only [Prog.lift, Prog.bind_op, Prog.bind_ret, Prog.pure_eq_ret]
  iintro ⟨#HR, HS⟩
  iapply (recv_step m K c (16 : Fin 31) (src := rowM c) (dst := rowM c) (rowM_dmaCredit c)) $$ [HS]
  · isplitr; · iexact HR
    iexact HS
  iintro HS
  iapply (recv_step m K c (17 : Fin 31) (src := rowM c) (dst := rowM c) (rowM_dmaCredit c)) $$ [HS]
  · isplitr; · iexact HR
    iexact HS
  iintro HS
  iapply (recv_step m K c (18 : Fin 31) (src := rowM c) (dst := rowM c) (rowM_dmaCredit c)) $$ [HS]
  · isplitr; · iexact HR
    iexact HS
  iintro HS
  iapply (recv_step m K c (19 : Fin 31) (src := rowM c) (dst := rowM c) (rowM_dmaCredit c)) $$ [HS]
  · isplitr; · iexact HR
    iexact HS
  iintro HS
  rw [wp_ret]; imodintro
  iexact HS

/-- Receive waits 20 to 23. -/
theorem part38_spec (v912 v933 v954 v975 : BitVec 32) :
    iprop(records m K ∗ St m c (pR 20))
      ⊢ wp frame (wpE (defs₀ (F := F)) 𝒱₀ (c : Thread nD τ) none) Set.univ
          (k0_part38 (Memref.whole cc0_stg0_0) (Memref.isWhole_whole _) (Memref.whole cc0_stg1_0) (Memref.isWhole_whole _) (Memref.whole cc0_scratch0) (Memref.isWhole_whole _) cc0_scratch1 cc0_scratch2 c v912 v933 v954 v975)
          (fun _ => St m c (pR 24)) := by
  rw [k0_part38_eq_skeleton]; unfold k0_part38_skel
  simp only [Prog.lift, Prog.bind_op, Prog.bind_ret, Prog.pure_eq_ret]
  iintro ⟨#HR, HS⟩
  iapply (recv_step m K c (20 : Fin 31) (src := rowM c) (dst := rowM c) (rowM_dmaCredit c)) $$ [HS]
  · isplitr; · iexact HR
    iexact HS
  iintro HS
  iapply (recv_step m K c (21 : Fin 31) (src := rowM c) (dst := rowM c) (rowM_dmaCredit c)) $$ [HS]
  · isplitr; · iexact HR
    iexact HS
  iintro HS
  iapply (recv_step m K c (22 : Fin 31) (src := rowM c) (dst := rowM c) (rowM_dmaCredit c)) $$ [HS]
  · isplitr; · iexact HR
    iexact HS
  iintro HS
  iapply (recv_step m K c (23 : Fin 31) (src := rowM c) (dst := rowM c) (rowM_dmaCredit c)) $$ [HS]
  · isplitr; · iexact HR
    iexact HS
  iintro HS
  rw [wp_ret]; imodintro
  iexact HS

/-- Receive waits 24 to 27. -/
theorem part39_spec (v996 v1017 v1038 v1059 : BitVec 32) :
    iprop(records m K ∗ St m c (pR 24))
      ⊢ wp frame (wpE (defs₀ (F := F)) 𝒱₀ (c : Thread nD τ) none) Set.univ
          (k0_part39 (Memref.whole cc0_stg0_0) (Memref.isWhole_whole _) (Memref.whole cc0_stg1_0) (Memref.isWhole_whole _) (Memref.whole cc0_scratch0) (Memref.isWhole_whole _) cc0_scratch1 cc0_scratch2 c v996 v1017 v1038 v1059)
          (fun _ => St m c (pR 28)) := by
  rw [k0_part39_eq_skeleton]; unfold k0_part39_skel
  simp only [Prog.lift, Prog.bind_op, Prog.bind_ret, Prog.pure_eq_ret]
  iintro ⟨#HR, HS⟩
  iapply (recv_step m K c (24 : Fin 31) (src := rowM c) (dst := rowM c) (rowM_dmaCredit c)) $$ [HS]
  · isplitr; · iexact HR
    iexact HS
  iintro HS
  iapply (recv_step m K c (25 : Fin 31) (src := rowM c) (dst := rowM c) (rowM_dmaCredit c)) $$ [HS]
  · isplitr; · iexact HR
    iexact HS
  iintro HS
  iapply (recv_step m K c (26 : Fin 31) (src := rowM c) (dst := rowM c) (rowM_dmaCredit c)) $$ [HS]
  · isplitr; · iexact HR
    iexact HS
  iintro HS
  iapply (recv_step m K c (27 : Fin 31) (src := rowM c) (dst := rowM c) (rowM_dmaCredit c)) $$ [HS]
  · isplitr; · iexact HR
    iexact HS
  iintro HS
  rw [wp_ret]; imodintro
  iexact HS

/-- Send waits 4 to 8. -/
theorem part42_spec :
    iprop(records m K ∗ St m c (pW 4))
      ⊢ wp frame (wpE (defs₀ (F := F)) 𝒱₀ (c : Thread nD τ) none) Set.univ
          (k0_part42 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 9)) := by
  rw [k0_part42_eq_skeleton]; unfold k0_part42_skel
  simp only [Prog.lift, Prog.bind_op, Prog.bind_ret, Prog.pure_eq_ret]
  iintro ⟨#HR, HS⟩
  iapply (swait_step m K c (4 : Fin 31) (src := rowM c) (dst := rowM c) (rowM_dmaCredit c)) $$ [HS]
  · isplitr; · iexact HR
    iexact HS
  iintro HS
  iapply (swait_step m K c (5 : Fin 31) (src := rowM c) (dst := rowM c) (rowM_dmaCredit c)) $$ [HS]
  · isplitr; · iexact HR
    iexact HS
  iintro HS
  iapply (swait_step m K c (6 : Fin 31) (src := rowM c) (dst := rowM c) (rowM_dmaCredit c)) $$ [HS]
  · isplitr; · iexact HR
    iexact HS
  iintro HS
  iapply (swait_step m K c (7 : Fin 31) (src := rowM c) (dst := rowM c) (rowM_dmaCredit c)) $$ [HS]
  · isplitr; · iexact HR
    iexact HS
  iintro HS
  iapply (swait_step m K c (8 : Fin 31) (src := rowM c) (dst := rowM c) (rowM_dmaCredit c)) $$ [HS]
  · isplitr; · iexact HR
    iexact HS
  iintro HS
  rw [wp_ret]; imodintro
  iexact HS

/-- Send waits 9 to 13. -/
theorem part43_spec :
    iprop(records m K ∗ St m c (pW 9))
      ⊢ wp frame (wpE (defs₀ (F := F)) 𝒱₀ (c : Thread nD τ) none) Set.univ
          (k0_part43 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 14)) := by
  rw [k0_part43_eq_skeleton]; unfold k0_part43_skel
  simp only [Prog.lift, Prog.bind_op, Prog.bind_ret, Prog.pure_eq_ret]
  iintro ⟨#HR, HS⟩
  iapply (swait_step m K c (9 : Fin 31) (src := rowM c) (dst := rowM c) (rowM_dmaCredit c)) $$ [HS]
  · isplitr; · iexact HR
    iexact HS
  iintro HS
  iapply (swait_step m K c (10 : Fin 31) (src := rowM c) (dst := rowM c) (rowM_dmaCredit c)) $$ [HS]
  · isplitr; · iexact HR
    iexact HS
  iintro HS
  iapply (swait_step m K c (11 : Fin 31) (src := rowM c) (dst := rowM c) (rowM_dmaCredit c)) $$ [HS]
  · isplitr; · iexact HR
    iexact HS
  iintro HS
  iapply (swait_step m K c (12 : Fin 31) (src := rowM c) (dst := rowM c) (rowM_dmaCredit c)) $$ [HS]
  · isplitr; · iexact HR
    iexact HS
  iintro HS
  iapply (swait_step m K c (13 : Fin 31) (src := rowM c) (dst := rowM c) (rowM_dmaCredit c)) $$ [HS]
  · isplitr; · iexact HR
    iexact HS
  iintro HS
  rw [wp_ret]; imodintro
  iexact HS

/-- Send waits 14 to 18. -/
theorem part44_spec :
    iprop(records m K ∗ St m c (pW 14))
      ⊢ wp frame (wpE (defs₀ (F := F)) 𝒱₀ (c : Thread nD τ) none) Set.univ
          (k0_part44 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 19)) := by
  rw [k0_part44_eq_skeleton]; unfold k0_part44_skel
  simp only [Prog.lift, Prog.bind_op, Prog.bind_ret, Prog.pure_eq_ret]
  iintro ⟨#HR, HS⟩
  iapply (swait_step m K c (14 : Fin 31) (src := rowM c) (dst := rowM c) (rowM_dmaCredit c)) $$ [HS]
  · isplitr; · iexact HR
    iexact HS
  iintro HS
  iapply (swait_step m K c (15 : Fin 31) (src := rowM c) (dst := rowM c) (rowM_dmaCredit c)) $$ [HS]
  · isplitr; · iexact HR
    iexact HS
  iintro HS
  iapply (swait_step m K c (16 : Fin 31) (src := rowM c) (dst := rowM c) (rowM_dmaCredit c)) $$ [HS]
  · isplitr; · iexact HR
    iexact HS
  iintro HS
  iapply (swait_step m K c (17 : Fin 31) (src := rowM c) (dst := rowM c) (rowM_dmaCredit c)) $$ [HS]
  · isplitr; · iexact HR
    iexact HS
  iintro HS
  iapply (swait_step m K c (18 : Fin 31) (src := rowM c) (dst := rowM c) (rowM_dmaCredit c)) $$ [HS]
  · isplitr; · iexact HR
    iexact HS
  iintro HS
  rw [wp_ret]; imodintro
  iexact HS

/-- Send waits 19 to 23. -/
theorem part45_spec :
    iprop(records m K ∗ St m c (pW 19))
      ⊢ wp frame (wpE (defs₀ (F := F)) 𝒱₀ (c : Thread nD τ) none) Set.univ
          (k0_part45 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 24)) := by
  rw [k0_part45_eq_skeleton]; unfold k0_part45_skel
  simp only [Prog.lift, Prog.bind_op, Prog.bind_ret, Prog.pure_eq_ret]
  iintro ⟨#HR, HS⟩
  iapply (swait_step m K c (19 : Fin 31) (src := rowM c) (dst := rowM c) (rowM_dmaCredit c)) $$ [HS]
  · isplitr; · iexact HR
    iexact HS
  iintro HS
  iapply (swait_step m K c (20 : Fin 31) (src := rowM c) (dst := rowM c) (rowM_dmaCredit c)) $$ [HS]
  · isplitr; · iexact HR
    iexact HS
  iintro HS
  iapply (swait_step m K c (21 : Fin 31) (src := rowM c) (dst := rowM c) (rowM_dmaCredit c)) $$ [HS]
  · isplitr; · iexact HR
    iexact HS
  iintro HS
  iapply (swait_step m K c (22 : Fin 31) (src := rowM c) (dst := rowM c) (rowM_dmaCredit c)) $$ [HS]
  · isplitr; · iexact HR
    iexact HS
  iintro HS
  iapply (swait_step m K c (23 : Fin 31) (src := rowM c) (dst := rowM c) (rowM_dmaCredit c)) $$ [HS]
  · isplitr; · iexact HR
    iexact HS
  iintro HS
  rw [wp_ret]; imodintro
  iexact HS

/-- Send waits 24 to 28. -/
theorem part46_spec :
    iprop(records m K ∗ St m c (pW 24))
      ⊢ wp frame (wpE (defs₀ (F := F)) 𝒱₀ (c : Thread nD τ) none) Set.univ
          (k0_part46 (Memref.whole cc0_stg0_0) (Memref.isWhole_whole _) (Memref.whole cc0_stg1_0) (Memref.isWhole_whole _) (Memref.whole cc0_scratch0) (Memref.isWhole_whole _) cc0_scratch1 cc0_scratch2 c)
          (fun _ => St m c (pW 29)) := by
  rw [k0_part46_eq_skeleton]; unfold k0_part46_skel
  simp only [Prog.lift, Prog.bind_op, Prog.bind_ret, Prog.pure_eq_ret]
  iintro ⟨#HR, HS⟩
  iapply (swait_step m K c (24 : Fin 31) (src := rowM c) (dst := rowM c) (rowM_dmaCredit c)) $$ [HS]
  · isplitr; · iexact HR
    iexact HS
  iintro HS
  iapply (swait_step m K c (25 : Fin 31) (src := rowM c) (dst := rowM c) (rowM_dmaCredit c)) $$ [HS]
  · isplitr; · iexact HR
    iexact HS
  iintro HS
  iapply (swait_step m K c (26 : Fin 31) (src := rowM c) (dst := rowM c) (rowM_dmaCredit c)) $$ [HS]
  · isplitr; · iexact HR
    iexact HS
  iintro HS
  iapply (swait_step m K c (27 : Fin 31) (src := rowM c) (dst := rowM c) (rowM_dmaCredit c)) $$ [HS]
  · isplitr; · iexact HR
    iexact HS
  iintro HS
  iapply (swait_step m K c (28 : Fin 31) (src := rowM c) (dst := rowM c) (rowM_dmaCredit c)) $$ [HS]
  · isplitr; · iexact HR
    iexact HS
  iintro HS
  rw [wp_ret]; imodintro
  iexact HS

end Parts

end Cert.Kernel.Coll

end
-- ==== Proof.Kernel.StepsLocal.lean ====
/-
  The local effects of the body. The load of the input block reads the staged block. The two stores of the row of
  local maxima and the row of local sums, each after a load of the same half row, leave the statistics in the device's
  own row. The two final loads read the 32 rows of maxima and the 32 rows of sums: for them the device's own row, held
  at the share not lent out, and the 31 landed rows, cut to that same share, are joined to the whole scratch and taken
  apart again. The store of the result fills the output's staging buffer.
-/
import proofs.«901062_g7700000000001063_dist_softmax_colshard_i_m2048_n1024_v7x_i32_f32_1_alg».proof.Proof.Kernel.Geom

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Local

variable (K : Dev nD × Fin 63 → ℕ) (c : Dev nD)

abbrev rX : Rect S2048x1024 := Rect.unit (s := S2048x1024) ![0, 0] S2048x1024.size inb_S2048x1024_S2048x1024_0_0
abbrev r1 : Rect S32x4096 := Rect.unit (s := S32x4096) (k0_off1 c) S1x2048.size (k0_off1_inb c)
abbrev r2 : Rect S32x4096 := Rect.unit (s := S32x4096) (k0_off2 c) S1x2048.size (k0_off2_inb c)
abbrev rA : Rect S32x4096 := Rect.unit (s := S32x4096) ![0, 0] S32x2048.size inb_S32x4096_S32x2048_0_0
abbrev rB : Rect S32x4096 := Rect.unit (s := S32x4096) ![0, 2048] S32x2048.size inb_S32x4096_S32x2048_0_2048

omit [FloatOps F] in
theorem hz2 : (![0, 0] : Fin 2 → Nat) = fun _ => 0 := funext fun a => by fin_cases a <;> rfl

omit [FloatOps F] in
theorem read_x (f : (cc0_stg0_0 : Ref sig .tc).ty.Contents (Elt F)) :
    (xM : Memref sig .tc .vmem S2048x1024 .f32).view.readAt (Elt F) rX.toLoadRect f = f :=
  Memref.readAt_unit_zero (Elt F) cc0_stg0_0 hz2 _ f

omit [FloatOps F] in
theorem write_out (f w : (cc0_stg1_0 : Ref sig .tc).ty.Contents (Elt F)) :
    ((oM : Memref sig .tc .vmem S2048x1024 .f32).access rX : View sig .tc _ _ _).write (Elt F) f w Finset.univ = w :=
  Memref.write_access_unit_zero_univ (Elt F) cc0_stg1_0 hz2 _ f w

/-- The load of the staged input block, at any point of the run. -/
theorem loadx_step {α : Type} {Q : α → sProp 𝕄} (p : Pg) {hl : (xM : Memref sig .tc .vmem S2048x1024 .f32).view.LoadsAt rX.toLoadRect}
    {cont : (rX.toLoadRect.shape.Idx → Elt F .f32) → Prog (TpuEff nD τ sig (Elt F) Λ₀ .tc) α} :
    St m c p
      ⊢ iprop((St m c p -∗ wp frame (wpE (defs₀ (F := F)) 𝒱₀ (c : Thread nD τ) none) Set.univ (cont (xstg m c)) Q)
          -∗ wp frame (wpE (defs₀ (F := F)) 𝒱₀ (c : Thread nD τ) none) Set.univ (.op (.load xM rX.toLoadRect hl) cont) Q) := by
  unfold St
  iintro ⟨H1, H2, H3, H4, H5, H6, H7, H8, H9, H10, H11, ⟨%f, %hf, Hx⟩, H13⟩ Hk
  subst hf
  iapply (wp_load 𝒱₀ (c : Thread nD τ) none Set.univ (m := xM) (Finset.subset_univ _)) $$ Hx
  iintro Hx
  rw [read_x]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hx]
  · iexists _; isplitr; · (ipureintro; rfl)
    iexact Hx
  iexact H13

/-- The statistics written: each half row loaded, then stored. -/
theorem stats_step {α : Type} {Q : α → sProp 𝕄}
    {hl1 : (sM : Memref sig .tc .vmem S32x4096 .f32).view.LoadsAt (r1 c).toLoadRect} {hx1 : ((sM : Memref sig .tc .vmem S32x4096 .f32).access (r1 c)).Stores Finset.univ}
    {hm1 : (Finset.univ : Finset (r1 c).shape.Idx) = Finset.univ ∨ ∀ a, (r1 c).stride a = 1}
    {hl2 : (sM : Memref sig .tc .vmem S32x4096 .f32).view.LoadsAt (r2 c).toLoadRect} {hx2 : ((sM : Memref sig .tc .vmem S32x4096 .f32).access (r2 c)).Stores Finset.univ}
    {hm2 : (Finset.univ : Finset (r2 c).shape.Idx) = Finset.univ ∨ ∀ a, (r2 c).stride a = 1}
    {cont : PUnit → Prog (TpuEff nD τ sig (Elt F) Λ₀ .tc) α} :
    St m c (pS 31)
      ⊢ iprop((St m c pStats -∗ wp frame (wpE (defs₀ (F := F)) 𝒱₀ (c : Thread nD τ) none) Set.univ (cont ⟨⟩) Q)
          -∗ wp frame (wpE (defs₀ (F := F)) 𝒱₀ (c : Thread nD τ) none) Set.univ (.op (.load sM (r1 c).toLoadRect hl1) fun _ => .op (.store sM (r1 c) (Softmax.localMax (xstg m c)) Finset.univ hx1 hm1) fun _ => .op (.load sM (r2 c).toLoadRect hl2) fun _ => .op (.store sM (r2 c) (Softmax.localSum (xstg m c)) Finset.univ hx2 hm2) cont) Q) := by
  unfold St
  dsimp only
  simp only [Bool.false_eq_true, ↓reduceIte]
  iintro ⟨H1, H2, H3, H4, H5, ⟨%f, Hrow⟩, H7, H8, H9, H10, H11, H12, H13⟩ Hk
  unfold rowPts
  iapply (wp_load 𝒱₀ (c : Thread nD τ) none Set.univ (m := sM) (half1_load_sub_row c)) $$ Hrow
  iintro Hrow
  iapply (wp_store 𝒱₀ (c : Thread nD τ) none Set.univ (m := sM) (r := r1 c) (Mk := Finset.univ) (half1_sub_row c)) $$ Hrow
  iintro Hrow
  iapply (wp_load 𝒱₀ (c : Thread nD τ) none Set.univ (m := sM) (half2_load_sub_row c)) $$ Hrow
  iintro Hrow
  iapply (wp_store 𝒱₀ (c : Thread nD τ) none Set.univ (m := sM) (r := r2 c) (Mk := Finset.univ) (half2_sub_row c)) $$ Hrow
  iintro Hrow
  ihave Hrow := (Entails.of_eq (pointsTo_congr (g := statsOf (xstg m)) (fun i hi => stored_stats c (xstg m) f i ((mem_row_set c c i).1 hi)))) $$ Hrow
  iapply Hk
  isplitl [H1]; · iexact H1
  isplitl [H2]; · iexact H2
  isplitl [H3]; · iexact H3
  isplitl [H4]; · iexact H4
  isplitl [H5]; · iexact H5
  isplitl [Hrow]; · iexact Hrow
  isplitl [H7]; · iexact H7
  isplitl [H8]; · iexact H8
  isplitl [H9]; · iexact H9
  isplitl [H10]; · iexact H10
  isplitl [H11]; · iexact H11
  isplitl [H12]; · iexact H12
  iexact H13

/-- The result stored. -/
theorem out_step {α : Type} {Q : α → sProp 𝕄}
    {hx : ((oM : Memref sig .tc .vmem S2048x1024 .f32).access rX).Stores Finset.univ}
    {hm : (Finset.univ : Finset rX.shape.Idx) = Finset.univ ∨ ∀ a, rX.stride a = 1}
    {cont : PUnit → Prog (TpuEff nD τ sig (Elt F) Λ₀ .tc) α} :
    St m c (pR 31)
      ⊢ iprop((St m c (pW 0) -∗ wp frame (wpE (defs₀ (F := F)) 𝒱₀ (c : Thread nD τ) none) Set.univ (cont ⟨⟩) Q)
          -∗ wp frame (wpE (defs₀ (F := F)) 𝒱₀ (c : Thread nD τ) none) Set.univ (.op (.store oM rX (outAt m c) Finset.univ hx hm) cont) Q) := by
  unfold St
  dsimp only
  simp only [Bool.false_eq_true, ↓reduceIte]
  iintro ⟨H1, H2, H3, H4, H5, H6, H7, H8, H9, H10, H11, H12, ⟨%f, Hout⟩⟩ Hk
  iapply (wp_store 𝒱₀ (c : Thread nD τ) none Set.univ (m := oM) (r := rX) (Mk := Finset.univ) (Finset.subset_univ _)) $$ Hout
  iintro Hout
  rw [write_out]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; isplitr; · (ipureintro; rfl)
  iexact Hout

/-- The final loads: the 32 rows of maxima, the 32 rows of sums (and the output's staging buffer, whose value is not used). -/
theorem loads_step {α : Type} {Q : α → sProp 𝕄}
    {hlA : (sM : Memref sig .tc .vmem S32x4096 .f32).view.LoadsAt rA.toLoadRect} {hlB : (sM : Memref sig .tc .vmem S32x4096 .f32).view.LoadsAt rB.toLoadRect}
    {hlO : (oM : Memref sig .tc .vmem S2048x1024 .f32).view.LoadsAt rX.toLoadRect}
    {cont : (rA.toLoadRect.shape.Idx → Elt F .f32) → (rB.toLoadRect.shape.Idx → Elt F .f32) → Prog (TpuEff nD τ sig (Elt F) Λ₀ .tc) α} :
    St m c (pR 31)
      ⊢ iprop((St m c (pR 31) -∗ wp frame (wpE (defs₀ (F := F)) 𝒱₀ (c : Thread nD τ) none) Set.univ (cont (Softmax.allM (xstg m)) (Softmax.allS (xstg m))) Q)
          -∗ wp frame (wpE (defs₀ (F := F)) 𝒱₀ (c : Thread nD τ) none) Set.univ (.op (.load sM rA.toLoadRect hlA) fun vM => .op (.load sM rB.toLoadRect hlB) fun vS => .op (.load oM rX.toLoadRect hlO) fun _ => cont vM vS) Q) := by
  unfold St
  dsimp only
  simp only [Bool.false_eq_true, ↓reduceIte, lt_31]
  unfold rowPts
  rw [bigSep_sep' Finset.univ (fun k : Fin 31 => (semVal (recvCell c k) 0 : sProp 𝕄))
    (fun k : Fin 31 => ((rowM (bwd c k)).view.loc (c : Thread nD τ) ↦[(rowM (bwd c k)).view.set]{fullShare} statsOf (xstg m) : sProp 𝕄))]
  have hsplit : (bigSep Finset.univ fun k : Fin 31 => ((rowM (bwd c k)).view.loc (c : Thread nD τ) ↦[(rowM (bwd c k)).view.set]{fullShare} statsOf (xstg m) : sProp 𝕄))
      ⊢ iprop((bigSep Finset.univ fun k : Fin 31 => ((rowM (bwd c k)).view.loc (c : Thread nD τ) ↦[(rowM (bwd c k)).view.set]{shRest 31} statsOf (xstg m) : sProp 𝕄))
        ∗ bigSep Finset.univ fun k : Fin 31 => bigSep Finset.univ fun j : Fin 31 => ((rowM (bwd c k)).view.loc (c : Thread nD τ) ↦[(rowM (bwd c k)).view.set]{shK j.val} statsOf (xstg m) : sProp 𝕄)) :=
    (bigSep_mono fun k _ => (share_all _ _).1).trans (Entails.of_eq (bigSep_sep' _ _ _))
  have hjoin : iprop((bigSep Finset.univ fun k : Fin 31 => ((rowM (bwd c k)).view.loc (c : Thread nD τ) ↦[(rowM (bwd c k)).view.set]{shRest 31} statsOf (xstg m) : sProp 𝕄))
        ∗ bigSep Finset.univ fun k : Fin 31 => bigSep Finset.univ fun j : Fin 31 => ((rowM (bwd c k)).view.loc (c : Thread nD τ) ↦[(rowM (bwd c k)).view.set]{shK j.val} statsOf (xstg m) : sProp 𝕄))
      ⊢ (bigSep Finset.univ fun k : Fin 31 => ((rowM (bwd c k)).view.loc (c : Thread nD τ) ↦[(rowM (bwd c k)).view.set]{fullShare} statsOf (xstg m) : sProp 𝕄)) :=
    (Entails.of_eq (bigSep_sep' _ _ _).symm).trans (bigSep_mono fun k _ => (share_all _ _).2)
  iintro ⟨H1, H2, H3, H4, H5, Hown, H7, H8, H9, H10, ⟨Hsv, Hrows⟩, H12, ⟨%fo, Hout⟩⟩ Hk
  ihave Hs := hsplit $$ Hrows
  icases Hs with ⟨HrowsR, HrowsL⟩
  ihave Hall := (dev_split_bwd c (fun r : Dev nD => rowPts (F := F) c r (shRest 31) (statsOf (xstg m)))).2 $$ [Hown HrowsR]
  · unfold rowPts
    isplitl [Hown]; · iexact Hown
    iexact HrowsR
  ihave Hw := (scratch_rows c (shRest 31) (statsOf (xstg m))).2 $$ Hall
  iapply (wp_load 𝒱₀ (c : Thread nD τ) none Set.univ (m := sM) (Finset.subset_univ _)) $$ Hw
  iintro Hw
  rw [read_allM]
  iapply (wp_load 𝒱₀ (c : Thread nD τ) none Set.univ (m := sM) (Finset.subset_univ _)) $$ Hw
  iintro Hw
  rw [read_allS]
  iapply (wp_load 𝒱₀ (c : Thread nD τ) none Set.univ (m := oM) (Finset.subset_univ _)) $$ Hout
  iintro Hout
  ihave Hall := (scratch_rows c (shRest 31) (statsOf (xstg m))).1 $$ Hw
  ihave Hsp := (dev_split_bwd c (fun r : Dev nD => rowPts (F := F) c r (shRest 31) (statsOf (xstg m)))).1 $$ Hall
  unfold rowPts
  icases Hsp with ⟨Hown, HrowsR⟩
  ihave Hrows := hjoin $$ [HrowsR HrowsL]
  · isplitl [HrowsR]; · iexact HrowsR
    iexact HrowsL
  iapply Hk
  isplitl [H1]; · iexact H1
  isplitl [H2]; · iexact H2
  isplitl [H3]; · iexact H3
  isplitl [H4]; · iexact H4
  isplitl [H5]; · iexact H5
  isplitl [Hown]; · iexact Hown
  isplitl [H7]; · iexact H7
  isplitl [H8]; · iexact H8
  isplitl [H9]; · iexact H9
  isplitl [H10]; · iexact H10
  isplitl [Hsv Hrows]
  · isplitl [Hsv]; · iexact Hsv
    iexact Hrows
  isplitl [H12]; · iexact H12
  iexists fo; iexact Hout

end Local

end Cert.Kernel.Coll

end
-- ==== Proof.Kernel.PartsLocal.lean ====
/-
  The four parts of the body that hold local effects: the last two signals and the load of the input block; the two
  stores of the statistics and the barrier wait; the last three receive waits and the final loads; the store of the
  result and the first four send waits.
-/
import proofs.«901062_g7700000000001063_dist_softmax_colshard_i_m2048_n1024_v7x_i32_f32_1_alg».proof.Proof.Kernel.Steps
import proofs.«901062_g7700000000001063_dist_softmax_colshard_i_m2048_n1024_v7x_i32_f32_1_alg».proof.Proof.Kernel.StepsWait
import proofs.«901062_g7700000000001063_dist_softmax_colshard_i_m2048_n1024_v7x_i32_f32_1_alg».proof.Proof.Kernel.StepsLocal
import proofs.«901062_g7700000000001063_dist_softmax_colshard_i_m2048_n1024_v7x_i32_f32_1_alg».proof.Proof.Kernel.PartsWait

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Fin 63 → ℕ) (c : Dev nD)

/-- Part 13: signals 29 and 30, then the input block is loaded and reduced to the values the statistics are made of. -/
theorem part13_spec (v2 v384 v390 : BitVec 32) (v389 : BitVec 1) :
    iprop(records m K ∗ St m c (pS 29))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) v384 v389 v390)
          (fun r => iprop(⌜r = ⟨k0_pay1 (xstg m c), k0_pay4 (xstg m c), k0_pay5 (xstg m c), k0_pay6 (xstg m c)⟩⌝ ∗ St m c (pS 31))) := by
  rw [k0_part13_eq_skeleton]; unfold k0_part13_skel
  simp only [semSignalWord, Prog.lift, Prog.bind_op, Prog.bind_ret, Prog.pure_eq_ret, dev30_eq c, dev31_eq c]
  iintro ⟨#HR, HS⟩
  iapply (sig_step m K c (29 : Fin 31)) $$ [HS]
  · isplitr; · iexact HR
    iexact HS
  iintro HS
  iapply (sig_step m K c (30 : Fin 31)) $$ [HS]
  · isplitr; · iexact HR
    iexact HS
  iintro HS
  iapply (loadx_step m c (pS 31)) $$ [HS]
  · iexact HS
  iintro HS
  rw [wp_ret]; imodintro
  isplitr; · (ipureintro; rfl)
  iexact HS

/-- Part 14: the statistics are written into the device's own row, then the barrier wait. -/
theorem part14_spec (v2 : BitVec 32) :
    iprop(records m K ∗ levAts L lv ∗ St m c (pS 31))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl)) (k0_pay1 (xstg m c)) (k0_pay4 (xstg m c)) (k0_pay5 (xstg m c)) (k0_pay6 (xstg m c)))
          (fun _ => St m c (pT 0)) := by
  rw [k0_part14_eq_skeleton]; unfold k0_part14_skel
  simp only [semWaitWord, Prog.lift, Prog.bind_op, Prog.bind_ret, Prog.pure_eq_ret]
  iintro ⟨#HR, #Hlev, HS⟩
  iapply (stats_step m c) $$ HS
  iintro HS
  iapply (bar_step m K c) $$ [HS]
  · isplitr; · iexact HR
    isplitr; · iexact Hlev
    iexact HS
  iintro HS
  rw [wp_ret]; imodintro
  iexact HS

/-- Part 40: receive waits 28, 29 and 30, then all 32 rows of statistics are read and the result block computed. -/
theorem part40_spec (v1080 v1101 : BitVec 32) :
    iprop(records m K ∗ St m c (pR 28))
      ⊢ wp frame (wpE (defs₀ (F := F)) 𝒱₀ (c : Thread nD τ) none) Set.univ
          (k0_part40 (Memref.whole cc0_stg0_0) (Memref.isWhole_whole _) (Memref.whole cc0_stg1_0) (Memref.isWhole_whole _) (Memref.whole cc0_scratch0) (Memref.isWhole_whole _) cc0_scratch1 cc0_scratch2 c (k0_pay1 (xstg m c)) v1080 v1101)
          (fun r => iprop(⌜r = outAt m c⌝ ∗ St m c (pR 31))) := by
  rw [k0_part40_eq_skeleton]; unfold k0_part40_skel
  simp only [Prog.lift, Prog.bind_op, Prog.bind_ret, Prog.pure_eq_ret]
  iintro ⟨#HR, HS⟩
  iapply (recv_step m K c (28 : Fin 31) (src := rowM c) (dst := rowM c) (rowM_dmaCredit c)) $$ [HS]
  · isplitr; · iexact HR
    iexact HS
  iintro HS
  iapply (recv_step m K c (29 : Fin 31) (src := rowM c) (dst := rowM c) (rowM_dmaCredit c)) $$ [HS]
  · isplitr; · iexact HR
    iexact HS
  iintro HS
  iapply (recv_step m K c (30 : Fin 31) (src := rowM c) (dst := rowM c) (rowM_dmaCredit c)) $$ [HS]
  · isplitr; · iexact HR
    iexact HS
  iintro HS
  iapply (loads_step m c) $$ [HS]
  · iexact HS
  iintro HS
  rw [wp_ret]; imodintro
  isplitr; · (ipureintro; rfl)
  iexact HS

/-- Part 41: the result block is stored, then send waits 0 to 3. -/
theorem part41_spec :
    iprop(records m K ∗ St m c (pR 31))
      ⊢ wp frame (wpE (defs₀ (F := F)) 𝒱₀ (c : Thread nD τ) none) Set.univ
          (k0_part41 (Memref.whole cc0_stg0_0) (Memref.isWhole_whole _) (Memref.whole cc0_stg1_0) (Memref.isWhole_whole _) (Memref.whole cc0_scratch0) (Memref.isWhole_whole _) cc0_scratch1 cc0_scratch2 c (outAt m c))
          (fun _ => St m c (pW 4)) := by
  rw [k0_part41_eq_skeleton]; unfold k0_part41_skel
  simp only [Prog.lift, Prog.bind_op, Prog.bind_ret, Prog.pure_eq_ret]
  iintro ⟨#HR, HS⟩
  iapply (out_step m c) $$ HS
  iintro HS
  iapply (swait_step m K c (0 : Fin 31) (src := rowM c) (dst := rowM c) (rowM_dmaCredit c)) $$ [HS]
  · isplitr; · iexact HR
    iexact HS
  iintro HS
  iapply (swait_step m K c (1 : Fin 31) (src := rowM c) (dst := rowM c) (rowM_dmaCredit c)) $$ [HS]
  · isplitr; · iexact HR
    iexact HS
  iintro HS
  iapply (swait_step m K c (2 : Fin 31) (src := rowM c) (dst := rowM c) (rowM_dmaCredit c)) $$ [HS]
  · isplitr; · iexact HR
    iexact HS
  iintro HS
  iapply (swait_step m K c (3 : Fin 31) (src := rowM c) (dst := rowM c) (rowM_dmaCredit c)) $$ [HS]
  · isplitr; · iexact HR
    iexact HS
  iintro HS
  rw [wp_ret]; imodintro
  iexact HS

end Parts

end Cert.Kernel.Coll

end
-- ==== Proof.Kernel.Body.lean ====
/-
  The body on one device, from the state the pipeline hands it to the state it takes back: the 46 printed parts in
  order, each by its own theorem, then the last two send waits.
-/
import proofs.«901062_g7700000000001063_dist_softmax_colshard_i_m2048_n1024_v7x_i32_f32_1_alg».proof.Proof.Kernel.PartsSig
import proofs.«901062_g7700000000001063_dist_softmax_colshard_i_m2048_n1024_v7x_i32_f32_1_alg».proof.Proof.Kernel.PartsSend
import proofs.«901062_g7700000000001063_dist_softmax_colshard_i_m2048_n1024_v7x_i32_f32_1_alg».proof.Proof.Kernel.PartsWait
import proofs.«901062_g7700000000001063_dist_softmax_colshard_i_m2048_n1024_v7x_i32_f32_1_alg».proof.Proof.Kernel.PartsLocal

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part's theorem carries over the rest of the program. -/
theorem bind_rule {β α : Type} {p : Prog (TpuEff nD τ sig (Elt F) Λ₀ .tc) β} {f : β → Prog (TpuEff nD τ sig (Elt F) Λ₀ .tc) α}
    {P : sProp 𝕄} {Φ : β → sProp 𝕄} {Q : α → sProp 𝕄} (c : Dev nD)
    (hp : P ⊢ wp frame (wpE (defs₀ (F := F)) 𝒱₀ (c : Thread nD τ) none) Set.univ p Φ) :
    P ⊢ iprop((∀ r, Φ r -∗ wp frame (wpE (defs₀ (F := F)) 𝒱₀ (c : Thread nD τ) none) Set.univ (f r) Q)
      -∗ wp frame (wpE (defs₀ (F := F)) 𝒱₀ (c : Thread nD τ) none) Set.univ (p >>= f) Q) := by
  rw [wp_bind]
  exact hp.trans (wp_wand _ _ _)

set_option maxRecDepth 100000 in
/-- The body on device c, run from the pipeline's precondition to its postcondition. -/
theorem sound_body (K : Dev nD × Fin 63 → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ (bodyOn (F := F)) Kt := by
  unfold bodyOn
  rw [cc0_body_eq_skeleton]; unfold cc0_body_skel
  simp only [Prog.lift, Prog.bind_op, Prog.bind_ret, Prog.pure_eq_ret]
  iintro ⟨Hpre, Hk⟩
  ihave Hi := (St_init m K c) $$ Hpre
  icases Hi with ⟨#HR, #Hlev, HS⟩
  -- part 1
  iapply (bind_rule c (part1_spec m K c)) $$ [HS]
  · isplitr; · iexact HR
    iexact HS
  iintro %r ⟨%hr, HS⟩
  obtain ⟨d0, x2, x3, x4, x5, x6⟩ := r
  obtain ⟨hd, hv⟩ := hr
  dsimp only at hd hv
  have hd' : c = d0 := hd.symm
  subst hd'
  have hv' : (SemArray.scalar (sig.barrier 0 rfl)) = x3 := hv.symm
  subst hv'
  dsimp only
  -- part 2
  iapply (bind_rule c (part2_spec m K c _ _ _ _)) $$ [HS]
  · isplitr; · iexact HR
    iexact HS
  iintro %r HS
  obtain ⟨y2_0, y2_1, y2_2⟩ := r
  dsimp only
  -- part 3
  iapply (bind_rule c (part3_spec m K c _ _ _ _)) $$ [HS]
  · isplitr; · iexact HR
    iexact HS
  iintro %r HS
  obtain ⟨y3_0, y3_1, y3_2⟩ := r
  dsimp only
  -- part 4
  iapply (bind_rule c (part4_spec m K c _ _ _ _)) $$ [HS]
  · isplitr; · iexact HR
    iexact HS
  iintro %r HS
  obtain ⟨y4_0, y4_1, y4_2⟩ := r
  dsimp only
  -- part 5
  iapply (bind_rule c (part5_spec m K c _ _ _ _)) $$ [HS]
  · isplitr; · iexact HR
    iexact HS
  iintro %r HS
  obtain ⟨y5_0, y5_1, y5_2⟩ := r
  dsimp only
  -- part 6
  iapply (bind_rule c (part6_spec m K c _ _ _ _)) $$ [HS]
  · isplitr; · iexact HR
    iexact HS
  iintro %r HS
  obtain ⟨y6_0, y6_1, y6_2⟩ := r
  dsimp only
  -- part 7
  iapply (bind_rule c (part7_spec m K c _ _ _ _)) $$ [HS]
  · isplitr; · iexact HR
    iexact HS
  iintro %r HS
  obtain ⟨y7_0, y7_1, y7_2⟩ := r
  dsimp only
  -- part 8
  iapply (bind_rule c (part8_spec m K c _ _ _ _)) $$ [HS]
  · isplitr; · iexact HR
    iexact HS
  iintro %r HS
  obtain ⟨y8_0, y8_1, y8_2⟩ := r
  dsimp only
  -- part 9
  iapply (bind_rule c (part9_spec m K c _ _ _ _)) $$ [HS]
  · isplitr; · iexact HR
    iexact HS
  iintro %r HS
  obtain ⟨y9_0, y9_1, y9_2⟩ := r
  dsimp only
  -- part 10
  iapply (bind_rule c (part10_spec m K c _ _ _ _)) $$ [HS]
  · isplitr; · iexact HR
    iexact HS
  iintro %r HS
  obtain ⟨y10_0, y10_1, y10_2⟩ := r
  dsimp only
  -- part 11
  iapply (bind_rule c (part11_spec m K c _ _ _ _)) $$ [HS]
  · isplitr; · iexact HR
    iexact HS
  iintro %r HS
  obtain ⟨y11_0, y11_1, y11_2⟩ := r
  dsimp only
  -- part 12
  iapply (bind_rule c (part12_spec m K c _ _ _ _)) $$ [HS]
  · isplitr; · iexact HR
    iexact HS
  iintro %r HS
  obtain ⟨y12_0, y12_1, y12_2⟩ := r
  dsimp only
  -- part 13
  iapply (bind_rule c (part13_spec m K c _ _ _ _)) $$ [HS]
  · isplitr; · iexact HR
    iexact HS
  iintro %r ⟨%hr, HS⟩
  subst hr
  dsimp only
  -- part 14
  iapply (bind_rule c (part14_spec m K c _)) $$ [HS]
  · isplitr; · iexact HR
    isplitr; · iexact Hlev
    iexact HS
  iintro %r HS
  -- part 15
  iapply (bind_rule c (part15_spec m K c _ _)) $$ [HS]
  · isplitr; · iexact HR
    iexact HS
  iintro %r HS
  obtain ⟨y15_0, y15_1, y15_2⟩ := r
  dsimp only
  -- part 16
  iapply (bind_rule c (part16_spec m K c _ _ _)) $$ [HS]
  · isplitr; · iexact HR
    iexact HS
  iintro %r HS
  obtain ⟨y16_0, y16_1⟩ := r
  dsimp only
  -- part 17
  iapply (bind_rule c (part17_spec m K c _)) $$ [HS]
  · isplitr; · iexact HR
    iexact HS
  iintro %r HS
  obtain ⟨y17_0, y17_1, y17_2, y17_3⟩ := r
  dsimp only
  -- part 18
  iapply (bind_rule c (part18_spec m K c _ _ _)) $$ [HS]
  · isplitr; · iexact HR
    iexact HS
  iintro %r HS
  obtain ⟨y18_0, y18_1, y18_2, y18_3, y18_4, y18_5⟩ := r
  dsimp only
  -- part 19
  iapply (bind_rule c (part19_spec m K c _ _ _ _ _ _)) $$ [HS]
  · isplitr; · iexact HR
    iexact HS
  iintro %r HS
  obtain ⟨y19_0, y19_1, y19_2, y19_3⟩ := r
  dsimp only
  -- part 20
  iapply (bind_rule c (part20_spec m K c _ _ _)) $$ [HS]
  · isplitr; · iexact HR
    iexact HS
  iintro %r HS
  obtain ⟨y20_0, y20_1⟩ := r
  dsimp only
  -- part 21
  iapply (bind_rule c (part21_spec m K c _)) $$ [HS]
  · isplitr; · iexact HR
    iexact HS
  iintro %r HS
  obtain ⟨y21_0, y21_1⟩ := r
  dsimp only
  -- part 22
  iapply (bind_rule c (part22_spec m K c _ _)) $$ [HS]
  · isplitr; · iexact HR
    iexact HS
  iintro %r HS
  obtain ⟨y22_0, y22_1, y22_2⟩ := r
  dsimp only
  -- part 23
  iapply (bind_rule c (part23_spec m K c _ _ _)) $$ [HS]
  · isplitr; · iexact HR
    iexact HS
  iintro %r HS
  obtain ⟨y23_0, y23_1⟩ := r
  dsimp only
  -- part 24
  iapply (bind_rule c (part24_spec m K c _)) $$ [HS]
  · isplitr; · iexact HR
    iexact HS
  iintro %r HS
  obtain ⟨y24_0, y24_1, y24_2, y24_3⟩ := r
  dsimp only
  -- part 25
  iapply (bind_rule c (part25_spec m K c _ _ _)) $$ [HS]
  · isplitr; · iexact HR
    iexact HS
  iintro %r HS
  obtain ⟨y25_0, y25_1, y25_2, y25_3, y25_4, y25_5⟩ := r
  dsimp only
  -- part 26
  iapply (bind_rule c (part26_spec m K c _ _ _ _ _ _)) $$ [HS]
  · isplitr; · iexact HR
    iexact HS
  iintro %r HS
  obtain ⟨y26_0, y26_1, y26_2, y26_3⟩ := r
  dsimp only
  -- part 27
  iapply (bind_rule c (part27_spec m K c _ _ _)) $$ [HS]
  · isplitr; · iexact HR
    iexact HS
  iintro %r HS
  obtain ⟨y27_0, y27_1⟩ := r
  dsimp only
  -- part 28
  iapply (bind_rule c (part28_spec m K c _)) $$ [HS]
  · isplitr; · iexact HR
    iexact HS
  iintro %r HS
  obtain ⟨y28_0, y28_1⟩ := r
  dsimp only
  -- part 29
  iapply (bind_rule c (part29_spec m K c _ _)) $$ [HS]
  · isplitr; · iexact HR
    iexact HS
  iintro %r HS
  obtain ⟨y29_0, y29_1, y29_2⟩ := r
  dsimp only
  -- part 30
  iapply (bind_rule c (part30_spec m K c _ _ _)) $$ [HS]
  · isplitr; · iexact HR
    iexact HS
  iintro %r HS
  obtain ⟨y30_0, y30_1⟩ := r
  dsimp only
  -- part 31
  iapply (bind_rule c (part31_spec m K c _)) $$ [HS]
  · isplitr; · iexact HR
    iexact HS
  iintro %r HS
  obtain ⟨y31_0, y31_1, y31_2, y31_3⟩ := r
  dsimp only
  -- part 32
  iapply (bind_rule c (part32_spec m K c _ _ _ _)) $$ [HS]
  · isplitr; · iexact HR
    iexact HS
  iintro %r HS
  -- part 33
  iapply (bind_rule c (part33_spec m K c _ _ _ _)) $$ [HS]
  · isplitr; · iexact HR
    iexact HS
  iintro %r HS
  -- part 34
  iapply (bind_rule c (part34_spec m K c _ _ _ _)) $$ [HS]
  · isplitr; · iexact HR
    iexact HS
  iintro %r HS
  -- part 35
  iapply (bind_rule c (part35_spec m K c _ _ _ _)) $$ [HS]
  · isplitr; · iexact HR
    iexact HS
  iintro %r HS
  -- part 36
  iapply (bind_rule c (part36_spec m K c _ _ _ _)) $$ [HS]
  · isplitr; · iexact HR
    iexact HS
  iintro %r HS
  -- part 37
  iapply (bind_rule c (part37_spec m K c _ _ _ _)) $$ [HS]
  · isplitr; · iexact HR
    iexact HS
  iintro %r HS
  -- part 38
  iapply (bind_rule c (part38_spec m K c _ _ _ _)) $$ [HS]
  · isplitr; · iexact HR
    iexact HS
  iintro %r HS
  -- part 39
  iapply (bind_rule c (part39_spec m K c _ _ _ _)) $$ [HS]
  · isplitr; · iexact HR
    iexact HS
  iintro %r HS
  -- part 40
  iapply (bind_rule c (part40_spec m K c _ _)) $$ [HS]
  · isplitr; · iexact HR
    iexact HS
  iintro %r ⟨%hr, HS⟩
  subst hr
  dsimp only
  -- part 41
  iapply (bind_rule c (part41_spec m K c)) $$ [HS]
  · isplitr; · iexact HR
    iexact HS
  iintro %r HS
  -- part 42
  iapply (bind_rule c (part42_spec m K c)) $$ [HS]
  · isplitr; · iexact HR
    iexact HS
  iintro %r HS
  -- part 43
  iapply (bind_rule c (part43_spec m K c)) $$ [HS]
  · isplitr; · iexact HR
    iexact HS
  iintro %r HS
  -- part 44
  iapply (bind_rule c (part44_spec m K c)) $$ [HS]
  · isplitr; · iexact HR
    iexact HS
  iintro %r HS
  -- part 45
  iapply (bind_rule c (part45_spec m K c)) $$ [HS]
  · isplitr; · iexact HR
    iexact HS
  iintro %r HS
  -- part 46
  iapply (bind_rule c (part46_spec m K c)) $$ [HS]
  · isplitr; · iexact HR
    iexact HS
  iintro %r HS
  -- the last two send waits
  iapply (swait_step m K c (29 : Fin 31) (src := rowM c) (dst := rowM c) (rowM_dmaCredit c)) $$ [HS]
  · isplitr; · iexact HR
    iexact HS
  iintro HS
  iapply (swait_step m K c (30 : Fin 31) (src := rowM c) (dst := rowM c) (rowM_dmaCredit c)) $$ [HS]
  · isplitr; · iexact HR
    iexact HS
  iintro HS
  rw [wp_ret]; imodintro
  iapply Hk
  iapply (St_final m K c)
  isplitr; · iexact HR
  iexact HS

end Cert.Kernel.Coll

end
-- ==== Proof.Kernel.Launch.lean ====
/-
  The launch: the exchange's cells funded and their invariants allocated for all 32 devices at once, the duty tokens
  dealt to their payers, the launch credit counted, and the region's run from the body's run on every device.
-/
import proofs.«901062_g7700000000001063_dist_softmax_colshard_i_m2048_n1024_v7x_i32_f32_1_alg».proof.Proof.Kernel.Body
import proofs.«901062_g7700000000001063_dist_softmax_colshard_i_m2048_n1024_v7x_i32_f32_1_alg».proof.Proof.Gen.Kernel.Frame

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's two windows, and a whole staging buffer -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation from the body's run -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 100000 in
/-- The library's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ (bodyOn (F := F)) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The kernel's own semaphores, the cells, the tokens -/

/-- The kernel's own (scoped) semaphores: the 31 send semaphores, then the 31 receive semaphores. -/
abbrev osem : Fin 31 ⊕ Fin 31 → SemLoc sig := Sum.elim (fun k => .dma (sendS k)) (fun k => .dma (recvS k))

theorem ownSemFacts : Pipeline.OwnSemFacts cfg0.spec osem := by decide +kernel

theorem share_eq (c : Dev nD) (w : Fin cfg0.W) : (dats m 0 c).share w = fullShare := by unfold Dat.share; split <;> rfl

theorem csem_injective : Function.Injective (csem : Fin 63 → SemLoc sig) := by decide +kernel

theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def exCells : Finset (GSem nD τ sig) := Finset.univ.map ⟨kcell, kcell_injective⟩

/-! ## The 63 cells of one device as barrier, 31 send, 31 receive -/

/-- The barrier, the 31 send and the 31 receive positions, as the positions 0 .. 62. -/
def e63 : Unit ⊕ Fin 31 ⊕ Fin 31 ≃ Fin 63 where
  toFun x := match x with
    | .inl _ => barJ
    | .inr (.inl k) => sendJ k
    | .inr (.inr k) => recvJ k
  invFun j := if h : j.val = 0 then .inl () else if h2 : j.val < 32 then .inr (.inl ⟨j.val - 1, by omega⟩)
    else .inr (.inr ⟨j.val - 32, by have := j.isLt; omega⟩)
  left_inv x := by
    match x with
    | .inl u => simp [barJ]
    | .inr (.inl k) =>
      have hk := k.isLt
      have h0 : ¬ (sendJ k).val = 0 := by show ¬ k.val + 1 = 0; omega
      have h1 : (sendJ k).val < 32 := by show k.val + 1 < 32; omega
      show (if h : (sendJ k).val = 0 then _ else _) = _
      rw [dif_neg h0, dif_pos h1]
      exact congrArg (fun j => Sum.inr (Sum.inl j)) (Fin.ext (by show k.val + 1 - 1 = k.val; omega))
    | .inr (.inr k) =>
      have hk := k.isLt
      have h0 : ¬ (recvJ k).val = 0 := by show ¬ k.val + 32 = 0; omega
      have h1 : ¬ (recvJ k).val < 32 := by show ¬ k.val + 32 < 32; omega
      show (if h : (recvJ k).val = 0 then _ else _) = _
      rw [dif_neg h0, dif_neg h1]
      exact congrArg (fun j => Sum.inr (Sum.inr j)) (Fin.ext (by show k.val + 32 - 32 = k.val; omega))
  right_inv j := by
    have hj := j.isLt
    dsimp only
    by_cases h : j.val = 0
    · rw [dif_pos h]; exact Fin.ext (by show 0 = j.val; omega)
    · rw [dif_neg h]
      by_cases h2 : j.val < 32
      · rw [dif_pos h2]; exact Fin.ext (by show j.val - 1 + 1 = j.val; omega)
      · rw [dif_neg h2]; exact Fin.ext (by show j.val - 32 + 32 = j.val; omega)

/-- A bigSep over a device's 63 positions is the barrier's, the 31 send positions' and the 31 receive positions'. -/
theorem bigSep_fin63 (Φ : Fin 63 → sProp 𝕄) :
    bigSep Finset.univ Φ = iprop(Φ barJ ∗ (bigSep Finset.univ fun k : Fin 31 => Φ (sendJ k)) ∗ bigSep Finset.univ fun k : Fin 31 => Φ (recvJ k)) := by
  rw [bigSep_univ_equiv e63, bigSep_univ_sum, bigSep_univ_sum, bigSep_univ_of_subsingleton ()]
  rfl

/-- The same over the cells themselves. -/
theorem bigSep_cells (c : Dev nD) (Ψ : GSem nD τ sig → sProp 𝕄) :
    (bigSep Finset.univ fun j : Fin 63 => Ψ (kcell (c, j)))
      = iprop(Ψ (barCell c) ∗ (bigSep Finset.univ fun k : Fin 31 => Ψ (sendCell c k)) ∗ bigSep Finset.univ fun k : Fin 31 => Ψ (recvCell c k)) := by
  rw [bigSep_fin63, kcell_bar]
  simp only [kcell_send, kcell_recv]

/-! ## The tokens minted at launch -/

theorem sendS_injective : Function.Injective sendS := fun k k' h =>
  Fin.ext (by have := congrArg Fin.val h; simp only [sendS] at this; omega)
theorem recvS_injective : Function.Injective recvS := fun k k' h =>
  Fin.ext (by have := congrArg Fin.val h; simp only [recvS] at this; omega)
theorem sendS_ne_recvS (k k' : Fin 31) : sendS k ≠ recvS k' := fun h => by
  have := congrArg Fin.val h; simp only [sendS, recvS] at this
  have := k.isLt; omega

/-- A device's own cells' duty tokens as minted: its barrier's 31 duties, each send cell's one, each receive cell's one. -/
abbrev tokOf (cx : Dev nD × (Fin 31 ⊕ Fin 31 ⊕ Fin 31)) : GSem nD τ sig × ℕ × Fin 31 := match cx.2 with
  | .inl k => (barCell cx.1, 0, k)
  | .inr (.inl k) => (sendCell cx.1 k, 0, 0)
  | .inr (.inr k) => (recvCell cx.1 k, 0, 0)

theorem tokOf_injective : Function.Injective (tokOf : Dev nD × (Fin 31 ⊕ Fin 31 ⊕ Fin 31) → GSem nD τ sig × ℕ × Fin 31) := by
  rintro ⟨c, x⟩ ⟨c', x'⟩ h
  have h1 : c = c' := by
    have := congrArg (fun y : GSem nD τ sig × ℕ × Fin 31 => y.1.1.1) h
    rcases x with k | k | k <;> rcases x' with k' | k' | k' <;> exact this
  subst h1
  have hs : (tokOf (c, x)).1.2 = (tokOf (c, x')).1.2 := congrArg (fun y : GSem nD τ sig × ℕ × Fin 31 => y.1.2) h
  have hd : (tokOf (c, x)).2.2 = (tokOf (c, x')).2.2 := congrArg (fun y : GSem nD τ sig × ℕ × Fin 31 => y.2.2) h
  rcases x with k | k | k <;> rcases x' with k' | k' | k'
  · have : k = k' := hd
    rw [this]
  · exact absurd hs (fun e => by cases e)
  · exact absurd hs (fun e => by cases e)
  · exact absurd hs (fun e => by cases e)
  · have : sendS k = sendS k' := SemLoc.dma.inj hs
    rw [sendS_injective this]
  · exact absurd (SemLoc.dma.inj hs) (sendS_ne_recvS k k')
  · exact absurd hs (fun e => by cases e)
  · exact absurd (SemLoc.dma.inj hs).symm (sendS_ne_recvS k' k)
  · have : recvS k = recvS k' := SemLoc.dma.inj hs
    rw [recvS_injective this]

def exToks : Finset (GSem nD τ sig × ℕ × Fin 31) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop((bigSep Finset.univ fun k : Fin 31 => dutyTok ER (barCell c) 0 k)
    ∗ (bigSep Finset.univ fun k : Fin 31 => dutyTok ER (sendCell c k) 0 (0 : Fin 31))
    ∗ (bigSep Finset.univ fun k : Fin 31 => dutyTok ER (recvCell c k) 0 (0 : Fin 31)))

/-- What the launch deals device c. -/
def G (c : Dev nD) : sProp 𝕄 :=
  iprop((bigSep Finset.univ fun j : Fin 63 => roundState ER (Rd m) (kcell (c, j)) 0)
    ∗ (bigSep Finset.univ fun j : Fin 63 => iprop(atPos ER (kcell (c, j)) 0 ∅ 0 ∗ reached ER (kcell (c, j)) 0)) ∗ toks c)

/-- What the global step makes of it. -/
def G' (c : Dev nD) : sProp 𝕄 := iprop(∃ K, ghost m K c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun j : Fin 63 => Φ (kcell (c, j)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's semaphores at zero into the cells' invariants, the tokens to their payers -/

/-- The 62 own semaphores at zero are the 31 send cells and the 31 receive cells at zero; -/
theorem ownSems0_eq (c : Dev nD) : (Pipeline.ownSems0 (Ix := Unit) (Name := ℕ) (U := UU) (Lvl := ℕ) (Val := Elt F) (τ := τ) osem c : sProp 𝕄)
    = ownZero c := by
  unfold Pipeline.ownSems0 ownZero
  rw [bigSep_univ_sum]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 63 => semVal (kcell (c, j)) 0 : sProp 𝕄) := by
  have h := bigSep_cells (F := F) c (fun g => (semVal g 0 : sProp 𝕄))
  rw [ownSems0_eq, unscopedSems0_eq, h]
  unfold ownZero
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (Rd m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 63 => semVal (kcell (c, j)) 0) ∗ bigSep Finset.univ fun j : Fin 63 => roundState ER (Rd m) (kcell (c, j)) 0)
      ⊢ (|={Set.univ}=> bigSep Finset.univ fun j => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 63 → ℕ) (c : Dev nD) : iprop(records m K ∗ (positions c ∗ payToks c)) ⊢ G' m c := by
  unfold G' ghost
  iintro ⟨#HR, Hl⟩
  iexists K
  isplitr; · iexact HR
  iexact Hl

/-- Device c ↦ its k-th forward peer, a permutation of the devices. -/
def fwdE (k : Fin 31) : Dev nD ≃ Dev nD := ⟨fun c => fwd c k, fun c => bwd c k, fun c => bwd_fwd c k, fun c => fwd_bwd c k⟩

/-- A family over (device, k) summed over all devices and all k is the same family read at (k-th forward peer, k). -/
theorem around (a : Dev nD → Fin 31 → sProp 𝕄) :
    (bigSep Finset.univ fun c : Dev nD => bigSep Finset.univ fun k : Fin 31 => a c k)
      = bigSep Finset.univ fun c : Dev nD => bigSep Finset.univ fun k : Fin 31 => a (fwd c k) k :=
  (bigSep_univ_comm (fun c k => a c k)).trans
    ((bigSep_congr fun k _ => bigSep_univ_equiv (fwdE k) (fun c => a c k)).trans
      (bigSep_univ_comm (fun c k => a (fwd c k) k)).symm)

/-- The tokens dealt around: a device's barrier token k and receive-cell-k token go to its k-th backward peer, which pays
    them; its send tokens stay. -/
theorem toks_around : (bigSep Finset.univ fun c : Dev nD => (toks c : sProp 𝕄)) ⊢ bigSep Finset.univ fun c : Dev nD => payToks c := by
  unfold toks payToks
  simp only [bigSep_sep']
  rw [around (fun c k => (dutyTok ER (barCell c) 0 k : sProp 𝕄)),
    around (fun c k => (dutyTok ER (recvCell c k) 0 (0 : Fin 31) : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (Rd m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 63 => iprop(∃ κ : ℕ, cellInv ER (Rd m) κ (kcell ck))),
    bigSep_congr (s := Finset.univ) (fun (c : Dev nD) _ => bigSep_sep' Finset.univ (fun j : Fin 63 => (atPos ER (kcell (c, j)) 0 ∅ 0 : sProp 𝕄)) (fun j => reached ER (kcell (c, j)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 63 => (atPos ER (kcell (c, j)) 0 ∅ 0 : sProp 𝕄)) payToks).symm).trans
      (bigSep_mono fun c _ => show _ ⊢ iprop(positions c ∗ payToks c) from Entails.of_eq (by
        unfold positions
        rw [bigSep_cells (F := F) c (fun g => (atPos ER g 0 ∅ 0 : sProp 𝕄))])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k k' : Fin 31} : Iff (recvCell a k = recvCell b k') (a = b ∧ k = k') :=
  ⟨fun h => ⟨Fin.ext (congrArg (fun g : GSem nD τ sig => g.1.1.val) h), recvS_injective (SemLoc.dma.inj (congrArg Prod.snd h))⟩,
    fun h => by rw [h.1, h.2]⟩

theorem fwd_eq_iff (d c : Dev nD) (k : Fin 31) : Iff (fwd d k = c) (d = bwd c k) :=
  ⟨fun h => by rw [← h, bwd_fwd], fun h => by rw [h, fwd_bwd]⟩

/-- Exactly one device has c as its k-th forward peer. -/
theorem sum_fwd_eq (c : Dev nD) (k : Fin 31) (n : ℕ) : (∑ d : Dev nD, if fwd d k = c then n else 0) = n := by
  rw [Finset.sum_congr rfl fun d _ => if_congr (fwd_eq_iff d c k) rfl rfl, Finset.sum_ite_eq' Finset.univ (bwd c k) fun _ => n,
    if_pos (Finset.mem_univ _)]

/-- What device d owes device c's barrier cell: a unit for each k with c its k-th forward peer. -/
theorem owed_bar (d c : Dev nD) : O₀ d (barCell c) () = ∑ k : Fin 31, if fwd d k = c then 1 else 0 := by
  unfold O₀ Oat
  rw [ge_zero, Pi.add_apply, Finsupp.add_apply, Finset.sum_apply, Finset.sum_apply, Finsupp.finset_sum_apply, Finsupp.finset_sum_apply,
    Finset.sum_eq_zero (s := Finset.univ) (f := fun k : Fin 31 => tallyAt (recvCell (fwd d k) k) () N (barCell c) ())
      (fun k _ => by rw [tallyAt_ne_cell (fun h => dma_ne_bar _ (congrArg Prod.snd h).symm), Finsupp.zero_apply]), Nat.zero_add]
  refine Finset.sum_congr rfl fun k _ => ?_
  rw [tallyAt_apply]
  by_cases h : fwd d k = c
  · rw [if_pos ⟨by rw [h], rfl⟩, if_pos h]
  · rw [if_neg (fun h' => h (bar_eq_iff.mp h'.1).symm), if_neg h]

/-- What device d owes device c's k-th receive cell: the copy's credit if c is its k-th forward peer. -/
theorem owed_recv (d c : Dev nD) (k : Fin 31) : O₀ d (recvCell c k) () = if fwd d k = c then N else 0 := by
  unfold O₀ Oat
  rw [ge_zero, Pi.add_apply, Finsupp.add_apply, Finset.sum_apply, Finset.sum_apply, Finsupp.finset_sum_apply, Finsupp.finset_sum_apply,
    Finset.sum_eq_zero (s := Finset.univ) (f := fun k' : Fin 31 => tallyAt (barCell (fwd d k')) () 1 (recvCell c k) ())
      (fun k' _ => by rw [tallyAt_ne_cell (fun h => dma_ne_bar _ (congrArg Prod.snd h)), Finsupp.zero_apply]), Nat.add_zero,
    Finset.sum_eq_single k]
  · rw [tallyAt_apply]
    by_cases h : fwd d k = c
    · rw [if_pos ⟨by rw [h], rfl⟩, if_pos h]
    · rw [if_neg (fun h' => h (recv_eq_iff.mp h'.1).1.symm), if_neg h]
  · intro k' _ hk'
    rw [tallyAt_apply, if_neg (fun h' => hk' (recv_eq_iff.mp h'.1).2.symm)]
  · intro h; exact absurd (Finset.mem_univ k) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => sum_fwd_eq c k 1, Finset.sum_const, Finset.card_univ, Fintype.card_fin, smul_eq_mul, mul_one]

theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, sum_fwd_eq]

theorem recvLoc_injective : Function.Injective (fun k : Fin 31 => (SemLoc.dma (recvS k) : SemLoc sig)) :=
  fun k k' h => recvS_injective (SemLoc.dma.inj h)

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map ⟨fun k : Fin 31 => (SemLoc.dma (recvS k) : SemLoc sig), recvLoc_injective⟩) (fun sm h => by
    obtain ⟨k, _, rfl⟩ := Finset.mem_map.mp h
    exact Finset.mem_erase.mpr ⟨dma_ne_bar _, Finset.mem_univ _⟩)).trans ?_
  rw [bigSep_map]
  exact bigSep_mono fun k _ => Entails.of_eq (congrArg cred (launch_recv c k))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every weakly fair execution of @main on the 32 devices terminates without a
    fault, and every final state has each window's array at what the pipeline's write-backs leave in it. -/
theorem run_windows : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array after the run holds the device's result block: its one block, the whole array, is what the body
    left in the staging buffer. -/
theorem finalA_o (c : Dev nD) : finalA m c (1 : Fin 2) = outAt m c := by
  have ho : ((cfg0.win (1 : Fin 2)).blk t₀).view.read (Elt F) (finalA m c (1 : Fin 2)) = (dats m 0 c).flushed (1 : Fin 2) t₀ := by
    unfold finalA
    rw [show cfg0.N = (t₀ : Fin cfg0.N).val + 1 from rfl, (dats m 0 c).arrAt_succ (1 : Fin 2) t₀, if_pos (flush0_1 t₀)]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at ho
  exact ho

/-- From any memory with zero counters every weakly fair execution of @main on the 32 devices terminates without a
    fault, each device's result array holding its result block and its argument array unchanged. -/
theorem run_main : θ_run defs (onTc (τ := τ) (main (F := F))) ⟨m, fun _ => 0, ρ⟩ (fun r => ∀ c : Dev nD,
    r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_o m c), (h c (0 : Fin 2)).trans (finalA_x m c)⟩) (run_windows m ρ)

end Cert.Kernel.Coll

end
-- ==== Proof.lean ====
/-
  A softmax over rows of 32768 entries whose columns are cut over 32 devices, 1024 columns a device.

  Each device reduces every row of its block to a pair: the block's maximum and the block's sum of exp (entry - that
  maximum), computed over four tiles of 256 columns with the running rescaling exp (old maximum - new maximum). The
  devices exchange the pairs all to all: every device signals the barrier semaphore of its 31 peers, waits for the 31
  signals it is owed (so every peer is inside the kernel and has handed over the row it will be written in), copies its
  own row of pairs into the same row of each peer's scratch, and waits for the 31 copies addressed to it. It then takes
  the maximum M of the 32 maxima and the sum S of the 32 sums each rescaled by exp (its maximum - M), and writes
  exp (entry - M) * (1 / S).

  Over the reals with finite entries the tiled pairs are the block's maximum and its sum of exp (entry - maximum),
  M is the whole row's maximum, S the whole row's sum of exp (entry - M), and multiplying by 1 / S is dividing by S:
  the reference's softmax, block by block. The frames: every wait is for duties its payers owe from launch and that lie
  strictly above what the waiter still owes (barrier cells below receive cells), so every fair run terminates; the
  source row of the 31 copies is lent out by shares, so reading it while the copies are in flight is no race; the
  arguments are only read.
-/
import proofs.«901062_g7700000000001063_dist_softmax_colshard_i_m2048_n1024_v7x_i32_f32_1_alg».proof.Defs
import proofs.«901062_g7700000000001063_dist_softmax_colshard_i_m2048_n1024_v7x_i32_f32_1_alg».proof.Proof.Claims
import proofs.«901062_g7700000000001063_dist_softmax_colshard_i_m2048_n1024_v7x_i32_f32_1_alg».proof.Proof.Kernel.Launch
import proofs.«901062_g7700000000001063_dist_softmax_colshard_i_m2048_n1024_v7x_i32_f32_1_alg».proof.Proof.Gen.Kernel
import proofs.«901062_g7700000000001063_dist_softmax_colshard_i_m2048_n1024_v7x_i32_f32_1_alg».proof.Proof.Gen.KernelIdeal
import proofs.«901062_g7700000000001063_dist_softmax_colshard_i_m2048_n1024_v7x_i32_f32_1_alg».proof.Proof.Gen.ReferenceIdeal
import proofs.«901062_g7700000000001063_dist_softmax_colshard_i_m2048_n1024_v7x_i32_f32_1_alg».proof.Proof.Gen.Pre_finite_inputs_Kernel
import proofs.«901062_g7700000000001063_dist_softmax_colshard_i_m2048_n1024_v7x_i32_f32_1_alg».proof.Proof.Gen.Pre_finite_inputs_ReferenceIdeal
import Idealize.ShloMosaic.Adequacy
import Idealize.ShloMosaic.Init

noncomputable section

namespace Cert.Proof

open Idealize.ShloMosaic Idealize.SL.Sem

/-- The word-level kernel runs to the end on every device without a fault and leaves its argument blocks unchanged. -/
theorem frame_p : @Cert.frame_Kernel Cert.Kernel.Gen.facts Cert.Pre_finite_inputs_Kernel.Gen.facts := fun m ρ _ =>
  (θ_run Cert.Kernel.defs _ _).mono (fun _ h c => (h c).2) (Cert.Kernel.Coll.run_main (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, Cert.Proof.Claims.frame_pi, Cert.Proof.Claims.frame_ri, Cert.Proof.Claims.preserves, Cert.Proof.Claims.algebraic⟩

end Cert.Proof

end
